-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x20 : Shape := ⟨3, ![8, 8192, 20]⟩
abbrev S2000000x128 : Shape := ⟨2, ![2000000, 128]⟩
abbrev S9 : Shape := ⟨1, ![9]⟩
abbrev S8 : Shape := ⟨1, ![8]⟩
abbrev S8x1x1 : Shape := ⟨3, ![8, 1, 1]⟩
abbrev S_ : Shape := ⟨0, ![]⟩

class Facts : Prop where
  slices_S9_S8_0 : S9.Slices ![0] S8
  bcast_S8_S8x1x1_0 : S8.BroadcastsInDim S8x1x1 (![0] : Fin 1 → Fin S8x1x1.rank)
  bcast_S8x1x1_S8x8192x20_0_1_2 : S8x1x1.BroadcastsInDim S8x8192x20 (![0, 1, 2] : Fin 3 → Fin S8x8192x20.rank)
  bcast_S_S2000000x128 : S_.BroadcastsInDim S2000000x128 (![] : Fin 0 → Fin S2000000x128.rank)
  reducesTo_S2000000x128_S_d0_1 : S2000000x128.ReducesTo [0, 1] S_
  h_S_ : 0 < S_.numel
  bcast_S_S8x8192x20 : S_.BroadcastsInDim S8x8192x20 (![] : Fin 0 → Fin S8x8192x20.rank)
  reducesTo_S8x8192x20_S_d0_1_2 : S8x8192x20.ReducesTo [0, 1, 2] S_

variable [Facts]

def fn {F : FTy → Type} [FloatOps F] (main_arg0 : IVec S8x8192x20 32) (main_arg1 : FVec F S2000000x128 .f32) (main_arg2 : IVec S9 32) : IVec S_ 1 :=
  let main_v0 : IVec S8 32 := (extractStridedSlice S8 ![0] · slices_S9_S8_0) main_arg2
  let main_v1 : IVec S8x1x1 32 := broadcastInDim S8x1x1 ![0] bcast_S8_S8x1x1_0 main_v0
  let main_v2 : IVec S8x8192x20 32 := broadcastInDim S8x8192x20 ![0, 1, 2] bcast_S8x1x1_S8x8192x20_0_1_2 main_v1
  let main_v3 : IVec S8x8192x20 32 := addi main_arg0 main_v2
  let main_v4 : FVec F S2000000x128 .f32 := Host.absf main_arg1
  let main_cst : FVec F S_ .f32 := constant S_ .f32 0x7F800000#32
  let main_v5 : FVec F S2000000x128 .f32 := broadcastInDim S2000000x128 ![] bcast_S_S2000000x128 main_cst
  let main_v6 : IVec S2000000x128 1 := cmpf .olt main_v4 main_v5
  let main_c : IVec S_ 1 := constantI S_ 1 1#1
  let main_v7 : IVec S_ 1 := (fun x v => Host.reduce IntOp.andi x v reducesTo_S2000000x128_S_d0_1 h_S_) main_v6 main_c
  let main_c_0 : IVec S_ 32 := constantI S_ 32 0#32
  let main_v8 : IVec S8x8192x20 32 := broadcastInDim S8x8192x20 ![] bcast_S_S8x8192x20 main_c_0
  let main_v9 : IVec S8x8192x20 1 := cmpi .sge main_v3 main_v8
  let main_c_1 : IVec S_ 32 := constantI S_ 32 2000000#32
  let main_v10 : IVec S8x8192x20 32 := broadcastInDim S8x8192x20 ![] bcast_S_S8x8192x20 main_c_1
  let main_v11 : IVec S8x8192x20 1 := cmpi .slt main_v3 main_v10
  let main_v12 : IVec S8x8192x20 1 := andi main_v9 main_v11
  let main_c_2 : IVec S_ 1 := constantI S_ 1 1#1
  let main_v13 : IVec S_ 1 := (fun x v => Host.reduce IntOp.andi x v reducesTo_S8x8192x20_S_d0_1_2 h_S_) main_v12 main_c_2
  let main_v14 : IVec S_ 1 := andi main_v7 main_v13
  main_v14
-- ==== Kernel.lean ====
abbrev S8x8192x20 : Shape := ⟨3, ![8, 8192, 20]⟩
abbrev S2000000x128 : Shape := ⟨2, ![2000000, 128]⟩
abbrev S9 : Shape := ⟨1, ![9]⟩
abbrev S8192x1024 : Shape := ⟨2, ![8192, 1024]⟩
abbrev S1x256x20 : Shape := ⟨3, ![1, 256, 20]⟩
abbrev S256x128 : Shape := ⟨2, ![256, 128]⟩
abbrev S2x128 : Shape := ⟨2, ![2, 128]⟩
abbrev S2 : Shape := ⟨1, ![2]⟩
abbrev S8x128 : Shape := ⟨2, ![8, 128]⟩
abbrev S1 : Shape := ⟨1, ![1]⟩
abbrev S1x1x1 : Shape := ⟨3, ![1, 1, 1]⟩
abbrev S_ : Shape := ⟨0, ![]⟩
abbrev S1x128 : Shape := ⟨2, ![1, 128]⟩
abbrev S128 : Shape := ⟨1, ![128]⟩

abbrev nBuf : Space → Nat
  | .hbm => 3
  | .vmem => 4
  | .smem => 3
  | _ => 0

abbrev bufTy : (tb : Table) → Fin (tcTables nBuf tb) → BufTy
  | .hbm, ⟨0, _⟩ => ⟨S8x8192x20, .i32⟩
  | .hbm, ⟨1, _⟩ => ⟨S2000000x128, .f32⟩
  | .hbm, ⟨2, _⟩ => ⟨S8192x1024, .f32⟩
  | .local _ .vmem, ⟨0, _⟩ => ⟨S256x128, .f32⟩
  | .local _ .vmem, ⟨1, _⟩ => ⟨S256x128, .f32⟩
  | .local _ .vmem, ⟨2, _⟩ => ⟨S2x128, .f32⟩
  | .local _ .vmem, ⟨3, _⟩ => ⟨S8x128, .f32⟩
  | .local _ .smem, ⟨0, _⟩ => ⟨S9, .i32⟩
  | .local _ .smem, ⟨1, _⟩ => ⟨S1x256x20, .i32⟩
  | .local _ .smem, ⟨2, _⟩ => ⟨S1x256x20, .i32⟩
  | _, _ => ⟨S8x8192x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc0_scratch2 : Ref sig .tc := ⟨.vmem, 3, rfl⟩
abbrev cc0_stg0_0 : Ref sig .tc := ⟨.smem, 1, rfl⟩
abbrev cc0_stg0_1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 32], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c32_i32 : BitVec 32 := 32#32
  let v2 : BitVec 32 := Scalar.addi c0_i32 c32_i32
  let c1_i32 : BitVec 32 := 1#32
  ⟨c0_i32, v2, c1_i32⟩
def k0_off2 (k0_t1 : Fin k0_t1_loop.trips) : Fin 3 → Nat :=
  let c0_5 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_4 : BitVec 32 := 0#32
  let v10 : BitVec 32 := Scalar.addi v5 c0_i32_4
  let v11 : Index := Scalar.indexCast v10
  let c0_6 : Index := 0#32
  ![0, v11.toNat, 0]
def k0_off3 (v1 : BitVec 32) (v12 : BitVec 32) : Fin 2 → Nat :=
  let v13 : BitVec 32 := Scalar.addi v1 v12
  let c0_i32_10 : BitVec 32 := 0#32
  ![v13.toNat, 0]

def k0_chk1 (v1 : BitVec 32) (v12 : BitVec 32) : Prop :=
  (∀ a, (k0_off3 v1 v12) a + S1x128.size a ≤ S2000000x128.size a)
instance k0_chk1.dec : ∀ (v1 : BitVec 32) (v12 : BitVec 32), Decidable (k0_chk1 v1 v12) := fun v1 v12 => decidable_of_iff' _ (Iff.of_eq (k0_chk1.eq_1 v1 v12))
theorem k0_off3_inb : ∀ (v1 : BitVec 32) (v12 : BitVec 32) (k0_hw1 : k0_chk1 v1 v12), ∀ a, (k0_off3 v1 v12) a + S1x128.size a ≤ S2000000x128.size a := fun v1 v12 k0_hw1 => k0_hw1

def k0_off4 (k0_t1 : Fin k0_t1_loop.trips) : Fin 3 → Nat :=
  let c0_17 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_16 : BitVec 32 := 0#32
  let v26 : BitVec 32 := Scalar.addi v5 c0_i32_16
  let v27 : Index := Scalar.indexCast v26
  let c1 : Index := 1#32
  ![0, v27.toNat, 1]
def k0_off5 (v1 : BitVec 32) (v28 : BitVec 32) : Fin 2 → Nat :=
  let v29 : BitVec 32 := Scalar.addi v1 v28
  let c0_i32_21 : BitVec 32 := 0#32
  ![v29.toNat, 0]

def k0_chk2 (v1 : BitVec 32) (v28 : BitVec 32) : Prop :=
  (∀ a, (k0_off5 v1 v28) a + S1x128.size a ≤ S2000000x128.size a)
instance k0_chk2.dec : ∀ (v1 : BitVec 32) (v28 : BitVec 32), Decidable (k0_chk2 v1 v28) := fun v1 v28 => decidable_of_iff' _ (Iff.of_eq (k0_chk2.eq_1 v1 v28))
theorem k0_off5_inb : ∀ (v1 : BitVec 32) (v28 : BitVec 32) (k0_hw2 : k0_chk2 v1 v28), ∀ a, (k0_off5 v1 v28) a + S1x128.size a ≤ S2000000x128.size a := fun v1 v28 k0_hw2 => k0_hw2

def k0_off6 (k0_t1 : Fin k0_t1_loop.trips) : Fin 3 → Nat :=
  let c0_34 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_33 : BitVec 32 := 0#32
  let v48 : BitVec 32 := Scalar.addi v5 c0_i32_33
  let v49 : Index := Scalar.indexCast v48
  let c2 : Index := 2#32
  ![0, v49.toNat, 2]
def k0_off7 (v1 : BitVec 32) (v50 : BitVec 32) : Fin 2 → Nat :=
  let v51 : BitVec 32 := Scalar.addi v1 v50
  let c0_i32_38 : BitVec 32 := 0#32
  ![v51.toNat, 0]

def k0_chk3 (v1 : BitVec 32) (v50 : BitVec 32) : Prop :=
  (∀ a, (k0_off7 v1 v50) a + S1x128.size a ≤ S2000000x128.size a)
instance k0_chk3.dec : ∀ (v1 : BitVec 32) (v50 : BitVec 32), Decidable (k0_chk3 v1 v50) := fun v1 v50 => decidable_of_iff' _ (Iff.of_eq (k0_chk3.eq_1 v1 v50))
theorem k0_off7_inb : ∀ (v1 : BitVec 32) (v50 : BitVec 32) (k0_hw3 : k0_chk3 v1 v50), ∀ a, (k0_off7 v1 v50) a + S1x128.size a ≤ S2000000x128.size a := fun v1 v50 k0_hw3 => k0_hw3

def k0_off8 (k0_t1 : Fin k0_t1_loop.trips) : Fin 3 → Nat :=
  let c0_51 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_50 : BitVec 32 := 0#32
  let v70 : BitVec 32 := Scalar.addi v5 c0_i32_50
  let v71 : Index := Scalar.indexCast v70
  let c3 : Index := 3#32
  ![0, v71.toNat, 3]
def k0_off9 (v1 : BitVec 32) (v72 : BitVec 32) : Fin 2 → Nat :=
  let v73 : BitVec 32 := Scalar.addi v1 v72
  let c0_i32_55 : BitVec 32 := 0#32
  ![v73.toNat, 0]

def k0_chk4 (v1 : BitVec 32) (v72 : BitVec 32) : Prop :=
  (∀ a, (k0_off9 v1 v72) a + S1x128.size a ≤ S2000000x128.size a)
instance k0_chk4.dec : ∀ (v1 : BitVec 32) (v72 : BitVec 32), Decidable (k0_chk4 v1 v72) := fun v1 v72 => decidable_of_iff' _ (Iff.of_eq (k0_chk4.eq_1 v1 v72))
theorem k0_off9_inb : ∀ (v1 : BitVec 32) (v72 : BitVec 32) (k0_hw4 : k0_chk4 v1 v72), ∀ a, (k0_off9 v1 v72) a + S1x128.size a ≤ S2000000x128.size a := fun v1 v72 k0_hw4 => k0_hw4

def k0_off10 (k0_t1 : Fin k0_t1_loop.trips) : Fin 3 → Nat :=
  let c0_68 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_67 : BitVec 32 := 0#32
  let v92 : BitVec 32 := Scalar.addi v5 c0_i32_67
  let v93 : Index := Scalar.indexCast v92
  let c4 : Index := 4#32
  ![0, v93.toNat, 4]
def k0_off11 (v1 : BitVec 32) (v94 : BitVec 32) : Fin 2 → Nat :=
  let v95 : BitVec 32 := Scalar.addi v1 v94
  let c0_i32_72 : BitVec 32 := 0#32
  ![v95.toNat, 0]

def k0_chk5 (v1 : BitVec 32) (v94 : BitVec 32) : Prop :=
  (∀ a, (k0_off11 v1 v94) a + S1x128.size a ≤ S2000000x128.size a)
instance k0_chk5.dec : ∀ (v1 : BitVec 32) (v94 : BitVec 32), Decidable (k0_chk5 v1 v94) := fun v1 v94 => decidable_of_iff' _ (Iff.of_eq (k0_chk5.eq_1 v1 v94))
theorem k0_off11_inb : ∀ (v1 : BitVec 32) (v94 : BitVec 32) (k0_hw5 : k0_chk5 v1 v94), ∀ a, (k0_off11 v1 v94) a + S1x128.size a ≤ S2000000x128.size a := fun v1 v94 k0_hw5 => k0_hw5

def k0_off12 (k0_t1 : Fin k0_t1_loop.trips) : Fin 3 → Nat :=
  let c0_85 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_84 : BitVec 32 := 0#32
  let v114 : BitVec 32 := Scalar.addi v5 c0_i32_84
  let v115 : Index := Scalar.indexCast v114
  let c5 : Index := 5#32
  ![0, v115.toNat, 5]
def k0_off13 (v1 : BitVec 32) (v116 : BitVec 32) : Fin 2 → Nat :=
  let v117 : BitVec 32 := Scalar.addi v1 v116
  let c0_i32_89 : BitVec 32 := 0#32
  ![v117.toNat, 0]

def k0_chk6 (v1 : BitVec 32) (v116 : BitVec 32) : Prop :=
  (∀ a, (k0_off13 v1 v116) a + S1x128.size a ≤ S2000000x128.size a)
instance k0_chk6.dec : ∀ (v1 : BitVec 32) (v116 : BitVec 32), Decidable (k0_chk6 v1 v116) := fun v1 v116 => decidable_of_iff' _ (Iff.of_eq (k0_chk6.eq_1 v1 v116))
theorem k0_off13_inb : ∀ (v1 : BitVec 32) (v116 : BitVec 32) (k0_hw6 : k0_chk6 v1 v116), ∀ a, (k0_off13 v1 v116) a + S1x128.size a ≤ S2000000x128.size a := fun v1 v116 k0_hw6 => k0_hw6

def k0_off14 (k0_t1 : Fin k0_t1_loop.trips) : Fin 3 → Nat :=
  let c0_102 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_101 : BitVec 32 := 0#32
  let v136 : BitVec 32 := Scalar.addi v5 c0_i32_101
  let v137 : Index := Scalar.indexCast v136
  let c6 : Index := 6#32
  ![0, v137.toNat, 6]
def k0_off15 (v1 : BitVec 32) (v138 : BitVec 32) : Fin 2 → Nat :=
  let v139 : BitVec 32 := Scalar.addi v1 v138
  let c0_i32_106 : BitVec 32 := 0#32
  ![v139.toNat, 0]

def k0_chk7 (v1 : BitVec 32) (v138 : BitVec 32) : Prop :=
  (∀ a, (k0_off15 v1 v138) a + S1x128.size a ≤ S2000000x128.size a)
instance k0_chk7.dec : ∀ (v1 : BitVec 32) (v138 : BitVec 32), Decidable (k0_chk7 v1 v138) := fun v1 v138 => decidable_of_iff' _ (Iff.of_eq (k0_chk7.eq_1 v1 v138))
theorem k0_off15_inb : ∀ (v1 : BitVec 32) (v138 : BitVec 32) (k0_hw7 : k0_chk7 v1 v138), ∀ a, (k0_off15 v1 v138) a + S1x128.size a ≤ S2000000x128.size a := fun v1 v138 k0_hw7 => k0_hw7

def k0_off16 (k0_t1 : Fin k0_t1_loop.trips) : Fin 3 → Nat :=
  let c0_119 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_118 : BitVec 32 := 0#32
  let v158 : BitVec 32 := Scalar.addi v5 c0_i32_118
  let v159 : Index := Scalar.indexCast v158
  let c7 : Index := 7#32
  ![0, v159.toNat, 7]
def k0_off17 (v1 : BitVec 32) (v160 : BitVec 32) : Fin 2 → Nat :=
  let v161 : BitVec 32 := Scalar.addi v1 v160
  let c0_i32_123 : BitVec 32 := 0#32
  ![v161.toNat, 0]

def k0_chk8 (v1 : BitVec 32) (v160 : BitVec 32) : Prop :=
  (∀ a, (k0_off17 v1 v160) a + S1x128.size a ≤ S2000000x128.size a)
instance k0_chk8.dec : ∀ (v1 : BitVec 32) (v160 : BitVec 32), Decidable (k0_chk8 v1 v160) := fun v1 v160 => decidable_of_iff' _ (Iff.of_eq (k0_chk8.eq_1 v1 v160))
theorem k0_off17_inb : ∀ (v1 : BitVec 32) (v160 : BitVec 32) (k0_hw8 : k0_chk8 v1 v160), ∀ a, (k0_off17 v1 v160) a + S1x128.size a ≤ S2000000x128.size a := fun v1 v160 k0_hw8 => k0_hw8

def k0_off18 (k0_t1 : Fin k0_t1_loop.trips) : Fin 3 → Nat :=
  let c0_136 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_135 : BitVec 32 := 0#32
  let v180 : BitVec 32 := Scalar.addi v5 c0_i32_135
  let v181 : Index := Scalar.indexCast v180
  let c8 : Index := 8#32
  ![0, v181.toNat, 8]
def k0_off19 (v1 : BitVec 32) (v182 : BitVec 32) : Fin 2 → Nat :=
  let v183 : BitVec 32 := Scalar.addi v1 v182
  let c0_i32_140 : BitVec 32 := 0#32
  ![v183.toNat, 0]

def k0_chk9 (v1 : BitVec 32) (v182 : BitVec 32) : Prop :=
  (∀ a, (k0_off19 v1 v182) a + S1x128.size a ≤ S2000000x128.size a)
instance k0_chk9.dec : ∀ (v1 : BitVec 32) (v182 : BitVec 32), Decidable (k0_chk9 v1 v182) := fun v1 v182 => decidable_of_iff' _ (Iff.of_eq (k0_chk9.eq_1 v1 v182))
theorem k0_off19_inb : ∀ (v1 : BitVec 32) (v182 : BitVec 32) (k0_hw9 : k0_chk9 v1 v182), ∀ a, (k0_off19 v1 v182) a + S1x128.size a ≤ S2000000x128.size a := fun v1 v182 k0_hw9 => k0_hw9

def k0_off20 (k0_t1 : Fin k0_t1_loop.trips) : Fin 3 → Nat :=
  let c0_153 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_152 : BitVec 32 := 0#32
  let v202 : BitVec 32 := Scalar.addi v5 c0_i32_152
  let v203 : Index := Scalar.indexCast v202
  let c9 : Index := 9#32
  ![0, v203.toNat, 9]
def k0_off21 (v1 : BitVec 32) (v204 : BitVec 32) : Fin 2 → Nat :=
  let v205 : BitVec 32 := Scalar.addi v1 v204
  let c0_i32_157 : BitVec 32 := 0#32
  ![v205.toNat, 0]

def k0_chk10 (v1 : BitVec 32) (v204 : BitVec 32) : Prop :=
  (∀ a, (k0_off21 v1 v204) a + S1x128.size a ≤ S2000000x128.size a)
instance k0_chk10.dec : ∀ (v1 : BitVec 32) (v204 : BitVec 32), Decidable (k0_chk10 v1 v204) := fun v1 v204 => decidable_of_iff' _ (Iff.of_eq (k0_chk10.eq_1 v1 v204))
theorem k0_off21_inb : ∀ (v1 : BitVec 32) (v204 : BitVec 32) (k0_hw10 : k0_chk10 v1 v204), ∀ a, (k0_off21 v1 v204) a + S1x128.size a ≤ S2000000x128.size a := fun v1 v204 k0_hw10 => k0_hw10

def k0_off22 (k0_t1 : Fin k0_t1_loop.trips) : Fin 3 → Nat :=
  let c0_170 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_169 : BitVec 32 := 0#32
  let v224 : BitVec 32 := Scalar.addi v5 c0_i32_169
  let v225 : Index := Scalar.indexCast v224
  let c10 : Index := 10#32
  ![0, v225.toNat, 10]
def k0_off23 (v1 : BitVec 32) (v226 : BitVec 32) : Fin 2 → Nat :=
  let v227 : BitVec 32 := Scalar.addi v1 v226
  let c0_i32_174 : BitVec 32 := 0#32
  ![v227.toNat, 0]

def k0_chk11 (v1 : BitVec 32) (v226 : BitVec 32) : Prop :=
  (∀ a, (k0_off23 v1 v226) a + S1x128.size a ≤ S2000000x128.size a)
instance k0_chk11.dec : ∀ (v1 : BitVec 32) (v226 : BitVec 32), Decidable (k0_chk11 v1 v226) := fun v1 v226 => decidable_of_iff' _ (Iff.of_eq (k0_chk11.eq_1 v1 v226))
theorem k0_off23_inb : ∀ (v1 : BitVec 32) (v226 : BitVec 32) (k0_hw11 : k0_chk11 v1 v226), ∀ a, (k0_off23 v1 v226) a + S1x128.size a ≤ S2000000x128.size a := fun v1 v226 k0_hw11 => k0_hw11

def k0_off24 (k0_t1 : Fin k0_t1_loop.trips) : Fin 3 → Nat :=
  let c0_187 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_186 : BitVec 32 := 0#32
  let v246 : BitVec 32 := Scalar.addi v5 c0_i32_186
  let v247 : Index := Scalar.indexCast v246
  let c11 : Index := 11#32
  ![0, v247.toNat, 11]
def k0_off25 (v1 : BitVec 32) (v248 : BitVec 32) : Fin 2 → Nat :=
  let v249 : BitVec 32 := Scalar.addi v1 v248
  let c0_i32_191 : BitVec 32 := 0#32
  ![v249.toNat, 0]

def k0_chk12 (v1 : BitVec 32) (v248 : BitVec 32) : Prop :=
  (∀ a, (k0_off25 v1 v248) a + S1x128.size a ≤ S2000000x128.size a)
instance k0_chk12.dec : ∀ (v1 : BitVec 32) (v248 : BitVec 32), Decidable (k0_chk12 v1 v248) := fun v1 v248 => decidable_of_iff' _ (Iff.of_eq (k0_chk12.eq_1 v1 v248))
theorem k0_off25_inb : ∀ (v1 : BitVec 32) (v248 : BitVec 32) (k0_hw12 : k0_chk12 v1 v248), ∀ a, (k0_off25 v1 v248) a + S1x128.size a ≤ S2000000x128.size a := fun v1 v248 k0_hw12 => k0_hw12

def k0_off26 (k0_t1 : Fin k0_t1_loop.trips) : Fin 3 → Nat :=
  let c0_204 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_203 : BitVec 32 := 0#32
  let v268 : BitVec 32 := Scalar.addi v5 c0_i32_203
  let v269 : Index := Scalar.indexCast v268
  let c12 : Index := 12#32
  ![0, v269.toNat, 12]
def k0_off27 (v1 : BitVec 32) (v270 : BitVec 32) : Fin 2 → Nat :=
  let v271 : BitVec 32 := Scalar.addi v1 v270
  let c0_i32_208 : BitVec 32 := 0#32
  ![v271.toNat, 0]

def k0_chk13 (v1 : BitVec 32) (v270 : BitVec 32) : Prop :=
  (∀ a, (k0_off27 v1 v270) a + S1x128.size a ≤ S2000000x128.size a)
instance k0_chk13.dec : ∀ (v1 : BitVec 32) (v270 : BitVec 32), Decidable (k0_chk13 v1 v270) := fun v1 v270 => decidable_of_iff' _ (Iff.of_eq (k0_chk13.eq_1 v1 v270))
theorem k0_off27_inb : ∀ (v1 : BitVec 32) (v270 : BitVec 32) (k0_hw13 : k0_chk13 v1 v270), ∀ a, (k0_off27 v1 v270) a + S1x128.size a ≤ S2000000x128.size a := fun v1 v270 k0_hw13 => k0_hw13

def k0_off28 (k0_t1 : Fin k0_t1_loop.trips) : Fin 3 → Nat :=
  let c0_221 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_220 : BitVec 32 := 0#32
  let v290 : BitVec 32 := Scalar.addi v5 c0_i32_220
  let v291 : Index := Scalar.indexCast v290
  let c13 : Index := 13#32
  ![0, v291.toNat, 13]
def k0_off29 (v1 : BitVec 32) (v292 : BitVec 32) : Fin 2 → Nat :=
  let v293 : BitVec 32 := Scalar.addi v1 v292
  let c0_i32_225 : BitVec 32 := 0#32
  ![v293.toNat, 0]

def k0_chk14 (v1 : BitVec 32) (v292 : BitVec 32) : Prop :=
  (∀ a, (k0_off29 v1 v292) a + S1x128.size a ≤ S2000000x128.size a)
instance k0_chk14.dec : ∀ (v1 : BitVec 32) (v292 : BitVec 32), Decidable (k0_chk14 v1 v292) := fun v1 v292 => decidable_of_iff' _ (Iff.of_eq (k0_chk14.eq_1 v1 v292))
theorem k0_off29_inb : ∀ (v1 : BitVec 32) (v292 : BitVec 32) (k0_hw14 : k0_chk14 v1 v292), ∀ a, (k0_off29 v1 v292) a + S1x128.size a ≤ S2000000x128.size a := fun v1 v292 k0_hw14 => k0_hw14

def k0_off30 (k0_t1 : Fin k0_t1_loop.trips) : Fin 3 → Nat :=
  let c0_238 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_237 : BitVec 32 := 0#32
  let v312 : BitVec 32 := Scalar.addi v5 c0_i32_237
  let v313 : Index := Scalar.indexCast v312
  let c14 : Index := 14#32
  ![0, v313.toNat, 14]
def k0_off31 (v1 : BitVec 32) (v314 : BitVec 32) : Fin 2 → Nat :=
  let v315 : BitVec 32 := Scalar.addi v1 v314
  let c0_i32_242 : BitVec 32 := 0#32
  ![v315.toNat, 0]

def k0_chk15 (v1 : BitVec 32) (v314 : BitVec 32) : Prop :=
  (∀ a, (k0_off31 v1 v314) a + S1x128.size a ≤ S2000000x128.size a)
instance k0_chk15.dec : ∀ (v1 : BitVec 32) (v314 : BitVec 32), Decidable (k0_chk15 v1 v314) := fun v1 v314 => decidable_of_iff' _ (Iff.of_eq (k0_chk15.eq_1 v1 v314))
theorem k0_off31_inb : ∀ (v1 : BitVec 32) (v314 : BitVec 32) (k0_hw15 : k0_chk15 v1 v314), ∀ a, (k0_off31 v1 v314) a + S1x128.size a ≤ S2000000x128.size a := fun v1 v314 k0_hw15 => k0_hw15

def k0_off32 (k0_t1 : Fin k0_t1_loop.trips) : Fin 3 → Nat :=
  let c0_255 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_254 : BitVec 32 := 0#32
  let v334 : BitVec 32 := Scalar.addi v5 c0_i32_254
  let v335 : Index := Scalar.indexCast v334
  let c15 : Index := 15#32
  ![0, v335.toNat, 15]
def k0_off33 (v1 : BitVec 32) (v336 : BitVec 32) : Fin 2 → Nat :=
  let v337 : BitVec 32 := Scalar.addi v1 v336
  let c0_i32_259 : BitVec 32 := 0#32
  ![v337.toNat, 0]

def k0_chk16 (v1 : BitVec 32) (v336 : BitVec 32) : Prop :=
  (∀ a, (k0_off33 v1 v336) a + S1x128.size a ≤ S2000000x128.size a)
instance k0_chk16.dec : ∀ (v1 : BitVec 32) (v336 : BitVec 32), Decidable (k0_chk16 v1 v336) := fun v1 v336 => decidable_of_iff' _ (Iff.of_eq (k0_chk16.eq_1 v1 v336))
theorem k0_off33_inb : ∀ (v1 : BitVec 32) (v336 : BitVec 32) (k0_hw16 : k0_chk16 v1 v336), ∀ a, (k0_off33 v1 v336) a + S1x128.size a ≤ S2000000x128.size a := fun v1 v336 k0_hw16 => k0_hw16

def k0_off34 (k0_t1 : Fin k0_t1_loop.trips) : Fin 3 → Nat :=
  let c0_272 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_271 : BitVec 32 := 0#32
  let v356 : BitVec 32 := Scalar.addi v5 c0_i32_271
  let v357 : Index := Scalar.indexCast v356
  let c16 : Index := 16#32
  ![0, v357.toNat, 16]
def k0_off35 (v1 : BitVec 32) (v358 : BitVec 32) : Fin 2 → Nat :=
  let v359 : BitVec 32 := Scalar.addi v1 v358
  let c0_i32_276 : BitVec 32 := 0#32
  ![v359.toNat, 0]

def k0_chk17 (v1 : BitVec 32) (v358 : BitVec 32) : Prop :=
  (∀ a, (k0_off35 v1 v358) a + S1x128.size a ≤ S2000000x128.size a)
instance k0_chk17.dec : ∀ (v1 : BitVec 32) (v358 : BitVec 32), Decidable (k0_chk17 v1 v358) := fun v1 v358 => decidable_of_iff' _ (Iff.of_eq (k0_chk17.eq_1 v1 v358))
theorem k0_off35_inb : ∀ (v1 : BitVec 32) (v358 : BitVec 32) (k0_hw17 : k0_chk17 v1 v358), ∀ a, (k0_off35 v1 v358) a + S1x128.size a ≤ S2000000x128.size a := fun v1 v358 k0_hw17 => k0_hw17

def k0_off36 (k0_t1 : Fin k0_t1_loop.trips) : Fin 3 → Nat :=
  let c0_289 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_288 : BitVec 32 := 0#32
  let v378 : BitVec 32 := Scalar.addi v5 c0_i32_288
  let v379 : Index := Scalar.indexCast v378
  let c17 : Index := 17#32
  ![0, v379.toNat, 17]
def k0_off37 (v1 : BitVec 32) (v380 : BitVec 32) : Fin 2 → Nat :=
  let v381 : BitVec 32 := Scalar.addi v1 v380
  let c0_i32_293 : BitVec 32 := 0#32
  ![v381.toNat, 0]

def k0_chk18 (v1 : BitVec 32) (v380 : BitVec 32) : Prop :=
  (∀ a, (k0_off37 v1 v380) a + S1x128.size a ≤ S2000000x128.size a)
instance k0_chk18.dec : ∀ (v1 : BitVec 32) (v380 : BitVec 32), Decidable (k0_chk18 v1 v380) := fun v1 v380 => decidable_of_iff' _ (Iff.of_eq (k0_chk18.eq_1 v1 v380))
theorem k0_off37_inb : ∀ (v1 : BitVec 32) (v380 : BitVec 32) (k0_hw18 : k0_chk18 v1 v380), ∀ a, (k0_off37 v1 v380) a + S1x128.size a ≤ S2000000x128.size a := fun v1 v380 k0_hw18 => k0_hw18

def k0_off38 (k0_t1 : Fin k0_t1_loop.trips) : Fin 3 → Nat :=
  let c0_306 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_305 : BitVec 32 := 0#32
  let v400 : BitVec 32 := Scalar.addi v5 c0_i32_305
  let v401 : Index := Scalar.indexCast v400
  let c18 : Index := 18#32
  ![0, v401.toNat, 18]
def k0_off39 (v1 : BitVec 32) (v402 : BitVec 32) : Fin 2 → Nat :=
  let v403 : BitVec 32 := Scalar.addi v1 v402
  let c0_i32_310 : BitVec 32 := 0#32
  ![v403.toNat, 0]

def k0_chk19 (v1 : BitVec 32) (v402 : BitVec 32) : Prop :=
  (∀ a, (k0_off39 v1 v402) a + S1x128.size a ≤ S2000000x128.size a)
instance k0_chk19.dec : ∀ (v1 : BitVec 32) (v402 : BitVec 32), Decidable (k0_chk19 v1 v402) := fun v1 v402 => decidable_of_iff' _ (Iff.of_eq (k0_chk19.eq_1 v1 v402))
theorem k0_off39_inb : ∀ (v1 : BitVec 32) (v402 : BitVec 32) (k0_hw19 : k0_chk19 v1 v402), ∀ a, (k0_off39 v1 v402) a + S1x128.size a ≤ S2000000x128.size a := fun v1 v402 k0_hw19 => k0_hw19

def k0_off40 (k0_t1 : Fin k0_t1_loop.trips) : Fin 3 → Nat :=
  let c0_323 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c0_i32_322 : BitVec 32 := 0#32
  let v422 : BitVec 32 := Scalar.addi v5 c0_i32_322
  let v423 : Index := Scalar.indexCast v422
  let c19 : Index := 19#32
  ![0, v423.toNat, 19]
def k0_off41 (v1 : BitVec 32) (v424 : BitVec 32) : Fin 2 → Nat :=
  let v425 : BitVec 32 := Scalar.addi v1 v424
  let c0_i32_327 : BitVec 32 := 0#32
  ![v425.toNat, 0]

def k0_chk20 (v1 : BitVec 32) (v424 : BitVec 32) : Prop :=
  (∀ a, (k0_off41 v1 v424) a + S1x128.size a ≤ S2000000x128.size a)
instance k0_chk20.dec : ∀ (v1 : BitVec 32) (v424 : BitVec 32), Decidable (k0_chk20 v1 v424) := fun v1 v424 => decidable_of_iff' _ (Iff.of_eq (k0_chk20.eq_1 v1 v424))
theorem k0_off41_inb : ∀ (v1 : BitVec 32) (v424 : BitVec 32) (k0_hw20 : k0_chk20 v1 v424), ∀ a, (k0_off41 v1 v424) a + S1x128.size a ≤ S2000000x128.size a := fun v1 v424 k0_hw20 => k0_hw20

def k0_off42 (k0_t1 : Fin k0_t1_loop.trips) : Fin 3 → Nat :=
  let c0_340 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_339 : BitVec 32 := 1#32
  let v444 : BitVec 32 := Scalar.addi v5 c1_i32_339
  let v445 : Index := Scalar.indexCast v444
  let c0_341 : Index := 0#32
  ![0, v445.toNat, 0]
def k0_off43 (v1 : BitVec 32) (v446 : BitVec 32) : Fin 2 → Nat :=
  let v447 : BitVec 32 := Scalar.addi v1 v446
  let c0_i32_345 : BitVec 32 := 0#32
  ![v447.toNat, 0]

def k0_chk21 (v1 : BitVec 32) (v446 : BitVec 32) : Prop :=
  (∀ a, (k0_off43 v1 v446) a + S1x128.size a ≤ S2000000x128.size a)
instance k0_chk21.dec : ∀ (v1 : BitVec 32) (v446 : BitVec 32), Decidable (k0_chk21 v1 v446) := fun v1 v446 => decidable_of_iff' _ (Iff.of_eq (k0_chk21.eq_1 v1 v446))
theorem k0_off43_inb : ∀ (v1 : BitVec 32) (v446 : BitVec 32) (k0_hw21 : k0_chk21 v1 v446), ∀ a, (k0_off43 v1 v446) a + S1x128.size a ≤ S2000000x128.size a := fun v1 v446 k0_hw21 => k0_hw21

def k0_off44 (k0_t1 : Fin k0_t1_loop.trips) : Fin 3 → Nat :=
  let c0_358 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_357 : BitVec 32 := 1#32
  let v466 : BitVec 32 := Scalar.addi v5 c1_i32_357
  let v467 : Index := Scalar.indexCast v466
  let c1_359 : Index := 1#32
  ![0, v467.toNat, 1]
def k0_off45 (v1 : BitVec 32) (v468 : BitVec 32) : Fin 2 → Nat :=
  let v469 : BitVec 32 := Scalar.addi v1 v468
  let c0_i32_363 : BitVec 32 := 0#32
  ![v469.toNat, 0]

def k0_chk22 (v1 : BitVec 32) (v468 : BitVec 32) : Prop :=
  (∀ a, (k0_off45 v1 v468) a + S1x128.size a ≤ S2000000x128.size a)
instance k0_chk22.dec : ∀ (v1 : BitVec 32) (v468 : BitVec 32), Decidable (k0_chk22 v1 v468) := fun v1 v468 => decidable_of_iff' _ (Iff.of_eq (k0_chk22.eq_1 v1 v468))
theorem k0_off45_inb : ∀ (v1 : BitVec 32) (v468 : BitVec 32) (k0_hw22 : k0_chk22 v1 v468), ∀ a, (k0_off45 v1 v468) a + S1x128.size a ≤ S2000000x128.size a := fun v1 v468 k0_hw22 => k0_hw22

def k0_off46 (k0_t1 : Fin k0_t1_loop.trips) : Fin 3 → Nat :=
  let c0_376 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_375 : BitVec 32 := 1#32
  let v488 : BitVec 32 := Scalar.addi v5 c1_i32_375
  let v489 : Index := Scalar.indexCast v488
  let c2_377 : Index := 2#32
  ![0, v489.toNat, 2]
def k0_off47 (v1 : BitVec 32) (v490 : BitVec 32) : Fin 2 → Nat :=
  let v491 : BitVec 32 := Scalar.addi v1 v490
  let c0_i32_381 : BitVec 32 := 0#32
  ![v491.toNat, 0]

def k0_chk23 (v1 : BitVec 32) (v490 : BitVec 32) : Prop :=
  (∀ a, (k0_off47 v1 v490) a + S1x128.size a ≤ S2000000x128.size a)
instance k0_chk23.dec : ∀ (v1 : BitVec 32) (v490 : BitVec 32), Decidable (k0_chk23 v1 v490) := fun v1 v490 => decidable_of_iff' _ (Iff.of_eq (k0_chk23.eq_1 v1 v490))
theorem k0_off47_inb : ∀ (v1 : BitVec 32) (v490 : BitVec 32) (k0_hw23 : k0_chk23 v1 v490), ∀ a, (k0_off47 v1 v490) a + S1x128.size a ≤ S2000000x128.size a := fun v1 v490 k0_hw23 => k0_hw23

def k0_off48 (k0_t1 : Fin k0_t1_loop.trips) : Fin 3 → Nat :=
  let c0_394 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_393 : BitVec 32 := 1#32
  let v510 : BitVec 32 := Scalar.addi v5 c1_i32_393
  let v511 : Index := Scalar.indexCast v510
  let c3_395 : Index := 3#32
  ![0, v511.toNat, 3]
def k0_off49 (v1 : BitVec 32) (v512 : BitVec 32) : Fin 2 → Nat :=
  let v513 : BitVec 32 := Scalar.addi v1 v512
  let c0_i32_399 : BitVec 32 := 0#32
  ![v513.toNat, 0]

def k0_chk24 (v1 : BitVec 32) (v512 : BitVec 32) : Prop :=
  (∀ a, (k0_off49 v1 v512) a + S1x128.size a ≤ S2000000x128.size a)
instance k0_chk24.dec : ∀ (v1 : BitVec 32) (v512 : BitVec 32), Decidable (k0_chk24 v1 v512) := fun v1 v512 => decidable_of_iff' _ (Iff.of_eq (k0_chk24.eq_1 v1 v512))
theorem k0_off49_inb : ∀ (v1 : BitVec 32) (v512 : BitVec 32) (k0_hw24 : k0_chk24 v1 v512), ∀ a, (k0_off49 v1 v512) a + S1x128.size a ≤ S2000000x128.size a := fun v1 v512 k0_hw24 => k0_hw24

def k0_off50 (k0_t1 : Fin k0_t1_loop.trips) : Fin 3 → Nat :=
  let c0_412 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_411 : BitVec 32 := 1#32
  let v532 : BitVec 32 := Scalar.addi v5 c1_i32_411
  let v533 : Index := Scalar.indexCast v532
  let c4_413 : Index := 4#32
  ![0, v533.toNat, 4]
def k0_off51 (v1 : BitVec 32) (v534 : BitVec 32) : Fin 2 → Nat :=
  let v535 : BitVec 32 := Scalar.addi v1 v534
  let c0_i32_417 : BitVec 32 := 0#32
  ![v535.toNat, 0]

def k0_chk25 (v1 : BitVec 32) (v534 : BitVec 32) : Prop :=
  (∀ a, (k0_off51 v1 v534) a + S1x128.size a ≤ S2000000x128.size a)
instance k0_chk25.dec : ∀ (v1 : BitVec 32) (v534 : BitVec 32), Decidable (k0_chk25 v1 v534) := fun v1 v534 => decidable_of_iff' _ (Iff.of_eq (k0_chk25.eq_1 v1 v534))
theorem k0_off51_inb : ∀ (v1 : BitVec 32) (v534 : BitVec 32) (k0_hw25 : k0_chk25 v1 v534), ∀ a, (k0_off51 v1 v534) a + S1x128.size a ≤ S2000000x128.size a := fun v1 v534 k0_hw25 => k0_hw25

def k0_off52 (k0_t1 : Fin k0_t1_loop.trips) : Fin 3 → Nat :=
  let c0_430 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_429 : BitVec 32 := 1#32
  let v554 : BitVec 32 := Scalar.addi v5 c1_i32_429
  let v555 : Index := Scalar.indexCast v554
  let c5_431 : Index := 5#32
  ![0, v555.toNat, 5]
def k0_off53 (v1 : BitVec 32) (v556 : BitVec 32) : Fin 2 → Nat :=
  let v557 : BitVec 32 := Scalar.addi v1 v556
  let c0_i32_435 : BitVec 32 := 0#32
  ![v557.toNat, 0]

def k0_chk26 (v1 : BitVec 32) (v556 : BitVec 32) : Prop :=
  (∀ a, (k0_off53 v1 v556) a + S1x128.size a ≤ S2000000x128.size a)
instance k0_chk26.dec : ∀ (v1 : BitVec 32) (v556 : BitVec 32), Decidable (k0_chk26 v1 v556) := fun v1 v556 => decidable_of_iff' _ (Iff.of_eq (k0_chk26.eq_1 v1 v556))
theorem k0_off53_inb : ∀ (v1 : BitVec 32) (v556 : BitVec 32) (k0_hw26 : k0_chk26 v1 v556), ∀ a, (k0_off53 v1 v556) a + S1x128.size a ≤ S2000000x128.size a := fun v1 v556 k0_hw26 => k0_hw26

def k0_off54 (k0_t1 : Fin k0_t1_loop.trips) : Fin 3 → Nat :=
  let c0_448 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_447 : BitVec 32 := 1#32
  let v576 : BitVec 32 := Scalar.addi v5 c1_i32_447
  let v577 : Index := Scalar.indexCast v576
  let c6_449 : Index := 6#32
  ![0, v577.toNat, 6]
def k0_off55 (v1 : BitVec 32) (v578 : BitVec 32) : Fin 2 → Nat :=
  let v579 : BitVec 32 := Scalar.addi v1 v578
  let c0_i32_453 : BitVec 32 := 0#32
  ![v579.toNat, 0]

def k0_chk27 (v1 : BitVec 32) (v578 : BitVec 32) : Prop :=
  (∀ a, (k0_off55 v1 v578) a + S1x128.size a ≤ S2000000x128.size a)
instance k0_chk27.dec : ∀ (v1 : BitVec 32) (v578 : BitVec 32), Decidable (k0_chk27 v1 v578) := fun v1 v578 => decidable_of_iff' _ (Iff.of_eq (k0_chk27.eq_1 v1 v578))
theorem k0_off55_inb : ∀ (v1 : BitVec 32) (v578 : BitVec 32) (k0_hw27 : k0_chk27 v1 v578), ∀ a, (k0_off55 v1 v578) a + S1x128.size a ≤ S2000000x128.size a := fun v1 v578 k0_hw27 => k0_hw27

def k0_off56 (k0_t1 : Fin k0_t1_loop.trips) : Fin 3 → Nat :=
  let c0_466 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_465 : BitVec 32 := 1#32
  let v598 : BitVec 32 := Scalar.addi v5 c1_i32_465
  let v599 : Index := Scalar.indexCast v598
  let c7_467 : Index := 7#32
  ![0, v599.toNat, 7]
def k0_off57 (v1 : BitVec 32) (v600 : BitVec 32) : Fin 2 → Nat :=
  let v601 : BitVec 32 := Scalar.addi v1 v600
  let c0_i32_471 : BitVec 32 := 0#32
  ![v601.toNat, 0]

def k0_chk28 (v1 : BitVec 32) (v600 : BitVec 32) : Prop :=
  (∀ a, (k0_off57 v1 v600) a + S1x128.size a ≤ S2000000x128.size a)
instance k0_chk28.dec : ∀ (v1 : BitVec 32) (v600 : BitVec 32), Decidable (k0_chk28 v1 v600) := fun v1 v600 => decidable_of_iff' _ (Iff.of_eq (k0_chk28.eq_1 v1 v600))
theorem k0_off57_inb : ∀ (v1 : BitVec 32) (v600 : BitVec 32) (k0_hw28 : k0_chk28 v1 v600), ∀ a, (k0_off57 v1 v600) a + S1x128.size a ≤ S2000000x128.size a := fun v1 v600 k0_hw28 => k0_hw28

def k0_off58 (k0_t1 : Fin k0_t1_loop.trips) : Fin 3 → Nat :=
  let c0_484 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_483 : BitVec 32 := 1#32
  let v620 : BitVec 32 := Scalar.addi v5 c1_i32_483
  let v621 : Index := Scalar.indexCast v620
  let c8_485 : Index := 8#32
  ![0, v621.toNat, 8]
def k0_off59 (v1 : BitVec 32) (v622 : BitVec 32) : Fin 2 → Nat :=
  let v623 : BitVec 32 := Scalar.addi v1 v622
  let c0_i32_489 : BitVec 32 := 0#32
  ![v623.toNat, 0]

def k0_chk29 (v1 : BitVec 32) (v622 : BitVec 32) : Prop :=
  (∀ a, (k0_off59 v1 v622) a + S1x128.size a ≤ S2000000x128.size a)
instance k0_chk29.dec : ∀ (v1 : BitVec 32) (v622 : BitVec 32), Decidable (k0_chk29 v1 v622) := fun v1 v622 => decidable_of_iff' _ (Iff.of_eq (k0_chk29.eq_1 v1 v622))
theorem k0_off59_inb : ∀ (v1 : BitVec 32) (v622 : BitVec 32) (k0_hw29 : k0_chk29 v1 v622), ∀ a, (k0_off59 v1 v622) a + S1x128.size a ≤ S2000000x128.size a := fun v1 v622 k0_hw29 => k0_hw29

def k0_off60 (k0_t1 : Fin k0_t1_loop.trips) : Fin 3 → Nat :=
  let c0_502 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_501 : BitVec 32 := 1#32
  let v642 : BitVec 32 := Scalar.addi v5 c1_i32_501
  let v643 : Index := Scalar.indexCast v642
  let c9_503 : Index := 9#32
  ![0, v643.toNat, 9]
def k0_off61 (v1 : BitVec 32) (v644 : BitVec 32) : Fin 2 → Nat :=
  let v645 : BitVec 32 := Scalar.addi v1 v644
  let c0_i32_507 : BitVec 32 := 0#32
  ![v645.toNat, 0]

def k0_chk30 (v1 : BitVec 32) (v644 : BitVec 32) : Prop :=
  (∀ a, (k0_off61 v1 v644) a + S1x128.size a ≤ S2000000x128.size a)
instance k0_chk30.dec : ∀ (v1 : BitVec 32) (v644 : BitVec 32), Decidable (k0_chk30 v1 v644) := fun v1 v644 => decidable_of_iff' _ (Iff.of_eq (k0_chk30.eq_1 v1 v644))
theorem k0_off61_inb : ∀ (v1 : BitVec 32) (v644 : BitVec 32) (k0_hw30 : k0_chk30 v1 v644), ∀ a, (k0_off61 v1 v644) a + S1x128.size a ≤ S2000000x128.size a := fun v1 v644 k0_hw30 => k0_hw30

def k0_off62 (k0_t1 : Fin k0_t1_loop.trips) : Fin 3 → Nat :=
  let c0_520 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_519 : BitVec 32 := 1#32
  let v664 : BitVec 32 := Scalar.addi v5 c1_i32_519
  let v665 : Index := Scalar.indexCast v664
  let c10_521 : Index := 10#32
  ![0, v665.toNat, 10]
def k0_off63 (v1 : BitVec 32) (v666 : BitVec 32) : Fin 2 → Nat :=
  let v667 : BitVec 32 := Scalar.addi v1 v666
  let c0_i32_525 : BitVec 32 := 0#32
  ![v667.toNat, 0]

def k0_chk31 (v1 : BitVec 32) (v666 : BitVec 32) : Prop :=
  (∀ a, (k0_off63 v1 v666) a + S1x128.size a ≤ S2000000x128.size a)
instance k0_chk31.dec : ∀ (v1 : BitVec 32) (v666 : BitVec 32), Decidable (k0_chk31 v1 v666) := fun v1 v666 => decidable_of_iff' _ (Iff.of_eq (k0_chk31.eq_1 v1 v666))
theorem k0_off63_inb : ∀ (v1 : BitVec 32) (v666 : BitVec 32) (k0_hw31 : k0_chk31 v1 v666), ∀ a, (k0_off63 v1 v666) a + S1x128.size a ≤ S2000000x128.size a := fun v1 v666 k0_hw31 => k0_hw31

def k0_off64 (k0_t1 : Fin k0_t1_loop.trips) : Fin 3 → Nat :=
  let c0_538 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_537 : BitVec 32 := 1#32
  let v686 : BitVec 32 := Scalar.addi v5 c1_i32_537
  let v687 : Index := Scalar.indexCast v686
  let c11_539 : Index := 11#32
  ![0, v687.toNat, 11]
def k0_off65 (v1 : BitVec 32) (v688 : BitVec 32) : Fin 2 → Nat :=
  let v689 : BitVec 32 := Scalar.addi v1 v688
  let c0_i32_543 : BitVec 32 := 0#32
  ![v689.toNat, 0]

def k0_chk32 (v1 : BitVec 32) (v688 : BitVec 32) : Prop :=
  (∀ a, (k0_off65 v1 v688) a + S1x128.size a ≤ S2000000x128.size a)
instance k0_chk32.dec : ∀ (v1 : BitVec 32) (v688 : BitVec 32), Decidable (k0_chk32 v1 v688) := fun v1 v688 => decidable_of_iff' _ (Iff.of_eq (k0_chk32.eq_1 v1 v688))
theorem k0_off65_inb : ∀ (v1 : BitVec 32) (v688 : BitVec 32) (k0_hw32 : k0_chk32 v1 v688), ∀ a, (k0_off65 v1 v688) a + S1x128.size a ≤ S2000000x128.size a := fun v1 v688 k0_hw32 => k0_hw32

def k0_off66 (k0_t1 : Fin k0_t1_loop.trips) : Fin 3 → Nat :=
  let c0_556 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_555 : BitVec 32 := 1#32
  let v708 : BitVec 32 := Scalar.addi v5 c1_i32_555
  let v709 : Index := Scalar.indexCast v708
  let c12_557 : Index := 12#32
  ![0, v709.toNat, 12]
def k0_off67 (v1 : BitVec 32) (v710 : BitVec 32) : Fin 2 → Nat :=
  let v711 : BitVec 32 := Scalar.addi v1 v710
  let c0_i32_561 : BitVec 32 := 0#32
  ![v711.toNat, 0]

def k0_chk33 (v1 : BitVec 32) (v710 : BitVec 32) : Prop :=
  (∀ a, (k0_off67 v1 v710) a + S1x128.size a ≤ S2000000x128.size a)
instance k0_chk33.dec : ∀ (v1 : BitVec 32) (v710 : BitVec 32), Decidable (k0_chk33 v1 v710) := fun v1 v710 => decidable_of_iff' _ (Iff.of_eq (k0_chk33.eq_1 v1 v710))
theorem k0_off67_inb : ∀ (v1 : BitVec 32) (v710 : BitVec 32) (k0_hw33 : k0_chk33 v1 v710), ∀ a, (k0_off67 v1 v710) a + S1x128.size a ≤ S2000000x128.size a := fun v1 v710 k0_hw33 => k0_hw33

def k0_off68 (k0_t1 : Fin k0_t1_loop.trips) : Fin 3 → Nat :=
  let c0_574 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_573 : BitVec 32 := 1#32
  let v730 : BitVec 32 := Scalar.addi v5 c1_i32_573
  let v731 : Index := Scalar.indexCast v730
  let c13_575 : Index := 13#32
  ![0, v731.toNat, 13]
def k0_off69 (v1 : BitVec 32) (v732 : BitVec 32) : Fin 2 → Nat :=
  let v733 : BitVec 32 := Scalar.addi v1 v732
  let c0_i32_579 : BitVec 32 := 0#32
  ![v733.toNat, 0]

def k0_chk34 (v1 : BitVec 32) (v732 : BitVec 32) : Prop :=
  (∀ a, (k0_off69 v1 v732) a + S1x128.size a ≤ S2000000x128.size a)
instance k0_chk34.dec : ∀ (v1 : BitVec 32) (v732 : BitVec 32), Decidable (k0_chk34 v1 v732) := fun v1 v732 => decidable_of_iff' _ (Iff.of_eq (k0_chk34.eq_1 v1 v732))
theorem k0_off69_inb : ∀ (v1 : BitVec 32) (v732 : BitVec 32) (k0_hw34 : k0_chk34 v1 v732), ∀ a, (k0_off69 v1 v732) a + S1x128.size a ≤ S2000000x128.size a := fun v1 v732 k0_hw34 => k0_hw34

def k0_off70 (k0_t1 : Fin k0_t1_loop.trips) : Fin 3 → Nat :=
  let c0_592 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_591 : BitVec 32 := 1#32
  let v752 : BitVec 32 := Scalar.addi v5 c1_i32_591
  let v753 : Index := Scalar.indexCast v752
  let c14_593 : Index := 14#32
  ![0, v753.toNat, 14]
def k0_off71 (v1 : BitVec 32) (v754 : BitVec 32) : Fin 2 → Nat :=
  let v755 : BitVec 32 := Scalar.addi v1 v754
  let c0_i32_597 : BitVec 32 := 0#32
  ![v755.toNat, 0]

def k0_chk35 (v1 : BitVec 32) (v754 : BitVec 32) : Prop :=
  (∀ a, (k0_off71 v1 v754) a + S1x128.size a ≤ S2000000x128.size a)
instance k0_chk35.dec : ∀ (v1 : BitVec 32) (v754 : BitVec 32), Decidable (k0_chk35 v1 v754) := fun v1 v754 => decidable_of_iff' _ (Iff.of_eq (k0_chk35.eq_1 v1 v754))
theorem k0_off71_inb : ∀ (v1 : BitVec 32) (v754 : BitVec 32) (k0_hw35 : k0_chk35 v1 v754), ∀ a, (k0_off71 v1 v754) a + S1x128.size a ≤ S2000000x128.size a := fun v1 v754 k0_hw35 => k0_hw35

def k0_off72 (k0_t1 : Fin k0_t1_loop.trips) : Fin 3 → Nat :=
  let c0_610 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_609 : BitVec 32 := 1#32
  let v774 : BitVec 32 := Scalar.addi v5 c1_i32_609
  let v775 : Index := Scalar.indexCast v774
  let c15_611 : Index := 15#32
  ![0, v775.toNat, 15]
def k0_off73 (v1 : BitVec 32) (v776 : BitVec 32) : Fin 2 → Nat :=
  let v777 : BitVec 32 := Scalar.addi v1 v776
  let c0_i32_615 : BitVec 32 := 0#32
  ![v777.toNat, 0]

def k0_chk36 (v1 : BitVec 32) (v776 : BitVec 32) : Prop :=
  (∀ a, (k0_off73 v1 v776) a + S1x128.size a ≤ S2000000x128.size a)
instance k0_chk36.dec : ∀ (v1 : BitVec 32) (v776 : BitVec 32), Decidable (k0_chk36 v1 v776) := fun v1 v776 => decidable_of_iff' _ (Iff.of_eq (k0_chk36.eq_1 v1 v776))
theorem k0_off73_inb : ∀ (v1 : BitVec 32) (v776 : BitVec 32) (k0_hw36 : k0_chk36 v1 v776), ∀ a, (k0_off73 v1 v776) a + S1x128.size a ≤ S2000000x128.size a := fun v1 v776 k0_hw36 => k0_hw36

def k0_off74 (k0_t1 : Fin k0_t1_loop.trips) : Fin 3 → Nat :=
  let c0_628 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_627 : BitVec 32 := 1#32
  let v796 : BitVec 32 := Scalar.addi v5 c1_i32_627
  let v797 : Index := Scalar.indexCast v796
  let c16_629 : Index := 16#32
  ![0, v797.toNat, 16]
def k0_off75 (v1 : BitVec 32) (v798 : BitVec 32) : Fin 2 → Nat :=
  let v799 : BitVec 32 := Scalar.addi v1 v798
  let c0_i32_633 : BitVec 32 := 0#32
  ![v799.toNat, 0]

def k0_chk37 (v1 : BitVec 32) (v798 : BitVec 32) : Prop :=
  (∀ a, (k0_off75 v1 v798) a + S1x128.size a ≤ S2000000x128.size a)
instance k0_chk37.dec : ∀ (v1 : BitVec 32) (v798 : BitVec 32), Decidable (k0_chk37 v1 v798) := fun v1 v798 => decidable_of_iff' _ (Iff.of_eq (k0_chk37.eq_1 v1 v798))
theorem k0_off75_inb : ∀ (v1 : BitVec 32) (v798 : BitVec 32) (k0_hw37 : k0_chk37 v1 v798), ∀ a, (k0_off75 v1 v798) a + S1x128.size a ≤ S2000000x128.size a := fun v1 v798 k0_hw37 => k0_hw37

def k0_off76 (k0_t1 : Fin k0_t1_loop.trips) : Fin 3 → Nat :=
  let c0_646 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_645 : BitVec 32 := 1#32
  let v818 : BitVec 32 := Scalar.addi v5 c1_i32_645
  let v819 : Index := Scalar.indexCast v818
  let c17_647 : Index := 17#32
  ![0, v819.toNat, 17]
def k0_off77 (v1 : BitVec 32) (v820 : BitVec 32) : Fin 2 → Nat :=
  let v821 : BitVec 32 := Scalar.addi v1 v820
  let c0_i32_651 : BitVec 32 := 0#32
  ![v821.toNat, 0]

def k0_chk38 (v1 : BitVec 32) (v820 : BitVec 32) : Prop :=
  (∀ a, (k0_off77 v1 v820) a + S1x128.size a ≤ S2000000x128.size a)
instance k0_chk38.dec : ∀ (v1 : BitVec 32) (v820 : BitVec 32), Decidable (k0_chk38 v1 v820) := fun v1 v820 => decidable_of_iff' _ (Iff.of_eq (k0_chk38.eq_1 v1 v820))
theorem k0_off77_inb : ∀ (v1 : BitVec 32) (v820 : BitVec 32) (k0_hw38 : k0_chk38 v1 v820), ∀ a, (k0_off77 v1 v820) a + S1x128.size a ≤ S2000000x128.size a := fun v1 v820 k0_hw38 => k0_hw38

def k0_off78 (k0_t1 : Fin k0_t1_loop.trips) : Fin 3 → Nat :=
  let c0_664 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_663 : BitVec 32 := 1#32
  let v840 : BitVec 32 := Scalar.addi v5 c1_i32_663
  let v841 : Index := Scalar.indexCast v840
  let c18_665 : Index := 18#32
  ![0, v841.toNat, 18]
def k0_off79 (v1 : BitVec 32) (v842 : BitVec 32) : Fin 2 → Nat :=
  let v843 : BitVec 32 := Scalar.addi v1 v842
  let c0_i32_669 : BitVec 32 := 0#32
  ![v843.toNat, 0]

def k0_chk39 (v1 : BitVec 32) (v842 : BitVec 32) : Prop :=
  (∀ a, (k0_off79 v1 v842) a + S1x128.size a ≤ S2000000x128.size a)
instance k0_chk39.dec : ∀ (v1 : BitVec 32) (v842 : BitVec 32), Decidable (k0_chk39 v1 v842) := fun v1 v842 => decidable_of_iff' _ (Iff.of_eq (k0_chk39.eq_1 v1 v842))
theorem k0_off79_inb : ∀ (v1 : BitVec 32) (v842 : BitVec 32) (k0_hw39 : k0_chk39 v1 v842), ∀ a, (k0_off79 v1 v842) a + S1x128.size a ≤ S2000000x128.size a := fun v1 v842 k0_hw39 => k0_hw39

def k0_off80 (k0_t1 : Fin k0_t1_loop.trips) : Fin 3 → Nat :=
  let c0_682 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c1_i32_681 : BitVec 32 := 1#32
  let v862 : BitVec 32 := Scalar.addi v5 c1_i32_681
  let v863 : Index := Scalar.indexCast v862
  let c19_683 : Index := 19#32
  ![0, v863.toNat, 19]
def k0_off81 (v1 : BitVec 32) (v864 : BitVec 32) : Fin 2 → Nat :=
  let v865 : BitVec 32 := Scalar.addi v1 v864
  let c0_i32_687 : BitVec 32 := 0#32
  ![v865.toNat, 0]

def k0_chk40 (v1 : BitVec 32) (v864 : BitVec 32) : Prop :=
  (∀ a, (k0_off81 v1 v864) a + S1x128.size a ≤ S2000000x128.size a)
instance k0_chk40.dec : ∀ (v1 : BitVec 32) (v864 : BitVec 32), Decidable (k0_chk40 v1 v864) := fun v1 v864 => decidable_of_iff' _ (Iff.of_eq (k0_chk40.eq_1 v1 v864))
theorem k0_off81_inb : ∀ (v1 : BitVec 32) (v864 : BitVec 32) (k0_hw40 : k0_chk40 v1 v864), ∀ a, (k0_off81 v1 v864) a + S1x128.size a ≤ S2000000x128.size a := fun v1 v864 k0_hw40 => k0_hw40

def k0_off82 (k0_t1 : Fin k0_t1_loop.trips) : Fin 3 → Nat :=
  let c0_699 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32 : BitVec 32 := 2#32
  let v884 : BitVec 32 := Scalar.addi v5 c2_i32
  let v885 : Index := Scalar.indexCast v884
  let c0_700 : Index := 0#32
  ![0, v885.toNat, 0]
def k0_off83 (v1 : BitVec 32) (v886 : BitVec 32) : Fin 2 → Nat :=
  let v887 : BitVec 32 := Scalar.addi v1 v886
  let c0_i32_704 : BitVec 32 := 0#32
  ![v887.toNat, 0]

def k0_chk41 (v1 : BitVec 32) (v886 : BitVec 32) : Prop :=
  (∀ a, (k0_off83 v1 v886) a + S1x128.size a ≤ S2000000x128.size a)
instance k0_chk41.dec : ∀ (v1 : BitVec 32) (v886 : BitVec 32), Decidable (k0_chk41 v1 v886) := fun v1 v886 => decidable_of_iff' _ (Iff.of_eq (k0_chk41.eq_1 v1 v886))
theorem k0_off83_inb : ∀ (v1 : BitVec 32) (v886 : BitVec 32) (k0_hw41 : k0_chk41 v1 v886), ∀ a, (k0_off83 v1 v886) a + S1x128.size a ≤ S2000000x128.size a := fun v1 v886 k0_hw41 => k0_hw41

def k0_off84 (k0_t1 : Fin k0_t1_loop.trips) : Fin 3 → Nat :=
  let c0_717 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_716 : BitVec 32 := 2#32
  let v906 : BitVec 32 := Scalar.addi v5 c2_i32_716
  let v907 : Index := Scalar.indexCast v906
  let c1_718 : Index := 1#32
  ![0, v907.toNat, 1]
def k0_off85 (v1 : BitVec 32) (v908 : BitVec 32) : Fin 2 → Nat :=
  let v909 : BitVec 32 := Scalar.addi v1 v908
  let c0_i32_722 : BitVec 32 := 0#32
  ![v909.toNat, 0]

def k0_chk42 (v1 : BitVec 32) (v908 : BitVec 32) : Prop :=
  (∀ a, (k0_off85 v1 v908) a + S1x128.size a ≤ S2000000x128.size a)
instance k0_chk42.dec : ∀ (v1 : BitVec 32) (v908 : BitVec 32), Decidable (k0_chk42 v1 v908) := fun v1 v908 => decidable_of_iff' _ (Iff.of_eq (k0_chk42.eq_1 v1 v908))
theorem k0_off85_inb : ∀ (v1 : BitVec 32) (v908 : BitVec 32) (k0_hw42 : k0_chk42 v1 v908), ∀ a, (k0_off85 v1 v908) a + S1x128.size a ≤ S2000000x128.size a := fun v1 v908 k0_hw42 => k0_hw42

def k0_off86 (k0_t1 : Fin k0_t1_loop.trips) : Fin 3 → Nat :=
  let c0_735 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_734 : BitVec 32 := 2#32
  let v928 : BitVec 32 := Scalar.addi v5 c2_i32_734
  let v929 : Index := Scalar.indexCast v928
  let c2_736 : Index := 2#32
  ![0, v929.toNat, 2]
def k0_off87 (v1 : BitVec 32) (v930 : BitVec 32) : Fin 2 → Nat :=
  let v931 : BitVec 32 := Scalar.addi v1 v930
  let c0_i32_740 : BitVec 32 := 0#32
  ![v931.toNat, 0]

def k0_chk43 (v1 : BitVec 32) (v930 : BitVec 32) : Prop :=
  (∀ a, (k0_off87 v1 v930) a + S1x128.size a ≤ S2000000x128.size a)
instance k0_chk43.dec : ∀ (v1 : BitVec 32) (v930 : BitVec 32), Decidable (k0_chk43 v1 v930) := fun v1 v930 => decidable_of_iff' _ (Iff.of_eq (k0_chk43.eq_1 v1 v930))
theorem k0_off87_inb : ∀ (v1 : BitVec 32) (v930 : BitVec 32) (k0_hw43 : k0_chk43 v1 v930), ∀ a, (k0_off87 v1 v930) a + S1x128.size a ≤ S2000000x128.size a := fun v1 v930 k0_hw43 => k0_hw43

def k0_off88 (k0_t1 : Fin k0_t1_loop.trips) : Fin 3 → Nat :=
  let c0_753 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_752 : BitVec 32 := 2#32
  let v950 : BitVec 32 := Scalar.addi v5 c2_i32_752
  let v951 : Index := Scalar.indexCast v950
  let c3_754 : Index := 3#32
  ![0, v951.toNat, 3]
def k0_off89 (v1 : BitVec 32) (v952 : BitVec 32) : Fin 2 → Nat :=
  let v953 : BitVec 32 := Scalar.addi v1 v952
  let c0_i32_758 : BitVec 32 := 0#32
  ![v953.toNat, 0]

def k0_chk44 (v1 : BitVec 32) (v952 : BitVec 32) : Prop :=
  (∀ a, (k0_off89 v1 v952) a + S1x128.size a ≤ S2000000x128.size a)
instance k0_chk44.dec : ∀ (v1 : BitVec 32) (v952 : BitVec 32), Decidable (k0_chk44 v1 v952) := fun v1 v952 => decidable_of_iff' _ (Iff.of_eq (k0_chk44.eq_1 v1 v952))
theorem k0_off89_inb : ∀ (v1 : BitVec 32) (v952 : BitVec 32) (k0_hw44 : k0_chk44 v1 v952), ∀ a, (k0_off89 v1 v952) a + S1x128.size a ≤ S2000000x128.size a := fun v1 v952 k0_hw44 => k0_hw44

def k0_off90 (k0_t1 : Fin k0_t1_loop.trips) : Fin 3 → Nat :=
  let c0_771 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_770 : BitVec 32 := 2#32
  let v972 : BitVec 32 := Scalar.addi v5 c2_i32_770
  let v973 : Index := Scalar.indexCast v972
  let c4_772 : Index := 4#32
  ![0, v973.toNat, 4]
def k0_off91 (v1 : BitVec 32) (v974 : BitVec 32) : Fin 2 → Nat :=
  let v975 : BitVec 32 := Scalar.addi v1 v974
  let c0_i32_776 : BitVec 32 := 0#32
  ![v975.toNat, 0]

def k0_chk45 (v1 : BitVec 32) (v974 : BitVec 32) : Prop :=
  (∀ a, (k0_off91 v1 v974) a + S1x128.size a ≤ S2000000x128.size a)
instance k0_chk45.dec : ∀ (v1 : BitVec 32) (v974 : BitVec 32), Decidable (k0_chk45 v1 v974) := fun v1 v974 => decidable_of_iff' _ (Iff.of_eq (k0_chk45.eq_1 v1 v974))
theorem k0_off91_inb : ∀ (v1 : BitVec 32) (v974 : BitVec 32) (k0_hw45 : k0_chk45 v1 v974), ∀ a, (k0_off91 v1 v974) a + S1x128.size a ≤ S2000000x128.size a := fun v1 v974 k0_hw45 => k0_hw45

def k0_off92 (k0_t1 : Fin k0_t1_loop.trips) : Fin 3 → Nat :=
  let c0_789 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_788 : BitVec 32 := 2#32
  let v994 : BitVec 32 := Scalar.addi v5 c2_i32_788
  let v995 : Index := Scalar.indexCast v994
  let c5_790 : Index := 5#32
  ![0, v995.toNat, 5]
def k0_off93 (v1 : BitVec 32) (v996 : BitVec 32) : Fin 2 → Nat :=
  let v997 : BitVec 32 := Scalar.addi v1 v996
  let c0_i32_794 : BitVec 32 := 0#32
  ![v997.toNat, 0]

def k0_chk46 (v1 : BitVec 32) (v996 : BitVec 32) : Prop :=
  (∀ a, (k0_off93 v1 v996) a + S1x128.size a ≤ S2000000x128.size a)
instance k0_chk46.dec : ∀ (v1 : BitVec 32) (v996 : BitVec 32), Decidable (k0_chk46 v1 v996) := fun v1 v996 => decidable_of_iff' _ (Iff.of_eq (k0_chk46.eq_1 v1 v996))
theorem k0_off93_inb : ∀ (v1 : BitVec 32) (v996 : BitVec 32) (k0_hw46 : k0_chk46 v1 v996), ∀ a, (k0_off93 v1 v996) a + S1x128.size a ≤ S2000000x128.size a := fun v1 v996 k0_hw46 => k0_hw46

def k0_off94 (k0_t1 : Fin k0_t1_loop.trips) : Fin 3 → Nat :=
  let c0_807 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_806 : BitVec 32 := 2#32
  let v1016 : BitVec 32 := Scalar.addi v5 c2_i32_806
  let v1017 : Index := Scalar.indexCast v1016
  let c6_808 : Index := 6#32
  ![0, v1017.toNat, 6]
def k0_off95 (v1 : BitVec 32) (v1018 : BitVec 32) : Fin 2 → Nat :=
  let v1019 : BitVec 32 := Scalar.addi v1 v1018
  let c0_i32_812 : BitVec 32 := 0#32
  ![v1019.toNat, 0]

def k0_chk47 (v1 : BitVec 32) (v1018 : BitVec 32) : Prop :=
  (∀ a, (k0_off95 v1 v1018) a + S1x128.size a ≤ S2000000x128.size a)
instance k0_chk47.dec : ∀ (v1 : BitVec 32) (v1018 : BitVec 32), Decidable (k0_chk47 v1 v1018) := fun v1 v1018 => decidable_of_iff' _ (Iff.of_eq (k0_chk47.eq_1 v1 v1018))
theorem k0_off95_inb : ∀ (v1 : BitVec 32) (v1018 : BitVec 32) (k0_hw47 : k0_chk47 v1 v1018), ∀ a, (k0_off95 v1 v1018) a + S1x128.size a ≤ S2000000x128.size a := fun v1 v1018 k0_hw47 => k0_hw47

def k0_off96 (k0_t1 : Fin k0_t1_loop.trips) : Fin 3 → Nat :=
  let c0_825 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_824 : BitVec 32 := 2#32
  let v1038 : BitVec 32 := Scalar.addi v5 c2_i32_824
  let v1039 : Index := Scalar.indexCast v1038
  let c7_826 : Index := 7#32
  ![0, v1039.toNat, 7]
def k0_off97 (v1 : BitVec 32) (v1040 : BitVec 32) : Fin 2 → Nat :=
  let v1041 : BitVec 32 := Scalar.addi v1 v1040
  let c0_i32_830 : BitVec 32 := 0#32
  ![v1041.toNat, 0]

def k0_chk48 (v1 : BitVec 32) (v1040 : BitVec 32) : Prop :=
  (∀ a, (k0_off97 v1 v1040) a + S1x128.size a ≤ S2000000x128.size a)
instance k0_chk48.dec : ∀ (v1 : BitVec 32) (v1040 : BitVec 32), Decidable (k0_chk48 v1 v1040) := fun v1 v1040 => decidable_of_iff' _ (Iff.of_eq (k0_chk48.eq_1 v1 v1040))
theorem k0_off97_inb : ∀ (v1 : BitVec 32) (v1040 : BitVec 32) (k0_hw48 : k0_chk48 v1 v1040), ∀ a, (k0_off97 v1 v1040) a + S1x128.size a ≤ S2000000x128.size a := fun v1 v1040 k0_hw48 => k0_hw48

def k0_off98 (k0_t1 : Fin k0_t1_loop.trips) : Fin 3 → Nat :=
  let c0_843 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_842 : BitVec 32 := 2#32
  let v1060 : BitVec 32 := Scalar.addi v5 c2_i32_842
  let v1061 : Index := Scalar.indexCast v1060
  let c8_844 : Index := 8#32
  ![0, v1061.toNat, 8]
def k0_off99 (v1 : BitVec 32) (v1062 : BitVec 32) : Fin 2 → Nat :=
  let v1063 : BitVec 32 := Scalar.addi v1 v1062
  let c0_i32_848 : BitVec 32 := 0#32
  ![v1063.toNat, 0]

def k0_chk49 (v1 : BitVec 32) (v1062 : BitVec 32) : Prop :=
  (∀ a, (k0_off99 v1 v1062) a + S1x128.size a ≤ S2000000x128.size a)
instance k0_chk49.dec : ∀ (v1 : BitVec 32) (v1062 : BitVec 32), Decidable (k0_chk49 v1 v1062) := fun v1 v1062 => decidable_of_iff' _ (Iff.of_eq (k0_chk49.eq_1 v1 v1062))
theorem k0_off99_inb : ∀ (v1 : BitVec 32) (v1062 : BitVec 32) (k0_hw49 : k0_chk49 v1 v1062), ∀ a, (k0_off99 v1 v1062) a + S1x128.size a ≤ S2000000x128.size a := fun v1 v1062 k0_hw49 => k0_hw49

def k0_off100 (k0_t1 : Fin k0_t1_loop.trips) : Fin 3 → Nat :=
  let c0_861 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_860 : BitVec 32 := 2#32
  let v1082 : BitVec 32 := Scalar.addi v5 c2_i32_860
  let v1083 : Index := Scalar.indexCast v1082
  let c9_862 : Index := 9#32
  ![0, v1083.toNat, 9]
def k0_off101 (v1 : BitVec 32) (v1084 : BitVec 32) : Fin 2 → Nat :=
  let v1085 : BitVec 32 := Scalar.addi v1 v1084
  let c0_i32_866 : BitVec 32 := 0#32
  ![v1085.toNat, 0]

def k0_chk50 (v1 : BitVec 32) (v1084 : BitVec 32) : Prop :=
  (∀ a, (k0_off101 v1 v1084) a + S1x128.size a ≤ S2000000x128.size a)
instance k0_chk50.dec : ∀ (v1 : BitVec 32) (v1084 : BitVec 32), Decidable (k0_chk50 v1 v1084) := fun v1 v1084 => decidable_of_iff' _ (Iff.of_eq (k0_chk50.eq_1 v1 v1084))
theorem k0_off101_inb : ∀ (v1 : BitVec 32) (v1084 : BitVec 32) (k0_hw50 : k0_chk50 v1 v1084), ∀ a, (k0_off101 v1 v1084) a + S1x128.size a ≤ S2000000x128.size a := fun v1 v1084 k0_hw50 => k0_hw50

def k0_off102 (k0_t1 : Fin k0_t1_loop.trips) : Fin 3 → Nat :=
  let c0_879 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_878 : BitVec 32 := 2#32
  let v1104 : BitVec 32 := Scalar.addi v5 c2_i32_878
  let v1105 : Index := Scalar.indexCast v1104
  let c10_880 : Index := 10#32
  ![0, v1105.toNat, 10]
def k0_off103 (v1 : BitVec 32) (v1106 : BitVec 32) : Fin 2 → Nat :=
  let v1107 : BitVec 32 := Scalar.addi v1 v1106
  let c0_i32_884 : BitVec 32 := 0#32
  ![v1107.toNat, 0]

def k0_chk51 (v1 : BitVec 32) (v1106 : BitVec 32) : Prop :=
  (∀ a, (k0_off103 v1 v1106) a + S1x128.size a ≤ S2000000x128.size a)
instance k0_chk51.dec : ∀ (v1 : BitVec 32) (v1106 : BitVec 32), Decidable (k0_chk51 v1 v1106) := fun v1 v1106 => decidable_of_iff' _ (Iff.of_eq (k0_chk51.eq_1 v1 v1106))
theorem k0_off103_inb : ∀ (v1 : BitVec 32) (v1106 : BitVec 32) (k0_hw51 : k0_chk51 v1 v1106), ∀ a, (k0_off103 v1 v1106) a + S1x128.size a ≤ S2000000x128.size a := fun v1 v1106 k0_hw51 => k0_hw51

def k0_off104 (k0_t1 : Fin k0_t1_loop.trips) : Fin 3 → Nat :=
  let c0_897 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_896 : BitVec 32 := 2#32
  let v1126 : BitVec 32 := Scalar.addi v5 c2_i32_896
  let v1127 : Index := Scalar.indexCast v1126
  let c11_898 : Index := 11#32
  ![0, v1127.toNat, 11]
def k0_off105 (v1 : BitVec 32) (v1128 : BitVec 32) : Fin 2 → Nat :=
  let v1129 : BitVec 32 := Scalar.addi v1 v1128
  let c0_i32_902 : BitVec 32 := 0#32
  ![v1129.toNat, 0]

def k0_chk52 (v1 : BitVec 32) (v1128 : BitVec 32) : Prop :=
  (∀ a, (k0_off105 v1 v1128) a + S1x128.size a ≤ S2000000x128.size a)
instance k0_chk52.dec : ∀ (v1 : BitVec 32) (v1128 : BitVec 32), Decidable (k0_chk52 v1 v1128) := fun v1 v1128 => decidable_of_iff' _ (Iff.of_eq (k0_chk52.eq_1 v1 v1128))
theorem k0_off105_inb : ∀ (v1 : BitVec 32) (v1128 : BitVec 32) (k0_hw52 : k0_chk52 v1 v1128), ∀ a, (k0_off105 v1 v1128) a + S1x128.size a ≤ S2000000x128.size a := fun v1 v1128 k0_hw52 => k0_hw52

def k0_off106 (k0_t1 : Fin k0_t1_loop.trips) : Fin 3 → Nat :=
  let c0_915 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_914 : BitVec 32 := 2#32
  let v1148 : BitVec 32 := Scalar.addi v5 c2_i32_914
  let v1149 : Index := Scalar.indexCast v1148
  let c12_916 : Index := 12#32
  ![0, v1149.toNat, 12]
def k0_off107 (v1 : BitVec 32) (v1150 : BitVec 32) : Fin 2 → Nat :=
  let v1151 : BitVec 32 := Scalar.addi v1 v1150
  let c0_i32_920 : BitVec 32 := 0#32
  ![v1151.toNat, 0]

def k0_chk53 (v1 : BitVec 32) (v1150 : BitVec 32) : Prop :=
  (∀ a, (k0_off107 v1 v1150) a + S1x128.size a ≤ S2000000x128.size a)
instance k0_chk53.dec : ∀ (v1 : BitVec 32) (v1150 : BitVec 32), Decidable (k0_chk53 v1 v1150) := fun v1 v1150 => decidable_of_iff' _ (Iff.of_eq (k0_chk53.eq_1 v1 v1150))
theorem k0_off107_inb : ∀ (v1 : BitVec 32) (v1150 : BitVec 32) (k0_hw53 : k0_chk53 v1 v1150), ∀ a, (k0_off107 v1 v1150) a + S1x128.size a ≤ S2000000x128.size a := fun v1 v1150 k0_hw53 => k0_hw53

def k0_off108 (k0_t1 : Fin k0_t1_loop.trips) : Fin 3 → Nat :=
  let c0_933 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_932 : BitVec 32 := 2#32
  let v1170 : BitVec 32 := Scalar.addi v5 c2_i32_932
  let v1171 : Index := Scalar.indexCast v1170
  let c13_934 : Index := 13#32
  ![0, v1171.toNat, 13]
def k0_off109 (v1 : BitVec 32) (v1172 : BitVec 32) : Fin 2 → Nat :=
  let v1173 : BitVec 32 := Scalar.addi v1 v1172
  let c0_i32_938 : BitVec 32 := 0#32
  ![v1173.toNat, 0]

def k0_chk54 (v1 : BitVec 32) (v1172 : BitVec 32) : Prop :=
  (∀ a, (k0_off109 v1 v1172) a + S1x128.size a ≤ S2000000x128.size a)
instance k0_chk54.dec : ∀ (v1 : BitVec 32) (v1172 : BitVec 32), Decidable (k0_chk54 v1 v1172) := fun v1 v1172 => decidable_of_iff' _ (Iff.of_eq (k0_chk54.eq_1 v1 v1172))
theorem k0_off109_inb : ∀ (v1 : BitVec 32) (v1172 : BitVec 32) (k0_hw54 : k0_chk54 v1 v1172), ∀ a, (k0_off109 v1 v1172) a + S1x128.size a ≤ S2000000x128.size a := fun v1 v1172 k0_hw54 => k0_hw54

def k0_off110 (k0_t1 : Fin k0_t1_loop.trips) : Fin 3 → Nat :=
  let c0_951 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_950 : BitVec 32 := 2#32
  let v1192 : BitVec 32 := Scalar.addi v5 c2_i32_950
  let v1193 : Index := Scalar.indexCast v1192
  let c14_952 : Index := 14#32
  ![0, v1193.toNat, 14]
def k0_off111 (v1 : BitVec 32) (v1194 : BitVec 32) : Fin 2 → Nat :=
  let v1195 : BitVec 32 := Scalar.addi v1 v1194
  let c0_i32_956 : BitVec 32 := 0#32
  ![v1195.toNat, 0]

def k0_chk55 (v1 : BitVec 32) (v1194 : BitVec 32) : Prop :=
  (∀ a, (k0_off111 v1 v1194) a + S1x128.size a ≤ S2000000x128.size a)
instance k0_chk55.dec : ∀ (v1 : BitVec 32) (v1194 : BitVec 32), Decidable (k0_chk55 v1 v1194) := fun v1 v1194 => decidable_of_iff' _ (Iff.of_eq (k0_chk55.eq_1 v1 v1194))
theorem k0_off111_inb : ∀ (v1 : BitVec 32) (v1194 : BitVec 32) (k0_hw55 : k0_chk55 v1 v1194), ∀ a, (k0_off111 v1 v1194) a + S1x128.size a ≤ S2000000x128.size a := fun v1 v1194 k0_hw55 => k0_hw55

def k0_off112 (k0_t1 : Fin k0_t1_loop.trips) : Fin 3 → Nat :=
  let c0_969 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_968 : BitVec 32 := 2#32
  let v1214 : BitVec 32 := Scalar.addi v5 c2_i32_968
  let v1215 : Index := Scalar.indexCast v1214
  let c15_970 : Index := 15#32
  ![0, v1215.toNat, 15]
def k0_off113 (v1 : BitVec 32) (v1216 : BitVec 32) : Fin 2 → Nat :=
  let v1217 : BitVec 32 := Scalar.addi v1 v1216
  let c0_i32_974 : BitVec 32 := 0#32
  ![v1217.toNat, 0]

def k0_chk56 (v1 : BitVec 32) (v1216 : BitVec 32) : Prop :=
  (∀ a, (k0_off113 v1 v1216) a + S1x128.size a ≤ S2000000x128.size a)
instance k0_chk56.dec : ∀ (v1 : BitVec 32) (v1216 : BitVec 32), Decidable (k0_chk56 v1 v1216) := fun v1 v1216 => decidable_of_iff' _ (Iff.of_eq (k0_chk56.eq_1 v1 v1216))
theorem k0_off113_inb : ∀ (v1 : BitVec 32) (v1216 : BitVec 32) (k0_hw56 : k0_chk56 v1 v1216), ∀ a, (k0_off113 v1 v1216) a + S1x128.size a ≤ S2000000x128.size a := fun v1 v1216 k0_hw56 => k0_hw56

def k0_off114 (k0_t1 : Fin k0_t1_loop.trips) : Fin 3 → Nat :=
  let c0_987 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_986 : BitVec 32 := 2#32
  let v1236 : BitVec 32 := Scalar.addi v5 c2_i32_986
  let v1237 : Index := Scalar.indexCast v1236
  let c16_988 : Index := 16#32
  ![0, v1237.toNat, 16]
def k0_off115 (v1 : BitVec 32) (v1238 : BitVec 32) : Fin 2 → Nat :=
  let v1239 : BitVec 32 := Scalar.addi v1 v1238
  let c0_i32_992 : BitVec 32 := 0#32
  ![v1239.toNat, 0]

def k0_chk57 (v1 : BitVec 32) (v1238 : BitVec 32) : Prop :=
  (∀ a, (k0_off115 v1 v1238) a + S1x128.size a ≤ S2000000x128.size a)
instance k0_chk57.dec : ∀ (v1 : BitVec 32) (v1238 : BitVec 32), Decidable (k0_chk57 v1 v1238) := fun v1 v1238 => decidable_of_iff' _ (Iff.of_eq (k0_chk57.eq_1 v1 v1238))
theorem k0_off115_inb : ∀ (v1 : BitVec 32) (v1238 : BitVec 32) (k0_hw57 : k0_chk57 v1 v1238), ∀ a, (k0_off115 v1 v1238) a + S1x128.size a ≤ S2000000x128.size a := fun v1 v1238 k0_hw57 => k0_hw57

def k0_off116 (k0_t1 : Fin k0_t1_loop.trips) : Fin 3 → Nat :=
  let c0_1005 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_1004 : BitVec 32 := 2#32
  let v1258 : BitVec 32 := Scalar.addi v5 c2_i32_1004
  let v1259 : Index := Scalar.indexCast v1258
  let c17_1006 : Index := 17#32
  ![0, v1259.toNat, 17]
def k0_off117 (v1 : BitVec 32) (v1260 : BitVec 32) : Fin 2 → Nat :=
  let v1261 : BitVec 32 := Scalar.addi v1 v1260
  let c0_i32_1010 : BitVec 32 := 0#32
  ![v1261.toNat, 0]

def k0_chk58 (v1 : BitVec 32) (v1260 : BitVec 32) : Prop :=
  (∀ a, (k0_off117 v1 v1260) a + S1x128.size a ≤ S2000000x128.size a)
instance k0_chk58.dec : ∀ (v1 : BitVec 32) (v1260 : BitVec 32), Decidable (k0_chk58 v1 v1260) := fun v1 v1260 => decidable_of_iff' _ (Iff.of_eq (k0_chk58.eq_1 v1 v1260))
theorem k0_off117_inb : ∀ (v1 : BitVec 32) (v1260 : BitVec 32) (k0_hw58 : k0_chk58 v1 v1260), ∀ a, (k0_off117 v1 v1260) a + S1x128.size a ≤ S2000000x128.size a := fun v1 v1260 k0_hw58 => k0_hw58

def k0_off118 (k0_t1 : Fin k0_t1_loop.trips) : Fin 3 → Nat :=
  let c0_1023 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_1022 : BitVec 32 := 2#32
  let v1280 : BitVec 32 := Scalar.addi v5 c2_i32_1022
  let v1281 : Index := Scalar.indexCast v1280
  let c18_1024 : Index := 18#32
  ![0, v1281.toNat, 18]
def k0_off119 (v1 : BitVec 32) (v1282 : BitVec 32) : Fin 2 → Nat :=
  let v1283 : BitVec 32 := Scalar.addi v1 v1282
  let c0_i32_1028 : BitVec 32 := 0#32
  ![v1283.toNat, 0]

def k0_chk59 (v1 : BitVec 32) (v1282 : BitVec 32) : Prop :=
  (∀ a, (k0_off119 v1 v1282) a + S1x128.size a ≤ S2000000x128.size a)
instance k0_chk59.dec : ∀ (v1 : BitVec 32) (v1282 : BitVec 32), Decidable (k0_chk59 v1 v1282) := fun v1 v1282 => decidable_of_iff' _ (Iff.of_eq (k0_chk59.eq_1 v1 v1282))
theorem k0_off119_inb : ∀ (v1 : BitVec 32) (v1282 : BitVec 32) (k0_hw59 : k0_chk59 v1 v1282), ∀ a, (k0_off119 v1 v1282) a + S1x128.size a ≤ S2000000x128.size a := fun v1 v1282 k0_hw59 => k0_hw59

def k0_off120 (k0_t1 : Fin k0_t1_loop.trips) : Fin 3 → Nat :=
  let c0_1041 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c2_i32_1040 : BitVec 32 := 2#32
  let v1302 : BitVec 32 := Scalar.addi v5 c2_i32_1040
  let v1303 : Index := Scalar.indexCast v1302
  let c19_1042 : Index := 19#32
  ![0, v1303.toNat, 19]
def k0_off121 (v1 : BitVec 32) (v1304 : BitVec 32) : Fin 2 → Nat :=
  let v1305 : BitVec 32 := Scalar.addi v1 v1304
  let c0_i32_1046 : BitVec 32 := 0#32
  ![v1305.toNat, 0]

def k0_chk60 (v1 : BitVec 32) (v1304 : BitVec 32) : Prop :=
  (∀ a, (k0_off121 v1 v1304) a + S1x128.size a ≤ S2000000x128.size a)
instance k0_chk60.dec : ∀ (v1 : BitVec 32) (v1304 : BitVec 32), Decidable (k0_chk60 v1 v1304) := fun v1 v1304 => decidable_of_iff' _ (Iff.of_eq (k0_chk60.eq_1 v1 v1304))
theorem k0_off121_inb : ∀ (v1 : BitVec 32) (v1304 : BitVec 32) (k0_hw60 : k0_chk60 v1 v1304), ∀ a, (k0_off121 v1 v1304) a + S1x128.size a ≤ S2000000x128.size a := fun v1 v1304 k0_hw60 => k0_hw60

def k0_off122 (k0_t1 : Fin k0_t1_loop.trips) : Fin 3 → Nat :=
  let c0_1058 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32 : BitVec 32 := 3#32
  let v1324 : BitVec 32 := Scalar.addi v5 c3_i32
  let v1325 : Index := Scalar.indexCast v1324
  let c0_1059 : Index := 0#32
  ![0, v1325.toNat, 0]
def k0_off123 (v1 : BitVec 32) (v1326 : BitVec 32) : Fin 2 → Nat :=
  let v1327 : BitVec 32 := Scalar.addi v1 v1326
  let c0_i32_1063 : BitVec 32 := 0#32
  ![v1327.toNat, 0]

def k0_chk61 (v1 : BitVec 32) (v1326 : BitVec 32) : Prop :=
  (∀ a, (k0_off123 v1 v1326) a + S1x128.size a ≤ S2000000x128.size a)
instance k0_chk61.dec : ∀ (v1 : BitVec 32) (v1326 : BitVec 32), Decidable (k0_chk61 v1 v1326) := fun v1 v1326 => decidable_of_iff' _ (Iff.of_eq (k0_chk61.eq_1 v1 v1326))
theorem k0_off123_inb : ∀ (v1 : BitVec 32) (v1326 : BitVec 32) (k0_hw61 : k0_chk61 v1 v1326), ∀ a, (k0_off123 v1 v1326) a + S1x128.size a ≤ S2000000x128.size a := fun v1 v1326 k0_hw61 => k0_hw61

def k0_off124 (k0_t1 : Fin k0_t1_loop.trips) : Fin 3 → Nat :=
  let c0_1076 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1075 : BitVec 32 := 3#32
  let v1346 : BitVec 32 := Scalar.addi v5 c3_i32_1075
  let v1347 : Index := Scalar.indexCast v1346
  let c1_1077 : Index := 1#32
  ![0, v1347.toNat, 1]
def k0_off125 (v1 : BitVec 32) (v1348 : BitVec 32) : Fin 2 → Nat :=
  let v1349 : BitVec 32 := Scalar.addi v1 v1348
  let c0_i32_1081 : BitVec 32 := 0#32
  ![v1349.toNat, 0]

def k0_chk62 (v1 : BitVec 32) (v1348 : BitVec 32) : Prop :=
  (∀ a, (k0_off125 v1 v1348) a + S1x128.size a ≤ S2000000x128.size a)
instance k0_chk62.dec : ∀ (v1 : BitVec 32) (v1348 : BitVec 32), Decidable (k0_chk62 v1 v1348) := fun v1 v1348 => decidable_of_iff' _ (Iff.of_eq (k0_chk62.eq_1 v1 v1348))
theorem k0_off125_inb : ∀ (v1 : BitVec 32) (v1348 : BitVec 32) (k0_hw62 : k0_chk62 v1 v1348), ∀ a, (k0_off125 v1 v1348) a + S1x128.size a ≤ S2000000x128.size a := fun v1 v1348 k0_hw62 => k0_hw62

def k0_off126 (k0_t1 : Fin k0_t1_loop.trips) : Fin 3 → Nat :=
  let c0_1094 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1093 : BitVec 32 := 3#32
  let v1368 : BitVec 32 := Scalar.addi v5 c3_i32_1093
  let v1369 : Index := Scalar.indexCast v1368
  let c2_1095 : Index := 2#32
  ![0, v1369.toNat, 2]
def k0_off127 (v1 : BitVec 32) (v1370 : BitVec 32) : Fin 2 → Nat :=
  let v1371 : BitVec 32 := Scalar.addi v1 v1370
  let c0_i32_1099 : BitVec 32 := 0#32
  ![v1371.toNat, 0]

def k0_chk63 (v1 : BitVec 32) (v1370 : BitVec 32) : Prop :=
  (∀ a, (k0_off127 v1 v1370) a + S1x128.size a ≤ S2000000x128.size a)
instance k0_chk63.dec : ∀ (v1 : BitVec 32) (v1370 : BitVec 32), Decidable (k0_chk63 v1 v1370) := fun v1 v1370 => decidable_of_iff' _ (Iff.of_eq (k0_chk63.eq_1 v1 v1370))
theorem k0_off127_inb : ∀ (v1 : BitVec 32) (v1370 : BitVec 32) (k0_hw63 : k0_chk63 v1 v1370), ∀ a, (k0_off127 v1 v1370) a + S1x128.size a ≤ S2000000x128.size a := fun v1 v1370 k0_hw63 => k0_hw63

def k0_off128 (k0_t1 : Fin k0_t1_loop.trips) : Fin 3 → Nat :=
  let c0_1112 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1111 : BitVec 32 := 3#32
  let v1390 : BitVec 32 := Scalar.addi v5 c3_i32_1111
  let v1391 : Index := Scalar.indexCast v1390
  let c3_1113 : Index := 3#32
  ![0, v1391.toNat, 3]
def k0_off129 (v1 : BitVec 32) (v1392 : BitVec 32) : Fin 2 → Nat :=
  let v1393 : BitVec 32 := Scalar.addi v1 v1392
  let c0_i32_1117 : BitVec 32 := 0#32
  ![v1393.toNat, 0]

def k0_chk64 (v1 : BitVec 32) (v1392 : BitVec 32) : Prop :=
  (∀ a, (k0_off129 v1 v1392) a + S1x128.size a ≤ S2000000x128.size a)
instance k0_chk64.dec : ∀ (v1 : BitVec 32) (v1392 : BitVec 32), Decidable (k0_chk64 v1 v1392) := fun v1 v1392 => decidable_of_iff' _ (Iff.of_eq (k0_chk64.eq_1 v1 v1392))
theorem k0_off129_inb : ∀ (v1 : BitVec 32) (v1392 : BitVec 32) (k0_hw64 : k0_chk64 v1 v1392), ∀ a, (k0_off129 v1 v1392) a + S1x128.size a ≤ S2000000x128.size a := fun v1 v1392 k0_hw64 => k0_hw64

def k0_off130 (k0_t1 : Fin k0_t1_loop.trips) : Fin 3 → Nat :=
  let c0_1130 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1129 : BitVec 32 := 3#32
  let v1412 : BitVec 32 := Scalar.addi v5 c3_i32_1129
  let v1413 : Index := Scalar.indexCast v1412
  let c4_1131 : Index := 4#32
  ![0, v1413.toNat, 4]
def k0_off131 (v1 : BitVec 32) (v1414 : BitVec 32) : Fin 2 → Nat :=
  let v1415 : BitVec 32 := Scalar.addi v1 v1414
  let c0_i32_1135 : BitVec 32 := 0#32
  ![v1415.toNat, 0]

def k0_chk65 (v1 : BitVec 32) (v1414 : BitVec 32) : Prop :=
  (∀ a, (k0_off131 v1 v1414) a + S1x128.size a ≤ S2000000x128.size a)
instance k0_chk65.dec : ∀ (v1 : BitVec 32) (v1414 : BitVec 32), Decidable (k0_chk65 v1 v1414) := fun v1 v1414 => decidable_of_iff' _ (Iff.of_eq (k0_chk65.eq_1 v1 v1414))
theorem k0_off131_inb : ∀ (v1 : BitVec 32) (v1414 : BitVec 32) (k0_hw65 : k0_chk65 v1 v1414), ∀ a, (k0_off131 v1 v1414) a + S1x128.size a ≤ S2000000x128.size a := fun v1 v1414 k0_hw65 => k0_hw65

def k0_off132 (k0_t1 : Fin k0_t1_loop.trips) : Fin 3 → Nat :=
  let c0_1148 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1147 : BitVec 32 := 3#32
  let v1434 : BitVec 32 := Scalar.addi v5 c3_i32_1147
  let v1435 : Index := Scalar.indexCast v1434
  let c5_1149 : Index := 5#32
  ![0, v1435.toNat, 5]
def k0_off133 (v1 : BitVec 32) (v1436 : BitVec 32) : Fin 2 → Nat :=
  let v1437 : BitVec 32 := Scalar.addi v1 v1436
  let c0_i32_1153 : BitVec 32 := 0#32
  ![v1437.toNat, 0]

def k0_chk66 (v1 : BitVec 32) (v1436 : BitVec 32) : Prop :=
  (∀ a, (k0_off133 v1 v1436) a + S1x128.size a ≤ S2000000x128.size a)
instance k0_chk66.dec : ∀ (v1 : BitVec 32) (v1436 : BitVec 32), Decidable (k0_chk66 v1 v1436) := fun v1 v1436 => decidable_of_iff' _ (Iff.of_eq (k0_chk66.eq_1 v1 v1436))
theorem k0_off133_inb : ∀ (v1 : BitVec 32) (v1436 : BitVec 32) (k0_hw66 : k0_chk66 v1 v1436), ∀ a, (k0_off133 v1 v1436) a + S1x128.size a ≤ S2000000x128.size a := fun v1 v1436 k0_hw66 => k0_hw66

def k0_off134 (k0_t1 : Fin k0_t1_loop.trips) : Fin 3 → Nat :=
  let c0_1166 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1165 : BitVec 32 := 3#32
  let v1456 : BitVec 32 := Scalar.addi v5 c3_i32_1165
  let v1457 : Index := Scalar.indexCast v1456
  let c6_1167 : Index := 6#32
  ![0, v1457.toNat, 6]
def k0_off135 (v1 : BitVec 32) (v1458 : BitVec 32) : Fin 2 → Nat :=
  let v1459 : BitVec 32 := Scalar.addi v1 v1458
  let c0_i32_1171 : BitVec 32 := 0#32
  ![v1459.toNat, 0]

def k0_chk67 (v1 : BitVec 32) (v1458 : BitVec 32) : Prop :=
  (∀ a, (k0_off135 v1 v1458) a + S1x128.size a ≤ S2000000x128.size a)
instance k0_chk67.dec : ∀ (v1 : BitVec 32) (v1458 : BitVec 32), Decidable (k0_chk67 v1 v1458) := fun v1 v1458 => decidable_of_iff' _ (Iff.of_eq (k0_chk67.eq_1 v1 v1458))
theorem k0_off135_inb : ∀ (v1 : BitVec 32) (v1458 : BitVec 32) (k0_hw67 : k0_chk67 v1 v1458), ∀ a, (k0_off135 v1 v1458) a + S1x128.size a ≤ S2000000x128.size a := fun v1 v1458 k0_hw67 => k0_hw67

def k0_off136 (k0_t1 : Fin k0_t1_loop.trips) : Fin 3 → Nat :=
  let c0_1184 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1183 : BitVec 32 := 3#32
  let v1478 : BitVec 32 := Scalar.addi v5 c3_i32_1183
  let v1479 : Index := Scalar.indexCast v1478
  let c7_1185 : Index := 7#32
  ![0, v1479.toNat, 7]
def k0_off137 (v1 : BitVec 32) (v1480 : BitVec 32) : Fin 2 → Nat :=
  let v1481 : BitVec 32 := Scalar.addi v1 v1480
  let c0_i32_1189 : BitVec 32 := 0#32
  ![v1481.toNat, 0]

def k0_chk68 (v1 : BitVec 32) (v1480 : BitVec 32) : Prop :=
  (∀ a, (k0_off137 v1 v1480) a + S1x128.size a ≤ S2000000x128.size a)
instance k0_chk68.dec : ∀ (v1 : BitVec 32) (v1480 : BitVec 32), Decidable (k0_chk68 v1 v1480) := fun v1 v1480 => decidable_of_iff' _ (Iff.of_eq (k0_chk68.eq_1 v1 v1480))
theorem k0_off137_inb : ∀ (v1 : BitVec 32) (v1480 : BitVec 32) (k0_hw68 : k0_chk68 v1 v1480), ∀ a, (k0_off137 v1 v1480) a + S1x128.size a ≤ S2000000x128.size a := fun v1 v1480 k0_hw68 => k0_hw68

def k0_off138 (k0_t1 : Fin k0_t1_loop.trips) : Fin 3 → Nat :=
  let c0_1202 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1201 : BitVec 32 := 3#32
  let v1500 : BitVec 32 := Scalar.addi v5 c3_i32_1201
  let v1501 : Index := Scalar.indexCast v1500
  let c8_1203 : Index := 8#32
  ![0, v1501.toNat, 8]
def k0_off139 (v1 : BitVec 32) (v1502 : BitVec 32) : Fin 2 → Nat :=
  let v1503 : BitVec 32 := Scalar.addi v1 v1502
  let c0_i32_1207 : BitVec 32 := 0#32
  ![v1503.toNat, 0]

def k0_chk69 (v1 : BitVec 32) (v1502 : BitVec 32) : Prop :=
  (∀ a, (k0_off139 v1 v1502) a + S1x128.size a ≤ S2000000x128.size a)
instance k0_chk69.dec : ∀ (v1 : BitVec 32) (v1502 : BitVec 32), Decidable (k0_chk69 v1 v1502) := fun v1 v1502 => decidable_of_iff' _ (Iff.of_eq (k0_chk69.eq_1 v1 v1502))
theorem k0_off139_inb : ∀ (v1 : BitVec 32) (v1502 : BitVec 32) (k0_hw69 : k0_chk69 v1 v1502), ∀ a, (k0_off139 v1 v1502) a + S1x128.size a ≤ S2000000x128.size a := fun v1 v1502 k0_hw69 => k0_hw69

def k0_off140 (k0_t1 : Fin k0_t1_loop.trips) : Fin 3 → Nat :=
  let c0_1220 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1219 : BitVec 32 := 3#32
  let v1522 : BitVec 32 := Scalar.addi v5 c3_i32_1219
  let v1523 : Index := Scalar.indexCast v1522
  let c9_1221 : Index := 9#32
  ![0, v1523.toNat, 9]
def k0_off141 (v1 : BitVec 32) (v1524 : BitVec 32) : Fin 2 → Nat :=
  let v1525 : BitVec 32 := Scalar.addi v1 v1524
  let c0_i32_1225 : BitVec 32 := 0#32
  ![v1525.toNat, 0]

def k0_chk70 (v1 : BitVec 32) (v1524 : BitVec 32) : Prop :=
  (∀ a, (k0_off141 v1 v1524) a + S1x128.size a ≤ S2000000x128.size a)
instance k0_chk70.dec : ∀ (v1 : BitVec 32) (v1524 : BitVec 32), Decidable (k0_chk70 v1 v1524) := fun v1 v1524 => decidable_of_iff' _ (Iff.of_eq (k0_chk70.eq_1 v1 v1524))
theorem k0_off141_inb : ∀ (v1 : BitVec 32) (v1524 : BitVec 32) (k0_hw70 : k0_chk70 v1 v1524), ∀ a, (k0_off141 v1 v1524) a + S1x128.size a ≤ S2000000x128.size a := fun v1 v1524 k0_hw70 => k0_hw70

def k0_off142 (k0_t1 : Fin k0_t1_loop.trips) : Fin 3 → Nat :=
  let c0_1238 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1237 : BitVec 32 := 3#32
  let v1544 : BitVec 32 := Scalar.addi v5 c3_i32_1237
  let v1545 : Index := Scalar.indexCast v1544
  let c10_1239 : Index := 10#32
  ![0, v1545.toNat, 10]
def k0_off143 (v1 : BitVec 32) (v1546 : BitVec 32) : Fin 2 → Nat :=
  let v1547 : BitVec 32 := Scalar.addi v1 v1546
  let c0_i32_1243 : BitVec 32 := 0#32
  ![v1547.toNat, 0]

def k0_chk71 (v1 : BitVec 32) (v1546 : BitVec 32) : Prop :=
  (∀ a, (k0_off143 v1 v1546) a + S1x128.size a ≤ S2000000x128.size a)
instance k0_chk71.dec : ∀ (v1 : BitVec 32) (v1546 : BitVec 32), Decidable (k0_chk71 v1 v1546) := fun v1 v1546 => decidable_of_iff' _ (Iff.of_eq (k0_chk71.eq_1 v1 v1546))
theorem k0_off143_inb : ∀ (v1 : BitVec 32) (v1546 : BitVec 32) (k0_hw71 : k0_chk71 v1 v1546), ∀ a, (k0_off143 v1 v1546) a + S1x128.size a ≤ S2000000x128.size a := fun v1 v1546 k0_hw71 => k0_hw71

def k0_off144 (k0_t1 : Fin k0_t1_loop.trips) : Fin 3 → Nat :=
  let c0_1256 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1255 : BitVec 32 := 3#32
  let v1566 : BitVec 32 := Scalar.addi v5 c3_i32_1255
  let v1567 : Index := Scalar.indexCast v1566
  let c11_1257 : Index := 11#32
  ![0, v1567.toNat, 11]
def k0_off145 (v1 : BitVec 32) (v1568 : BitVec 32) : Fin 2 → Nat :=
  let v1569 : BitVec 32 := Scalar.addi v1 v1568
  let c0_i32_1261 : BitVec 32 := 0#32
  ![v1569.toNat, 0]

def k0_chk72 (v1 : BitVec 32) (v1568 : BitVec 32) : Prop :=
  (∀ a, (k0_off145 v1 v1568) a + S1x128.size a ≤ S2000000x128.size a)
instance k0_chk72.dec : ∀ (v1 : BitVec 32) (v1568 : BitVec 32), Decidable (k0_chk72 v1 v1568) := fun v1 v1568 => decidable_of_iff' _ (Iff.of_eq (k0_chk72.eq_1 v1 v1568))
theorem k0_off145_inb : ∀ (v1 : BitVec 32) (v1568 : BitVec 32) (k0_hw72 : k0_chk72 v1 v1568), ∀ a, (k0_off145 v1 v1568) a + S1x128.size a ≤ S2000000x128.size a := fun v1 v1568 k0_hw72 => k0_hw72

def k0_off146 (k0_t1 : Fin k0_t1_loop.trips) : Fin 3 → Nat :=
  let c0_1274 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1273 : BitVec 32 := 3#32
  let v1588 : BitVec 32 := Scalar.addi v5 c3_i32_1273
  let v1589 : Index := Scalar.indexCast v1588
  let c12_1275 : Index := 12#32
  ![0, v1589.toNat, 12]
def k0_off147 (v1 : BitVec 32) (v1590 : BitVec 32) : Fin 2 → Nat :=
  let v1591 : BitVec 32 := Scalar.addi v1 v1590
  let c0_i32_1279 : BitVec 32 := 0#32
  ![v1591.toNat, 0]

def k0_chk73 (v1 : BitVec 32) (v1590 : BitVec 32) : Prop :=
  (∀ a, (k0_off147 v1 v1590) a + S1x128.size a ≤ S2000000x128.size a)
instance k0_chk73.dec : ∀ (v1 : BitVec 32) (v1590 : BitVec 32), Decidable (k0_chk73 v1 v1590) := fun v1 v1590 => decidable_of_iff' _ (Iff.of_eq (k0_chk73.eq_1 v1 v1590))
theorem k0_off147_inb : ∀ (v1 : BitVec 32) (v1590 : BitVec 32) (k0_hw73 : k0_chk73 v1 v1590), ∀ a, (k0_off147 v1 v1590) a + S1x128.size a ≤ S2000000x128.size a := fun v1 v1590 k0_hw73 => k0_hw73

def k0_off148 (k0_t1 : Fin k0_t1_loop.trips) : Fin 3 → Nat :=
  let c0_1292 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1291 : BitVec 32 := 3#32
  let v1610 : BitVec 32 := Scalar.addi v5 c3_i32_1291
  let v1611 : Index := Scalar.indexCast v1610
  let c13_1293 : Index := 13#32
  ![0, v1611.toNat, 13]
def k0_off149 (v1 : BitVec 32) (v1612 : BitVec 32) : Fin 2 → Nat :=
  let v1613 : BitVec 32 := Scalar.addi v1 v1612
  let c0_i32_1297 : BitVec 32 := 0#32
  ![v1613.toNat, 0]

def k0_chk74 (v1 : BitVec 32) (v1612 : BitVec 32) : Prop :=
  (∀ a, (k0_off149 v1 v1612) a + S1x128.size a ≤ S2000000x128.size a)
instance k0_chk74.dec : ∀ (v1 : BitVec 32) (v1612 : BitVec 32), Decidable (k0_chk74 v1 v1612) := fun v1 v1612 => decidable_of_iff' _ (Iff.of_eq (k0_chk74.eq_1 v1 v1612))
theorem k0_off149_inb : ∀ (v1 : BitVec 32) (v1612 : BitVec 32) (k0_hw74 : k0_chk74 v1 v1612), ∀ a, (k0_off149 v1 v1612) a + S1x128.size a ≤ S2000000x128.size a := fun v1 v1612 k0_hw74 => k0_hw74

def k0_off150 (k0_t1 : Fin k0_t1_loop.trips) : Fin 3 → Nat :=
  let c0_1310 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1309 : BitVec 32 := 3#32
  let v1632 : BitVec 32 := Scalar.addi v5 c3_i32_1309
  let v1633 : Index := Scalar.indexCast v1632
  let c14_1311 : Index := 14#32
  ![0, v1633.toNat, 14]
def k0_off151 (v1 : BitVec 32) (v1634 : BitVec 32) : Fin 2 → Nat :=
  let v1635 : BitVec 32 := Scalar.addi v1 v1634
  let c0_i32_1315 : BitVec 32 := 0#32
  ![v1635.toNat, 0]

def k0_chk75 (v1 : BitVec 32) (v1634 : BitVec 32) : Prop :=
  (∀ a, (k0_off151 v1 v1634) a + S1x128.size a ≤ S2000000x128.size a)
instance k0_chk75.dec : ∀ (v1 : BitVec 32) (v1634 : BitVec 32), Decidable (k0_chk75 v1 v1634) := fun v1 v1634 => decidable_of_iff' _ (Iff.of_eq (k0_chk75.eq_1 v1 v1634))
theorem k0_off151_inb : ∀ (v1 : BitVec 32) (v1634 : BitVec 32) (k0_hw75 : k0_chk75 v1 v1634), ∀ a, (k0_off151 v1 v1634) a + S1x128.size a ≤ S2000000x128.size a := fun v1 v1634 k0_hw75 => k0_hw75

def k0_off152 (k0_t1 : Fin k0_t1_loop.trips) : Fin 3 → Nat :=
  let c0_1328 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1327 : BitVec 32 := 3#32
  let v1654 : BitVec 32 := Scalar.addi v5 c3_i32_1327
  let v1655 : Index := Scalar.indexCast v1654
  let c15_1329 : Index := 15#32
  ![0, v1655.toNat, 15]
def k0_off153 (v1 : BitVec 32) (v1656 : BitVec 32) : Fin 2 → Nat :=
  let v1657 : BitVec 32 := Scalar.addi v1 v1656
  let c0_i32_1333 : BitVec 32 := 0#32
  ![v1657.toNat, 0]

def k0_chk76 (v1 : BitVec 32) (v1656 : BitVec 32) : Prop :=
  (∀ a, (k0_off153 v1 v1656) a + S1x128.size a ≤ S2000000x128.size a)
instance k0_chk76.dec : ∀ (v1 : BitVec 32) (v1656 : BitVec 32), Decidable (k0_chk76 v1 v1656) := fun v1 v1656 => decidable_of_iff' _ (Iff.of_eq (k0_chk76.eq_1 v1 v1656))
theorem k0_off153_inb : ∀ (v1 : BitVec 32) (v1656 : BitVec 32) (k0_hw76 : k0_chk76 v1 v1656), ∀ a, (k0_off153 v1 v1656) a + S1x128.size a ≤ S2000000x128.size a := fun v1 v1656 k0_hw76 => k0_hw76

def k0_off154 (k0_t1 : Fin k0_t1_loop.trips) : Fin 3 → Nat :=
  let c0_1346 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1345 : BitVec 32 := 3#32
  let v1676 : BitVec 32 := Scalar.addi v5 c3_i32_1345
  let v1677 : Index := Scalar.indexCast v1676
  let c16_1347 : Index := 16#32
  ![0, v1677.toNat, 16]
def k0_off155 (v1 : BitVec 32) (v1678 : BitVec 32) : Fin 2 → Nat :=
  let v1679 : BitVec 32 := Scalar.addi v1 v1678
  let c0_i32_1351 : BitVec 32 := 0#32
  ![v1679.toNat, 0]

def k0_chk77 (v1 : BitVec 32) (v1678 : BitVec 32) : Prop :=
  (∀ a, (k0_off155 v1 v1678) a + S1x128.size a ≤ S2000000x128.size a)
instance k0_chk77.dec : ∀ (v1 : BitVec 32) (v1678 : BitVec 32), Decidable (k0_chk77 v1 v1678) := fun v1 v1678 => decidable_of_iff' _ (Iff.of_eq (k0_chk77.eq_1 v1 v1678))
theorem k0_off155_inb : ∀ (v1 : BitVec 32) (v1678 : BitVec 32) (k0_hw77 : k0_chk77 v1 v1678), ∀ a, (k0_off155 v1 v1678) a + S1x128.size a ≤ S2000000x128.size a := fun v1 v1678 k0_hw77 => k0_hw77

def k0_off156 (k0_t1 : Fin k0_t1_loop.trips) : Fin 3 → Nat :=
  let c0_1364 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1363 : BitVec 32 := 3#32
  let v1698 : BitVec 32 := Scalar.addi v5 c3_i32_1363
  let v1699 : Index := Scalar.indexCast v1698
  let c17_1365 : Index := 17#32
  ![0, v1699.toNat, 17]
def k0_off157 (v1 : BitVec 32) (v1700 : BitVec 32) : Fin 2 → Nat :=
  let v1701 : BitVec 32 := Scalar.addi v1 v1700
  let c0_i32_1369 : BitVec 32 := 0#32
  ![v1701.toNat, 0]

def k0_chk78 (v1 : BitVec 32) (v1700 : BitVec 32) : Prop :=
  (∀ a, (k0_off157 v1 v1700) a + S1x128.size a ≤ S2000000x128.size a)
instance k0_chk78.dec : ∀ (v1 : BitVec 32) (v1700 : BitVec 32), Decidable (k0_chk78 v1 v1700) := fun v1 v1700 => decidable_of_iff' _ (Iff.of_eq (k0_chk78.eq_1 v1 v1700))
theorem k0_off157_inb : ∀ (v1 : BitVec 32) (v1700 : BitVec 32) (k0_hw78 : k0_chk78 v1 v1700), ∀ a, (k0_off157 v1 v1700) a + S1x128.size a ≤ S2000000x128.size a := fun v1 v1700 k0_hw78 => k0_hw78

def k0_off158 (k0_t1 : Fin k0_t1_loop.trips) : Fin 3 → Nat :=
  let c0_1382 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1381 : BitVec 32 := 3#32
  let v1720 : BitVec 32 := Scalar.addi v5 c3_i32_1381
  let v1721 : Index := Scalar.indexCast v1720
  let c18_1383 : Index := 18#32
  ![0, v1721.toNat, 18]
def k0_off159 (v1 : BitVec 32) (v1722 : BitVec 32) : Fin 2 → Nat :=
  let v1723 : BitVec 32 := Scalar.addi v1 v1722
  let c0_i32_1387 : BitVec 32 := 0#32
  ![v1723.toNat, 0]

def k0_chk79 (v1 : BitVec 32) (v1722 : BitVec 32) : Prop :=
  (∀ a, (k0_off159 v1 v1722) a + S1x128.size a ≤ S2000000x128.size a)
instance k0_chk79.dec : ∀ (v1 : BitVec 32) (v1722 : BitVec 32), Decidable (k0_chk79 v1 v1722) := fun v1 v1722 => decidable_of_iff' _ (Iff.of_eq (k0_chk79.eq_1 v1 v1722))
theorem k0_off159_inb : ∀ (v1 : BitVec 32) (v1722 : BitVec 32) (k0_hw79 : k0_chk79 v1 v1722), ∀ a, (k0_off159 v1 v1722) a + S1x128.size a ≤ S2000000x128.size a := fun v1 v1722 k0_hw79 => k0_hw79

def k0_off160 (k0_t1 : Fin k0_t1_loop.trips) : Fin 3 → Nat :=
  let c0_1400 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c3_i32_1399 : BitVec 32 := 3#32
  let v1742 : BitVec 32 := Scalar.addi v5 c3_i32_1399
  let v1743 : Index := Scalar.indexCast v1742
  let c19_1401 : Index := 19#32
  ![0, v1743.toNat, 19]
def k0_off161 (v1 : BitVec 32) (v1744 : BitVec 32) : Fin 2 → Nat :=
  let v1745 : BitVec 32 := Scalar.addi v1 v1744
  let c0_i32_1405 : BitVec 32 := 0#32
  ![v1745.toNat, 0]

def k0_chk80 (v1 : BitVec 32) (v1744 : BitVec 32) : Prop :=
  (∀ a, (k0_off161 v1 v1744) a + S1x128.size a ≤ S2000000x128.size a)
instance k0_chk80.dec : ∀ (v1 : BitVec 32) (v1744 : BitVec 32), Decidable (k0_chk80 v1 v1744) := fun v1 v1744 => decidable_of_iff' _ (Iff.of_eq (k0_chk80.eq_1 v1 v1744))
theorem k0_off161_inb : ∀ (v1 : BitVec 32) (v1744 : BitVec 32) (k0_hw80 : k0_chk80 v1 v1744), ∀ a, (k0_off161 v1 v1744) a + S1x128.size a ≤ S2000000x128.size a := fun v1 v1744 k0_hw80 => k0_hw80

def k0_off162 (k0_t1 : Fin k0_t1_loop.trips) : Fin 3 → Nat :=
  let c0_1417 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32 : BitVec 32 := 4#32
  let v1764 : BitVec 32 := Scalar.addi v5 c4_i32
  let v1765 : Index := Scalar.indexCast v1764
  let c0_1418 : Index := 0#32
  ![0, v1765.toNat, 0]
def k0_off163 (v1 : BitVec 32) (v1766 : BitVec 32) : Fin 2 → Nat :=
  let v1767 : BitVec 32 := Scalar.addi v1 v1766
  let c0_i32_1422 : BitVec 32 := 0#32
  ![v1767.toNat, 0]

def k0_chk81 (v1 : BitVec 32) (v1766 : BitVec 32) : Prop :=
  (∀ a, (k0_off163 v1 v1766) a + S1x128.size a ≤ S2000000x128.size a)
instance k0_chk81.dec : ∀ (v1 : BitVec 32) (v1766 : BitVec 32), Decidable (k0_chk81 v1 v1766) := fun v1 v1766 => decidable_of_iff' _ (Iff.of_eq (k0_chk81.eq_1 v1 v1766))
theorem k0_off163_inb : ∀ (v1 : BitVec 32) (v1766 : BitVec 32) (k0_hw81 : k0_chk81 v1 v1766), ∀ a, (k0_off163 v1 v1766) a + S1x128.size a ≤ S2000000x128.size a := fun v1 v1766 k0_hw81 => k0_hw81

def k0_off164 (k0_t1 : Fin k0_t1_loop.trips) : Fin 3 → Nat :=
  let c0_1435 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1434 : BitVec 32 := 4#32
  let v1786 : BitVec 32 := Scalar.addi v5 c4_i32_1434
  let v1787 : Index := Scalar.indexCast v1786
  let c1_1436 : Index := 1#32
  ![0, v1787.toNat, 1]
def k0_off165 (v1 : BitVec 32) (v1788 : BitVec 32) : Fin 2 → Nat :=
  let v1789 : BitVec 32 := Scalar.addi v1 v1788
  let c0_i32_1440 : BitVec 32 := 0#32
  ![v1789.toNat, 0]

def k0_chk82 (v1 : BitVec 32) (v1788 : BitVec 32) : Prop :=
  (∀ a, (k0_off165 v1 v1788) a + S1x128.size a ≤ S2000000x128.size a)
instance k0_chk82.dec : ∀ (v1 : BitVec 32) (v1788 : BitVec 32), Decidable (k0_chk82 v1 v1788) := fun v1 v1788 => decidable_of_iff' _ (Iff.of_eq (k0_chk82.eq_1 v1 v1788))
theorem k0_off165_inb : ∀ (v1 : BitVec 32) (v1788 : BitVec 32) (k0_hw82 : k0_chk82 v1 v1788), ∀ a, (k0_off165 v1 v1788) a + S1x128.size a ≤ S2000000x128.size a := fun v1 v1788 k0_hw82 => k0_hw82

def k0_off166 (k0_t1 : Fin k0_t1_loop.trips) : Fin 3 → Nat :=
  let c0_1453 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1452 : BitVec 32 := 4#32
  let v1808 : BitVec 32 := Scalar.addi v5 c4_i32_1452
  let v1809 : Index := Scalar.indexCast v1808
  let c2_1454 : Index := 2#32
  ![0, v1809.toNat, 2]
def k0_off167 (v1 : BitVec 32) (v1810 : BitVec 32) : Fin 2 → Nat :=
  let v1811 : BitVec 32 := Scalar.addi v1 v1810
  let c0_i32_1458 : BitVec 32 := 0#32
  ![v1811.toNat, 0]

def k0_chk83 (v1 : BitVec 32) (v1810 : BitVec 32) : Prop :=
  (∀ a, (k0_off167 v1 v1810) a + S1x128.size a ≤ S2000000x128.size a)
instance k0_chk83.dec : ∀ (v1 : BitVec 32) (v1810 : BitVec 32), Decidable (k0_chk83 v1 v1810) := fun v1 v1810 => decidable_of_iff' _ (Iff.of_eq (k0_chk83.eq_1 v1 v1810))
theorem k0_off167_inb : ∀ (v1 : BitVec 32) (v1810 : BitVec 32) (k0_hw83 : k0_chk83 v1 v1810), ∀ a, (k0_off167 v1 v1810) a + S1x128.size a ≤ S2000000x128.size a := fun v1 v1810 k0_hw83 => k0_hw83

def k0_off168 (k0_t1 : Fin k0_t1_loop.trips) : Fin 3 → Nat :=
  let c0_1471 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1470 : BitVec 32 := 4#32
  let v1830 : BitVec 32 := Scalar.addi v5 c4_i32_1470
  let v1831 : Index := Scalar.indexCast v1830
  let c3_1472 : Index := 3#32
  ![0, v1831.toNat, 3]
def k0_off169 (v1 : BitVec 32) (v1832 : BitVec 32) : Fin 2 → Nat :=
  let v1833 : BitVec 32 := Scalar.addi v1 v1832
  let c0_i32_1476 : BitVec 32 := 0#32
  ![v1833.toNat, 0]

def k0_chk84 (v1 : BitVec 32) (v1832 : BitVec 32) : Prop :=
  (∀ a, (k0_off169 v1 v1832) a + S1x128.size a ≤ S2000000x128.size a)
instance k0_chk84.dec : ∀ (v1 : BitVec 32) (v1832 : BitVec 32), Decidable (k0_chk84 v1 v1832) := fun v1 v1832 => decidable_of_iff' _ (Iff.of_eq (k0_chk84.eq_1 v1 v1832))
theorem k0_off169_inb : ∀ (v1 : BitVec 32) (v1832 : BitVec 32) (k0_hw84 : k0_chk84 v1 v1832), ∀ a, (k0_off169 v1 v1832) a + S1x128.size a ≤ S2000000x128.size a := fun v1 v1832 k0_hw84 => k0_hw84

def k0_off170 (k0_t1 : Fin k0_t1_loop.trips) : Fin 3 → Nat :=
  let c0_1489 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1488 : BitVec 32 := 4#32
  let v1852 : BitVec 32 := Scalar.addi v5 c4_i32_1488
  let v1853 : Index := Scalar.indexCast v1852
  let c4_1490 : Index := 4#32
  ![0, v1853.toNat, 4]
def k0_off171 (v1 : BitVec 32) (v1854 : BitVec 32) : Fin 2 → Nat :=
  let v1855 : BitVec 32 := Scalar.addi v1 v1854
  let c0_i32_1494 : BitVec 32 := 0#32
  ![v1855.toNat, 0]

def k0_chk85 (v1 : BitVec 32) (v1854 : BitVec 32) : Prop :=
  (∀ a, (k0_off171 v1 v1854) a + S1x128.size a ≤ S2000000x128.size a)
instance k0_chk85.dec : ∀ (v1 : BitVec 32) (v1854 : BitVec 32), Decidable (k0_chk85 v1 v1854) := fun v1 v1854 => decidable_of_iff' _ (Iff.of_eq (k0_chk85.eq_1 v1 v1854))
theorem k0_off171_inb : ∀ (v1 : BitVec 32) (v1854 : BitVec 32) (k0_hw85 : k0_chk85 v1 v1854), ∀ a, (k0_off171 v1 v1854) a + S1x128.size a ≤ S2000000x128.size a := fun v1 v1854 k0_hw85 => k0_hw85

def k0_off172 (k0_t1 : Fin k0_t1_loop.trips) : Fin 3 → Nat :=
  let c0_1507 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1506 : BitVec 32 := 4#32
  let v1874 : BitVec 32 := Scalar.addi v5 c4_i32_1506
  let v1875 : Index := Scalar.indexCast v1874
  let c5_1508 : Index := 5#32
  ![0, v1875.toNat, 5]
def k0_off173 (v1 : BitVec 32) (v1876 : BitVec 32) : Fin 2 → Nat :=
  let v1877 : BitVec 32 := Scalar.addi v1 v1876
  let c0_i32_1512 : BitVec 32 := 0#32
  ![v1877.toNat, 0]

def k0_chk86 (v1 : BitVec 32) (v1876 : BitVec 32) : Prop :=
  (∀ a, (k0_off173 v1 v1876) a + S1x128.size a ≤ S2000000x128.size a)
instance k0_chk86.dec : ∀ (v1 : BitVec 32) (v1876 : BitVec 32), Decidable (k0_chk86 v1 v1876) := fun v1 v1876 => decidable_of_iff' _ (Iff.of_eq (k0_chk86.eq_1 v1 v1876))
theorem k0_off173_inb : ∀ (v1 : BitVec 32) (v1876 : BitVec 32) (k0_hw86 : k0_chk86 v1 v1876), ∀ a, (k0_off173 v1 v1876) a + S1x128.size a ≤ S2000000x128.size a := fun v1 v1876 k0_hw86 => k0_hw86

def k0_off174 (k0_t1 : Fin k0_t1_loop.trips) : Fin 3 → Nat :=
  let c0_1525 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1524 : BitVec 32 := 4#32
  let v1896 : BitVec 32 := Scalar.addi v5 c4_i32_1524
  let v1897 : Index := Scalar.indexCast v1896
  let c6_1526 : Index := 6#32
  ![0, v1897.toNat, 6]
def k0_off175 (v1 : BitVec 32) (v1898 : BitVec 32) : Fin 2 → Nat :=
  let v1899 : BitVec 32 := Scalar.addi v1 v1898
  let c0_i32_1530 : BitVec 32 := 0#32
  ![v1899.toNat, 0]

def k0_chk87 (v1 : BitVec 32) (v1898 : BitVec 32) : Prop :=
  (∀ a, (k0_off175 v1 v1898) a + S1x128.size a ≤ S2000000x128.size a)
instance k0_chk87.dec : ∀ (v1 : BitVec 32) (v1898 : BitVec 32), Decidable (k0_chk87 v1 v1898) := fun v1 v1898 => decidable_of_iff' _ (Iff.of_eq (k0_chk87.eq_1 v1 v1898))
theorem k0_off175_inb : ∀ (v1 : BitVec 32) (v1898 : BitVec 32) (k0_hw87 : k0_chk87 v1 v1898), ∀ a, (k0_off175 v1 v1898) a + S1x128.size a ≤ S2000000x128.size a := fun v1 v1898 k0_hw87 => k0_hw87

def k0_off176 (k0_t1 : Fin k0_t1_loop.trips) : Fin 3 → Nat :=
  let c0_1543 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1542 : BitVec 32 := 4#32
  let v1918 : BitVec 32 := Scalar.addi v5 c4_i32_1542
  let v1919 : Index := Scalar.indexCast v1918
  let c7_1544 : Index := 7#32
  ![0, v1919.toNat, 7]
def k0_off177 (v1 : BitVec 32) (v1920 : BitVec 32) : Fin 2 → Nat :=
  let v1921 : BitVec 32 := Scalar.addi v1 v1920
  let c0_i32_1548 : BitVec 32 := 0#32
  ![v1921.toNat, 0]

def k0_chk88 (v1 : BitVec 32) (v1920 : BitVec 32) : Prop :=
  (∀ a, (k0_off177 v1 v1920) a + S1x128.size a ≤ S2000000x128.size a)
instance k0_chk88.dec : ∀ (v1 : BitVec 32) (v1920 : BitVec 32), Decidable (k0_chk88 v1 v1920) := fun v1 v1920 => decidable_of_iff' _ (Iff.of_eq (k0_chk88.eq_1 v1 v1920))
theorem k0_off177_inb : ∀ (v1 : BitVec 32) (v1920 : BitVec 32) (k0_hw88 : k0_chk88 v1 v1920), ∀ a, (k0_off177 v1 v1920) a + S1x128.size a ≤ S2000000x128.size a := fun v1 v1920 k0_hw88 => k0_hw88

def k0_off178 (k0_t1 : Fin k0_t1_loop.trips) : Fin 3 → Nat :=
  let c0_1561 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1560 : BitVec 32 := 4#32
  let v1940 : BitVec 32 := Scalar.addi v5 c4_i32_1560
  let v1941 : Index := Scalar.indexCast v1940
  let c8_1562 : Index := 8#32
  ![0, v1941.toNat, 8]
def k0_off179 (v1 : BitVec 32) (v1942 : BitVec 32) : Fin 2 → Nat :=
  let v1943 : BitVec 32 := Scalar.addi v1 v1942
  let c0_i32_1566 : BitVec 32 := 0#32
  ![v1943.toNat, 0]

def k0_chk89 (v1 : BitVec 32) (v1942 : BitVec 32) : Prop :=
  (∀ a, (k0_off179 v1 v1942) a + S1x128.size a ≤ S2000000x128.size a)
instance k0_chk89.dec : ∀ (v1 : BitVec 32) (v1942 : BitVec 32), Decidable (k0_chk89 v1 v1942) := fun v1 v1942 => decidable_of_iff' _ (Iff.of_eq (k0_chk89.eq_1 v1 v1942))
theorem k0_off179_inb : ∀ (v1 : BitVec 32) (v1942 : BitVec 32) (k0_hw89 : k0_chk89 v1 v1942), ∀ a, (k0_off179 v1 v1942) a + S1x128.size a ≤ S2000000x128.size a := fun v1 v1942 k0_hw89 => k0_hw89

def k0_off180 (k0_t1 : Fin k0_t1_loop.trips) : Fin 3 → Nat :=
  let c0_1579 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1578 : BitVec 32 := 4#32
  let v1962 : BitVec 32 := Scalar.addi v5 c4_i32_1578
  let v1963 : Index := Scalar.indexCast v1962
  let c9_1580 : Index := 9#32
  ![0, v1963.toNat, 9]
def k0_off181 (v1 : BitVec 32) (v1964 : BitVec 32) : Fin 2 → Nat :=
  let v1965 : BitVec 32 := Scalar.addi v1 v1964
  let c0_i32_1584 : BitVec 32 := 0#32
  ![v1965.toNat, 0]

def k0_chk90 (v1 : BitVec 32) (v1964 : BitVec 32) : Prop :=
  (∀ a, (k0_off181 v1 v1964) a + S1x128.size a ≤ S2000000x128.size a)
instance k0_chk90.dec : ∀ (v1 : BitVec 32) (v1964 : BitVec 32), Decidable (k0_chk90 v1 v1964) := fun v1 v1964 => decidable_of_iff' _ (Iff.of_eq (k0_chk90.eq_1 v1 v1964))
theorem k0_off181_inb : ∀ (v1 : BitVec 32) (v1964 : BitVec 32) (k0_hw90 : k0_chk90 v1 v1964), ∀ a, (k0_off181 v1 v1964) a + S1x128.size a ≤ S2000000x128.size a := fun v1 v1964 k0_hw90 => k0_hw90

def k0_off182 (k0_t1 : Fin k0_t1_loop.trips) : Fin 3 → Nat :=
  let c0_1597 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1596 : BitVec 32 := 4#32
  let v1984 : BitVec 32 := Scalar.addi v5 c4_i32_1596
  let v1985 : Index := Scalar.indexCast v1984
  let c10_1598 : Index := 10#32
  ![0, v1985.toNat, 10]
def k0_off183 (v1 : BitVec 32) (v1986 : BitVec 32) : Fin 2 → Nat :=
  let v1987 : BitVec 32 := Scalar.addi v1 v1986
  let c0_i32_1602 : BitVec 32 := 0#32
  ![v1987.toNat, 0]

def k0_chk91 (v1 : BitVec 32) (v1986 : BitVec 32) : Prop :=
  (∀ a, (k0_off183 v1 v1986) a + S1x128.size a ≤ S2000000x128.size a)
instance k0_chk91.dec : ∀ (v1 : BitVec 32) (v1986 : BitVec 32), Decidable (k0_chk91 v1 v1986) := fun v1 v1986 => decidable_of_iff' _ (Iff.of_eq (k0_chk91.eq_1 v1 v1986))
theorem k0_off183_inb : ∀ (v1 : BitVec 32) (v1986 : BitVec 32) (k0_hw91 : k0_chk91 v1 v1986), ∀ a, (k0_off183 v1 v1986) a + S1x128.size a ≤ S2000000x128.size a := fun v1 v1986 k0_hw91 => k0_hw91

def k0_off184 (k0_t1 : Fin k0_t1_loop.trips) : Fin 3 → Nat :=
  let c0_1615 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1614 : BitVec 32 := 4#32
  let v2006 : BitVec 32 := Scalar.addi v5 c4_i32_1614
  let v2007 : Index := Scalar.indexCast v2006
  let c11_1616 : Index := 11#32
  ![0, v2007.toNat, 11]
def k0_off185 (v1 : BitVec 32) (v2008 : BitVec 32) : Fin 2 → Nat :=
  let v2009 : BitVec 32 := Scalar.addi v1 v2008
  let c0_i32_1620 : BitVec 32 := 0#32
  ![v2009.toNat, 0]

def k0_chk92 (v1 : BitVec 32) (v2008 : BitVec 32) : Prop :=
  (∀ a, (k0_off185 v1 v2008) a + S1x128.size a ≤ S2000000x128.size a)
instance k0_chk92.dec : ∀ (v1 : BitVec 32) (v2008 : BitVec 32), Decidable (k0_chk92 v1 v2008) := fun v1 v2008 => decidable_of_iff' _ (Iff.of_eq (k0_chk92.eq_1 v1 v2008))
theorem k0_off185_inb : ∀ (v1 : BitVec 32) (v2008 : BitVec 32) (k0_hw92 : k0_chk92 v1 v2008), ∀ a, (k0_off185 v1 v2008) a + S1x128.size a ≤ S2000000x128.size a := fun v1 v2008 k0_hw92 => k0_hw92

def k0_off186 (k0_t1 : Fin k0_t1_loop.trips) : Fin 3 → Nat :=
  let c0_1633 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1632 : BitVec 32 := 4#32
  let v2028 : BitVec 32 := Scalar.addi v5 c4_i32_1632
  let v2029 : Index := Scalar.indexCast v2028
  let c12_1634 : Index := 12#32
  ![0, v2029.toNat, 12]
def k0_off187 (v1 : BitVec 32) (v2030 : BitVec 32) : Fin 2 → Nat :=
  let v2031 : BitVec 32 := Scalar.addi v1 v2030
  let c0_i32_1638 : BitVec 32 := 0#32
  ![v2031.toNat, 0]

def k0_chk93 (v1 : BitVec 32) (v2030 : BitVec 32) : Prop :=
  (∀ a, (k0_off187 v1 v2030) a + S1x128.size a ≤ S2000000x128.size a)
instance k0_chk93.dec : ∀ (v1 : BitVec 32) (v2030 : BitVec 32), Decidable (k0_chk93 v1 v2030) := fun v1 v2030 => decidable_of_iff' _ (Iff.of_eq (k0_chk93.eq_1 v1 v2030))
theorem k0_off187_inb : ∀ (v1 : BitVec 32) (v2030 : BitVec 32) (k0_hw93 : k0_chk93 v1 v2030), ∀ a, (k0_off187 v1 v2030) a + S1x128.size a ≤ S2000000x128.size a := fun v1 v2030 k0_hw93 => k0_hw93

def k0_off188 (k0_t1 : Fin k0_t1_loop.trips) : Fin 3 → Nat :=
  let c0_1651 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1650 : BitVec 32 := 4#32
  let v2050 : BitVec 32 := Scalar.addi v5 c4_i32_1650
  let v2051 : Index := Scalar.indexCast v2050
  let c13_1652 : Index := 13#32
  ![0, v2051.toNat, 13]
def k0_off189 (v1 : BitVec 32) (v2052 : BitVec 32) : Fin 2 → Nat :=
  let v2053 : BitVec 32 := Scalar.addi v1 v2052
  let c0_i32_1656 : BitVec 32 := 0#32
  ![v2053.toNat, 0]

def k0_chk94 (v1 : BitVec 32) (v2052 : BitVec 32) : Prop :=
  (∀ a, (k0_off189 v1 v2052) a + S1x128.size a ≤ S2000000x128.size a)
instance k0_chk94.dec : ∀ (v1 : BitVec 32) (v2052 : BitVec 32), Decidable (k0_chk94 v1 v2052) := fun v1 v2052 => decidable_of_iff' _ (Iff.of_eq (k0_chk94.eq_1 v1 v2052))
theorem k0_off189_inb : ∀ (v1 : BitVec 32) (v2052 : BitVec 32) (k0_hw94 : k0_chk94 v1 v2052), ∀ a, (k0_off189 v1 v2052) a + S1x128.size a ≤ S2000000x128.size a := fun v1 v2052 k0_hw94 => k0_hw94

def k0_off190 (k0_t1 : Fin k0_t1_loop.trips) : Fin 3 → Nat :=
  let c0_1669 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1668 : BitVec 32 := 4#32
  let v2072 : BitVec 32 := Scalar.addi v5 c4_i32_1668
  let v2073 : Index := Scalar.indexCast v2072
  let c14_1670 : Index := 14#32
  ![0, v2073.toNat, 14]
def k0_off191 (v1 : BitVec 32) (v2074 : BitVec 32) : Fin 2 → Nat :=
  let v2075 : BitVec 32 := Scalar.addi v1 v2074
  let c0_i32_1674 : BitVec 32 := 0#32
  ![v2075.toNat, 0]

def k0_chk95 (v1 : BitVec 32) (v2074 : BitVec 32) : Prop :=
  (∀ a, (k0_off191 v1 v2074) a + S1x128.size a ≤ S2000000x128.size a)
instance k0_chk95.dec : ∀ (v1 : BitVec 32) (v2074 : BitVec 32), Decidable (k0_chk95 v1 v2074) := fun v1 v2074 => decidable_of_iff' _ (Iff.of_eq (k0_chk95.eq_1 v1 v2074))
theorem k0_off191_inb : ∀ (v1 : BitVec 32) (v2074 : BitVec 32) (k0_hw95 : k0_chk95 v1 v2074), ∀ a, (k0_off191 v1 v2074) a + S1x128.size a ≤ S2000000x128.size a := fun v1 v2074 k0_hw95 => k0_hw95

def k0_off192 (k0_t1 : Fin k0_t1_loop.trips) : Fin 3 → Nat :=
  let c0_1687 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1686 : BitVec 32 := 4#32
  let v2094 : BitVec 32 := Scalar.addi v5 c4_i32_1686
  let v2095 : Index := Scalar.indexCast v2094
  let c15_1688 : Index := 15#32
  ![0, v2095.toNat, 15]
def k0_off193 (v1 : BitVec 32) (v2096 : BitVec 32) : Fin 2 → Nat :=
  let v2097 : BitVec 32 := Scalar.addi v1 v2096
  let c0_i32_1692 : BitVec 32 := 0#32
  ![v2097.toNat, 0]

def k0_chk96 (v1 : BitVec 32) (v2096 : BitVec 32) : Prop :=
  (∀ a, (k0_off193 v1 v2096) a + S1x128.size a ≤ S2000000x128.size a)
instance k0_chk96.dec : ∀ (v1 : BitVec 32) (v2096 : BitVec 32), Decidable (k0_chk96 v1 v2096) := fun v1 v2096 => decidable_of_iff' _ (Iff.of_eq (k0_chk96.eq_1 v1 v2096))
theorem k0_off193_inb : ∀ (v1 : BitVec 32) (v2096 : BitVec 32) (k0_hw96 : k0_chk96 v1 v2096), ∀ a, (k0_off193 v1 v2096) a + S1x128.size a ≤ S2000000x128.size a := fun v1 v2096 k0_hw96 => k0_hw96

def k0_off194 (k0_t1 : Fin k0_t1_loop.trips) : Fin 3 → Nat :=
  let c0_1705 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1704 : BitVec 32 := 4#32
  let v2116 : BitVec 32 := Scalar.addi v5 c4_i32_1704
  let v2117 : Index := Scalar.indexCast v2116
  let c16_1706 : Index := 16#32
  ![0, v2117.toNat, 16]
def k0_off195 (v1 : BitVec 32) (v2118 : BitVec 32) : Fin 2 → Nat :=
  let v2119 : BitVec 32 := Scalar.addi v1 v2118
  let c0_i32_1710 : BitVec 32 := 0#32
  ![v2119.toNat, 0]

def k0_chk97 (v1 : BitVec 32) (v2118 : BitVec 32) : Prop :=
  (∀ a, (k0_off195 v1 v2118) a + S1x128.size a ≤ S2000000x128.size a)
instance k0_chk97.dec : ∀ (v1 : BitVec 32) (v2118 : BitVec 32), Decidable (k0_chk97 v1 v2118) := fun v1 v2118 => decidable_of_iff' _ (Iff.of_eq (k0_chk97.eq_1 v1 v2118))
theorem k0_off195_inb : ∀ (v1 : BitVec 32) (v2118 : BitVec 32) (k0_hw97 : k0_chk97 v1 v2118), ∀ a, (k0_off195 v1 v2118) a + S1x128.size a ≤ S2000000x128.size a := fun v1 v2118 k0_hw97 => k0_hw97

def k0_off196 (k0_t1 : Fin k0_t1_loop.trips) : Fin 3 → Nat :=
  let c0_1723 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1722 : BitVec 32 := 4#32
  let v2138 : BitVec 32 := Scalar.addi v5 c4_i32_1722
  let v2139 : Index := Scalar.indexCast v2138
  let c17_1724 : Index := 17#32
  ![0, v2139.toNat, 17]
def k0_off197 (v1 : BitVec 32) (v2140 : BitVec 32) : Fin 2 → Nat :=
  let v2141 : BitVec 32 := Scalar.addi v1 v2140
  let c0_i32_1728 : BitVec 32 := 0#32
  ![v2141.toNat, 0]

def k0_chk98 (v1 : BitVec 32) (v2140 : BitVec 32) : Prop :=
  (∀ a, (k0_off197 v1 v2140) a + S1x128.size a ≤ S2000000x128.size a)
instance k0_chk98.dec : ∀ (v1 : BitVec 32) (v2140 : BitVec 32), Decidable (k0_chk98 v1 v2140) := fun v1 v2140 => decidable_of_iff' _ (Iff.of_eq (k0_chk98.eq_1 v1 v2140))
theorem k0_off197_inb : ∀ (v1 : BitVec 32) (v2140 : BitVec 32) (k0_hw98 : k0_chk98 v1 v2140), ∀ a, (k0_off197 v1 v2140) a + S1x128.size a ≤ S2000000x128.size a := fun v1 v2140 k0_hw98 => k0_hw98

def k0_off198 (k0_t1 : Fin k0_t1_loop.trips) : Fin 3 → Nat :=
  let c0_1741 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1740 : BitVec 32 := 4#32
  let v2160 : BitVec 32 := Scalar.addi v5 c4_i32_1740
  let v2161 : Index := Scalar.indexCast v2160
  let c18_1742 : Index := 18#32
  ![0, v2161.toNat, 18]
def k0_off199 (v1 : BitVec 32) (v2162 : BitVec 32) : Fin 2 → Nat :=
  let v2163 : BitVec 32 := Scalar.addi v1 v2162
  let c0_i32_1746 : BitVec 32 := 0#32
  ![v2163.toNat, 0]

def k0_chk99 (v1 : BitVec 32) (v2162 : BitVec 32) : Prop :=
  (∀ a, (k0_off199 v1 v2162) a + S1x128.size a ≤ S2000000x128.size a)
instance k0_chk99.dec : ∀ (v1 : BitVec 32) (v2162 : BitVec 32), Decidable (k0_chk99 v1 v2162) := fun v1 v2162 => decidable_of_iff' _ (Iff.of_eq (k0_chk99.eq_1 v1 v2162))
theorem k0_off199_inb : ∀ (v1 : BitVec 32) (v2162 : BitVec 32) (k0_hw99 : k0_chk99 v1 v2162), ∀ a, (k0_off199 v1 v2162) a + S1x128.size a ≤ S2000000x128.size a := fun v1 v2162 k0_hw99 => k0_hw99

def k0_off200 (k0_t1 : Fin k0_t1_loop.trips) : Fin 3 → Nat :=
  let c0_1759 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c4_i32_1758 : BitVec 32 := 4#32
  let v2182 : BitVec 32 := Scalar.addi v5 c4_i32_1758
  let v2183 : Index := Scalar.indexCast v2182
  let c19_1760 : Index := 19#32
  ![0, v2183.toNat, 19]
def k0_off201 (v1 : BitVec 32) (v2184 : BitVec 32) : Fin 2 → Nat :=
  let v2185 : BitVec 32 := Scalar.addi v1 v2184
  let c0_i32_1764 : BitVec 32 := 0#32
  ![v2185.toNat, 0]

def k0_chk100 (v1 : BitVec 32) (v2184 : BitVec 32) : Prop :=
  (∀ a, (k0_off201 v1 v2184) a + S1x128.size a ≤ S2000000x128.size a)
instance k0_chk100.dec : ∀ (v1 : BitVec 32) (v2184 : BitVec 32), Decidable (k0_chk100 v1 v2184) := fun v1 v2184 => decidable_of_iff' _ (Iff.of_eq (k0_chk100.eq_1 v1 v2184))
theorem k0_off201_inb : ∀ (v1 : BitVec 32) (v2184 : BitVec 32) (k0_hw100 : k0_chk100 v1 v2184), ∀ a, (k0_off201 v1 v2184) a + S1x128.size a ≤ S2000000x128.size a := fun v1 v2184 k0_hw100 => k0_hw100

def k0_off202 (k0_t1 : Fin k0_t1_loop.trips) : Fin 3 → Nat :=
  let c0_1776 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32 : BitVec 32 := 5#32
  let v2204 : BitVec 32 := Scalar.addi v5 c5_i32
  let v2205 : Index := Scalar.indexCast v2204
  let c0_1777 : Index := 0#32
  ![0, v2205.toNat, 0]
def k0_off203 (v1 : BitVec 32) (v2206 : BitVec 32) : Fin 2 → Nat :=
  let v2207 : BitVec 32 := Scalar.addi v1 v2206
  let c0_i32_1781 : BitVec 32 := 0#32
  ![v2207.toNat, 0]

def k0_chk101 (v1 : BitVec 32) (v2206 : BitVec 32) : Prop :=
  (∀ a, (k0_off203 v1 v2206) a + S1x128.size a ≤ S2000000x128.size a)
instance k0_chk101.dec : ∀ (v1 : BitVec 32) (v2206 : BitVec 32), Decidable (k0_chk101 v1 v2206) := fun v1 v2206 => decidable_of_iff' _ (Iff.of_eq (k0_chk101.eq_1 v1 v2206))
theorem k0_off203_inb : ∀ (v1 : BitVec 32) (v2206 : BitVec 32) (k0_hw101 : k0_chk101 v1 v2206), ∀ a, (k0_off203 v1 v2206) a + S1x128.size a ≤ S2000000x128.size a := fun v1 v2206 k0_hw101 => k0_hw101

def k0_off204 (k0_t1 : Fin k0_t1_loop.trips) : Fin 3 → Nat :=
  let c0_1794 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_1793 : BitVec 32 := 5#32
  let v2226 : BitVec 32 := Scalar.addi v5 c5_i32_1793
  let v2227 : Index := Scalar.indexCast v2226
  let c1_1795 : Index := 1#32
  ![0, v2227.toNat, 1]
def k0_off205 (v1 : BitVec 32) (v2228 : BitVec 32) : Fin 2 → Nat :=
  let v2229 : BitVec 32 := Scalar.addi v1 v2228
  let c0_i32_1799 : BitVec 32 := 0#32
  ![v2229.toNat, 0]

def k0_chk102 (v1 : BitVec 32) (v2228 : BitVec 32) : Prop :=
  (∀ a, (k0_off205 v1 v2228) a + S1x128.size a ≤ S2000000x128.size a)
instance k0_chk102.dec : ∀ (v1 : BitVec 32) (v2228 : BitVec 32), Decidable (k0_chk102 v1 v2228) := fun v1 v2228 => decidable_of_iff' _ (Iff.of_eq (k0_chk102.eq_1 v1 v2228))
theorem k0_off205_inb : ∀ (v1 : BitVec 32) (v2228 : BitVec 32) (k0_hw102 : k0_chk102 v1 v2228), ∀ a, (k0_off205 v1 v2228) a + S1x128.size a ≤ S2000000x128.size a := fun v1 v2228 k0_hw102 => k0_hw102

def k0_off206 (k0_t1 : Fin k0_t1_loop.trips) : Fin 3 → Nat :=
  let c0_1812 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_1811 : BitVec 32 := 5#32
  let v2248 : BitVec 32 := Scalar.addi v5 c5_i32_1811
  let v2249 : Index := Scalar.indexCast v2248
  let c2_1813 : Index := 2#32
  ![0, v2249.toNat, 2]
def k0_off207 (v1 : BitVec 32) (v2250 : BitVec 32) : Fin 2 → Nat :=
  let v2251 : BitVec 32 := Scalar.addi v1 v2250
  let c0_i32_1817 : BitVec 32 := 0#32
  ![v2251.toNat, 0]

def k0_chk103 (v1 : BitVec 32) (v2250 : BitVec 32) : Prop :=
  (∀ a, (k0_off207 v1 v2250) a + S1x128.size a ≤ S2000000x128.size a)
instance k0_chk103.dec : ∀ (v1 : BitVec 32) (v2250 : BitVec 32), Decidable (k0_chk103 v1 v2250) := fun v1 v2250 => decidable_of_iff' _ (Iff.of_eq (k0_chk103.eq_1 v1 v2250))
theorem k0_off207_inb : ∀ (v1 : BitVec 32) (v2250 : BitVec 32) (k0_hw103 : k0_chk103 v1 v2250), ∀ a, (k0_off207 v1 v2250) a + S1x128.size a ≤ S2000000x128.size a := fun v1 v2250 k0_hw103 => k0_hw103

def k0_off208 (k0_t1 : Fin k0_t1_loop.trips) : Fin 3 → Nat :=
  let c0_1830 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_1829 : BitVec 32 := 5#32
  let v2270 : BitVec 32 := Scalar.addi v5 c5_i32_1829
  let v2271 : Index := Scalar.indexCast v2270
  let c3_1831 : Index := 3#32
  ![0, v2271.toNat, 3]
def k0_off209 (v1 : BitVec 32) (v2272 : BitVec 32) : Fin 2 → Nat :=
  let v2273 : BitVec 32 := Scalar.addi v1 v2272
  let c0_i32_1835 : BitVec 32 := 0#32
  ![v2273.toNat, 0]

def k0_chk104 (v1 : BitVec 32) (v2272 : BitVec 32) : Prop :=
  (∀ a, (k0_off209 v1 v2272) a + S1x128.size a ≤ S2000000x128.size a)
instance k0_chk104.dec : ∀ (v1 : BitVec 32) (v2272 : BitVec 32), Decidable (k0_chk104 v1 v2272) := fun v1 v2272 => decidable_of_iff' _ (Iff.of_eq (k0_chk104.eq_1 v1 v2272))
theorem k0_off209_inb : ∀ (v1 : BitVec 32) (v2272 : BitVec 32) (k0_hw104 : k0_chk104 v1 v2272), ∀ a, (k0_off209 v1 v2272) a + S1x128.size a ≤ S2000000x128.size a := fun v1 v2272 k0_hw104 => k0_hw104

def k0_off210 (k0_t1 : Fin k0_t1_loop.trips) : Fin 3 → Nat :=
  let c0_1848 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_1847 : BitVec 32 := 5#32
  let v2292 : BitVec 32 := Scalar.addi v5 c5_i32_1847
  let v2293 : Index := Scalar.indexCast v2292
  let c4_1849 : Index := 4#32
  ![0, v2293.toNat, 4]
def k0_off211 (v1 : BitVec 32) (v2294 : BitVec 32) : Fin 2 → Nat :=
  let v2295 : BitVec 32 := Scalar.addi v1 v2294
  let c0_i32_1853 : BitVec 32 := 0#32
  ![v2295.toNat, 0]

def k0_chk105 (v1 : BitVec 32) (v2294 : BitVec 32) : Prop :=
  (∀ a, (k0_off211 v1 v2294) a + S1x128.size a ≤ S2000000x128.size a)
instance k0_chk105.dec : ∀ (v1 : BitVec 32) (v2294 : BitVec 32), Decidable (k0_chk105 v1 v2294) := fun v1 v2294 => decidable_of_iff' _ (Iff.of_eq (k0_chk105.eq_1 v1 v2294))
theorem k0_off211_inb : ∀ (v1 : BitVec 32) (v2294 : BitVec 32) (k0_hw105 : k0_chk105 v1 v2294), ∀ a, (k0_off211 v1 v2294) a + S1x128.size a ≤ S2000000x128.size a := fun v1 v2294 k0_hw105 => k0_hw105

def k0_off212 (k0_t1 : Fin k0_t1_loop.trips) : Fin 3 → Nat :=
  let c0_1866 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_1865 : BitVec 32 := 5#32
  let v2314 : BitVec 32 := Scalar.addi v5 c5_i32_1865
  let v2315 : Index := Scalar.indexCast v2314
  let c5_1867 : Index := 5#32
  ![0, v2315.toNat, 5]
def k0_off213 (v1 : BitVec 32) (v2316 : BitVec 32) : Fin 2 → Nat :=
  let v2317 : BitVec 32 := Scalar.addi v1 v2316
  let c0_i32_1871 : BitVec 32 := 0#32
  ![v2317.toNat, 0]

def k0_chk106 (v1 : BitVec 32) (v2316 : BitVec 32) : Prop :=
  (∀ a, (k0_off213 v1 v2316) a + S1x128.size a ≤ S2000000x128.size a)
instance k0_chk106.dec : ∀ (v1 : BitVec 32) (v2316 : BitVec 32), Decidable (k0_chk106 v1 v2316) := fun v1 v2316 => decidable_of_iff' _ (Iff.of_eq (k0_chk106.eq_1 v1 v2316))
theorem k0_off213_inb : ∀ (v1 : BitVec 32) (v2316 : BitVec 32) (k0_hw106 : k0_chk106 v1 v2316), ∀ a, (k0_off213 v1 v2316) a + S1x128.size a ≤ S2000000x128.size a := fun v1 v2316 k0_hw106 => k0_hw106

def k0_off214 (k0_t1 : Fin k0_t1_loop.trips) : Fin 3 → Nat :=
  let c0_1884 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_1883 : BitVec 32 := 5#32
  let v2336 : BitVec 32 := Scalar.addi v5 c5_i32_1883
  let v2337 : Index := Scalar.indexCast v2336
  let c6_1885 : Index := 6#32
  ![0, v2337.toNat, 6]
def k0_off215 (v1 : BitVec 32) (v2338 : BitVec 32) : Fin 2 → Nat :=
  let v2339 : BitVec 32 := Scalar.addi v1 v2338
  let c0_i32_1889 : BitVec 32 := 0#32
  ![v2339.toNat, 0]

def k0_chk107 (v1 : BitVec 32) (v2338 : BitVec 32) : Prop :=
  (∀ a, (k0_off215 v1 v2338) a + S1x128.size a ≤ S2000000x128.size a)
instance k0_chk107.dec : ∀ (v1 : BitVec 32) (v2338 : BitVec 32), Decidable (k0_chk107 v1 v2338) := fun v1 v2338 => decidable_of_iff' _ (Iff.of_eq (k0_chk107.eq_1 v1 v2338))
theorem k0_off215_inb : ∀ (v1 : BitVec 32) (v2338 : BitVec 32) (k0_hw107 : k0_chk107 v1 v2338), ∀ a, (k0_off215 v1 v2338) a + S1x128.size a ≤ S2000000x128.size a := fun v1 v2338 k0_hw107 => k0_hw107

def k0_off216 (k0_t1 : Fin k0_t1_loop.trips) : Fin 3 → Nat :=
  let c0_1902 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_1901 : BitVec 32 := 5#32
  let v2358 : BitVec 32 := Scalar.addi v5 c5_i32_1901
  let v2359 : Index := Scalar.indexCast v2358
  let c7_1903 : Index := 7#32
  ![0, v2359.toNat, 7]
def k0_off217 (v1 : BitVec 32) (v2360 : BitVec 32) : Fin 2 → Nat :=
  let v2361 : BitVec 32 := Scalar.addi v1 v2360
  let c0_i32_1907 : BitVec 32 := 0#32
  ![v2361.toNat, 0]

def k0_chk108 (v1 : BitVec 32) (v2360 : BitVec 32) : Prop :=
  (∀ a, (k0_off217 v1 v2360) a + S1x128.size a ≤ S2000000x128.size a)
instance k0_chk108.dec : ∀ (v1 : BitVec 32) (v2360 : BitVec 32), Decidable (k0_chk108 v1 v2360) := fun v1 v2360 => decidable_of_iff' _ (Iff.of_eq (k0_chk108.eq_1 v1 v2360))
theorem k0_off217_inb : ∀ (v1 : BitVec 32) (v2360 : BitVec 32) (k0_hw108 : k0_chk108 v1 v2360), ∀ a, (k0_off217 v1 v2360) a + S1x128.size a ≤ S2000000x128.size a := fun v1 v2360 k0_hw108 => k0_hw108

def k0_off218 (k0_t1 : Fin k0_t1_loop.trips) : Fin 3 → Nat :=
  let c0_1920 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_1919 : BitVec 32 := 5#32
  let v2380 : BitVec 32 := Scalar.addi v5 c5_i32_1919
  let v2381 : Index := Scalar.indexCast v2380
  let c8_1921 : Index := 8#32
  ![0, v2381.toNat, 8]
def k0_off219 (v1 : BitVec 32) (v2382 : BitVec 32) : Fin 2 → Nat :=
  let v2383 : BitVec 32 := Scalar.addi v1 v2382
  let c0_i32_1925 : BitVec 32 := 0#32
  ![v2383.toNat, 0]

def k0_chk109 (v1 : BitVec 32) (v2382 : BitVec 32) : Prop :=
  (∀ a, (k0_off219 v1 v2382) a + S1x128.size a ≤ S2000000x128.size a)
instance k0_chk109.dec : ∀ (v1 : BitVec 32) (v2382 : BitVec 32), Decidable (k0_chk109 v1 v2382) := fun v1 v2382 => decidable_of_iff' _ (Iff.of_eq (k0_chk109.eq_1 v1 v2382))
theorem k0_off219_inb : ∀ (v1 : BitVec 32) (v2382 : BitVec 32) (k0_hw109 : k0_chk109 v1 v2382), ∀ a, (k0_off219 v1 v2382) a + S1x128.size a ≤ S2000000x128.size a := fun v1 v2382 k0_hw109 => k0_hw109

def k0_off220 (k0_t1 : Fin k0_t1_loop.trips) : Fin 3 → Nat :=
  let c0_1938 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_1937 : BitVec 32 := 5#32
  let v2402 : BitVec 32 := Scalar.addi v5 c5_i32_1937
  let v2403 : Index := Scalar.indexCast v2402
  let c9_1939 : Index := 9#32
  ![0, v2403.toNat, 9]
def k0_off221 (v1 : BitVec 32) (v2404 : BitVec 32) : Fin 2 → Nat :=
  let v2405 : BitVec 32 := Scalar.addi v1 v2404
  let c0_i32_1943 : BitVec 32 := 0#32
  ![v2405.toNat, 0]

def k0_chk110 (v1 : BitVec 32) (v2404 : BitVec 32) : Prop :=
  (∀ a, (k0_off221 v1 v2404) a + S1x128.size a ≤ S2000000x128.size a)
instance k0_chk110.dec : ∀ (v1 : BitVec 32) (v2404 : BitVec 32), Decidable (k0_chk110 v1 v2404) := fun v1 v2404 => decidable_of_iff' _ (Iff.of_eq (k0_chk110.eq_1 v1 v2404))
theorem k0_off221_inb : ∀ (v1 : BitVec 32) (v2404 : BitVec 32) (k0_hw110 : k0_chk110 v1 v2404), ∀ a, (k0_off221 v1 v2404) a + S1x128.size a ≤ S2000000x128.size a := fun v1 v2404 k0_hw110 => k0_hw110

def k0_off222 (k0_t1 : Fin k0_t1_loop.trips) : Fin 3 → Nat :=
  let c0_1956 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_1955 : BitVec 32 := 5#32
  let v2424 : BitVec 32 := Scalar.addi v5 c5_i32_1955
  let v2425 : Index := Scalar.indexCast v2424
  let c10_1957 : Index := 10#32
  ![0, v2425.toNat, 10]
def k0_off223 (v1 : BitVec 32) (v2426 : BitVec 32) : Fin 2 → Nat :=
  let v2427 : BitVec 32 := Scalar.addi v1 v2426
  let c0_i32_1961 : BitVec 32 := 0#32
  ![v2427.toNat, 0]

def k0_chk111 (v1 : BitVec 32) (v2426 : BitVec 32) : Prop :=
  (∀ a, (k0_off223 v1 v2426) a + S1x128.size a ≤ S2000000x128.size a)
instance k0_chk111.dec : ∀ (v1 : BitVec 32) (v2426 : BitVec 32), Decidable (k0_chk111 v1 v2426) := fun v1 v2426 => decidable_of_iff' _ (Iff.of_eq (k0_chk111.eq_1 v1 v2426))
theorem k0_off223_inb : ∀ (v1 : BitVec 32) (v2426 : BitVec 32) (k0_hw111 : k0_chk111 v1 v2426), ∀ a, (k0_off223 v1 v2426) a + S1x128.size a ≤ S2000000x128.size a := fun v1 v2426 k0_hw111 => k0_hw111

def k0_off224 (k0_t1 : Fin k0_t1_loop.trips) : Fin 3 → Nat :=
  let c0_1974 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_1973 : BitVec 32 := 5#32
  let v2446 : BitVec 32 := Scalar.addi v5 c5_i32_1973
  let v2447 : Index := Scalar.indexCast v2446
  let c11_1975 : Index := 11#32
  ![0, v2447.toNat, 11]
def k0_off225 (v1 : BitVec 32) (v2448 : BitVec 32) : Fin 2 → Nat :=
  let v2449 : BitVec 32 := Scalar.addi v1 v2448
  let c0_i32_1979 : BitVec 32 := 0#32
  ![v2449.toNat, 0]

def k0_chk112 (v1 : BitVec 32) (v2448 : BitVec 32) : Prop :=
  (∀ a, (k0_off225 v1 v2448) a + S1x128.size a ≤ S2000000x128.size a)
instance k0_chk112.dec : ∀ (v1 : BitVec 32) (v2448 : BitVec 32), Decidable (k0_chk112 v1 v2448) := fun v1 v2448 => decidable_of_iff' _ (Iff.of_eq (k0_chk112.eq_1 v1 v2448))
theorem k0_off225_inb : ∀ (v1 : BitVec 32) (v2448 : BitVec 32) (k0_hw112 : k0_chk112 v1 v2448), ∀ a, (k0_off225 v1 v2448) a + S1x128.size a ≤ S2000000x128.size a := fun v1 v2448 k0_hw112 => k0_hw112

def k0_off226 (k0_t1 : Fin k0_t1_loop.trips) : Fin 3 → Nat :=
  let c0_1992 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_1991 : BitVec 32 := 5#32
  let v2468 : BitVec 32 := Scalar.addi v5 c5_i32_1991
  let v2469 : Index := Scalar.indexCast v2468
  let c12_1993 : Index := 12#32
  ![0, v2469.toNat, 12]
def k0_off227 (v1 : BitVec 32) (v2470 : BitVec 32) : Fin 2 → Nat :=
  let v2471 : BitVec 32 := Scalar.addi v1 v2470
  let c0_i32_1997 : BitVec 32 := 0#32
  ![v2471.toNat, 0]

def k0_chk113 (v1 : BitVec 32) (v2470 : BitVec 32) : Prop :=
  (∀ a, (k0_off227 v1 v2470) a + S1x128.size a ≤ S2000000x128.size a)
instance k0_chk113.dec : ∀ (v1 : BitVec 32) (v2470 : BitVec 32), Decidable (k0_chk113 v1 v2470) := fun v1 v2470 => decidable_of_iff' _ (Iff.of_eq (k0_chk113.eq_1 v1 v2470))
theorem k0_off227_inb : ∀ (v1 : BitVec 32) (v2470 : BitVec 32) (k0_hw113 : k0_chk113 v1 v2470), ∀ a, (k0_off227 v1 v2470) a + S1x128.size a ≤ S2000000x128.size a := fun v1 v2470 k0_hw113 => k0_hw113

def k0_off228 (k0_t1 : Fin k0_t1_loop.trips) : Fin 3 → Nat :=
  let c0_2010 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_2009 : BitVec 32 := 5#32
  let v2490 : BitVec 32 := Scalar.addi v5 c5_i32_2009
  let v2491 : Index := Scalar.indexCast v2490
  let c13_2011 : Index := 13#32
  ![0, v2491.toNat, 13]
def k0_off229 (v1 : BitVec 32) (v2492 : BitVec 32) : Fin 2 → Nat :=
  let v2493 : BitVec 32 := Scalar.addi v1 v2492
  let c0_i32_2015 : BitVec 32 := 0#32
  ![v2493.toNat, 0]

def k0_chk114 (v1 : BitVec 32) (v2492 : BitVec 32) : Prop :=
  (∀ a, (k0_off229 v1 v2492) a + S1x128.size a ≤ S2000000x128.size a)
instance k0_chk114.dec : ∀ (v1 : BitVec 32) (v2492 : BitVec 32), Decidable (k0_chk114 v1 v2492) := fun v1 v2492 => decidable_of_iff' _ (Iff.of_eq (k0_chk114.eq_1 v1 v2492))
theorem k0_off229_inb : ∀ (v1 : BitVec 32) (v2492 : BitVec 32) (k0_hw114 : k0_chk114 v1 v2492), ∀ a, (k0_off229 v1 v2492) a + S1x128.size a ≤ S2000000x128.size a := fun v1 v2492 k0_hw114 => k0_hw114

def k0_off230 (k0_t1 : Fin k0_t1_loop.trips) : Fin 3 → Nat :=
  let c0_2028 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_2027 : BitVec 32 := 5#32
  let v2512 : BitVec 32 := Scalar.addi v5 c5_i32_2027
  let v2513 : Index := Scalar.indexCast v2512
  let c14_2029 : Index := 14#32
  ![0, v2513.toNat, 14]
def k0_off231 (v1 : BitVec 32) (v2514 : BitVec 32) : Fin 2 → Nat :=
  let v2515 : BitVec 32 := Scalar.addi v1 v2514
  let c0_i32_2033 : BitVec 32 := 0#32
  ![v2515.toNat, 0]

def k0_chk115 (v1 : BitVec 32) (v2514 : BitVec 32) : Prop :=
  (∀ a, (k0_off231 v1 v2514) a + S1x128.size a ≤ S2000000x128.size a)
instance k0_chk115.dec : ∀ (v1 : BitVec 32) (v2514 : BitVec 32), Decidable (k0_chk115 v1 v2514) := fun v1 v2514 => decidable_of_iff' _ (Iff.of_eq (k0_chk115.eq_1 v1 v2514))
theorem k0_off231_inb : ∀ (v1 : BitVec 32) (v2514 : BitVec 32) (k0_hw115 : k0_chk115 v1 v2514), ∀ a, (k0_off231 v1 v2514) a + S1x128.size a ≤ S2000000x128.size a := fun v1 v2514 k0_hw115 => k0_hw115

def k0_off232 (k0_t1 : Fin k0_t1_loop.trips) : Fin 3 → Nat :=
  let c0_2046 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_2045 : BitVec 32 := 5#32
  let v2534 : BitVec 32 := Scalar.addi v5 c5_i32_2045
  let v2535 : Index := Scalar.indexCast v2534
  let c15_2047 : Index := 15#32
  ![0, v2535.toNat, 15]
def k0_off233 (v1 : BitVec 32) (v2536 : BitVec 32) : Fin 2 → Nat :=
  let v2537 : BitVec 32 := Scalar.addi v1 v2536
  let c0_i32_2051 : BitVec 32 := 0#32
  ![v2537.toNat, 0]

def k0_chk116 (v1 : BitVec 32) (v2536 : BitVec 32) : Prop :=
  (∀ a, (k0_off233 v1 v2536) a + S1x128.size a ≤ S2000000x128.size a)
instance k0_chk116.dec : ∀ (v1 : BitVec 32) (v2536 : BitVec 32), Decidable (k0_chk116 v1 v2536) := fun v1 v2536 => decidable_of_iff' _ (Iff.of_eq (k0_chk116.eq_1 v1 v2536))
theorem k0_off233_inb : ∀ (v1 : BitVec 32) (v2536 : BitVec 32) (k0_hw116 : k0_chk116 v1 v2536), ∀ a, (k0_off233 v1 v2536) a + S1x128.size a ≤ S2000000x128.size a := fun v1 v2536 k0_hw116 => k0_hw116

def k0_off234 (k0_t1 : Fin k0_t1_loop.trips) : Fin 3 → Nat :=
  let c0_2064 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_2063 : BitVec 32 := 5#32
  let v2556 : BitVec 32 := Scalar.addi v5 c5_i32_2063
  let v2557 : Index := Scalar.indexCast v2556
  let c16_2065 : Index := 16#32
  ![0, v2557.toNat, 16]
def k0_off235 (v1 : BitVec 32) (v2558 : BitVec 32) : Fin 2 → Nat :=
  let v2559 : BitVec 32 := Scalar.addi v1 v2558
  let c0_i32_2069 : BitVec 32 := 0#32
  ![v2559.toNat, 0]

def k0_chk117 (v1 : BitVec 32) (v2558 : BitVec 32) : Prop :=
  (∀ a, (k0_off235 v1 v2558) a + S1x128.size a ≤ S2000000x128.size a)
instance k0_chk117.dec : ∀ (v1 : BitVec 32) (v2558 : BitVec 32), Decidable (k0_chk117 v1 v2558) := fun v1 v2558 => decidable_of_iff' _ (Iff.of_eq (k0_chk117.eq_1 v1 v2558))
theorem k0_off235_inb : ∀ (v1 : BitVec 32) (v2558 : BitVec 32) (k0_hw117 : k0_chk117 v1 v2558), ∀ a, (k0_off235 v1 v2558) a + S1x128.size a ≤ S2000000x128.size a := fun v1 v2558 k0_hw117 => k0_hw117

def k0_off236 (k0_t1 : Fin k0_t1_loop.trips) : Fin 3 → Nat :=
  let c0_2082 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_2081 : BitVec 32 := 5#32
  let v2578 : BitVec 32 := Scalar.addi v5 c5_i32_2081
  let v2579 : Index := Scalar.indexCast v2578
  let c17_2083 : Index := 17#32
  ![0, v2579.toNat, 17]
def k0_off237 (v1 : BitVec 32) (v2580 : BitVec 32) : Fin 2 → Nat :=
  let v2581 : BitVec 32 := Scalar.addi v1 v2580
  let c0_i32_2087 : BitVec 32 := 0#32
  ![v2581.toNat, 0]

def k0_chk118 (v1 : BitVec 32) (v2580 : BitVec 32) : Prop :=
  (∀ a, (k0_off237 v1 v2580) a + S1x128.size a ≤ S2000000x128.size a)
instance k0_chk118.dec : ∀ (v1 : BitVec 32) (v2580 : BitVec 32), Decidable (k0_chk118 v1 v2580) := fun v1 v2580 => decidable_of_iff' _ (Iff.of_eq (k0_chk118.eq_1 v1 v2580))
theorem k0_off237_inb : ∀ (v1 : BitVec 32) (v2580 : BitVec 32) (k0_hw118 : k0_chk118 v1 v2580), ∀ a, (k0_off237 v1 v2580) a + S1x128.size a ≤ S2000000x128.size a := fun v1 v2580 k0_hw118 => k0_hw118

def k0_off238 (k0_t1 : Fin k0_t1_loop.trips) : Fin 3 → Nat :=
  let c0_2100 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_2099 : BitVec 32 := 5#32
  let v2600 : BitVec 32 := Scalar.addi v5 c5_i32_2099
  let v2601 : Index := Scalar.indexCast v2600
  let c18_2101 : Index := 18#32
  ![0, v2601.toNat, 18]
def k0_off239 (v1 : BitVec 32) (v2602 : BitVec 32) : Fin 2 → Nat :=
  let v2603 : BitVec 32 := Scalar.addi v1 v2602
  let c0_i32_2105 : BitVec 32 := 0#32
  ![v2603.toNat, 0]

def k0_chk119 (v1 : BitVec 32) (v2602 : BitVec 32) : Prop :=
  (∀ a, (k0_off239 v1 v2602) a + S1x128.size a ≤ S2000000x128.size a)
instance k0_chk119.dec : ∀ (v1 : BitVec 32) (v2602 : BitVec 32), Decidable (k0_chk119 v1 v2602) := fun v1 v2602 => decidable_of_iff' _ (Iff.of_eq (k0_chk119.eq_1 v1 v2602))
theorem k0_off239_inb : ∀ (v1 : BitVec 32) (v2602 : BitVec 32) (k0_hw119 : k0_chk119 v1 v2602), ∀ a, (k0_off239 v1 v2602) a + S1x128.size a ≤ S2000000x128.size a := fun v1 v2602 k0_hw119 => k0_hw119

def k0_off240 (k0_t1 : Fin k0_t1_loop.trips) : Fin 3 → Nat :=
  let c0_2118 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c5_i32_2117 : BitVec 32 := 5#32
  let v2622 : BitVec 32 := Scalar.addi v5 c5_i32_2117
  let v2623 : Index := Scalar.indexCast v2622
  let c19_2119 : Index := 19#32
  ![0, v2623.toNat, 19]
def k0_off241 (v1 : BitVec 32) (v2624 : BitVec 32) : Fin 2 → Nat :=
  let v2625 : BitVec 32 := Scalar.addi v1 v2624
  let c0_i32_2123 : BitVec 32 := 0#32
  ![v2625.toNat, 0]

def k0_chk120 (v1 : BitVec 32) (v2624 : BitVec 32) : Prop :=
  (∀ a, (k0_off241 v1 v2624) a + S1x128.size a ≤ S2000000x128.size a)
instance k0_chk120.dec : ∀ (v1 : BitVec 32) (v2624 : BitVec 32), Decidable (k0_chk120 v1 v2624) := fun v1 v2624 => decidable_of_iff' _ (Iff.of_eq (k0_chk120.eq_1 v1 v2624))
theorem k0_off241_inb : ∀ (v1 : BitVec 32) (v2624 : BitVec 32) (k0_hw120 : k0_chk120 v1 v2624), ∀ a, (k0_off241 v1 v2624) a + S1x128.size a ≤ S2000000x128.size a := fun v1 v2624 k0_hw120 => k0_hw120

def k0_off242 (k0_t1 : Fin k0_t1_loop.trips) : Fin 3 → Nat :=
  let c0_2135 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32 : BitVec 32 := 6#32
  let v2644 : BitVec 32 := Scalar.addi v5 c6_i32
  let v2645 : Index := Scalar.indexCast v2644
  let c0_2136 : Index := 0#32
  ![0, v2645.toNat, 0]
def k0_off243 (v1 : BitVec 32) (v2646 : BitVec 32) : Fin 2 → Nat :=
  let v2647 : BitVec 32 := Scalar.addi v1 v2646
  let c0_i32_2140 : BitVec 32 := 0#32
  ![v2647.toNat, 0]

def k0_chk121 (v1 : BitVec 32) (v2646 : BitVec 32) : Prop :=
  (∀ a, (k0_off243 v1 v2646) a + S1x128.size a ≤ S2000000x128.size a)
instance k0_chk121.dec : ∀ (v1 : BitVec 32) (v2646 : BitVec 32), Decidable (k0_chk121 v1 v2646) := fun v1 v2646 => decidable_of_iff' _ (Iff.of_eq (k0_chk121.eq_1 v1 v2646))
theorem k0_off243_inb : ∀ (v1 : BitVec 32) (v2646 : BitVec 32) (k0_hw121 : k0_chk121 v1 v2646), ∀ a, (k0_off243 v1 v2646) a + S1x128.size a ≤ S2000000x128.size a := fun v1 v2646 k0_hw121 => k0_hw121

def k0_off244 (k0_t1 : Fin k0_t1_loop.trips) : Fin 3 → Nat :=
  let c0_2153 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2152 : BitVec 32 := 6#32
  let v2666 : BitVec 32 := Scalar.addi v5 c6_i32_2152
  let v2667 : Index := Scalar.indexCast v2666
  let c1_2154 : Index := 1#32
  ![0, v2667.toNat, 1]
def k0_off245 (v1 : BitVec 32) (v2668 : BitVec 32) : Fin 2 → Nat :=
  let v2669 : BitVec 32 := Scalar.addi v1 v2668
  let c0_i32_2158 : BitVec 32 := 0#32
  ![v2669.toNat, 0]

def k0_chk122 (v1 : BitVec 32) (v2668 : BitVec 32) : Prop :=
  (∀ a, (k0_off245 v1 v2668) a + S1x128.size a ≤ S2000000x128.size a)
instance k0_chk122.dec : ∀ (v1 : BitVec 32) (v2668 : BitVec 32), Decidable (k0_chk122 v1 v2668) := fun v1 v2668 => decidable_of_iff' _ (Iff.of_eq (k0_chk122.eq_1 v1 v2668))
theorem k0_off245_inb : ∀ (v1 : BitVec 32) (v2668 : BitVec 32) (k0_hw122 : k0_chk122 v1 v2668), ∀ a, (k0_off245 v1 v2668) a + S1x128.size a ≤ S2000000x128.size a := fun v1 v2668 k0_hw122 => k0_hw122

def k0_off246 (k0_t1 : Fin k0_t1_loop.trips) : Fin 3 → Nat :=
  let c0_2171 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2170 : BitVec 32 := 6#32
  let v2688 : BitVec 32 := Scalar.addi v5 c6_i32_2170
  let v2689 : Index := Scalar.indexCast v2688
  let c2_2172 : Index := 2#32
  ![0, v2689.toNat, 2]
def k0_off247 (v1 : BitVec 32) (v2690 : BitVec 32) : Fin 2 → Nat :=
  let v2691 : BitVec 32 := Scalar.addi v1 v2690
  let c0_i32_2176 : BitVec 32 := 0#32
  ![v2691.toNat, 0]

def k0_chk123 (v1 : BitVec 32) (v2690 : BitVec 32) : Prop :=
  (∀ a, (k0_off247 v1 v2690) a + S1x128.size a ≤ S2000000x128.size a)
instance k0_chk123.dec : ∀ (v1 : BitVec 32) (v2690 : BitVec 32), Decidable (k0_chk123 v1 v2690) := fun v1 v2690 => decidable_of_iff' _ (Iff.of_eq (k0_chk123.eq_1 v1 v2690))
theorem k0_off247_inb : ∀ (v1 : BitVec 32) (v2690 : BitVec 32) (k0_hw123 : k0_chk123 v1 v2690), ∀ a, (k0_off247 v1 v2690) a + S1x128.size a ≤ S2000000x128.size a := fun v1 v2690 k0_hw123 => k0_hw123

def k0_off248 (k0_t1 : Fin k0_t1_loop.trips) : Fin 3 → Nat :=
  let c0_2189 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2188 : BitVec 32 := 6#32
  let v2710 : BitVec 32 := Scalar.addi v5 c6_i32_2188
  let v2711 : Index := Scalar.indexCast v2710
  let c3_2190 : Index := 3#32
  ![0, v2711.toNat, 3]
def k0_off249 (v1 : BitVec 32) (v2712 : BitVec 32) : Fin 2 → Nat :=
  let v2713 : BitVec 32 := Scalar.addi v1 v2712
  let c0_i32_2194 : BitVec 32 := 0#32
  ![v2713.toNat, 0]

def k0_chk124 (v1 : BitVec 32) (v2712 : BitVec 32) : Prop :=
  (∀ a, (k0_off249 v1 v2712) a + S1x128.size a ≤ S2000000x128.size a)
instance k0_chk124.dec : ∀ (v1 : BitVec 32) (v2712 : BitVec 32), Decidable (k0_chk124 v1 v2712) := fun v1 v2712 => decidable_of_iff' _ (Iff.of_eq (k0_chk124.eq_1 v1 v2712))
theorem k0_off249_inb : ∀ (v1 : BitVec 32) (v2712 : BitVec 32) (k0_hw124 : k0_chk124 v1 v2712), ∀ a, (k0_off249 v1 v2712) a + S1x128.size a ≤ S2000000x128.size a := fun v1 v2712 k0_hw124 => k0_hw124

def k0_off250 (k0_t1 : Fin k0_t1_loop.trips) : Fin 3 → Nat :=
  let c0_2207 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2206 : BitVec 32 := 6#32
  let v2732 : BitVec 32 := Scalar.addi v5 c6_i32_2206
  let v2733 : Index := Scalar.indexCast v2732
  let c4_2208 : Index := 4#32
  ![0, v2733.toNat, 4]
def k0_off251 (v1 : BitVec 32) (v2734 : BitVec 32) : Fin 2 → Nat :=
  let v2735 : BitVec 32 := Scalar.addi v1 v2734
  let c0_i32_2212 : BitVec 32 := 0#32
  ![v2735.toNat, 0]

def k0_chk125 (v1 : BitVec 32) (v2734 : BitVec 32) : Prop :=
  (∀ a, (k0_off251 v1 v2734) a + S1x128.size a ≤ S2000000x128.size a)
instance k0_chk125.dec : ∀ (v1 : BitVec 32) (v2734 : BitVec 32), Decidable (k0_chk125 v1 v2734) := fun v1 v2734 => decidable_of_iff' _ (Iff.of_eq (k0_chk125.eq_1 v1 v2734))
theorem k0_off251_inb : ∀ (v1 : BitVec 32) (v2734 : BitVec 32) (k0_hw125 : k0_chk125 v1 v2734), ∀ a, (k0_off251 v1 v2734) a + S1x128.size a ≤ S2000000x128.size a := fun v1 v2734 k0_hw125 => k0_hw125

def k0_off252 (k0_t1 : Fin k0_t1_loop.trips) : Fin 3 → Nat :=
  let c0_2225 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2224 : BitVec 32 := 6#32
  let v2754 : BitVec 32 := Scalar.addi v5 c6_i32_2224
  let v2755 : Index := Scalar.indexCast v2754
  let c5_2226 : Index := 5#32
  ![0, v2755.toNat, 5]
def k0_off253 (v1 : BitVec 32) (v2756 : BitVec 32) : Fin 2 → Nat :=
  let v2757 : BitVec 32 := Scalar.addi v1 v2756
  let c0_i32_2230 : BitVec 32 := 0#32
  ![v2757.toNat, 0]

def k0_chk126 (v1 : BitVec 32) (v2756 : BitVec 32) : Prop :=
  (∀ a, (k0_off253 v1 v2756) a + S1x128.size a ≤ S2000000x128.size a)
instance k0_chk126.dec : ∀ (v1 : BitVec 32) (v2756 : BitVec 32), Decidable (k0_chk126 v1 v2756) := fun v1 v2756 => decidable_of_iff' _ (Iff.of_eq (k0_chk126.eq_1 v1 v2756))
theorem k0_off253_inb : ∀ (v1 : BitVec 32) (v2756 : BitVec 32) (k0_hw126 : k0_chk126 v1 v2756), ∀ a, (k0_off253 v1 v2756) a + S1x128.size a ≤ S2000000x128.size a := fun v1 v2756 k0_hw126 => k0_hw126

def k0_off254 (k0_t1 : Fin k0_t1_loop.trips) : Fin 3 → Nat :=
  let c0_2243 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2242 : BitVec 32 := 6#32
  let v2776 : BitVec 32 := Scalar.addi v5 c6_i32_2242
  let v2777 : Index := Scalar.indexCast v2776
  let c6_2244 : Index := 6#32
  ![0, v2777.toNat, 6]
def k0_off255 (v1 : BitVec 32) (v2778 : BitVec 32) : Fin 2 → Nat :=
  let v2779 : BitVec 32 := Scalar.addi v1 v2778
  let c0_i32_2248 : BitVec 32 := 0#32
  ![v2779.toNat, 0]

def k0_chk127 (v1 : BitVec 32) (v2778 : BitVec 32) : Prop :=
  (∀ a, (k0_off255 v1 v2778) a + S1x128.size a ≤ S2000000x128.size a)
instance k0_chk127.dec : ∀ (v1 : BitVec 32) (v2778 : BitVec 32), Decidable (k0_chk127 v1 v2778) := fun v1 v2778 => decidable_of_iff' _ (Iff.of_eq (k0_chk127.eq_1 v1 v2778))
theorem k0_off255_inb : ∀ (v1 : BitVec 32) (v2778 : BitVec 32) (k0_hw127 : k0_chk127 v1 v2778), ∀ a, (k0_off255 v1 v2778) a + S1x128.size a ≤ S2000000x128.size a := fun v1 v2778 k0_hw127 => k0_hw127

def k0_off256 (k0_t1 : Fin k0_t1_loop.trips) : Fin 3 → Nat :=
  let c0_2261 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2260 : BitVec 32 := 6#32
  let v2798 : BitVec 32 := Scalar.addi v5 c6_i32_2260
  let v2799 : Index := Scalar.indexCast v2798
  let c7_2262 : Index := 7#32
  ![0, v2799.toNat, 7]
def k0_off257 (v1 : BitVec 32) (v2800 : BitVec 32) : Fin 2 → Nat :=
  let v2801 : BitVec 32 := Scalar.addi v1 v2800
  let c0_i32_2266 : BitVec 32 := 0#32
  ![v2801.toNat, 0]

def k0_chk128 (v1 : BitVec 32) (v2800 : BitVec 32) : Prop :=
  (∀ a, (k0_off257 v1 v2800) a + S1x128.size a ≤ S2000000x128.size a)
instance k0_chk128.dec : ∀ (v1 : BitVec 32) (v2800 : BitVec 32), Decidable (k0_chk128 v1 v2800) := fun v1 v2800 => decidable_of_iff' _ (Iff.of_eq (k0_chk128.eq_1 v1 v2800))
theorem k0_off257_inb : ∀ (v1 : BitVec 32) (v2800 : BitVec 32) (k0_hw128 : k0_chk128 v1 v2800), ∀ a, (k0_off257 v1 v2800) a + S1x128.size a ≤ S2000000x128.size a := fun v1 v2800 k0_hw128 => k0_hw128

def k0_off258 (k0_t1 : Fin k0_t1_loop.trips) : Fin 3 → Nat :=
  let c0_2279 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2278 : BitVec 32 := 6#32
  let v2820 : BitVec 32 := Scalar.addi v5 c6_i32_2278
  let v2821 : Index := Scalar.indexCast v2820
  let c8_2280 : Index := 8#32
  ![0, v2821.toNat, 8]
def k0_off259 (v1 : BitVec 32) (v2822 : BitVec 32) : Fin 2 → Nat :=
  let v2823 : BitVec 32 := Scalar.addi v1 v2822
  let c0_i32_2284 : BitVec 32 := 0#32
  ![v2823.toNat, 0]

def k0_chk129 (v1 : BitVec 32) (v2822 : BitVec 32) : Prop :=
  (∀ a, (k0_off259 v1 v2822) a + S1x128.size a ≤ S2000000x128.size a)
instance k0_chk129.dec : ∀ (v1 : BitVec 32) (v2822 : BitVec 32), Decidable (k0_chk129 v1 v2822) := fun v1 v2822 => decidable_of_iff' _ (Iff.of_eq (k0_chk129.eq_1 v1 v2822))
theorem k0_off259_inb : ∀ (v1 : BitVec 32) (v2822 : BitVec 32) (k0_hw129 : k0_chk129 v1 v2822), ∀ a, (k0_off259 v1 v2822) a + S1x128.size a ≤ S2000000x128.size a := fun v1 v2822 k0_hw129 => k0_hw129

def k0_off260 (k0_t1 : Fin k0_t1_loop.trips) : Fin 3 → Nat :=
  let c0_2297 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2296 : BitVec 32 := 6#32
  let v2842 : BitVec 32 := Scalar.addi v5 c6_i32_2296
  let v2843 : Index := Scalar.indexCast v2842
  let c9_2298 : Index := 9#32
  ![0, v2843.toNat, 9]
def k0_off261 (v1 : BitVec 32) (v2844 : BitVec 32) : Fin 2 → Nat :=
  let v2845 : BitVec 32 := Scalar.addi v1 v2844
  let c0_i32_2302 : BitVec 32 := 0#32
  ![v2845.toNat, 0]

def k0_chk130 (v1 : BitVec 32) (v2844 : BitVec 32) : Prop :=
  (∀ a, (k0_off261 v1 v2844) a + S1x128.size a ≤ S2000000x128.size a)
instance k0_chk130.dec : ∀ (v1 : BitVec 32) (v2844 : BitVec 32), Decidable (k0_chk130 v1 v2844) := fun v1 v2844 => decidable_of_iff' _ (Iff.of_eq (k0_chk130.eq_1 v1 v2844))
theorem k0_off261_inb : ∀ (v1 : BitVec 32) (v2844 : BitVec 32) (k0_hw130 : k0_chk130 v1 v2844), ∀ a, (k0_off261 v1 v2844) a + S1x128.size a ≤ S2000000x128.size a := fun v1 v2844 k0_hw130 => k0_hw130

def k0_off262 (k0_t1 : Fin k0_t1_loop.trips) : Fin 3 → Nat :=
  let c0_2315 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2314 : BitVec 32 := 6#32
  let v2864 : BitVec 32 := Scalar.addi v5 c6_i32_2314
  let v2865 : Index := Scalar.indexCast v2864
  let c10_2316 : Index := 10#32
  ![0, v2865.toNat, 10]
def k0_off263 (v1 : BitVec 32) (v2866 : BitVec 32) : Fin 2 → Nat :=
  let v2867 : BitVec 32 := Scalar.addi v1 v2866
  let c0_i32_2320 : BitVec 32 := 0#32
  ![v2867.toNat, 0]

def k0_chk131 (v1 : BitVec 32) (v2866 : BitVec 32) : Prop :=
  (∀ a, (k0_off263 v1 v2866) a + S1x128.size a ≤ S2000000x128.size a)
instance k0_chk131.dec : ∀ (v1 : BitVec 32) (v2866 : BitVec 32), Decidable (k0_chk131 v1 v2866) := fun v1 v2866 => decidable_of_iff' _ (Iff.of_eq (k0_chk131.eq_1 v1 v2866))
theorem k0_off263_inb : ∀ (v1 : BitVec 32) (v2866 : BitVec 32) (k0_hw131 : k0_chk131 v1 v2866), ∀ a, (k0_off263 v1 v2866) a + S1x128.size a ≤ S2000000x128.size a := fun v1 v2866 k0_hw131 => k0_hw131

def k0_off264 (k0_t1 : Fin k0_t1_loop.trips) : Fin 3 → Nat :=
  let c0_2333 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2332 : BitVec 32 := 6#32
  let v2886 : BitVec 32 := Scalar.addi v5 c6_i32_2332
  let v2887 : Index := Scalar.indexCast v2886
  let c11_2334 : Index := 11#32
  ![0, v2887.toNat, 11]
def k0_off265 (v1 : BitVec 32) (v2888 : BitVec 32) : Fin 2 → Nat :=
  let v2889 : BitVec 32 := Scalar.addi v1 v2888
  let c0_i32_2338 : BitVec 32 := 0#32
  ![v2889.toNat, 0]

def k0_chk132 (v1 : BitVec 32) (v2888 : BitVec 32) : Prop :=
  (∀ a, (k0_off265 v1 v2888) a + S1x128.size a ≤ S2000000x128.size a)
instance k0_chk132.dec : ∀ (v1 : BitVec 32) (v2888 : BitVec 32), Decidable (k0_chk132 v1 v2888) := fun v1 v2888 => decidable_of_iff' _ (Iff.of_eq (k0_chk132.eq_1 v1 v2888))
theorem k0_off265_inb : ∀ (v1 : BitVec 32) (v2888 : BitVec 32) (k0_hw132 : k0_chk132 v1 v2888), ∀ a, (k0_off265 v1 v2888) a + S1x128.size a ≤ S2000000x128.size a := fun v1 v2888 k0_hw132 => k0_hw132

def k0_off266 (k0_t1 : Fin k0_t1_loop.trips) : Fin 3 → Nat :=
  let c0_2351 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2350 : BitVec 32 := 6#32
  let v2908 : BitVec 32 := Scalar.addi v5 c6_i32_2350
  let v2909 : Index := Scalar.indexCast v2908
  let c12_2352 : Index := 12#32
  ![0, v2909.toNat, 12]
def k0_off267 (v1 : BitVec 32) (v2910 : BitVec 32) : Fin 2 → Nat :=
  let v2911 : BitVec 32 := Scalar.addi v1 v2910
  let c0_i32_2356 : BitVec 32 := 0#32
  ![v2911.toNat, 0]

def k0_chk133 (v1 : BitVec 32) (v2910 : BitVec 32) : Prop :=
  (∀ a, (k0_off267 v1 v2910) a + S1x128.size a ≤ S2000000x128.size a)
instance k0_chk133.dec : ∀ (v1 : BitVec 32) (v2910 : BitVec 32), Decidable (k0_chk133 v1 v2910) := fun v1 v2910 => decidable_of_iff' _ (Iff.of_eq (k0_chk133.eq_1 v1 v2910))
theorem k0_off267_inb : ∀ (v1 : BitVec 32) (v2910 : BitVec 32) (k0_hw133 : k0_chk133 v1 v2910), ∀ a, (k0_off267 v1 v2910) a + S1x128.size a ≤ S2000000x128.size a := fun v1 v2910 k0_hw133 => k0_hw133

def k0_off268 (k0_t1 : Fin k0_t1_loop.trips) : Fin 3 → Nat :=
  let c0_2369 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2368 : BitVec 32 := 6#32
  let v2930 : BitVec 32 := Scalar.addi v5 c6_i32_2368
  let v2931 : Index := Scalar.indexCast v2930
  let c13_2370 : Index := 13#32
  ![0, v2931.toNat, 13]
def k0_off269 (v1 : BitVec 32) (v2932 : BitVec 32) : Fin 2 → Nat :=
  let v2933 : BitVec 32 := Scalar.addi v1 v2932
  let c0_i32_2374 : BitVec 32 := 0#32
  ![v2933.toNat, 0]

def k0_chk134 (v1 : BitVec 32) (v2932 : BitVec 32) : Prop :=
  (∀ a, (k0_off269 v1 v2932) a + S1x128.size a ≤ S2000000x128.size a)
instance k0_chk134.dec : ∀ (v1 : BitVec 32) (v2932 : BitVec 32), Decidable (k0_chk134 v1 v2932) := fun v1 v2932 => decidable_of_iff' _ (Iff.of_eq (k0_chk134.eq_1 v1 v2932))
theorem k0_off269_inb : ∀ (v1 : BitVec 32) (v2932 : BitVec 32) (k0_hw134 : k0_chk134 v1 v2932), ∀ a, (k0_off269 v1 v2932) a + S1x128.size a ≤ S2000000x128.size a := fun v1 v2932 k0_hw134 => k0_hw134

def k0_off270 (k0_t1 : Fin k0_t1_loop.trips) : Fin 3 → Nat :=
  let c0_2387 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2386 : BitVec 32 := 6#32
  let v2952 : BitVec 32 := Scalar.addi v5 c6_i32_2386
  let v2953 : Index := Scalar.indexCast v2952
  let c14_2388 : Index := 14#32
  ![0, v2953.toNat, 14]
def k0_off271 (v1 : BitVec 32) (v2954 : BitVec 32) : Fin 2 → Nat :=
  let v2955 : BitVec 32 := Scalar.addi v1 v2954
  let c0_i32_2392 : BitVec 32 := 0#32
  ![v2955.toNat, 0]

def k0_chk135 (v1 : BitVec 32) (v2954 : BitVec 32) : Prop :=
  (∀ a, (k0_off271 v1 v2954) a + S1x128.size a ≤ S2000000x128.size a)
instance k0_chk135.dec : ∀ (v1 : BitVec 32) (v2954 : BitVec 32), Decidable (k0_chk135 v1 v2954) := fun v1 v2954 => decidable_of_iff' _ (Iff.of_eq (k0_chk135.eq_1 v1 v2954))
theorem k0_off271_inb : ∀ (v1 : BitVec 32) (v2954 : BitVec 32) (k0_hw135 : k0_chk135 v1 v2954), ∀ a, (k0_off271 v1 v2954) a + S1x128.size a ≤ S2000000x128.size a := fun v1 v2954 k0_hw135 => k0_hw135

def k0_off272 (k0_t1 : Fin k0_t1_loop.trips) : Fin 3 → Nat :=
  let c0_2405 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2404 : BitVec 32 := 6#32
  let v2974 : BitVec 32 := Scalar.addi v5 c6_i32_2404
  let v2975 : Index := Scalar.indexCast v2974
  let c15_2406 : Index := 15#32
  ![0, v2975.toNat, 15]
def k0_off273 (v1 : BitVec 32) (v2976 : BitVec 32) : Fin 2 → Nat :=
  let v2977 : BitVec 32 := Scalar.addi v1 v2976
  let c0_i32_2410 : BitVec 32 := 0#32
  ![v2977.toNat, 0]

def k0_chk136 (v1 : BitVec 32) (v2976 : BitVec 32) : Prop :=
  (∀ a, (k0_off273 v1 v2976) a + S1x128.size a ≤ S2000000x128.size a)
instance k0_chk136.dec : ∀ (v1 : BitVec 32) (v2976 : BitVec 32), Decidable (k0_chk136 v1 v2976) := fun v1 v2976 => decidable_of_iff' _ (Iff.of_eq (k0_chk136.eq_1 v1 v2976))
theorem k0_off273_inb : ∀ (v1 : BitVec 32) (v2976 : BitVec 32) (k0_hw136 : k0_chk136 v1 v2976), ∀ a, (k0_off273 v1 v2976) a + S1x128.size a ≤ S2000000x128.size a := fun v1 v2976 k0_hw136 => k0_hw136

def k0_off274 (k0_t1 : Fin k0_t1_loop.trips) : Fin 3 → Nat :=
  let c0_2423 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2422 : BitVec 32 := 6#32
  let v2996 : BitVec 32 := Scalar.addi v5 c6_i32_2422
  let v2997 : Index := Scalar.indexCast v2996
  let c16_2424 : Index := 16#32
  ![0, v2997.toNat, 16]
def k0_off275 (v1 : BitVec 32) (v2998 : BitVec 32) : Fin 2 → Nat :=
  let v2999 : BitVec 32 := Scalar.addi v1 v2998
  let c0_i32_2428 : BitVec 32 := 0#32
  ![v2999.toNat, 0]

def k0_chk137 (v1 : BitVec 32) (v2998 : BitVec 32) : Prop :=
  (∀ a, (k0_off275 v1 v2998) a + S1x128.size a ≤ S2000000x128.size a)
instance k0_chk137.dec : ∀ (v1 : BitVec 32) (v2998 : BitVec 32), Decidable (k0_chk137 v1 v2998) := fun v1 v2998 => decidable_of_iff' _ (Iff.of_eq (k0_chk137.eq_1 v1 v2998))
theorem k0_off275_inb : ∀ (v1 : BitVec 32) (v2998 : BitVec 32) (k0_hw137 : k0_chk137 v1 v2998), ∀ a, (k0_off275 v1 v2998) a + S1x128.size a ≤ S2000000x128.size a := fun v1 v2998 k0_hw137 => k0_hw137

def k0_off276 (k0_t1 : Fin k0_t1_loop.trips) : Fin 3 → Nat :=
  let c0_2441 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2440 : BitVec 32 := 6#32
  let v3018 : BitVec 32 := Scalar.addi v5 c6_i32_2440
  let v3019 : Index := Scalar.indexCast v3018
  let c17_2442 : Index := 17#32
  ![0, v3019.toNat, 17]
def k0_off277 (v1 : BitVec 32) (v3020 : BitVec 32) : Fin 2 → Nat :=
  let v3021 : BitVec 32 := Scalar.addi v1 v3020
  let c0_i32_2446 : BitVec 32 := 0#32
  ![v3021.toNat, 0]

def k0_chk138 (v1 : BitVec 32) (v3020 : BitVec 32) : Prop :=
  (∀ a, (k0_off277 v1 v3020) a + S1x128.size a ≤ S2000000x128.size a)
instance k0_chk138.dec : ∀ (v1 : BitVec 32) (v3020 : BitVec 32), Decidable (k0_chk138 v1 v3020) := fun v1 v3020 => decidable_of_iff' _ (Iff.of_eq (k0_chk138.eq_1 v1 v3020))
theorem k0_off277_inb : ∀ (v1 : BitVec 32) (v3020 : BitVec 32) (k0_hw138 : k0_chk138 v1 v3020), ∀ a, (k0_off277 v1 v3020) a + S1x128.size a ≤ S2000000x128.size a := fun v1 v3020 k0_hw138 => k0_hw138

def k0_off278 (k0_t1 : Fin k0_t1_loop.trips) : Fin 3 → Nat :=
  let c0_2459 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2458 : BitVec 32 := 6#32
  let v3040 : BitVec 32 := Scalar.addi v5 c6_i32_2458
  let v3041 : Index := Scalar.indexCast v3040
  let c18_2460 : Index := 18#32
  ![0, v3041.toNat, 18]
def k0_off279 (v1 : BitVec 32) (v3042 : BitVec 32) : Fin 2 → Nat :=
  let v3043 : BitVec 32 := Scalar.addi v1 v3042
  let c0_i32_2464 : BitVec 32 := 0#32
  ![v3043.toNat, 0]

def k0_chk139 (v1 : BitVec 32) (v3042 : BitVec 32) : Prop :=
  (∀ a, (k0_off279 v1 v3042) a + S1x128.size a ≤ S2000000x128.size a)
instance k0_chk139.dec : ∀ (v1 : BitVec 32) (v3042 : BitVec 32), Decidable (k0_chk139 v1 v3042) := fun v1 v3042 => decidable_of_iff' _ (Iff.of_eq (k0_chk139.eq_1 v1 v3042))
theorem k0_off279_inb : ∀ (v1 : BitVec 32) (v3042 : BitVec 32) (k0_hw139 : k0_chk139 v1 v3042), ∀ a, (k0_off279 v1 v3042) a + S1x128.size a ≤ S2000000x128.size a := fun v1 v3042 k0_hw139 => k0_hw139

def k0_off280 (k0_t1 : Fin k0_t1_loop.trips) : Fin 3 → Nat :=
  let c0_2477 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c6_i32_2476 : BitVec 32 := 6#32
  let v3062 : BitVec 32 := Scalar.addi v5 c6_i32_2476
  let v3063 : Index := Scalar.indexCast v3062
  let c19_2478 : Index := 19#32
  ![0, v3063.toNat, 19]
def k0_off281 (v1 : BitVec 32) (v3064 : BitVec 32) : Fin 2 → Nat :=
  let v3065 : BitVec 32 := Scalar.addi v1 v3064
  let c0_i32_2482 : BitVec 32 := 0#32
  ![v3065.toNat, 0]

def k0_chk140 (v1 : BitVec 32) (v3064 : BitVec 32) : Prop :=
  (∀ a, (k0_off281 v1 v3064) a + S1x128.size a ≤ S2000000x128.size a)
instance k0_chk140.dec : ∀ (v1 : BitVec 32) (v3064 : BitVec 32), Decidable (k0_chk140 v1 v3064) := fun v1 v3064 => decidable_of_iff' _ (Iff.of_eq (k0_chk140.eq_1 v1 v3064))
theorem k0_off281_inb : ∀ (v1 : BitVec 32) (v3064 : BitVec 32) (k0_hw140 : k0_chk140 v1 v3064), ∀ a, (k0_off281 v1 v3064) a + S1x128.size a ≤ S2000000x128.size a := fun v1 v3064 k0_hw140 => k0_hw140

def k0_off282 (k0_t1 : Fin k0_t1_loop.trips) : Fin 3 → Nat :=
  let c0_2494 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32 : BitVec 32 := 7#32
  let v3084 : BitVec 32 := Scalar.addi v5 c7_i32
  let v3085 : Index := Scalar.indexCast v3084
  let c0_2495 : Index := 0#32
  ![0, v3085.toNat, 0]
def k0_off283 (v1 : BitVec 32) (v3086 : BitVec 32) : Fin 2 → Nat :=
  let v3087 : BitVec 32 := Scalar.addi v1 v3086
  let c0_i32_2499 : BitVec 32 := 0#32
  ![v3087.toNat, 0]

def k0_chk141 (v1 : BitVec 32) (v3086 : BitVec 32) : Prop :=
  (∀ a, (k0_off283 v1 v3086) a + S1x128.size a ≤ S2000000x128.size a)
instance k0_chk141.dec : ∀ (v1 : BitVec 32) (v3086 : BitVec 32), Decidable (k0_chk141 v1 v3086) := fun v1 v3086 => decidable_of_iff' _ (Iff.of_eq (k0_chk141.eq_1 v1 v3086))
theorem k0_off283_inb : ∀ (v1 : BitVec 32) (v3086 : BitVec 32) (k0_hw141 : k0_chk141 v1 v3086), ∀ a, (k0_off283 v1 v3086) a + S1x128.size a ≤ S2000000x128.size a := fun v1 v3086 k0_hw141 => k0_hw141

def k0_off284 (k0_t1 : Fin k0_t1_loop.trips) : Fin 3 → Nat :=
  let c0_2512 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2511 : BitVec 32 := 7#32
  let v3106 : BitVec 32 := Scalar.addi v5 c7_i32_2511
  let v3107 : Index := Scalar.indexCast v3106
  let c1_2513 : Index := 1#32
  ![0, v3107.toNat, 1]
def k0_off285 (v1 : BitVec 32) (v3108 : BitVec 32) : Fin 2 → Nat :=
  let v3109 : BitVec 32 := Scalar.addi v1 v3108
  let c0_i32_2517 : BitVec 32 := 0#32
  ![v3109.toNat, 0]

def k0_chk142 (v1 : BitVec 32) (v3108 : BitVec 32) : Prop :=
  (∀ a, (k0_off285 v1 v3108) a + S1x128.size a ≤ S2000000x128.size a)
instance k0_chk142.dec : ∀ (v1 : BitVec 32) (v3108 : BitVec 32), Decidable (k0_chk142 v1 v3108) := fun v1 v3108 => decidable_of_iff' _ (Iff.of_eq (k0_chk142.eq_1 v1 v3108))
theorem k0_off285_inb : ∀ (v1 : BitVec 32) (v3108 : BitVec 32) (k0_hw142 : k0_chk142 v1 v3108), ∀ a, (k0_off285 v1 v3108) a + S1x128.size a ≤ S2000000x128.size a := fun v1 v3108 k0_hw142 => k0_hw142

def k0_off286 (k0_t1 : Fin k0_t1_loop.trips) : Fin 3 → Nat :=
  let c0_2530 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2529 : BitVec 32 := 7#32
  let v3128 : BitVec 32 := Scalar.addi v5 c7_i32_2529
  let v3129 : Index := Scalar.indexCast v3128
  let c2_2531 : Index := 2#32
  ![0, v3129.toNat, 2]
def k0_off287 (v1 : BitVec 32) (v3130 : BitVec 32) : Fin 2 → Nat :=
  let v3131 : BitVec 32 := Scalar.addi v1 v3130
  let c0_i32_2535 : BitVec 32 := 0#32
  ![v3131.toNat, 0]

def k0_chk143 (v1 : BitVec 32) (v3130 : BitVec 32) : Prop :=
  (∀ a, (k0_off287 v1 v3130) a + S1x128.size a ≤ S2000000x128.size a)
instance k0_chk143.dec : ∀ (v1 : BitVec 32) (v3130 : BitVec 32), Decidable (k0_chk143 v1 v3130) := fun v1 v3130 => decidable_of_iff' _ (Iff.of_eq (k0_chk143.eq_1 v1 v3130))
theorem k0_off287_inb : ∀ (v1 : BitVec 32) (v3130 : BitVec 32) (k0_hw143 : k0_chk143 v1 v3130), ∀ a, (k0_off287 v1 v3130) a + S1x128.size a ≤ S2000000x128.size a := fun v1 v3130 k0_hw143 => k0_hw143

def k0_off288 (k0_t1 : Fin k0_t1_loop.trips) : Fin 3 → Nat :=
  let c0_2548 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2547 : BitVec 32 := 7#32
  let v3150 : BitVec 32 := Scalar.addi v5 c7_i32_2547
  let v3151 : Index := Scalar.indexCast v3150
  let c3_2549 : Index := 3#32
  ![0, v3151.toNat, 3]
def k0_off289 (v1 : BitVec 32) (v3152 : BitVec 32) : Fin 2 → Nat :=
  let v3153 : BitVec 32 := Scalar.addi v1 v3152
  let c0_i32_2553 : BitVec 32 := 0#32
  ![v3153.toNat, 0]

def k0_chk144 (v1 : BitVec 32) (v3152 : BitVec 32) : Prop :=
  (∀ a, (k0_off289 v1 v3152) a + S1x128.size a ≤ S2000000x128.size a)
instance k0_chk144.dec : ∀ (v1 : BitVec 32) (v3152 : BitVec 32), Decidable (k0_chk144 v1 v3152) := fun v1 v3152 => decidable_of_iff' _ (Iff.of_eq (k0_chk144.eq_1 v1 v3152))
theorem k0_off289_inb : ∀ (v1 : BitVec 32) (v3152 : BitVec 32) (k0_hw144 : k0_chk144 v1 v3152), ∀ a, (k0_off289 v1 v3152) a + S1x128.size a ≤ S2000000x128.size a := fun v1 v3152 k0_hw144 => k0_hw144

def k0_off290 (k0_t1 : Fin k0_t1_loop.trips) : Fin 3 → Nat :=
  let c0_2566 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2565 : BitVec 32 := 7#32
  let v3172 : BitVec 32 := Scalar.addi v5 c7_i32_2565
  let v3173 : Index := Scalar.indexCast v3172
  let c4_2567 : Index := 4#32
  ![0, v3173.toNat, 4]
def k0_off291 (v1 : BitVec 32) (v3174 : BitVec 32) : Fin 2 → Nat :=
  let v3175 : BitVec 32 := Scalar.addi v1 v3174
  let c0_i32_2571 : BitVec 32 := 0#32
  ![v3175.toNat, 0]

def k0_chk145 (v1 : BitVec 32) (v3174 : BitVec 32) : Prop :=
  (∀ a, (k0_off291 v1 v3174) a + S1x128.size a ≤ S2000000x128.size a)
instance k0_chk145.dec : ∀ (v1 : BitVec 32) (v3174 : BitVec 32), Decidable (k0_chk145 v1 v3174) := fun v1 v3174 => decidable_of_iff' _ (Iff.of_eq (k0_chk145.eq_1 v1 v3174))
theorem k0_off291_inb : ∀ (v1 : BitVec 32) (v3174 : BitVec 32) (k0_hw145 : k0_chk145 v1 v3174), ∀ a, (k0_off291 v1 v3174) a + S1x128.size a ≤ S2000000x128.size a := fun v1 v3174 k0_hw145 => k0_hw145

def k0_off292 (k0_t1 : Fin k0_t1_loop.trips) : Fin 3 → Nat :=
  let c0_2584 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2583 : BitVec 32 := 7#32
  let v3194 : BitVec 32 := Scalar.addi v5 c7_i32_2583
  let v3195 : Index := Scalar.indexCast v3194
  let c5_2585 : Index := 5#32
  ![0, v3195.toNat, 5]
def k0_off293 (v1 : BitVec 32) (v3196 : BitVec 32) : Fin 2 → Nat :=
  let v3197 : BitVec 32 := Scalar.addi v1 v3196
  let c0_i32_2589 : BitVec 32 := 0#32
  ![v3197.toNat, 0]

def k0_chk146 (v1 : BitVec 32) (v3196 : BitVec 32) : Prop :=
  (∀ a, (k0_off293 v1 v3196) a + S1x128.size a ≤ S2000000x128.size a)
instance k0_chk146.dec : ∀ (v1 : BitVec 32) (v3196 : BitVec 32), Decidable (k0_chk146 v1 v3196) := fun v1 v3196 => decidable_of_iff' _ (Iff.of_eq (k0_chk146.eq_1 v1 v3196))
theorem k0_off293_inb : ∀ (v1 : BitVec 32) (v3196 : BitVec 32) (k0_hw146 : k0_chk146 v1 v3196), ∀ a, (k0_off293 v1 v3196) a + S1x128.size a ≤ S2000000x128.size a := fun v1 v3196 k0_hw146 => k0_hw146

def k0_off294 (k0_t1 : Fin k0_t1_loop.trips) : Fin 3 → Nat :=
  let c0_2602 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2601 : BitVec 32 := 7#32
  let v3216 : BitVec 32 := Scalar.addi v5 c7_i32_2601
  let v3217 : Index := Scalar.indexCast v3216
  let c6_2603 : Index := 6#32
  ![0, v3217.toNat, 6]
def k0_off295 (v1 : BitVec 32) (v3218 : BitVec 32) : Fin 2 → Nat :=
  let v3219 : BitVec 32 := Scalar.addi v1 v3218
  let c0_i32_2607 : BitVec 32 := 0#32
  ![v3219.toNat, 0]

def k0_chk147 (v1 : BitVec 32) (v3218 : BitVec 32) : Prop :=
  (∀ a, (k0_off295 v1 v3218) a + S1x128.size a ≤ S2000000x128.size a)
instance k0_chk147.dec : ∀ (v1 : BitVec 32) (v3218 : BitVec 32), Decidable (k0_chk147 v1 v3218) := fun v1 v3218 => decidable_of_iff' _ (Iff.of_eq (k0_chk147.eq_1 v1 v3218))
theorem k0_off295_inb : ∀ (v1 : BitVec 32) (v3218 : BitVec 32) (k0_hw147 : k0_chk147 v1 v3218), ∀ a, (k0_off295 v1 v3218) a + S1x128.size a ≤ S2000000x128.size a := fun v1 v3218 k0_hw147 => k0_hw147

def k0_off296 (k0_t1 : Fin k0_t1_loop.trips) : Fin 3 → Nat :=
  let c0_2620 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2619 : BitVec 32 := 7#32
  let v3238 : BitVec 32 := Scalar.addi v5 c7_i32_2619
  let v3239 : Index := Scalar.indexCast v3238
  let c7_2621 : Index := 7#32
  ![0, v3239.toNat, 7]
def k0_off297 (v1 : BitVec 32) (v3240 : BitVec 32) : Fin 2 → Nat :=
  let v3241 : BitVec 32 := Scalar.addi v1 v3240
  let c0_i32_2625 : BitVec 32 := 0#32
  ![v3241.toNat, 0]

def k0_chk148 (v1 : BitVec 32) (v3240 : BitVec 32) : Prop :=
  (∀ a, (k0_off297 v1 v3240) a + S1x128.size a ≤ S2000000x128.size a)
instance k0_chk148.dec : ∀ (v1 : BitVec 32) (v3240 : BitVec 32), Decidable (k0_chk148 v1 v3240) := fun v1 v3240 => decidable_of_iff' _ (Iff.of_eq (k0_chk148.eq_1 v1 v3240))
theorem k0_off297_inb : ∀ (v1 : BitVec 32) (v3240 : BitVec 32) (k0_hw148 : k0_chk148 v1 v3240), ∀ a, (k0_off297 v1 v3240) a + S1x128.size a ≤ S2000000x128.size a := fun v1 v3240 k0_hw148 => k0_hw148

def k0_off298 (k0_t1 : Fin k0_t1_loop.trips) : Fin 3 → Nat :=
  let c0_2638 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2637 : BitVec 32 := 7#32
  let v3260 : BitVec 32 := Scalar.addi v5 c7_i32_2637
  let v3261 : Index := Scalar.indexCast v3260
  let c8_2639 : Index := 8#32
  ![0, v3261.toNat, 8]
def k0_off299 (v1 : BitVec 32) (v3262 : BitVec 32) : Fin 2 → Nat :=
  let v3263 : BitVec 32 := Scalar.addi v1 v3262
  let c0_i32_2643 : BitVec 32 := 0#32
  ![v3263.toNat, 0]

def k0_chk149 (v1 : BitVec 32) (v3262 : BitVec 32) : Prop :=
  (∀ a, (k0_off299 v1 v3262) a + S1x128.size a ≤ S2000000x128.size a)
instance k0_chk149.dec : ∀ (v1 : BitVec 32) (v3262 : BitVec 32), Decidable (k0_chk149 v1 v3262) := fun v1 v3262 => decidable_of_iff' _ (Iff.of_eq (k0_chk149.eq_1 v1 v3262))
theorem k0_off299_inb : ∀ (v1 : BitVec 32) (v3262 : BitVec 32) (k0_hw149 : k0_chk149 v1 v3262), ∀ a, (k0_off299 v1 v3262) a + S1x128.size a ≤ S2000000x128.size a := fun v1 v3262 k0_hw149 => k0_hw149

def k0_off300 (k0_t1 : Fin k0_t1_loop.trips) : Fin 3 → Nat :=
  let c0_2656 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2655 : BitVec 32 := 7#32
  let v3282 : BitVec 32 := Scalar.addi v5 c7_i32_2655
  let v3283 : Index := Scalar.indexCast v3282
  let c9_2657 : Index := 9#32
  ![0, v3283.toNat, 9]
def k0_off301 (v1 : BitVec 32) (v3284 : BitVec 32) : Fin 2 → Nat :=
  let v3285 : BitVec 32 := Scalar.addi v1 v3284
  let c0_i32_2661 : BitVec 32 := 0#32
  ![v3285.toNat, 0]

def k0_chk150 (v1 : BitVec 32) (v3284 : BitVec 32) : Prop :=
  (∀ a, (k0_off301 v1 v3284) a + S1x128.size a ≤ S2000000x128.size a)
instance k0_chk150.dec : ∀ (v1 : BitVec 32) (v3284 : BitVec 32), Decidable (k0_chk150 v1 v3284) := fun v1 v3284 => decidable_of_iff' _ (Iff.of_eq (k0_chk150.eq_1 v1 v3284))
theorem k0_off301_inb : ∀ (v1 : BitVec 32) (v3284 : BitVec 32) (k0_hw150 : k0_chk150 v1 v3284), ∀ a, (k0_off301 v1 v3284) a + S1x128.size a ≤ S2000000x128.size a := fun v1 v3284 k0_hw150 => k0_hw150

def k0_off302 (k0_t1 : Fin k0_t1_loop.trips) : Fin 3 → Nat :=
  let c0_2674 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2673 : BitVec 32 := 7#32
  let v3304 : BitVec 32 := Scalar.addi v5 c7_i32_2673
  let v3305 : Index := Scalar.indexCast v3304
  let c10_2675 : Index := 10#32
  ![0, v3305.toNat, 10]
def k0_off303 (v1 : BitVec 32) (v3306 : BitVec 32) : Fin 2 → Nat :=
  let v3307 : BitVec 32 := Scalar.addi v1 v3306
  let c0_i32_2679 : BitVec 32 := 0#32
  ![v3307.toNat, 0]

def k0_chk151 (v1 : BitVec 32) (v3306 : BitVec 32) : Prop :=
  (∀ a, (k0_off303 v1 v3306) a + S1x128.size a ≤ S2000000x128.size a)
instance k0_chk151.dec : ∀ (v1 : BitVec 32) (v3306 : BitVec 32), Decidable (k0_chk151 v1 v3306) := fun v1 v3306 => decidable_of_iff' _ (Iff.of_eq (k0_chk151.eq_1 v1 v3306))
theorem k0_off303_inb : ∀ (v1 : BitVec 32) (v3306 : BitVec 32) (k0_hw151 : k0_chk151 v1 v3306), ∀ a, (k0_off303 v1 v3306) a + S1x128.size a ≤ S2000000x128.size a := fun v1 v3306 k0_hw151 => k0_hw151

def k0_off304 (k0_t1 : Fin k0_t1_loop.trips) : Fin 3 → Nat :=
  let c0_2692 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2691 : BitVec 32 := 7#32
  let v3326 : BitVec 32 := Scalar.addi v5 c7_i32_2691
  let v3327 : Index := Scalar.indexCast v3326
  let c11_2693 : Index := 11#32
  ![0, v3327.toNat, 11]
def k0_off305 (v1 : BitVec 32) (v3328 : BitVec 32) : Fin 2 → Nat :=
  let v3329 : BitVec 32 := Scalar.addi v1 v3328
  let c0_i32_2697 : BitVec 32 := 0#32
  ![v3329.toNat, 0]

def k0_chk152 (v1 : BitVec 32) (v3328 : BitVec 32) : Prop :=
  (∀ a, (k0_off305 v1 v3328) a + S1x128.size a ≤ S2000000x128.size a)
instance k0_chk152.dec : ∀ (v1 : BitVec 32) (v3328 : BitVec 32), Decidable (k0_chk152 v1 v3328) := fun v1 v3328 => decidable_of_iff' _ (Iff.of_eq (k0_chk152.eq_1 v1 v3328))
theorem k0_off305_inb : ∀ (v1 : BitVec 32) (v3328 : BitVec 32) (k0_hw152 : k0_chk152 v1 v3328), ∀ a, (k0_off305 v1 v3328) a + S1x128.size a ≤ S2000000x128.size a := fun v1 v3328 k0_hw152 => k0_hw152

def k0_off306 (k0_t1 : Fin k0_t1_loop.trips) : Fin 3 → Nat :=
  let c0_2710 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2709 : BitVec 32 := 7#32
  let v3348 : BitVec 32 := Scalar.addi v5 c7_i32_2709
  let v3349 : Index := Scalar.indexCast v3348
  let c12_2711 : Index := 12#32
  ![0, v3349.toNat, 12]
def k0_off307 (v1 : BitVec 32) (v3350 : BitVec 32) : Fin 2 → Nat :=
  let v3351 : BitVec 32 := Scalar.addi v1 v3350
  let c0_i32_2715 : BitVec 32 := 0#32
  ![v3351.toNat, 0]

def k0_chk153 (v1 : BitVec 32) (v3350 : BitVec 32) : Prop :=
  (∀ a, (k0_off307 v1 v3350) a + S1x128.size a ≤ S2000000x128.size a)
instance k0_chk153.dec : ∀ (v1 : BitVec 32) (v3350 : BitVec 32), Decidable (k0_chk153 v1 v3350) := fun v1 v3350 => decidable_of_iff' _ (Iff.of_eq (k0_chk153.eq_1 v1 v3350))
theorem k0_off307_inb : ∀ (v1 : BitVec 32) (v3350 : BitVec 32) (k0_hw153 : k0_chk153 v1 v3350), ∀ a, (k0_off307 v1 v3350) a + S1x128.size a ≤ S2000000x128.size a := fun v1 v3350 k0_hw153 => k0_hw153

def k0_off308 (k0_t1 : Fin k0_t1_loop.trips) : Fin 3 → Nat :=
  let c0_2728 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2727 : BitVec 32 := 7#32
  let v3370 : BitVec 32 := Scalar.addi v5 c7_i32_2727
  let v3371 : Index := Scalar.indexCast v3370
  let c13_2729 : Index := 13#32
  ![0, v3371.toNat, 13]
def k0_off309 (v1 : BitVec 32) (v3372 : BitVec 32) : Fin 2 → Nat :=
  let v3373 : BitVec 32 := Scalar.addi v1 v3372
  let c0_i32_2733 : BitVec 32 := 0#32
  ![v3373.toNat, 0]

def k0_chk154 (v1 : BitVec 32) (v3372 : BitVec 32) : Prop :=
  (∀ a, (k0_off309 v1 v3372) a + S1x128.size a ≤ S2000000x128.size a)
instance k0_chk154.dec : ∀ (v1 : BitVec 32) (v3372 : BitVec 32), Decidable (k0_chk154 v1 v3372) := fun v1 v3372 => decidable_of_iff' _ (Iff.of_eq (k0_chk154.eq_1 v1 v3372))
theorem k0_off309_inb : ∀ (v1 : BitVec 32) (v3372 : BitVec 32) (k0_hw154 : k0_chk154 v1 v3372), ∀ a, (k0_off309 v1 v3372) a + S1x128.size a ≤ S2000000x128.size a := fun v1 v3372 k0_hw154 => k0_hw154

def k0_off310 (k0_t1 : Fin k0_t1_loop.trips) : Fin 3 → Nat :=
  let c0_2746 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2745 : BitVec 32 := 7#32
  let v3392 : BitVec 32 := Scalar.addi v5 c7_i32_2745
  let v3393 : Index := Scalar.indexCast v3392
  let c14_2747 : Index := 14#32
  ![0, v3393.toNat, 14]
def k0_off311 (v1 : BitVec 32) (v3394 : BitVec 32) : Fin 2 → Nat :=
  let v3395 : BitVec 32 := Scalar.addi v1 v3394
  let c0_i32_2751 : BitVec 32 := 0#32
  ![v3395.toNat, 0]

def k0_chk155 (v1 : BitVec 32) (v3394 : BitVec 32) : Prop :=
  (∀ a, (k0_off311 v1 v3394) a + S1x128.size a ≤ S2000000x128.size a)
instance k0_chk155.dec : ∀ (v1 : BitVec 32) (v3394 : BitVec 32), Decidable (k0_chk155 v1 v3394) := fun v1 v3394 => decidable_of_iff' _ (Iff.of_eq (k0_chk155.eq_1 v1 v3394))
theorem k0_off311_inb : ∀ (v1 : BitVec 32) (v3394 : BitVec 32) (k0_hw155 : k0_chk155 v1 v3394), ∀ a, (k0_off311 v1 v3394) a + S1x128.size a ≤ S2000000x128.size a := fun v1 v3394 k0_hw155 => k0_hw155

def k0_off312 (k0_t1 : Fin k0_t1_loop.trips) : Fin 3 → Nat :=
  let c0_2764 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2763 : BitVec 32 := 7#32
  let v3414 : BitVec 32 := Scalar.addi v5 c7_i32_2763
  let v3415 : Index := Scalar.indexCast v3414
  let c15_2765 : Index := 15#32
  ![0, v3415.toNat, 15]
def k0_off313 (v1 : BitVec 32) (v3416 : BitVec 32) : Fin 2 → Nat :=
  let v3417 : BitVec 32 := Scalar.addi v1 v3416
  let c0_i32_2769 : BitVec 32 := 0#32
  ![v3417.toNat, 0]

def k0_chk156 (v1 : BitVec 32) (v3416 : BitVec 32) : Prop :=
  (∀ a, (k0_off313 v1 v3416) a + S1x128.size a ≤ S2000000x128.size a)
instance k0_chk156.dec : ∀ (v1 : BitVec 32) (v3416 : BitVec 32), Decidable (k0_chk156 v1 v3416) := fun v1 v3416 => decidable_of_iff' _ (Iff.of_eq (k0_chk156.eq_1 v1 v3416))
theorem k0_off313_inb : ∀ (v1 : BitVec 32) (v3416 : BitVec 32) (k0_hw156 : k0_chk156 v1 v3416), ∀ a, (k0_off313 v1 v3416) a + S1x128.size a ≤ S2000000x128.size a := fun v1 v3416 k0_hw156 => k0_hw156

def k0_off314 (k0_t1 : Fin k0_t1_loop.trips) : Fin 3 → Nat :=
  let c0_2782 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2781 : BitVec 32 := 7#32
  let v3436 : BitVec 32 := Scalar.addi v5 c7_i32_2781
  let v3437 : Index := Scalar.indexCast v3436
  let c16_2783 : Index := 16#32
  ![0, v3437.toNat, 16]
def k0_off315 (v1 : BitVec 32) (v3438 : BitVec 32) : Fin 2 → Nat :=
  let v3439 : BitVec 32 := Scalar.addi v1 v3438
  let c0_i32_2787 : BitVec 32 := 0#32
  ![v3439.toNat, 0]

def k0_chk157 (v1 : BitVec 32) (v3438 : BitVec 32) : Prop :=
  (∀ a, (k0_off315 v1 v3438) a + S1x128.size a ≤ S2000000x128.size a)
instance k0_chk157.dec : ∀ (v1 : BitVec 32) (v3438 : BitVec 32), Decidable (k0_chk157 v1 v3438) := fun v1 v3438 => decidable_of_iff' _ (Iff.of_eq (k0_chk157.eq_1 v1 v3438))
theorem k0_off315_inb : ∀ (v1 : BitVec 32) (v3438 : BitVec 32) (k0_hw157 : k0_chk157 v1 v3438), ∀ a, (k0_off315 v1 v3438) a + S1x128.size a ≤ S2000000x128.size a := fun v1 v3438 k0_hw157 => k0_hw157

def k0_off316 (k0_t1 : Fin k0_t1_loop.trips) : Fin 3 → Nat :=
  let c0_2800 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2799 : BitVec 32 := 7#32
  let v3458 : BitVec 32 := Scalar.addi v5 c7_i32_2799
  let v3459 : Index := Scalar.indexCast v3458
  let c17_2801 : Index := 17#32
  ![0, v3459.toNat, 17]
def k0_off317 (v1 : BitVec 32) (v3460 : BitVec 32) : Fin 2 → Nat :=
  let v3461 : BitVec 32 := Scalar.addi v1 v3460
  let c0_i32_2805 : BitVec 32 := 0#32
  ![v3461.toNat, 0]

def k0_chk158 (v1 : BitVec 32) (v3460 : BitVec 32) : Prop :=
  (∀ a, (k0_off317 v1 v3460) a + S1x128.size a ≤ S2000000x128.size a)
instance k0_chk158.dec : ∀ (v1 : BitVec 32) (v3460 : BitVec 32), Decidable (k0_chk158 v1 v3460) := fun v1 v3460 => decidable_of_iff' _ (Iff.of_eq (k0_chk158.eq_1 v1 v3460))
theorem k0_off317_inb : ∀ (v1 : BitVec 32) (v3460 : BitVec 32) (k0_hw158 : k0_chk158 v1 v3460), ∀ a, (k0_off317 v1 v3460) a + S1x128.size a ≤ S2000000x128.size a := fun v1 v3460 k0_hw158 => k0_hw158

def k0_off318 (k0_t1 : Fin k0_t1_loop.trips) : Fin 3 → Nat :=
  let c0_2818 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2817 : BitVec 32 := 7#32
  let v3480 : BitVec 32 := Scalar.addi v5 c7_i32_2817
  let v3481 : Index := Scalar.indexCast v3480
  let c18_2819 : Index := 18#32
  ![0, v3481.toNat, 18]
def k0_off319 (v1 : BitVec 32) (v3482 : BitVec 32) : Fin 2 → Nat :=
  let v3483 : BitVec 32 := Scalar.addi v1 v3482
  let c0_i32_2823 : BitVec 32 := 0#32
  ![v3483.toNat, 0]

def k0_chk159 (v1 : BitVec 32) (v3482 : BitVec 32) : Prop :=
  (∀ a, (k0_off319 v1 v3482) a + S1x128.size a ≤ S2000000x128.size a)
instance k0_chk159.dec : ∀ (v1 : BitVec 32) (v3482 : BitVec 32), Decidable (k0_chk159 v1 v3482) := fun v1 v3482 => decidable_of_iff' _ (Iff.of_eq (k0_chk159.eq_1 v1 v3482))
theorem k0_off319_inb : ∀ (v1 : BitVec 32) (v3482 : BitVec 32) (k0_hw159 : k0_chk159 v1 v3482), ∀ a, (k0_off319 v1 v3482) a + S1x128.size a ≤ S2000000x128.size a := fun v1 v3482 k0_hw159 => k0_hw159

def k0_off320 (k0_t1 : Fin k0_t1_loop.trips) : Fin 3 → Nat :=
  let c0_2836 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let c7_i32_2835 : BitVec 32 := 7#32
  let v3502 : BitVec 32 := Scalar.addi v5 c7_i32_2835
  let v3503 : Index := Scalar.indexCast v3502
  let c19_2837 : Index := 19#32
  ![0, v3503.toNat, 19]
def k0_off321 (v1 : BitVec 32) (v3504 : BitVec 32) : Fin 2 → Nat :=
  let v3505 : BitVec 32 := Scalar.addi v1 v3504
  let c0_i32_2841 : BitVec 32 := 0#32
  ![v3505.toNat, 0]

def k0_chk160 (v1 : BitVec 32) (v3504 : BitVec 32) : Prop :=
  (∀ a, (k0_off321 v1 v3504) a + S1x128.size a ≤ S2000000x128.size a)
instance k0_chk160.dec : ∀ (v1 : BitVec 32) (v3504 : BitVec 32), Decidable (k0_chk160 v1 v3504) := fun v1 v3504 => decidable_of_iff' _ (Iff.of_eq (k0_chk160.eq_1 v1 v3504))
theorem k0_off321_inb : ∀ (v1 : BitVec 32) (v3504 : BitVec 32) (k0_hw160 : k0_chk160 v1 v3504), ∀ a, (k0_off321 v1 v3504) a + S1x128.size a ≤ S2000000x128.size a := fun v1 v3504 k0_hw160 => k0_hw160

def k0_mult1 (k0_t1 : Fin k0_t1_loop.trips) : BitVec 32 :=
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  v5
def k0_off322 (k0_t1 : Fin k0_t1_loop.trips) : Fin 2 → Nat :=
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v3 : BitVec 32 := Scalar.muli arg9 c1_i32_1
  let v4 : BitVec 32 := Scalar.addi c0_i32_2 v3
  let c8_i32 : BitVec 32 := 8#32
  let v5 : BitVec 32 := Scalar.muli v4 c8_i32
  let v3531 : BitVec 32 := v5
  let v3532 : Index := Scalar.indexCast v3531
  let c0_2861 : Index := 0#32
  ![v3532.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .smem S1x256x20 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  numel1_S1 : S1.numel = 1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  numel1_S1x1x1 : S1x1x1.numel = 1
  inb_S2_S1_0 : ∀ a, (![0] : Fin 1 → Nat) a + S1.size a ≤ S2.size a
  squeezes_S1_S_ : S1.Squeezes S_
  inb_S2x128_S1x128_0_0 : ∀ a, (![0, 0] : Fin 2 → Nat) a + S1x128.size a ≤ S2x128.size a
  squeezes_S1x128_S128 : S1x128.Squeezes S128
  inb_S2000000x128_S1x128_0_0 : ∀ a, (![0, 0] : Fin 2 → Nat) a + S1x128.size a ≤ S2000000x128.size a
  inb_S2_S1_1 : ∀ a, (![1] : Fin 1 → Nat) a + S1.size a ≤ S2.size a
  inb_S2x128_S1x128_1_0 : ∀ a, (![1, 0] : Fin 2 → Nat) a + S1x128.size a ≤ S2x128.size a
  inb_S8x128_S1x128_0_0 : ∀ a, (![0, 0] : Fin 2 → Nat) a + S1x128.size a ≤ S8x128.size a
  h_S1x128 : 0 < S1x128.numel
  shapeCasts_S1x128_S1x128 : S1x128.ShapeCasts S1x128
  inb_S8x128_S1x128_1_0 : ∀ a, (![1, 0] : Fin 2 → Nat) a + S1x128.size a ≤ S8x128.size a
  inb_S8x128_S1x128_2_0 : ∀ a, (![2, 0] : Fin 2 → Nat) a + S1x128.size a ≤ S8x128.size a
  inb_S8x128_S1x128_3_0 : ∀ a, (![3, 0] : Fin 2 → Nat) a + S1x128.size a ≤ S8x128.size a
  inb_S8x128_S1x128_4_0 : ∀ a, (![4, 0] : Fin 2 → Nat) a + S1x128.size a ≤ S8x128.size a
  inb_S8x128_S1x128_5_0 : ∀ a, (![5, 0] : Fin 2 → Nat) a + S1x128.size a ≤ S8x128.size a
  inb_S8x128_S1x128_6_0 : ∀ a, (![6, 0] : Fin 2 → Nat) a + S1x128.size a ≤ S8x128.size a
  inb_S8x128_S1x128_7_0 : ∀ a, (![7, 0] : Fin 2 → Nat) a + S1x128.size a ≤ S8x128.size a
  hcc0_scratch1 : 4 + S2.numel ≤ 6
  hrank0 : 0 < grid0.rank
  k0_off1_inb : ∀ i : grid0.Coords, ∀ a, (k0_off1 i) a + S1.size a ≤ S9.size a
  k0_t1_ok : k0_t1_loop.OK
  k0_off2_inb : ∀ k0_t1 : Fin k0_t1_loop.trips, ∀ a, (k0_off2 k0_t1) a + S1x1x1.size a ≤ S1x256x20.size a
  k0_off4_inb : ∀ k0_t1 : Fin k0_t1_loop.trips, ∀ a, (k0_off4 k0_t1) a + S1x1x1.size a ≤ S1x256x20.size a
  k0_off6_inb : ∀ k0_t1 : Fin k0_t1_loop.trips, ∀ a, (k0_off6 k0_t1) a + S1x1x1.size a ≤ S1x256x20.size a
  k0_off8_inb : ∀ k0_t1 : Fin k0_t1_loop.trips, ∀ a, (k0_off8 k0_t1) a + S1x1x1.size a ≤ S1x256x20.size a
  k0_off10_inb : ∀ k0_t1 : Fin k0_t1_loop.trips, ∀ a, (k0_off10 k0_t1) a + S1x1x1.size a ≤ S1x256x20.size a
  k0_off12_inb : ∀ k0_t1 : Fin k0_t1_loop.trips, ∀ a, (k0_off12 k0_t1) a + S1x1x1.size a ≤ S1x256x20.size a
  k0_off14_inb : ∀ k0_t1 : Fin k0_t1_loop.trips, ∀ a, (k0_off14 k0_t1) a + S1x1x1.size a ≤ S1x256x20.size a
  k0_off16_inb : ∀ k0_t1 : Fin k0_t1_loop.trips, ∀ a, (k0_off16 k0_t1) a + S1x1x1.size a ≤ S1x256x20.size a
  k0_off18_inb : ∀ k0_t1 : Fin k0_t1_loop.trips, ∀ a, (k0_off18 k0_t1) a + S1x1x1.size a ≤ S1x256x20.size a
  k0_off20_inb : ∀ k0_t1 : Fin k0_t1_loop.trips, ∀ a, (k0_off20 k0_t1) a + S1x1x1.size a ≤ S1x256x20.size a
  k0_off22_inb : ∀ k0_t1 : Fin k0_t1_loop.trips, ∀ a, (k0_off22 k0_t1) a + S1x1x1.size a ≤ S1x256x20.size a
  k0_off24_inb : ∀ k0_t1 : Fin k0_t1_loop.trips, ∀ a, (k0_off24 k0_t1) a + S1x1x1.size a ≤ S1x256x20.size a
  k0_off26_inb : ∀ k0_t1 : Fin k0_t1_loop.trips, ∀ a, (k0_off26 k0_t1) a + S1x1x1.size a ≤ S1x256x20.size a
  k0_off28_inb : ∀ k0_t1 : Fin k0_t1_loop.trips, ∀ a, (k0_off28 k0_t1) a + S1x1x1.size a ≤ S1x256x20.size a
  k0_off30_inb : ∀ k0_t1 : Fin k0_t1_loop.trips, ∀ a, (k0_off30 k0_t1) a + S1x1x1.size a ≤ S1x256x20.size a
  k0_off32_inb : ∀ k0_t1 : Fin k0_t1_loop.trips, ∀ a, (k0_off32 k0_t1) a + S1x1x1.size a ≤ S1x256x20.size a
  k0_off34_inb : ∀ k0_t1 : Fin k0_t1_loop.trips, ∀ a, (k0_off34 k0_t1) a + S1x1x1.size a ≤ S1x256x20.size a
  k0_off36_inb : ∀ k0_t1 : Fin k0_t1_loop.trips, ∀ a, (k0_off36 k0_t1) a + S1x1x1.size a ≤ S1x256x20.size a
  k0_off38_inb : ∀ k0_t1 : Fin k0_t1_loop.trips, ∀ a, (k0_off38 k0_t1) a + S1x1x1.size a ≤ S1x256x20.size a
  k0_off40_inb : ∀ k0_t1 : Fin k0_t1_loop.trips, ∀ a, (k0_off40 k0_t1) a + S1x1x1.size a ≤ S1x256x20.size a
  k0_off42_inb : ∀ k0_t1 : Fin k0_t1_loop.trips, ∀ a, (k0_off42 k0_t1) a + S1x1x1.size a ≤ S1x256x20.size a
  k0_off44_inb : ∀ k0_t1 : Fin k0_t1_loop.trips, ∀ a, (k0_off44 k0_t1) a + S1x1x1.size a ≤ S1x256x20.size a
  k0_off46_inb : ∀ k0_t1 : Fin k0_t1_loop.trips, ∀ a, (k0_off46 k0_t1) a + S1x1x1.size a ≤ S1x256x20.size a
  k0_off48_inb : ∀ k0_t1 : Fin k0_t1_loop.trips, ∀ a, (k0_off48 k0_t1) a + S1x1x1.size a ≤ S1x256x20.size a
  k0_off50_inb : ∀ k0_t1 : Fin k0_t1_loop.trips, ∀ a, (k0_off50 k0_t1) a + S1x1x1.size a ≤ S1x256x20.size a
  k0_off52_inb : ∀ k0_t1 : Fin k0_t1_loop.trips, ∀ a, (k0_off52 k0_t1) a + S1x1x1.size a ≤ S1x256x20.size a
  k0_off54_inb : ∀ k0_t1 : Fin k0_t1_loop.trips, ∀ a, (k0_off54 k0_t1) a + S1x1x1.size a ≤ S1x256x20.size a
  k0_off56_inb : ∀ k0_t1 : Fin k0_t1_loop.trips, ∀ a, (k0_off56 k0_t1) a + S1x1x1.size a ≤ S1x256x20.size a
  k0_off58_inb : ∀ k0_t1 : Fin k0_t1_loop.trips, ∀ a, (k0_off58 k0_t1) a + S1x1x1.size a ≤ S1x256x20.size a
  k0_off60_inb : ∀ k0_t1 : Fin k0_t1_loop.trips, ∀ a, (k0_off60 k0_t1) a + S1x1x1.size a ≤ S1x256x20.size a
  k0_off62_inb : ∀ k0_t1 : Fin k0_t1_loop.trips, ∀ a, (k0_off62 k0_t1) a + S1x1x1.size a ≤ S1x256x20.size a
  k0_off64_inb : ∀ k0_t1 : Fin k0_t1_loop.trips, ∀ a, (k0_off64 k0_t1) a + S1x1x1.size a ≤ S1x256x20.size a
  k0_off66_inb : ∀ k0_t1 : Fin k0_t1_loop.trips, ∀ a, (k0_off66 k0_t1) a + S1x1x1.size a ≤ S1x256x20.size a
  k0_off68_inb : ∀ k0_t1 : Fin k0_t1_loop.trips, ∀ a, (k0_off68 k0_t1) a + S1x1x1.size a ≤ S1x256x20.size a
  k0_off70_inb : ∀ k0_t1 : Fin k0_t1_loop.trips, ∀ a, (k0_off70 k0_t1) a + S1x1x1.size a ≤ S1x256x20.size a
  k0_off72_inb : ∀ k0_t1 : Fin k0_t1_loop.trips, ∀ a, (k0_off72 k0_t1) a + S1x1x1.size a ≤ S1x256x20.size a
  k0_off74_inb : ∀ k0_t1 : Fin k0_t1_loop.trips, ∀ a, (k0_off74 k0_t1) a + S1x1x1.size a ≤ S1x256x20.size a
  k0_off76_inb : ∀ k0_t1 : Fin k0_t1_loop.trips, ∀ a, (k0_off76 k0_t1) a + S1x1x1.size a ≤ S1x256x20.size a
  k0_off78_inb : ∀ k0_t1 : Fin k0_t1_loop.trips, ∀ a, (k0_off78 k0_t1) a + S1x1x1.size a ≤ S1x256x20.size a
  k0_off80_inb : ∀ k0_t1 : Fin k0_t1_loop.trips, ∀ a, (k0_off80 k0_t1) a + S1x1x1.size a ≤ S1x256x20.size a
  k0_off82_inb : ∀ k0_t1 : Fin k0_t1_loop.trips, ∀ a, (k0_off82 k0_t1) a + S1x1x1.size a ≤ S1x256x20.size a
  k0_off84_inb : ∀ k0_t1 : Fin k0_t1_loop.trips, ∀ a, (k0_off84 k0_t1) a + S1x1x1.size a ≤ S1x256x20.size a
  k0_off86_inb : ∀ k0_t1 : Fin k0_t1_loop.trips, ∀ a, (k0_off86 k0_t1) a + S1x1x1.size a ≤ S1x256x20.size a
  k0_off88_inb : ∀ k0_t1 : Fin k0_t1_loop.trips, ∀ a, (k0_off88 k0_t1) a + S1x1x1.size a ≤ S1x256x20.size a
  k0_off90_inb : ∀ k0_t1 : Fin k0_t1_loop.trips, ∀ a, (k0_off90 k0_t1) a + S1x1x1.size a ≤ S1x256x20.size a
  k0_off92_inb : ∀ k0_t1 : Fin k0_t1_loop.trips, ∀ a, (k0_off92 k0_t1) a + S1x1x1.size a ≤ S1x256x20.size a
  k0_off94_inb : ∀ k0_t1 : Fin k0_t1_loop.trips, ∀ a, (k0_off94 k0_t1) a + S1x1x1.size a ≤ S1x256x20.size a
  k0_off96_inb : ∀ k0_t1 : Fin k0_t1_loop.trips, ∀ a, (k0_off96 k0_t1) a + S1x1x1.size a ≤ S1x256x20.size a
  k0_off98_inb : ∀ k0_t1 : Fin k0_t1_loop.trips, ∀ a, (k0_off98 k0_t1) a + S1x1x1.size a ≤ S1x256x20.size a
  k0_off100_inb : ∀ k0_t1 : Fin k0_t1_loop.trips, ∀ a, (k0_off100 k0_t1) a + S1x1x1.size a ≤ S1x256x20.size a
  k0_off102_inb : ∀ k0_t1 : Fin k0_t1_loop.trips, ∀ a, (k0_off102 k0_t1) a + S1x1x1.size a ≤ S1x256x20.size a
  k0_off104_inb : ∀ k0_t1 : Fin k0_t1_loop.trips, ∀ a, (k0_off104 k0_t1) a + S1x1x1.size a ≤ S1x256x20.size a
  k0_off106_inb : ∀ k0_t1 : Fin k0_t1_loop.trips, ∀ a, (k0_off106 k0_t1) a + S1x1x1.size a ≤ S1x256x20.size a
  k0_off108_inb : ∀ k0_t1 : Fin k0_t1_loop.trips, ∀ a, (k0_off108 k0_t1) a + S1x1x1.size a ≤ S1x256x20.size a
  k0_off110_inb : ∀ k0_t1 : Fin k0_t1_loop.trips, ∀ a, (k0_off110 k0_t1) a + S1x1x1.size a ≤ S1x256x20.size a
  k0_off112_inb : ∀ k0_t1 : Fin k0_t1_loop.trips, ∀ a, (k0_off112 k0_t1) a + S1x1x1.size a ≤ S1x256x20.size a
  k0_off114_inb : ∀ k0_t1 : Fin k0_t1_loop.trips, ∀ a, (k0_off114 k0_t1) a + S1x1x1.size a ≤ S1x256x20.size a
  k0_off116_inb : ∀ k0_t1 : Fin k0_t1_loop.trips, ∀ a, (k0_off116 k0_t1) a + S1x1x1.size a ≤ S1x256x20.size a
  k0_off118_inb : ∀ k0_t1 : Fin k0_t1_loop.trips, ∀ a, (k0_off118 k0_t1) a + S1x1x1.size a ≤ S1x256x20.size a
  k0_off120_inb : ∀ k0_t1 : Fin k0_t1_loop.trips, ∀ a, (k0_off120 k0_t1) a + S1x1x1.size a ≤ S1x256x20.size a
  k0_off122_inb : ∀ k0_t1 : Fin k0_t1_loop.trips, ∀ a, (k0_off122 k0_t1) a + S1x1x1.size a ≤ S1x256x20.size a
  k0_off124_inb : ∀ k0_t1 : Fin k0_t1_loop.trips, ∀ a, (k0_off124 k0_t1) a + S1x1x1.size a ≤ S1x256x20.size a
  k0_off126_inb : ∀ k0_t1 : Fin k0_t1_loop.trips, ∀ a, (k0_off126 k0_t1) a + S1x1x1.size a ≤ S1x256x20.size a
  k0_off128_inb : ∀ k0_t1 : Fin k0_t1_loop.trips, ∀ a, (k0_off128 k0_t1) a + S1x1x1.size a ≤ S1x256x20.size a
  k0_off130_inb : ∀ k0_t1 : Fin k0_t1_loop.trips, ∀ a, (k0_off130 k0_t1) a + S1x1x1.size a ≤ S1x256x20.size a
  k0_off132_inb : ∀ k0_t1 : Fin k0_t1_loop.trips, ∀ a, (k0_off132 k0_t1) a + S1x1x1.size a ≤ S1x256x20.size a
  k0_off134_inb : ∀ k0_t1 : Fin k0_t1_loop.trips, ∀ a, (k0_off134 k0_t1) a + S1x1x1.size a ≤ S1x256x20.size a
  k0_off136_inb : ∀ k0_t1 : Fin k0_t1_loop.trips, ∀ a, (k0_off136 k0_t1) a + S1x1x1.size a ≤ S1x256x20.size a
  k0_off138_inb : ∀ k0_t1 : Fin k0_t1_loop.trips, ∀ a, (k0_off138 k0_t1) a + S1x1x1.size a ≤ S1x256x20.size a
  k0_off140_inb : ∀ k0_t1 : Fin k0_t1_loop.trips, ∀ a, (k0_off140 k0_t1) a + S1x1x1.size a ≤ S1x256x20.size a
  k0_off142_inb : ∀ k0_t1 : Fin k0_t1_loop.trips, ∀ a, (k0_off142 k0_t1) a + S1x1x1.size a ≤ S1x256x20.size a
  k0_off144_inb : ∀ k0_t1 : Fin k0_t1_loop.trips, ∀ a, (k0_off144 k0_t1) a + S1x1x1.size a ≤ S1x256x20.size a
  k0_off146_inb : ∀ k0_t1 : Fin k0_t1_loop.trips, ∀ a, (k0_off146 k0_t1) a + S1x1x1.size a ≤ S1x256x20.size a
  k0_off148_inb : ∀ k0_t1 : Fin k0_t1_loop.trips, ∀ a, (k0_off148 k0_t1) a + S1x1x1.size a ≤ S1x256x20.size a
  k0_off150_inb : ∀ k0_t1 : Fin k0_t1_loop.trips, ∀ a, (k0_off150 k0_t1) a + S1x1x1.size a ≤ S1x256x20.size a
  k0_off152_inb : ∀ k0_t1 : Fin k0_t1_loop.trips, ∀ a, (k0_off152 k0_t1) a + S1x1x1.size a ≤ S1x256x20.size a
  k0_off154_inb : ∀ k0_t1 : Fin k0_t1_loop.trips, ∀ a, (k0_off154 k0_t1) a + S1x1x1.size a ≤ S1x256x20.size a
  k0_off156_inb : ∀ k0_t1 : Fin k0_t1_loop.trips, ∀ a, (k0_off156 k0_t1) a + S1x1x1.size a ≤ S1x256x20.size a
  k0_off158_inb : ∀ k0_t1 : Fin k0_t1_loop.trips, ∀ a, (k0_off158 k0_t1) a + S1x1x1.size a ≤ S1x256x20.size a
  k0_off160_inb : ∀ k0_t1 : Fin k0_t1_loop.trips, ∀ a, (k0_off160 k0_t1) a + S1x1x1.size a ≤ S1x256x20.size a
  k0_off162_inb : ∀ k0_t1 : Fin k0_t1_loop.trips, ∀ a, (k0_off162 k0_t1) a + S1x1x1.size a ≤ S1x256x20.size a
  k0_off164_inb : ∀ k0_t1 : Fin k0_t1_loop.trips, ∀ a, (k0_off164 k0_t1) a + S1x1x1.size a ≤ S1x256x20.size a
  k0_off166_inb : ∀ k0_t1 : Fin k0_t1_loop.trips, ∀ a, (k0_off166 k0_t1) a + S1x1x1.size a ≤ S1x256x20.size a
  k0_off168_inb : ∀ k0_t1 : Fin k0_t1_loop.trips, ∀ a, (k0_off168 k0_t1) a + S1x1x1.size a ≤ S1x256x20.size a
  k0_off170_inb : ∀ k0_t1 : Fin k0_t1_loop.trips, ∀ a, (k0_off170 k0_t1) a + S1x1x1.size a ≤ S1x256x20.size a
  k0_off172_inb : ∀ k0_t1 : Fin k0_t1_loop.trips, ∀ a, (k0_off172 k0_t1) a + S1x1x1.size a ≤ S1x256x20.size a
  k0_off174_inb : ∀ k0_t1 : Fin k0_t1_loop.trips, ∀ a, (k0_off174 k0_t1) a + S1x1x1.size a ≤ S1x256x20.size a
  k0_off176_inb : ∀ k0_t1 : Fin k0_t1_loop.trips, ∀ a, (k0_off176 k0_t1) a + S1x1x1.size a ≤ S1x256x20.size a
  k0_off178_inb : ∀ k0_t1 : Fin k0_t1_loop.trips, ∀ a, (k0_off178 k0_t1) a + S1x1x1.size a ≤ S1x256x20.size a
  k0_off180_inb : ∀ k0_t1 : Fin k0_t1_loop.trips, ∀ a, (k0_off180 k0_t1) a + S1x1x1.size a ≤ S1x256x20.size a
  k0_off182_inb : ∀ k0_t1 : Fin k0_t1_loop.trips, ∀ a, (k0_off182 k0_t1) a + S1x1x1.size a ≤ S1x256x20.size a
  k0_off184_inb : ∀ k0_t1 : Fin k0_t1_loop.trips, ∀ a, (k0_off184 k0_t1) a + S1x1x1.size a ≤ S1x256x20.size a
  k0_off186_inb : ∀ k0_t1 : Fin k0_t1_loop.trips, ∀ a, (k0_off186 k0_t1) a + S1x1x1.size a ≤ S1x256x20.size a
  k0_off188_inb : ∀ k0_t1 : Fin k0_t1_loop.trips, ∀ a, (k0_off188 k0_t1) a + S1x1x1.size a ≤ S1x256x20.size a
  k0_off190_inb : ∀ k0_t1 : Fin k0_t1_loop.trips, ∀ a, (k0_off190 k0_t1) a + S1x1x1.size a ≤ S1x256x20.size a
  k0_off192_inb : ∀ k0_t1 : Fin k0_t1_loop.trips, ∀ a, (k0_off192 k0_t1) a + S1x1x1.size a ≤ S1x256x20.size a
  k0_off194_inb : ∀ k0_t1 : Fin k0_t1_loop.trips, ∀ a, (k0_off194 k0_t1) a + S1x1x1.size a ≤ S1x256x20.size a
  k0_off196_inb : ∀ k0_t1 : Fin k0_t1_loop.trips, ∀ a, (k0_off196 k0_t1) a + S1x1x1.size a ≤ S1x256x20.size a
  k0_off198_inb : ∀ k0_t1 : Fin k0_t1_loop.trips, ∀ a, (k0_off198 k0_t1) a + S1x1x1.size a ≤ S1x256x20.size a
  k0_off200_inb : ∀ k0_t1 : Fin k0_t1_loop.trips, ∀ a, (k0_off200 k0_t1) a + S1x1x1.size a ≤ S1x256x20.size a
  k0_off202_inb : ∀ k0_t1 : Fin k0_t1_loop.trips, ∀ a, (k0_off202 k0_t1) a + S1x1x1.size a ≤ S1x256x20.size a
  k0_off204_inb : ∀ k0_t1 : Fin k0_t1_loop.trips, ∀ a, (k0_off204 k0_t1) a + S1x1x1.size a ≤ S1x256x20.size a
  k0_off206_inb : ∀ k0_t1 : Fin k0_t1_loop.trips, ∀ a, (k0_off206 k0_t1) a + S1x1x1.size a ≤ S1x256x20.size a
  k0_off208_inb : ∀ k0_t1 : Fin k0_t1_loop.trips, ∀ a, (k0_off208 k0_t1) a + S1x1x1.size a ≤ S1x256x20.size a
  k0_off210_inb : ∀ k0_t1 : Fin k0_t1_loop.trips, ∀ a, (k0_off210 k0_t1) a + S1x1x1.size a ≤ S1x256x20.size a
  k0_off212_inb : ∀ k0_t1 : Fin k0_t1_loop.trips, ∀ a, (k0_off212 k0_t1) a + S1x1x1.size a ≤ S1x256x20.size a
  k0_off214_inb : ∀ k0_t1 : Fin k0_t1_loop.trips, ∀ a, (k0_off214 k0_t1) a + S1x1x1.size a ≤ S1x256x20.size a
  k0_off216_inb : ∀ k0_t1 : Fin k0_t1_loop.trips, ∀ a, (k0_off216 k0_t1) a + S1x1x1.size a ≤ S1x256x20.size a
  k0_off218_inb : ∀ k0_t1 : Fin k0_t1_loop.trips, ∀ a, (k0_off218 k0_t1) a + S1x1x1.size a ≤ S1x256x20.size a
  k0_off220_inb : ∀ k0_t1 : Fin k0_t1_loop.trips, ∀ a, (k0_off220 k0_t1) a + S1x1x1.size a ≤ S1x256x20.size a
  k0_off222_inb : ∀ k0_t1 : Fin k0_t1_loop.trips, ∀ a, (k0_off222 k0_t1) a + S1x1x1.size a ≤ S1x256x20.size a
  k0_off224_inb : ∀ k0_t1 : Fin k0_t1_loop.trips, ∀ a, (k0_off224 k0_t1) a + S1x1x1.size a ≤ S1x256x20.size a
  k0_off226_inb : ∀ k0_t1 : Fin k0_t1_loop.trips, ∀ a, (k0_off226 k0_t1) a + S1x1x1.size a ≤ S1x256x20.size a
  k0_off228_inb : ∀ k0_t1 : Fin k0_t1_loop.trips, ∀ a, (k0_off228 k0_t1) a + S1x1x1.size a ≤ S1x256x20.size a
  k0_off230_inb : ∀ k0_t1 : Fin k0_t1_loop.trips, ∀ a, (k0_off230 k0_t1) a + S1x1x1.size a ≤ S1x256x20.size a
  k0_off232_inb : ∀ k0_t1 : Fin k0_t1_loop.trips, ∀ a, (k0_off232 k0_t1) a + S1x1x1.size a ≤ S1x256x20.size a
  k0_off234_inb : ∀ k0_t1 : Fin k0_t1_loop.trips, ∀ a, (k0_off234 k0_t1) a + S1x1x1.size a ≤ S1x256x20.size a
  k0_off236_inb : ∀ k0_t1 : Fin k0_t1_loop.trips, ∀ a, (k0_off236 k0_t1) a + S1x1x1.size a ≤ S1x256x20.size a
  k0_off238_inb : ∀ k0_t1 : Fin k0_t1_loop.trips, ∀ a, (k0_off238 k0_t1) a + S1x1x1.size a ≤ S1x256x20.size a
  k0_off240_inb : ∀ k0_t1 : Fin k0_t1_loop.trips, ∀ a, (k0_off240 k0_t1) a + S1x1x1.size a ≤ S1x256x20.size a
  k0_off242_inb : ∀ k0_t1 : Fin k0_t1_loop.trips, ∀ a, (k0_off242 k0_t1) a + S1x1x1.size a ≤ S1x256x20.size a
  k0_off244_inb : ∀ k0_t1 : Fin k0_t1_loop.trips, ∀ a, (k0_off244 k0_t1) a + S1x1x1.size a ≤ S1x256x20.size a
  k0_off246_inb : ∀ k0_t1 : Fin k0_t1_loop.trips, ∀ a, (k0_off246 k0_t1) a + S1x1x1.size a ≤ S1x256x20.size a
  k0_off248_inb : ∀ k0_t1 : Fin k0_t1_loop.trips, ∀ a, (k0_off248 k0_t1) a + S1x1x1.size a ≤ S1x256x20.size a
  k0_off250_inb : ∀ k0_t1 : Fin k0_t1_loop.trips, ∀ a, (k0_off250 k0_t1) a + S1x1x1.size a ≤ S1x256x20.size a
  k0_off252_inb : ∀ k0_t1 : Fin k0_t1_loop.trips, ∀ a, (k0_off252 k0_t1) a + S1x1x1.size a ≤ S1x256x20.size a
  k0_off254_inb : ∀ k0_t1 : Fin k0_t1_loop.trips, ∀ a, (k0_off254 k0_t1) a + S1x1x1.size a ≤ S1x256x20.size a
  k0_off256_inb : ∀ k0_t1 : Fin k0_t1_loop.trips, ∀ a, (k0_off256 k0_t1) a + S1x1x1.size a ≤ S1x256x20.size a
  k0_off258_inb : ∀ k0_t1 : Fin k0_t1_loop.trips, ∀ a, (k0_off258 k0_t1) a + S1x1x1.size a ≤ S1x256x20.size a
  k0_off260_inb : ∀ k0_t1 : Fin k0_t1_loop.trips, ∀ a, (k0_off260 k0_t1) a + S1x1x1.size a ≤ S1x256x20.size a
  k0_off262_inb : ∀ k0_t1 : Fin k0_t1_loop.trips, ∀ a, (k0_off262 k0_t1) a + S1x1x1.size a ≤ S1x256x20.size a
  k0_off264_inb : ∀ k0_t1 : Fin k0_t1_loop.trips, ∀ a, (k0_off264 k0_t1) a + S1x1x1.size a ≤ S1x256x20.size a
  k0_off266_inb : ∀ k0_t1 : Fin k0_t1_loop.trips, ∀ a, (k0_off266 k0_t1) a + S1x1x1.size a ≤ S1x256x20.size a
  k0_off268_inb : ∀ k0_t1 : Fin k0_t1_loop.trips, ∀ a, (k0_off268 k0_t1) a + S1x1x1.size a ≤ S1x256x20.size a
  k0_off270_inb : ∀ k0_t1 : Fin k0_t1_loop.trips, ∀ a, (k0_off270 k0_t1) a + S1x1x1.size a ≤ S1x256x20.size a
  k0_off272_inb : ∀ k0_t1 : Fin k0_t1_loop.trips, ∀ a, (k0_off272 k0_t1) a + S1x1x1.size a ≤ S1x256x20.size a
  k0_off274_inb : ∀ k0_t1 : Fin k0_t1_loop.trips, ∀ a, (k0_off274 k0_t1) a + S1x1x1.size a ≤ S1x256x20.size a
  k0_off276_inb : ∀ k0_t1 : Fin k0_t1_loop.trips, ∀ a, (k0_off276 k0_t1) a + S1x1x1.size a ≤ S1x256x20.size a
  k0_off278_inb : ∀ k0_t1 : Fin k0_t1_loop.trips, ∀ a, (k0_off278 k0_t1) a + S1x1x1.size a ≤ S1x256x20.size a
  k0_off280_inb : ∀ k0_t1 : Fin k0_t1_loop.trips, ∀ a, (k0_off280 k0_t1) a + S1x1x1.size a ≤ S1x256x20.size a
  k0_off282_inb : ∀ k0_t1 : Fin k0_t1_loop.trips, ∀ a, (k0_off282 k0_t1) a + S1x1x1.size a ≤ S1x256x20.size a
  k0_off284_inb : ∀ k0_t1 : Fin k0_t1_loop.trips, ∀ a, (k0_off284 k0_t1) a + S1x1x1.size a ≤ S1x256x20.size a
  k0_off286_inb : ∀ k0_t1 : Fin k0_t1_loop.trips, ∀ a, (k0_off286 k0_t1) a + S1x1x1.size a ≤ S1x256x20.size a
  k0_off288_inb : ∀ k0_t1 : Fin k0_t1_loop.trips, ∀ a, (k0_off288 k0_t1) a + S1x1x1.size a ≤ S1x256x20.size a
  k0_off290_inb : ∀ k0_t1 : Fin k0_t1_loop.trips, ∀ a, (k0_off290 k0_t1) a + S1x1x1.size a ≤ S1x256x20.size a
  k0_off292_inb : ∀ k0_t1 : Fin k0_t1_loop.trips, ∀ a, (k0_off292 k0_t1) a + S1x1x1.size a ≤ S1x256x20.size a
  k0_off294_inb : ∀ k0_t1 : Fin k0_t1_loop.trips, ∀ a, (k0_off294 k0_t1) a + S1x1x1.size a ≤ S1x256x20.size a
  k0_off296_inb : ∀ k0_t1 : Fin k0_t1_loop.trips, ∀ a, (k0_off296 k0_t1) a + S1x1x1.size a ≤ S1x256x20.size a
  k0_off298_inb : ∀ k0_t1 : Fin k0_t1_loop.trips, ∀ a, (k0_off298 k0_t1) a + S1x1x1.size a ≤ S1x256x20.size a
  k0_off300_inb : ∀ k0_t1 : Fin k0_t1_loop.trips, ∀ a, (k0_off300 k0_t1) a + S1x1x1.size a ≤ S1x256x20.size a
  k0_off302_inb : ∀ k0_t1 : Fin k0_t1_loop.trips, ∀ a, (k0_off302 k0_t1) a + S1x1x1.size a ≤ S1x256x20.size a
  k0_off304_inb : ∀ k0_t1 : Fin k0_t1_loop.trips, ∀ a, (k0_off304 k0_t1) a + S1x1x1.size a ≤ S1x256x20.size a
  k0_off306_inb : ∀ k0_t1 : Fin k0_t1_loop.trips, ∀ a, (k0_off306 k0_t1) a + S1x1x1.size a ≤ S1x256x20.size a
  k0_off308_inb : ∀ k0_t1 : Fin k0_t1_loop.trips, ∀ a, (k0_off308 k0_t1) a + S1x1x1.size a ≤ S1x256x20.size a
  k0_off310_inb : ∀ k0_t1 : Fin k0_t1_loop.trips, ∀ a, (k0_off310 k0_t1) a + S1x1x1.size a ≤ S1x256x20.size a
  k0_off312_inb : ∀ k0_t1 : Fin k0_t1_loop.trips, ∀ a, (k0_off312 k0_t1) a + S1x1x1.size a ≤ S1x256x20.size a
  k0_off314_inb : ∀ k0_t1 : Fin k0_t1_loop.trips, ∀ a, (k0_off314 k0_t1) a + S1x1x1.size a ≤ S1x256x20.size a
  k0_off316_inb : ∀ k0_t1 : Fin k0_t1_loop.trips, ∀ a, (k0_off316 k0_t1) a + S1x1x1.size a ≤ S1x256x20.size a
  k0_off318_inb : ∀ k0_t1 : Fin k0_t1_loop.trips, ∀ a, (k0_off318 k0_t1) a + S1x1x1.size a ≤ S1x256x20.size a
  k0_off320_inb : ∀ k0_t1 : Fin k0_t1_loop.trips, ∀ a, (k0_off320 k0_t1) a + S1x1x1.size a ≤ S1x256x20.size a
  k0_mult1_dvd : ∀ k0_t1 : Fin k0_t1_loop.trips, 8 ∣ (k0_mult1 k0_t1).toNat
  k0_off322_inb : ∀ k0_t1 : Fin k0_t1_loop.trips, ∀ a, (k0_off322 k0_t1) a + S8x128.size a ≤ S256x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x20.size a ≤ S8x8192x20.size a
  hwx0_0 : ∀ i : grid0.Coords, EltTy.bits .i32 = 32 ∨ (Rect.block (s := S8x8192x20) S1x256x20.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S256x128.size a ≤ S8192x1024.size a
  hwx0_1 : ∀ i : grid0.Coords, EltTy.bits .f32 = 32 ∨ (Rect.block (s := S8192x1024) S256x128.size (cc0_transform_2 i) (hinb0_1 i)).WholeWords (EltTy.packing .f32)

variable [Facts₀]

abbrev cc0_scratch1 : DmaSems sig S2 := SemArray.consecutive 4 S2 hcc0_scratch1

abbrev spec0_0 : Pipeline.WinSpec sig grid0.rank :=
  Pipeline.WinSpec.ofSpec (Memref.whole main_arg0) S1x256x20.size reads0_0 false false 2 stage0_0 sem0_0 nbuf0_0 hstage0_0

abbrev spec0_1 : Pipeline.WinSpec sig grid0.rank :=
  Pipeline.WinSpec.ofSpec (Memref.whole main_v0) S256x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S8x8192x20 : Shape := ⟨3, ![8, 8192, 20]⟩
abbrev S2000000x128 : Shape := ⟨2, ![2000000, 128]⟩
abbrev S9 : Shape := ⟨1, ![9]⟩
abbrev S8 : Shape := ⟨1, ![8]⟩
abbrev S8x1x1 : Shape := ⟨3, ![8, 1, 1]⟩
abbrev S_ : Shape := ⟨0, ![]⟩
abbrev S8x8192x20x1 : Shape := ⟨4, ![8, 8192, 20, 1]⟩
abbrev S8x8192x20x128 : Shape := ⟨4, ![8, 8192, 20, 128]⟩
abbrev S8x8192x128 : Shape := ⟨3, ![8, 8192, 128]⟩
abbrev S8192x8x128 : Shape := ⟨3, ![8192, 8, 128]⟩
abbrev S8192x1024 : Shape := ⟨2, ![8192, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x8192x20, .i32⟩
  | .hbm, ⟨1, _⟩ => ⟨S2000000x128, .f32⟩
  | .hbm, ⟨2, _⟩ => ⟨S9, .i32⟩
  | .hbm, ⟨3, _⟩ => ⟨S8, .i32⟩
  | .hbm, ⟨4, _⟩ => ⟨S8x1x1, .i32⟩
  | .hbm, ⟨5, _⟩ => ⟨S8x8192x20, .i32⟩
  | .hbm, ⟨6, _⟩ => ⟨S8x8192x20, .i32⟩
  | .hbm, ⟨7, _⟩ => ⟨S_, .i32⟩
  | .hbm, ⟨8, _⟩ => ⟨S8x8192x20, .i32⟩
  | .hbm, ⟨9, _⟩ => ⟨S8x8192x20, .i1⟩
  | .hbm, ⟨10, _⟩ => ⟨S_, .i32⟩
  | .hbm, ⟨11, _⟩ => ⟨S8x8192x20, .i32⟩
  | .hbm, ⟨12, _⟩ => ⟨S8x8192x20, .i32⟩
  | .hbm, ⟨13, _⟩ => ⟨S8x8192x20, .i32⟩
  | .hbm, ⟨14, _⟩ => ⟨S8x8192x20x1, .i32⟩
  | .hbm, ⟨15, _⟩ => ⟨S8x8192x20x128, .f32⟩
  | .hbm, ⟨16, _⟩ => ⟨S_, .f32⟩
  | .hbm, ⟨17, _⟩ => ⟨S8x8192x128, .f32⟩
  | .hbm, ⟨18, _⟩ => ⟨S8192x8x128, .f32⟩
  | .hbm, ⟨19, _⟩ => ⟨S8192x1024, .f32⟩
  | _, _ => ⟨S8x8192x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  slices_S9_S8_0 : S9.Slices ![0] S8
  bcast_S8_S8x1x1_0 : S8.BroadcastsInDim S8x1x1 (![0] : Fin 1 → Fin S8x1x1.rank)
  bcast_S8x1x1_S8x8192x20_0_1_2 : S8x1x1.BroadcastsInDim S8x8192x20 (![0, 1, 2] : Fin 3 → Fin S8x8192x20.rank)
  bcast_S_S8x8192x20 : S_.BroadcastsInDim S8x8192x20 (![] : Fin 0 → Fin S8x8192x20.rank)
  bcast_S8x8192x20_S8x8192x20x1_0_1_2 : S8x8192x20.BroadcastsInDim S8x8192x20x1 (![0, 1, 2] : Fin 3 → Fin S8x8192x20x1.rank)
  reducesTo_S8x8192x20x128_S8x8192x128_d2 : S8x8192x20x128.ReducesTo [2] S8x8192x128
  h_S_ : 0 < S_.numel
  transposes_S8x8192x128_S8192x8x128_1_0_2 : S8x8192x128.Transposes [1, 0, 2] S8192x8x128
  shapeCasts_S8192x8x128_S8192x1024 : S8192x8x128.ShapeCasts S8192x1024
  gather_S2000000x128_S8x8192x20x1_S8x8192x20x128_3_0_n_n_0_3_1128_wf : GatherDims.WF S2000000x128 S8x8192x20x1 S8x8192x20x128 [3] [0] [] [0] [] 3 ![1, 128]

variable [Facts₀]

def gather_S2000000x128_S8x8192x20x1_S8x8192x20x128_3_0_n_n_0_3_1128 : GatherDims S2000000x128 S8x8192x20x1 S8x8192x20x128 where
  offsetDims := [3]
  collapsedSliceDims := [0]
  operandBatchingDims := []
  startIndicesBatchingDims := []
  startIndexMap := [0]
  indexVectorDim := 3
  sliceSizes := ![1, 128]
  wf := gather_S2000000x128_S8x8192x20x1_S8x8192x20x128_3_0_n_n_0_3_1128_wf

class Facts : Prop extends Facts₀ where

variable [Facts]
-- ==== Proof.Spec.lean ====
/-
  The mathematics both programs compute, stated once over the three argument arrays, with no program in sight.

  `idx` holds, for each of 8 features `t`, 8192 samples `b` and 20 slots `l`, a row number local to feature `t`'s
  table; `hash` holds each feature's offset in the concatenated table `W` of 2 000 000 rows of 128 numbers. The
  row fetched for `(t, b, l)` is the 32-bit sum `hash t + idx (t, b, l)`, and the result is, for every sample and
  feature, the sum over the 20 slots of the fetched rows — laid out sample-major, the features side by side, 128
  columns each.
-/
import Idealize.ShloMosaic.Lib.ValueIdx
import Idealize.ShloMosaic.PureOps.Ideal

noncomputable section

namespace Cert.Pooled

open Idealize.ShloMosaic Idealize.ShloMosaic.ValueIdx

/-- The index array, the table, the offsets, the result. -/
abbrev SIdx : Shape := ⟨3, ![8, 8192, 20]⟩
abbrev STab : Shape := ⟨2, ![2000000, 128]⟩
abbrev SOff : Shape := ⟨1, ![9]⟩
abbrev SOut : Shape := ⟨2, ![8192, 1024]⟩

/-- The row of the table fetched for feature `t`, sample `b`, slot `l`: the 32-bit sum of the feature's offset and
    the local row number, read as a natural number. -/
def row (idx : IVec SIdx 32) (hash : IVec SOff 32) (t : Fin 8) (b : Fin 8192) (l : Fin 20) : ℕ :=
  (hash (ix1 (⟨t.val, by omega⟩ : Fin 9)) + idx (ix3 t b l)).toNat

/-- Every fetched row is a row of the table. -/
def RowsOk (idx : IVec SIdx 32) (hash : IVec SOff 32) : Prop :=
  ∀ (t : Fin 8) (b : Fin 8192) (l : Fin 20), row idx hash t b l < 2000000

/-- The pooled value of sample `b`, feature `t`, column `d`: the sum over the 20 slots of the fetched rows' entries. -/
def pooled (idx : IVec SIdx 32) (W : FVec Ideal STab .f32) (hash : IVec SOff 32) (h : RowsOk idx hash)
    (b : Fin 8192) (t : Fin 8) (d : Fin 128) : EReal :=
  ∑ l : Fin 20, W (ix2 (⟨row idx hash t b l, h t b l⟩ : Fin 2000000) d)

/-- The result array: entry `(b, 128·t + d)` is `pooled b t d`. -/
def G (idx : IVec SIdx 32) (W : FVec Ideal STab .f32) (hash : IVec SOff 32) (h : RowsOk idx hash) : FVec Ideal SOut .f32 :=
  fun j => pooled idx W hash h ⟨(j 0).val, (j 0).isLt⟩
    ⟨(j 1).val / 128, Nat.div_lt_of_lt_mul (j 1).isLt⟩ ⟨(j 1).val % 128, Nat.mod_lt _ (by omega)⟩

theorem G_apply (idx : IVec SIdx 32) (W : FVec Ideal STab .f32) (hash : IVec SOff 32) (h : RowsOk idx hash)
    (b : Fin 8192) (t : Fin 8) (d : Fin 128) :
    G idx W hash h (ix2 b (⟨128 * t.val + d.val, by omega⟩ : Fin 1024)) = pooled idx W hash h b t d := by
  unfold G
  congr 1
  · exact Fin.ext (by show (128 * t.val + d.val) / 128 = t.val; omega)
  · exact Fin.ext (by show (128 * t.val + d.val) % 128 = d.val; omega)

end Cert.Pooled

end
-- ==== Proof.PreRows.lean ====
/-
  The precondition read back. The printed predicate `finite_inputs` is the conjunction of two all-reductions: that every
  entry of the table is finite, and that at every feature `t`, sample `b` and slot `l` the 32-bit sum
  `idx (t, b, l) + hash t` (the offsets cut to their first eight and laid along the first axis), read signed, lies in
  [0, 2 000 000). A word whose signed reading is in [0, n), n below 2³¹, has its top bit clear and so reads the same
  unsigned: the fetched row number is below 2 000 000, which is `RowsOk`.
-/
import proofs.«429106_j80058190397553_1_alg».proof.Pre_finite_inputs
import proofs.«429106_j80058190397553_1_alg».proof.Proof.Spec
import Idealize.ShloMosaic.Lib.StableHlo.Predicate
import Idealize.ShloMosaic.Lib.ReduceAll

namespace Cert.Pooled

open Idealize.ShloMosaic Idealize.ShloMosaic.ValueIdx

/-- A 32-bit word that reads, signed, at least 0 and below `n` is below `n` unsigned. -/
theorem toNat_lt_of_signed_range (w : BitVec 32) (n : ℕ) (h0 : (0 : Int) ≤ w.toInt) (hn : w.toInt < (n : Int)) :
    w.toNat < n := by
  rw [BitVec.toInt_eq_toNat_cond] at h0 hn
  split at h0 <;> omega

/-- The scalar shape has one index. -/
instance : Subsingleton Cert.Pre_finite_inputs.S_.Idx := ⟨fun a b => funext fun d => d.elim0⟩

/-- The offsets, cut to their first eight, stood up as an [8, 1, 1] column and spread over [8, 8192, 20], read at
    (t, b, l) the offset of feature `t`. -/
theorem offsets_read [Cert.Pre_finite_inputs.Facts] (a2 : IVec SOff 32) (t : Fin 8) (b : Fin 8192) (l : Fin 20) :
    broadcastInDim Cert.Pre_finite_inputs.S8x8192x20 ![0, 1, 2] Cert.Pre_finite_inputs.Facts.bcast_S8x1x1_S8x8192x20_0_1_2
      (broadcastInDim Cert.Pre_finite_inputs.S8x1x1 ![0] Cert.Pre_finite_inputs.Facts.bcast_S8_S8x1x1_0
        (extractStridedSlice Cert.Pre_finite_inputs.S8 ![0] a2 Cert.Pre_finite_inputs.Facts.slices_S9_S8_0)) (ix3 t b l)
      = a2 (ix1 (⟨t.val, by omega⟩ : Fin 9)) := by
  simp only [broadcastInDim, extractStridedSlice]
  congr 1
  funext a
  match a with
  | ⟨0, _⟩ =>
    apply Fin.ext
    split
    · next h1 => change 8 = 1 at h1; omega
    · split
      · next h2 => change 8 = 1 at h2; omega
      · show 0 + t.val = t.val
        omega

theorem rowsOk_of_pre {F : FTy → Type} [FloatOps F] [Cert.Pre_finite_inputs.Facts] (a0 : IVec SIdx 32) (a1 : FVec F STab .f32) (a2 : IVec SOff 32)
    (h : Cert.Pre_finite_inputs.fn (F := F) a0 a1 a2 = fun _ => 1#1) : RowsOk a0 a2 := by
  intro t b l
  -- the predicate at its one index: a conjunction whose second half is the and-reduction of the range test
  have e := congrFun h ix0
  dsimp only [Cert.Pre_finite_inputs.fn] at e
  have e2 := (IntOp.andi_eq_one.1 e).2
  -- an and-reduction over every axis that came out 1 met a 1 at every index: the range test holds at (t, b, l)
  have e3 := Host.reduce_andi_all _ _ _ _ _ e2 (ix3 t b l)
  obtain ⟨hge, hlt⟩ := IntOp.andi_eq_one.1 e3
  -- the two signed comparisons, as inequalities between signed readings
  have hge' := IntOp.cmpi_sge.1 hge
  have hlt' := IntOp.cmpi_slt.1 hlt
  change (0#32 : BitVec 32).toInt ≤ (a0 (ix3 t b l) + _).toInt at hge'
  change (a0 (ix3 t b l) + _).toInt < (2000000#32 : BitVec 32).toInt at hlt'
  -- the spread offsets read at (t, b, l) the offset of feature t
  rw [offsets_read] at hge' hlt'
  have h0 : (0#32 : BitVec 32).toInt = 0 := by decide
  have hN : (2000000#32 : BitVec 32).toInt = ((2000000 : ℕ) : Int) := by decide
  rw [h0] at hge'
  rw [hN] at hlt'
  -- the row is the same sum with its terms in the other order
  unfold row
  rw [BitVec.add_comm]
  exact toNat_lt_of_signed_range _ 2000000 hge' hlt'

end Cert.Pooled
-- ==== Proof.RefValue.lean ====
import proofs.«429106_j80058190397553_1_alg».proof.Proof.Gen.ReferenceIdeal.Run
import proofs.«429106_j80058190397553_1_alg».proof.Proof.Gen.ReferenceIdeal.Read
import proofs.«429106_j80058190397553_1_alg».proof.Proof.Spec
import Idealize.ShloMosaic.Lib.ValueIdx
import Idealize.ShloMosaic.PureOps.Ideal.Laws

/-
  The reference program's result is the specification: at sample `b` and column `128·t + d` the reshape and the
  transpose read entry `(t, b, d)` of the sum over the 20 slots; each summand is the table's entry at column `d` of the
  row the gather fetches, and when every linear row number `hash t + idx (t, b, l)` is a row of the table that number
  is not negative (so the negative-index wrap keeps it) and the gather's clamp is the identity on it.
-/

noncomputable section

namespace Cert.ReferenceIdeal.RefValue

open Cert.ReferenceIdeal Cert.ReferenceIdeal.Gen Cert.ReferenceIdeal.Read Idealize.ShloMosaic Idealize.ShloMosaic.ValueIdx Cert.Pooled

/-- The reference's gather dimension numbers. -/
abbrev dG : GatherDims S2000000x128 S8x8192x20x1 S8x8192x20x128 :=
  gather_S2000000x128_S8x8192x20x1_S8x8192x20x128_3_0_n_n_0_3_1128

/-- On the table's row axis the gather's operand index at `(t, b, l, d)` is the start index `idx (t, b, l, 0)`, read
    signed and clamped into the table's rows: the axis is collapsed (no offset coordinate) and there is no batching axis. -/
theorem dG_axis0 (idx : IVec S8x8192x20x1 32) (t : Fin 8) (b : Fin 8192) (l : Fin 20) (d : Fin 128) :
    dG.start (ix4 t b l d) idx 0 + dG.batchCoord (ix4 t b l d) 0 + dG.offCoord (ix4 t b l d) 0
      = min (idx (ix4 t b l (0 : Fin 1))).toInt.toNat (2000000 - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ dG.startIndexMap from List.mem_singleton.mpr rfl)]
  have hsi : dG.siIdx (ix4 t b l d) ⟨List.idxOf (0 : Fin 2) dG.startIndexMap,
      List.idxOf_lt_length_iff.2 (List.mem_singleton.mpr rfl)⟩ = ix4 t b l (0 : Fin 1) := by
    funext a; refine Fin.ext ?_
    match a with
    | ⟨0, _⟩ => rfl
    | ⟨1, _⟩ => rfl
    | ⟨2, _⟩ => rfl
    | ⟨3, _⟩ => rfl
  rw [hsi]
  rfl

/-- On the table's column axis the operand index is the result's last coordinate: the start index map does not name
    the axis, and it is the one kept axis, read by the result's one offset axis. -/
theorem dG_axis1 (idx : IVec S8x8192x20x1 32) (t : Fin 8) (b : Fin 8192) (l : Fin 20) (d : Fin 128) :
    dG.start (ix4 t b l d) idx 1 + dG.batchCoord (ix4 t b l d) 1 + dG.offCoord (ix4 t b l d) 1 = d.val := by
  rw [GatherDims.batchCoord_eq_zero _ _ _ List.not_mem_nil]
  have h1 : (1 : Fin 2) ∉ dG.startIndexMap := by decide
  have h2 : (1 : Fin 2) ∈ dG.sKept := by decide
  unfold GatherDims.start GatherDims.offCoord
  rw [dif_neg h1, dif_pos h2]
  simp only [Nat.add_zero, Nat.zero_add]
  rfl

/-- The gather read at `(t, b, l, d)`: column `d` of the row `idx (t, b, l, 0)`, read signed and clamped. -/
theorem gather_apply {α : Type} (x : S2000000x128.Idx → α) (idx : IVec S8x8192x20x1 32)
    (t : Fin 8) (b : Fin 8192) (l : Fin 20) (d : Fin 128) :
    Host.gather dG x idx (ix4 t b l d)
      = x (ix2 (⟨min (idx (ix4 t b l (0 : Fin 1))).toInt.toNat (2000000 - 1), by omega⟩ : Fin 2000000) d) := by
  unfold Host.gather
  congr 1
  funext a
  refine Fin.ext ?_
  match a with
  | ⟨0, _⟩ => exact dG_axis0 idx t b l d
  | ⟨1, _⟩ => exact dG_axis1 idx t b l d

/-- A 32-bit word below 2 000 000 is not negative when read signed, so the negative-index wrap keeps it, and the
    clamp into the table's rows is the identity on it. -/
theorem wrap_clamp (s : BitVec 32) (hs : s.toNat < 2000000) :
    Scalar.select (IntOp.cmpi .slt s 0#32) (IntOp.addi s 2000000#32) s = s
      ∧ min s.toInt.toNat (2000000 - 1) = s.toNat := by
  have hi : s.toInt = (s.toNat : ℤ) := BitVec.toInt_eq_toNat_of_lt (by omega)
  constructor
  · have hc : IntOp.cmpi .slt s 0#32 = 0#1 := by
      have hn : ¬ ((s.toNat : ℤ) < 0) := by omega
      simp [IntOp.cmpi, BitVec.slt, hi, hn]
    rw [hc, select_zero]
  · rw [hi, Int.toNat_natCast]; omega

/-- The linear row number before the wrap, at `(t, b, l)`: the local row plus the feature's offset. -/
theorem v3_at (x0 : IVec SIdx 32) (x2 : IVec SOff 32) (t : Fin 8) (b : Fin 8192) (l : Fin 20) :
    val_main_v3 (F := Ideal) x0 x2 (ix3 t b l) = x0 (ix3 t b l) + x2 (ix1 (⟨t.val, by omega⟩ : Fin 9)) := by
  have e : idx_main_v0 (idx_main_v1 (idx_main_v2 (ix3 t b l))) = ix1 (⟨t.val, by omega⟩ : Fin 9) :=
    funext fun a => Fin.ext (by match a with | ⟨0, _⟩ => rfl)
  rw [val_main_v3_apply, val_main_v2_apply, val_main_v1_apply, val_main_v0_apply, e]
  rfl

/-- The start index the gather reads at `(t, b, l)`, when every fetched row is a row of the table. -/
theorem v9_at (x0 : IVec SIdx 32) (x2 : IVec SOff 32) (h : RowsOk x0 x2) (t : Fin 8) (b : Fin 8192) (l : Fin 20) :
    min (val_main_v9 (F := Ideal) x0 x2 (ix4 t b l (0 : Fin 1))).toInt.toNat (2000000 - 1) = row x0 x2 t b l := by
  have e : idx_main_v9 (ix4 t b l (0 : Fin 1)) = ix3 t b l :=
    funext fun a => Fin.ext (by match a with | ⟨0, _⟩ => rfl | ⟨1, _⟩ => rfl | ⟨2, _⟩ => rfl)
  have hr : (x0 (ix3 t b l) + x2 (ix1 (⟨t.val, by omega⟩ : Fin 9))).toNat < 2000000 := by
    rw [BitVec.add_comm]; exact h t b l
  rw [val_main_v9_apply, e, val_main_v8_apply, val_main_v5_apply, val_main_v7_apply, val_main_v4_apply, val_main_v6_apply,
    val_main_c_apply, val_main_c_0_apply, v3_at, (wrap_clamp _ hr).1, (wrap_clamp _ hr).2, BitVec.add_comm]
  rfl

/-- The reference's result is `G`: entry `(b, 128·t + d)` is zero plus the sum over the slots `l` of the table's entry
    at row `hash t + idx (t, b, l)`, column `d`. -/
theorem ref_eq_G (x0 : IVec Cert.Pooled.SIdx 32) (x1 : FVec Ideal Cert.Pooled.STab .f32) (x2 : IVec Cert.Pooled.SOff 32)
    (h : Cert.Pooled.RowsOk x0 x2) :
    Cert.ReferenceIdeal.Read.val_main_v13 (F := Ideal) x0 x1 x2 = Cert.Pooled.G x0 x1 x2 h := by
  funext i
  obtain ⟨b, c, rfl⟩ : ∃ (b : Fin 8192) (c : Fin 1024), i = ix2 b c := ⟨i 0, i 1, eq_ix2 i⟩
  obtain ⟨t, d, rfl⟩ : ∃ (t : Fin 8) (d : Fin 128), c = (⟨128 * t.val + d.val, by omega⟩ : Fin 1024) :=
    ⟨⟨c.val / 128, by omega⟩, ⟨c.val % 128, by omega⟩, Fin.ext (by show c.val = 128 * (c.val / 128) + c.val % 128; omega)⟩
  have e13 : idx_main_v12 (idx_main_v13 (ix2 b (⟨128 * t.val + d.val, by omega⟩ : Fin 1024))) = ix3 t b d :=
    funext fun a => Fin.ext (by
      match a with
      | ⟨0, _⟩ => show (b.val * 1024 + (128 * t.val + d.val)) / 128 % 8 = t.val; omega
      | ⟨1, _⟩ => show (b.val * 1024 + (128 * t.val + d.val)) / 1024 = b.val; omega
      | ⟨2, _⟩ => show (b.val * 1024 + (128 * t.val + d.val)) % 128 = d.val; omega)
  have e11 : ∀ k : Fin 20, idx_main_v11 (ix3 t b d) k = ix4 t b k d := fun k =>
    funext fun a => Fin.ext (by match a with | ⟨0, _⟩ => rfl | ⟨1, _⟩ => rfl | ⟨2, _⟩ => rfl | ⟨3, _⟩ => rfl)
  rw [G_apply, val_main_v13_apply, val_main_v12_apply, e13, val_main_v11_apply, val_main_cst_apply]
  unfold pooled
  rw [Ideal.ofBits_def, Ideal.ofBits_zero_f32, zero_add]
  refine Finset.sum_congr rfl fun k _ => ?_
  rw [e11 k]
  unfold val_main_v10
  rw [show gather_S2000000x128_S8x8192x20x1_S8x8192x20x128_3_0_n_n_0_3_1128 = dG from rfl, gather_apply]
  exact congrArg x1 (congrArg (fun r => ix2 r d) (Fin.ext (v9_at x0 x2 h t b k)))

end Cert.ReferenceIdeal.RefValue

end
-- ==== Proof.SpecF.lean ====
/-
  The pooled result at ANY reading of the floats: the sum over the 20 slots taken as the kernel takes it, the float
  addition folded over the slots in slot order starting from the zero word. At the extended reals the fold is the
  finite sum of `Spec.lean` (addition there is associative and commutative, and the zero word denotes 0).
-/
import proofs.«429106_j80058190397553_1_alg».proof.Proof.Spec
import Idealize.ShloMosaic.PureOps.Ideal.Laws

noncomputable section

namespace Cert.Pooled

open Idealize.ShloMosaic Idealize.ShloMosaic.ValueIdx

variable {F : FTy → Type} [FloatOps F]

/-- The float addition folded over the 20 slots, in slot order, from the zero word. -/
def accum (g : Fin 20 → F .f32) : F .f32 :=
  (List.finRange 20).foldl (fun acc l => FloatOps.addf acc (g l)) (FloatOps.ofBits .f32 0x00000000#32)

/-- The pooled value of sample `b`, feature `t`, column `d`, the 20 fetched rows' entries added in slot order. -/
def pooledF (idx : IVec SIdx 32) (W : FVec F STab .f32) (hash : IVec SOff 32) (h : RowsOk idx hash)
    (b : Fin 8192) (t : Fin 8) (d : Fin 128) : F .f32 :=
  accum fun l => W (ix2 (⟨row idx hash t b l, h t b l⟩ : Fin 2000000) d)

/-- The result array: entry `(b, 128·t + d)` is `pooledF b t d`. -/
def GF (idx : IVec SIdx 32) (W : FVec F STab .f32) (hash : IVec SOff 32) (h : RowsOk idx hash) : FVec F SOut .f32 :=
  fun j => pooledF idx W hash h ⟨(j 0).val, (j 0).isLt⟩
    ⟨(j 1).val / 128, Nat.div_lt_of_lt_mul (j 1).isLt⟩ ⟨(j 1).val % 128, Nat.mod_lt _ (by omega)⟩

/-- A left fold of an associative, commutative addition over a list is the start plus the sum of the terms. -/
theorem foldl_add_eq_sum {ι M : Type} [AddCommMonoid M] (g : ι → M) (L : List ι) (a : M) :
    L.foldl (fun acc l => acc + g l) a = a + (L.map g).sum := by
  induction L generalizing a with
  | nil => simp
  | cons x L ih => rw [List.foldl_cons, ih, List.map_cons, List.sum_cons, add_assoc]

/-- At the extended reals the fold over the 20 slots from the zero word is the finite sum. -/
theorem accum_ideal (g : Fin 20 → Ideal .f32) : accum (F := Ideal) g = ∑ l : Fin 20, g l := by
  unfold accum
  simp only [Ideal.addf_def, Ideal.ofBits_def, Ideal.ofBits_zero_f32]
  rw [foldl_add_eq_sum, zero_add, ← List.ofFn_eq_map, List.sum_ofFn]

/-- At the extended reals the fold in slot order is the sum. -/
theorem GF_ideal (idx : IVec SIdx 32) (W : FVec Ideal STab .f32) (hash : IVec SOff 32) (h : RowsOk idx hash) :
    GF (F := Ideal) idx W hash h = G idx W hash h := by
  funext j
  unfold GF G pooledF pooled
  exact accum_ideal _

end Cert.Pooled

end
-- ==== Proof.K.Trip.lean ====
/-
  ONE TRIP of the kernel's loop over the 32 chunks of 8 output rows, at a symbolic trip `k`.

  A trip clears the 8×128 accumulator, then for each of its 8 rows and each of the 20 slots fetches one row of the
  table into one of the two rows of a landing buffer (the next fetch started, into the other row, before the landed
  one is added), adds it to the accumulator's row, and at the end stores the accumulator into rows 8k … 8k+7 of the
  output block. The two landing rows are held apart, each by its own elements, so that a row in flight never holds
  the row being read. Every fetched row number is assumed in range by the program; here that is a hypothesis on every
  word read off the index block (`hrows`). What the trip stores into the output block is found by the run.
-/
import proofs.«429106_j80058190397553_1_alg».proof.Proof.Gen.Kernel.Loops
import Idealize.ShloMosaic.Lib.Pipeline.Frame

set_option maxRecDepth 65536
set_option maxHeartbeats 0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄D" => MT nD τ sig Unit (Elt F) ℕ (UR sig nD τ × Counters) ℕ

/-- A row number below the table's height gives a one-row rectangle inside the table. -/
theorem chk_row (x : BitVec 32) (h : x.toNat < 2000000) :
    ∀ a : Fin 2, (![x.toNat, 0] : Fin 2 → ℕ) a + S1x128.size a ≤ S2000000x128.size a := by
  intro a
  match a with
  | ⟨0, _⟩ => show x.toNat + 1 ≤ 2000000; omega
  | ⟨1, _⟩ => show 0 + 128 ≤ 128; omega

/-- The landing buffer's two rows, each as the 128-element view the fetches fill. -/
abbrev slot0 (arg6 : Memref sig .tc .vmem S2x128 .f32) : Memref sig .tc .vmem S128 .f32 :=
  (arg6.slice (Rect.unit (s := S2x128) ![0, 0] S1x128.size inb_S2x128_S1x128_0_0) (fun _ => rfl)).squeeze S128 squeezes_S1x128_S128
abbrev slot1 (arg6 : Memref sig .tc .vmem S2x128 .f32) : Memref sig .tc .vmem S128 .f32 :=
  (arg6.slice (Rect.unit (s := S2x128) ![1, 0] S1x128.size inb_S2x128_S1x128_1_0) (fun _ => rfl)).squeeze S128 squeezes_S1x128_S128

/-- The two semaphore cells the fetches fly on. -/
abbrev cell0 (arg7 : DmaSems sig S2) : SemLoc sig := SemLoc.dma ((arg7.slice (Rect.unit (s := S2) ![0] S1.size inb_S2_S1_0)).squeeze S_ squeezes_S1_S_).sem
abbrev cell1 (arg7 : DmaSems sig S2) : SemLoc sig := SemLoc.dma ((arg7.slice (Rect.unit (s := S2) ![1] S1.size inb_S2_S1_1)).squeeze S_ squeezes_S1_S_).sem

/-- What a trip reads and hands back unchanged: the index block, the table whole, the two cells at zero. -/
abbrev TripRes (c : Dev nD) (arg3 : Memref sig .tc .smem S1x256x20 .i32) (arg4 : Memref sig .tc .hbm S2000000x128 .f32) (arg7 : DmaSems sig S2)
    (X3 : BufTy.Contents (Elt F) arg3.view.ty) (X4 : BufTy.Contents (Elt F) arg4.view.ty) : sProp 𝕄D :=
  iprop((arg3.view.loc (c : Thread nD τ) ↦[arg3.view.set]{fullShare} X3) ∗ (arg4.view.loc (c : Thread nD τ) ↦{fullShare} X4)
    ∗ (semVal ((c : Thread nD τ), cell0 arg7) 0) ∗ (semVal ((c : Thread nD τ), cell1 arg7) 0))

/-- What a trip uses as scratch: the landing rows and the accumulator at any contents, the core's recorded waits. -/
abbrev TripScratch (c : Dev nD) (arg6 : Memref sig .tc .vmem S2x128 .f32) (arg8 : Memref sig .tc .vmem S8x128 .f32) : sProp 𝕄D :=
  iprop((∃ f, ((slot0 arg6).view.loc (c : Thread nD τ) ↦[(slot0 arg6).view.set]{fullShare} f))
    ∗ (∃ f, ((slot1 arg6).view.loc (c : Thread nD τ) ↦[(slot1 arg6).view.set]{fullShare} f))
    ∗ (∃ f, (arg8.view.loc (c : Thread nD τ) ↦[arg8.view.set]{fullShare} f)) ∗ (∃ W, owes (c : Thread nD τ) 0 W))

/-- ONE TRIP at a symbolic `k`: the pieces it stores into the output block are the run's own find. -/
def trip (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) :
    { L5 : List (View.Piece (Elt F) S256x128 .f32) // ∀ (f5 : BufTy.Contents (Elt F) arg5.view.ty),
      iprop(TripRes (F := F) c arg3 arg4 arg7 X3 X4 ∗ (arg5.view.loc (c : Thread nD τ) ↦[arg5.view.set]{fullShare} f5)
        ∗ TripScratch (F := F) c arg6 arg8)
      ⊢ wp frame (wpE (defs₀ (F := F)) 𝒱 (c : Thread nD τ) bd) Set.univ (k0_t1_body (F := F) i arg2 harg2 arg3 harg3 arg4 harg4 arg5 harg5 arg6 harg6 arg7 arg8 harg8 v1 k PUnit.unit)
          (fun _ => iprop(TripRes (F := F) c arg3 arg4 arg7 X3 X4 ∗ (arg5.view.loc (c : Thread nD τ) ↦[arg5.view.set]{fullShare} (arg5.view.writes (Elt F) f5 L5))
        ∗ TripScratch (F := F) c arg6 arg8)) } := by
  have hk : k.val < 32 := Nat.lt_of_lt_of_le k.isLt k0_t1_abs.2.1
  refine ⟨?_, fun f5 => ?run⟩
  case run =>
    unfold k0_t1_body
    iintro ⟨⟨HR3, HS4, HC0, HC1⟩, HW5, ⟨%f60, HD60⟩, ⟨%f61, HD61⟩, ⟨%f8, HD8⟩, ⟨%W, HO⟩⟩
    sl_exec_parts! (disch := exact chk_row _ (hrows _ _))
    sl_step
    sl_close

/-- The trip's pieces, a plain projection. -/
abbrev tripL (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000) (k : Fin k0_t1_loop.trips) : List (View.Piece (Elt F) S256x128 .f32) :=
  (trip (F := F) 𝒱 c bd i arg2 harg2 arg3 harg3 arg4 harg4 arg5 harg5 arg6 harg6 arg7 arg8 harg8 v1 X3 X4 hrows k).1

end Cert.Kernel.Hand

end
-- ==== Proof.K.Kernel.lean ====
/-
  The kernel function at one grid point: it reads its feature's offset from the prefetched table, then runs the 32
  trips of `Trip.lean`, each storing 8 rows of the output block. The trips' pieces, newest first, are `pb`; the
  loop's invariant holds the output block at its entry contents overwritten by the pieces of the trips so far.
-/
import proofs.«429106_j80058190397553_1_alg».proof.Proof.K.Trip
import Idealize.ShloMosaic.Lib.Tactic

set_option maxRecDepth 65536
set_option maxHeartbeats 0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄D" => MT nD τ sig Unit (Elt F) ℕ (UR sig nD τ × Counters) ℕ

/-- The pieces the trips before `k` store into the output block, newest first. -/
def pb (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty) (hrows : ∀ (R : LoadRect S1x256x20) (j : R.shape.Idx), (Scalar.addi v1 (View.readAt (Elt F) arg3.view R X3 j)).toNat < 2000000) :
    ℕ → List (View.Piece (Elt F) S256x128 .f32)
  | 0 => []
  | k + 1 => if h : k < k0_t1_loop.trips then
      tripL (F := F) 𝒱 c bd i arg2 harg2 arg3 harg3 arg4 harg4 arg5 harg5 arg6 harg6 arg7 arg8 harg8 v1 X3 X4 hrows ⟨k, h⟩ ++ pb 𝒱 c bd i arg2 harg2 arg3 harg3 arg4 harg4 arg5 harg5 arg6 harg6 arg7 arg8 harg8 v1 X3 X4 hrows k
    else pb 𝒱 c bd i arg2 harg2 arg3 harg3 arg4 harg4 arg5 harg5 arg6 harg6 arg7 arg8 harg8 v1 X3 X4 hrows k

theorem pb_succ (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty) (hrows : ∀ (R : LoadRect S1x256x20) (j : R.shape.Idx), (Scalar.addi v1 (View.readAt (Elt F) arg3.view R X3 j)).toNat < 2000000) (k : Fin k0_t1_loop.trips) :
    pb (F := F) 𝒱 c bd i arg2 harg2 arg3 harg3 arg4 harg4 arg5 harg5 arg6 harg6 arg7 arg8 harg8 v1 X3 X4 hrows (k.val + 1)
      = tripL (F := F) 𝒱 c bd i arg2 harg2 arg3 harg3 arg4 harg4 arg5 harg5 arg6 harg6 arg7 arg8 harg8 v1 X3 X4 hrows k ++ pb (F := F) 𝒱 c bd i arg2 harg2 arg3 harg3 arg4 harg4 arg5 harg5 arg6 harg6 arg7 arg8 harg8 v1 X3 X4 hrows k.val := by
  rw [pb]; exact dif_pos k.isLt

/-- Before trip `k`: what every trip reads; the output block at its entry contents `G5` overwritten by the pieces of
    the trips before `k`; the scratch. -/
abbrev inv (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty) (hrows : ∀ (R : LoadRect S1x256x20) (j : R.shape.Idx), (Scalar.addi v1 (View.readAt (Elt F) arg3.view R X3 j)).toNat < 2000000)
    (G5 : BufTy.Contents (Elt F) arg5.view.ty) (k : ℕ) (_u : Unit) : sProp 𝕄D :=
  iprop(TripRes (F := F) c arg3 arg4 arg7 X3 X4
    ∗ (∃ f, (arg5.view.loc (c : Thread nD τ) ↦[arg5.view.set]{fullShare} f) ∗ ⌜f = arg5.view.writes (Elt F) G5 (pb (F := F) 𝒱 c bd i arg2 harg2 arg3 harg3 arg4 harg4 arg5 harg5 arg6 harg6 arg7 arg8 harg8 v1 X3 X4 hrows k)⌝)
    ∗ TripScratch (F := F) c arg6 arg8)

/-- The word the kernel reads from the table: its feature's offset. -/
abbrev word1 (i : grid0.Coords) (arg2 : Memref sig .tc .smem S9 .i32) (T2 : BufTy.Contents (Elt F) arg2.view.ty) : Elt F .i32 :=
  View.readAt (Elt F) arg2.view (Rect.unit (s := S9) (k0_off1 i) S1.size (k0_off1_inb i)).toLoadRect T2 (Shape.Idx.first (Nat.one_pos : 0 < (Rect.unit (s := S9) (k0_off1 i) S1.size (k0_off1_inb i)).toLoadRect.shape.numel))

/-- The kernel function at a point, from the table at any share, the index block, the table whole, the cells at zero,
    the output block at any contents `G5` and the scratch: it ends with the output block at `G5` overwritten by the 32
    trips' pieces, everything else as it was. -/
theorem kernelRun (c : Dev nD) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole)
    (q2 : PosShare TreeShare) (T2 : BufTy.Contents (Elt F) arg2.view.ty)
    (X3 : BufTy.Contents (Elt F) arg3.view.ty) (X4 : BufTy.Contents (Elt F) arg4.view.ty)
    (hrows : ∀ (R : LoadRect S1x256x20) (j : R.shape.Idx), (Scalar.addi (word1 (F := F) i arg2 T2) (View.readAt (Elt F) arg3.view R X3 j)).toNat < 2000000)
    (G5 : BufTy.Contents (Elt F) arg5.view.ty) :
    iprop((arg2.view.loc (c : Thread nD τ) ↦{q2} T2) ∗ TripRes (F := F) c arg3 arg4 arg7 X3 X4
        ∗ (arg5.view.loc (c : Thread nD τ) ↦[arg5.view.set]{fullShare} G5) ∗ TripScratch (F := F) c arg6 arg8)
      ⊢ wp frame (wpE (defs₀ (F := F)) Variants.none (c : Thread nD τ) none) Set.univ
          (cc0__gather_kernel (F := F) i arg2 harg2 arg3 harg3 arg4 harg4 arg5 harg5 arg6 harg6 arg7 arg8 harg8)
          (fun _ => iprop((arg2.view.loc (c : Thread nD τ) ↦{q2} T2) ∗ inv (F := F) Variants.none c none i arg2 harg2 arg3 harg3 arg4 harg4 arg5 harg5 arg6 harg6 arg7 arg8 harg8 (word1 (F := F) i arg2 T2) X3 X4 hrows G5 k0_t1_loop.trips ())) := by
  iintro ⟨HT2, HRes, HW5, HSc⟩
  rw [cc0__gather_kernel_eq_skeleton]
  unfold cc0__gather_kernel_skel
  sl_exec
  sl_for (inv (F := F) Variants.none c none i arg2 harg2 arg3 harg3 arg4 harg4 arg5 harg5 arg6 harg6 arg7 arg8 harg8 (word1 (F := F) i arg2 T2) X3 X4 hrows G5) $$ [HRes HW5 HSc]
  case region =>
    intro k acc
    iintro ⟨HRes, ⟨%f5, HW5, %h5⟩, HSc⟩
    iapply (wp_wand_r Idealize.ShloMosaic.frame (wpE (defs₀ (F := F)) Variants.none (c : Thread nD τ) none) Set.univ)
    isplitl [HRes HW5 HSc]
    · iapply ((trip (F := F) Variants.none c none i arg2 harg2 arg3 harg3 arg4 harg4 arg5 harg5 arg6 harg6 arg7 arg8 harg8 (word1 (F := F) i arg2 T2) X3 X4 hrows k).2 f5)
      isplitl [HRes]; · iexact HRes
      isplitl [HW5]; · iexact HW5
      iexact HSc
    · iintro %_ ⟨HRes, HW5, HSc⟩
      isplitl [HRes]; · iexact HRes
      isplitl [HW5]
      · rw [pb_succ]
        iexists _; isplitl [HW5]; · iexact HW5
        ipureintro; rw [h5, ← View.writes_append]
      iexact HSc
  · isplitl [HRes]; · iexact HRes
    isplitl [HW5]
    · iexists _; isplitl [HW5]; · iexact HW5
      ipureintro; rfl
    iexact HSc
  iintro %_ HI
  sl_step
  isplitl [HT2]; · iexact HT2
  iexact HI

end Cert.Kernel.Hand

end
-- ==== Proof.K.Launch.lean ====
/-
  The launch side of the frame of the printed program: its one kernel region run as a pipeline of two windows (the
  index array fetched block by block into scalar memory, the result written back block by block) over a grid of
  8 × 32 points, with one prefetched table (the offsets) whose contents the launch memory fixes, and with the big
  table left in HBM, which the body copies rows out of by transfers of its own on two semaphores of its own, all
  waited for within each grid point.

  Stated here: the admissible table contents read off the launch memory; the body's own semaphore cells and the
  operand it moves itself; the region invariant conjunct by conjunct; @main as the region alone; the run, for any
  proof data whose arrays are the launch contents, whose invariant is the library's at every point and whose body
  obligation holds; and the frame read off the run's post: the result holds what the proof data compute, the three
  arguments what they held at launch.
-/
import proofs.«429106_j80058190397553_1_alg».proof.Proof.Gen.Kernel.Launch
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c.tc : Thread nD τ).loc b) := m ((c.tc : Thread nD τ).loc b)

/-- The offsets as the launch memory of the one device holds them. -/
def pf0 : pre0.Contents (Elt F) := fun k => m (((0 : Dev nD).tc : Thread nD τ).loc (pre0.ref k))

/-- The table contents the region runs at: the launch memory's. The pipeline's side condition asks nothing of them. -/
def adm : (p : Fin 1) → (pcfgs (F := F) p).Adm :=
  fun _ => ⟨pf0 m, by show ok0 (pf0 m); unfold ok0; trivial⟩

/-- The body's own DMA semaphores, cell by cell: the two cells of its semaphore array. -/
abbrev osem0 : Fin 2 → SemLoc sig := fun j => (![SemLoc.dma 4, SemLoc.dma 5] : Fin 2 → SemLoc sig) j
theorem ownSemFacts0 : Pipeline.OwnSemFacts spec0 osem0 := by decide

/-- The operand left in HBM that the body copies rows of into scratch itself. -/
abbrev H0 : Finset (Ref sig .tc) := {main_arg1}
theorem H0_sub : H0 ⊆ Pipeline.restRefsP sig pre0 spec0 := by decide

/-- The region invariant, conjunct by conjunct: the two scratch buffers at some contents, the generator register at
    some state, the two own cells at zero, the table in HBM whole at its launch contents. -/
theorem PhiD0_eq (c : Dev nD) :
    (Pipeline.ΦD osem0 spec0 H0 (V m) c : sProp 𝕄)
      = iprop(((∃ f, ((c.tc : Thread nD τ).loc cc0_scratch0) ↦{fullShare} f) ∗ (∃ f, ((c.tc : Thread nD τ).loc cc0_scratch2) ↦{fullShare} f))
          ∗ (∃ r, prngReg c r)
          ∗ (semVal ((c.tc : Thread nD τ), osem0 0) 0 ∗ semVal ((c.tc : Thread nD τ), osem0 1) 0)
          ∗ (((c.tc : Thread nD τ).loc main_arg1) ↦{fullShare} V m c main_arg1)) := by
  rw [Pipeline.ΦD_eq, scopedRest0_eq, Pipeline.ownSems0_eq_of_list c osem0 [0, 1] (by decide) (by decide), bigSep_singleton]
  rfl

/-- The prefetched table as the region hands it to the body: the offsets' buffer at the contents the region runs at,
    at half the full share. -/
theorem PhiT0_eq (c : Dev nD) :
    (Pipeline.ΦT (U := Pipeline.UD sig nD τ) pre0 (adm m 0).1 c : sProp 𝕄)
      = iprop(((c.tc : Thread nD τ).loc main_arg2) ↦{fullShare.right} (adm m 0).1 0) := by
  unfold Pipeline.ΦT Pipeline.prefHeld
  rw [show (Finset.univ : Finset (Fin 1)) = {(0 : Fin 1)} from by decide, bigSep_singleton]
  rfl

/-- @main is the region alone. -/
theorem hmain : Pipeline.HMainP (Ix := Unit) (Name := ℕ) (U := Pipeline.UD sig nD τ) (Lvl := ℕ) pcfgs 0 defs₀ Variants.none m (main (F := F)) (V m) :=
  Pipeline.hmainP_region pcfgs 0 defs₀ Variants.none m main fun c => (main_chain c).trans rfl

/-! ## The run and the frame -/

set_option backward.isDefEq.respectTransparency.types false in
/-- The run: for any proof data of the one pipeline, at the table contents of the launch memory, whose arrays are the
    launch contents, which hold every array whole and owe nothing, whose invariant is at every point the library's
    (scratch, register, own cells at zero, the table in HBM) beside the offsets' half, and whose body obligation holds,
    every weakly fair execution of @main from the launch memory with zero counters terminates with every array of the
    pipeline at what the library computes from the proof data and every other unscoped buffer as launched. -/
theorem run_main_of (dats : (p : Fin 1) → (c : Dev nD) → Pipeline.Dat τ (Elt F) Unit ℕ (Pipeline.UD sig nD τ) ℕ (Pipeline.pin pcfgs (adm m) p) c)
    (hA : ∀ c w, (dats 0 c).A w = V m c (Pipeline.arrRef spec0 w)) (hq : ∀ c w, (dats 0 c).q w = fullShare) (howed : ∀ c t, (dats 0 c).owed t = 0)
    (hΦ : ∀ c t, (dats 0 c).Φ t = iprop(Pipeline.ΦD osem0 spec0 H0 (V m) c ∗ Pipeline.ΦT pre0 (adm m 0).1 c))
    (hbody : ∀ c, Pipeline.BodyObligation (dats 0 c) (defs₀ (F := F)) Variants.none () Set.univ) :
    θ_run defs (onTc (τ := τ) (main (F := F))) (s₀ m ρ) (Pipeline.FramePost (Pipeline.pin pcfgs (adm m)) dats 0 (V m)) :=
  Pipeline.θ_run_frameP_dma pcfgs (adm m) dats (0 : Fin 1) launch0 osem0 defs₀ Variants.none ownSemFacts0 H0 H0_sub m ρ main
    (hbody := fun c => (hbody c).loose) (hshare := fun c => (dats 0 c).share_full (hq c))
    (howed := howed) (V := V m) (hmain := hmain m) (hA := hA)
    (hpf := fun c k => by have hc : c = 0 := Subsingleton.elim _ _; subst hc; rfl)
    (hin := fun c => by rw [hΦ])
    (hout := fun c => by rw [hΦ]; iintro ⟨HD, -⟩; iexact HD)

/-- The frame from a run: the result holds what the library computes from the proof data after the last point; the
    index array, a fetched input, is never written back; the table and the offsets bypass the region or pass through it
    unchanged. -/
theorem frame_of (dats : (p : Fin 1) → (c : Dev nD) → Pipeline.Dat τ (Elt F) Unit ℕ (Pipeline.UD sig nD τ) ℕ (Pipeline.pin pcfgs (adm m) p) c)
    (hA : ∀ c w, (dats 0 c).A w = V m c (Pipeline.arrRef spec0 w))
    (h : θ_run defs (onTc (τ := τ) (main (F := F))) (s₀ m ρ) (Pipeline.FramePost (Pipeline.pin pcfgs (adm m)) dats 0 (V m))) :
    θ_run defs (onTc (τ := τ) (main (F := F))) ⟨m, fun _ => 0, ρ⟩ (fun r => ∀ c : Dev nD,
      r.2.mem ((c.tc : Thread nD τ).loc main_v0) = (dats 0 c).arrAt 1 (Pipeline.pin pcfgs (adm m) 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 1,
      ((h c).1 0).trans (((dats 0 c).arrAt_in 0 rfl _).trans (hA c 0)),
      (h c).2 main_arg1 (Pipeline.mem_restRefs_of (win := spec0) main_arg1 (by decide) (by decide)),
      (h c).2 main_arg2 (Pipeline.mem_restRefs_of (win := spec0) main_arg2 (by decide) (by decide))⟩) h

end Cert.Kernel.Hand

end
-- ==== Proof.K.Dats.lean ====
/-
  The proof data of the kernel's one pipeline, and the step from blocks to the array.

  The grid has 8 × 32 points; point `t` is feature `t / 32` and batch block `t % 32`. The index array's window hands
  the body, at point `t`, the 256 samples of batch block `t % 32` of feature `t / 32`, all 20 slots: block
  (t / 32, t % 32, 0) of blocks of (1, 256, 20). The result's window takes from the body, at point `t`, the 256 × 128
  tile of the result at block (t % 32, t / 32): rows 256·(t % 32) …, columns 128·(t / 32) …. What the body is taken to
  leave there is that tile of the pooled array `GF` (the 20 fetched rows added in slot order); the tiles of the 256
  points cover the array, every point writes its tile back, and so the array ends holding `GF`.
-/
import proofs.«429106_j80058190397553_1_alg».proof.Proof.K.Launch
import proofs.«429106_j80058190397553_1_alg».proof.Proof.SpecF
import Idealize.ShloMosaic.Lib.Pipeline.Value
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (Pipeline.UD sig nD τ) ℕ

variable (m : (ℓ : Loc nD τ sig) → Buf (Elt F) ℓ)

/-! ## The three arguments and the pooled array -/

/-- The index array, the table and the offsets as the launch memory holds them on core `c`. -/
abbrev idxA (c : Dev nD) : IVec Cert.Pooled.SIdx 32 := m ((c.tc : Thread nD τ).loc main_arg0)
abbrev tabA (c : Dev nD) : FVec F Cert.Pooled.STab .f32 := m ((c.tc : Thread nD τ).loc main_arg1)
abbrev offA (c : Dev nD) : IVec Cert.Pooled.SOff 32 := m ((c.tc : Thread nD τ).loc main_arg2)

variable (hrows : ∀ c : Dev nD, Cert.Pooled.RowsOk (idxA m c) (offA m c))

/-- The pooled array of the launch memory's arguments, as contents of the result's buffer. -/
def Gbuf (c : Dev nD) : Buf (Elt F) ((c.tc : Thread nD τ).loc main_v0) :=
  Cert.Pooled.GF (idxA m c) (tabA m c) (offA m c) (hrows c)

/-- The pooled array at an index given by its sample and by its feature and column. -/
theorem GF_at (idx : IVec Cert.Pooled.SIdx 32) (W : FVec F Cert.Pooled.STab .f32) (hash : IVec Cert.Pooled.SOff 32)
    (h : Cert.Pooled.RowsOk idx hash) (j : Cert.Pooled.SOut.Idx) (b : Fin 8192) (t : Fin 8) (d : Fin 128)
    (h0 : (j 0).val = b.val) (h1 : (j 1).val = 128 * t.val + d.val) :
    Cert.Pooled.GF idx W hash h j = Cert.Pooled.pooledF idx W hash h b t d := by
  unfold Cert.Pooled.GF
  congr 1 <;> apply Fin.ext
  · exact h0
  · show (j 1).val / 128 = t.val; omega
  · show (j 1).val % 128 = d.val; omega

/-! ## The grid's points and the windows' blocks -/

/-- The grid's points number 256. -/
theorem point_lt (t : Fin (Pipeline.pin pcfgs (adm m) 0).N) : t.val < 256 := lt_of_lt_of_eq t.isLt N_0

/-- Where the two windows' blocks sit, point by point, decided over the grid: the index array's at
    (t / 32, t % 32, 0), the result's at (t % 32, t / 32); and the result's block index moves at every step, so that
    every point writes its block back. -/
theorem block_positions : ∀ t : Fin grid0.N,
    cc0_transform_0 (grid0.coords t) 0 = t.val / 32 ∧ cc0_transform_0 (grid0.coords t) 1 = t.val % 32
    ∧ cc0_transform_0 (grid0.coords t) 2 = 0
    ∧ cc0_transform_2 (grid0.coords t) 0 = t.val % 32 ∧ cc0_transform_2 (grid0.coords t) 1 = t.val / 32
    ∧ Pipeline.Window.flushOf grid0 true cc0_transform_2 t = true := by
  decide +kernel

/-- The same of the pipeline's windows at the launch memory's table contents. -/
theorem index0 (t : Fin (Pipeline.pin pcfgs (adm m) 0).N) :
    ((Pipeline.pin pcfgs (adm m) 0).win (0 : Fin 2)).index t (0 : Fin 3) = t.val / 32 ∧ ((Pipeline.pin pcfgs (adm m) 0).win (0 : Fin 2)).index t (1 : Fin 3) = t.val % 32
    ∧ ((Pipeline.pin pcfgs (adm m) 0).win (0 : Fin 2)).index t (2 : Fin 3) = 0 :=
  ⟨(block_positions t).1, (block_positions t).2.1, (block_positions t).2.2.1⟩
theorem index1 (t : Fin (Pipeline.pin pcfgs (adm m) 0).N) :
    ((Pipeline.pin pcfgs (adm m) 0).win (1 : Fin 2)).index t (0 : Fin 2) = t.val % 32 ∧ ((Pipeline.pin pcfgs (adm m) 0).win (1 : Fin 2)).index t (1 : Fin 2) = t.val / 32 :=
  ⟨(block_positions t).2.2.2.1, (block_positions t).2.2.2.2.1⟩
theorem flush1 (t : Fin (Pipeline.pin pcfgs (adm m) 0).N) : ((Pipeline.pin pcfgs (adm m) 0).win (1 : Fin 2)).flush t = true :=
  (block_positions t).2.2.2.2.2

/-! ## The proof data -/

/-- The proof data of the one pipeline on core `c`: the arrays as launched; after the body at point `t` the index
    array's buffer at its block (the body only reads it) and the result's at its tile of the pooled array; the
    library's invariant beside the offsets' half, the same at every point; nothing owed; full shares. -/
def dats (p : Fin 1) (c : Dev nD) : Pipeline.Dat τ (Elt F) Unit ℕ (Pipeline.UD sig nD τ) ℕ (Pipeline.pin pcfgs (adm m) p) c where
  A w := V m c (Pipeline.arrRef spec0 w)
  after w t := match w with
    | ⟨0, _⟩ => (((Pipeline.pin pcfgs (adm m) p).win (0 : Fin 2)).blk t).view.read (Elt F) (V m c main_arg0)
    | ⟨1, _⟩ => (((Pipeline.pin pcfgs (adm m) p).win (1 : Fin 2)).blk t).view.read (Elt F) (Gbuf m hrows c)
  Φ _ := iprop(Pipeline.ΦD osem0 spec0 H0 (V m) c ∗ Pipeline.ΦT pre0 (adm m 0).1 c)
  q _ := fullShare
  owed _ := 0

theorem A_eq (c : Dev nD) (w : Fin (Pipeline.pin pcfgs (adm m) 0).W) : (dats m hrows 0 c).A w = V m c (Pipeline.arrRef spec0 w) := by
  dsimp only [dats]
theorem q_eq (c : Dev nD) (w : Fin (Pipeline.pin pcfgs (adm m) 0).W) : (dats m hrows 0 c).q w = fullShare := by
  dsimp only [dats]
theorem owed_eq (c : Dev nD) (t : Fin ((Pipeline.pin pcfgs (adm m) 0).N + 1)) : (dats m hrows 0 c).owed t = 0 := by
  dsimp only [dats]
theorem Phi_eq (c : Dev nD) (t : Fin ((Pipeline.pin pcfgs (adm m) 0).N + 1)) :
    (dats m hrows 0 c).Φ t = iprop(Pipeline.ΦD osem0 spec0 H0 (V m) c ∗ Pipeline.ΦT pre0 (adm m 0).1 c) := by
  dsimp only [dats]

/-- What the body leaves, window by window. -/
theorem after0_0 (c : Dev nD) (t : Fin (Pipeline.pin pcfgs (adm m) 0).N) :
    (dats m hrows 0 c).after (0 : Fin 2) t = (((Pipeline.pin pcfgs (adm m) 0).win (0 : Fin 2)).blk t).view.read (Elt F) (V m c main_arg0) := by
  dsimp only [dats]
theorem after0_1 (c : Dev nD) (t : Fin (Pipeline.pin pcfgs (adm m) 0).N) :
    (dats m hrows 0 c).after (1 : Fin 2) t = (((Pipeline.pin pcfgs (adm m) 0).win (1 : Fin 2)).blk t).view.read (Elt F) (Gbuf m hrows c) := by
  dsimp only [dats]

/-! ## What the body finds and leaves, element by element -/

/-- The index array's buffer holds its block at every point, fetched there or not: the body leaves the block in place,
    the window is never cut and never idle. -/
theorem before0_0 (c : Dev nD) (t : Fin (Pipeline.pin pcfgs (adm m) 0).N) (d) :
    (dats m hrows 0 c).before (0 : Fin 2) t d = (dats m hrows 0 c).after (0 : Fin 2) t := by
  rw [(dats m hrows 0 c).before_in_eq_fetched (0 : Fin 2) rfl (fun _ => rfl) (fun _ _ _ => rfl)
    (fun t => by rw [after0_0]; unfold Dat.blockOf; rw [A_eq]) t d, after0_0]
  unfold Dat.fetched Dat.blockOf
  rw [A_eq]
  rfl

/-- The index array's block at point `t`: the 256 samples of batch block `t % 32` of feature `t / 32`. -/
theorem blk0_apply (c : Dev nD) (t : Fin (Pipeline.pin pcfgs (adm m) 0).N) (y : Fin 256) (l : Fin 20) :
    (dats m hrows 0 c).after (0 : Fin 2) t (ValueIdx.ix3 (0 : Fin 1) y l)
      = idxA m c (ValueIdx.ix3 (⟨t.val / 32, by have := point_lt m t; omega⟩ : Fin 8)
          (⟨256 * (t.val % 32) + y.val, by have := y.isLt; omega⟩ : Fin 8192) l) := by
  obtain ⟨e0, e1, e2⟩ := index0 m t
  rw [after0_0, View.read_apply]
  show V m c main_arg0 _ = m ((c.tc : Thread nD τ).loc main_arg0) _
  congr 1
  funext a
  apply Fin.ext
  match a with
  | ⟨0, _⟩ =>
    show ((Pipeline.pin pcfgs (adm m) 0).win (0 : Fin 2)).index t (0 : Fin 3) * 1 + 1 * 0 = t.val / 32
    omega
  | ⟨1, _⟩ =>
    show ((Pipeline.pin pcfgs (adm m) 0).win (0 : Fin 2)).index t (1 : Fin 3) * 256 + 1 * y.val = 256 * (t.val % 32) + y.val
    omega
  | ⟨2, _⟩ =>
    show ((Pipeline.pin pcfgs (adm m) 0).win (0 : Fin 2)).index t (2 : Fin 3) * 20 + 1 * l.val = l.val
    omega

/-- The result's tile at point `t`: the pooled values of the 256 samples of batch block `t % 32`, feature `t / 32`. -/
theorem blk1_apply (c : Dev nD) (t : Fin (Pipeline.pin pcfgs (adm m) 0).N) (y : Fin 256) (d : Fin 128) :
    (dats m hrows 0 c).after (1 : Fin 2) t (ValueIdx.ix2 y d)
      = Cert.Pooled.pooledF (idxA m c) (tabA m c) (offA m c) (hrows c)
          (⟨256 * (t.val % 32) + y.val, by have := y.isLt; omega⟩ : Fin 8192)
          (⟨t.val / 32, by have := point_lt m t; omega⟩ : Fin 8) d := by
  obtain ⟨e0, e1⟩ := index1 m t
  rw [after0_1, View.read_apply]
  show Cert.Pooled.GF (idxA m c) (tabA m c) (offA m c) (hrows c) _ = _
  refine GF_at _ _ _ _ _ _ _ _ ?_ ?_
  · show ((Pipeline.pin pcfgs (adm m) 0).win (1 : Fin 2)).index t (0 : Fin 2) * 256 + 1 * y.val = 256 * (t.val % 32) + y.val
    omega
  · show ((Pipeline.pin pcfgs (adm m) 0).win (1 : Fin 2)).index t (1 : Fin 2) * 128 + 1 * d.val = 128 * (t.val / 32) + d.val
    omega

/-! ## From the tiles to the array -/

/-- What point `t` writes back is tile `t` of the pooled array. -/
theorem flushed1_eq (c : Dev nD) (t : Fin (Pipeline.pin pcfgs (adm m) 0).N) :
    (dats m hrows 0 c).flushed (1 : Fin 2) t = (((Pipeline.pin pcfgs (adm m) 0).win (1 : Fin 2)).blk t).view.read (Elt F) (Gbuf m hrows c) := by
  show ((Pipeline.pin pcfgs (adm m) 0).win (1 : Fin 2)).cut ((Pipeline.pin pcfgs (adm m) 0).grid.coords t) ((dats m hrows 0 c).after (1 : Fin 2) t) = _
  rw [after0_1]

/-- An index of the result is in point `t`'s tile iff each coordinate is in the tile's range on its axis. -/
theorem mem_blk1 (t : Fin (Pipeline.pin pcfgs (adm m) 0).N) (i : S8192x1024.Idx) :
    i ∈ (((Pipeline.pin pcfgs (adm m) 0).win (1 : Fin 2)).blk t).view.set
      ↔ ∀ a : Fin 2, ((Pipeline.pin pcfgs (adm m) 0).win (1 : Fin 2)).index t a * S256x128.size a ≤ (i a).val
          ∧ (i a).val < ((Pipeline.pin pcfgs (adm m) 0).win (1 : Fin 2)).index t a * S256x128.size a + S256x128.size a := by
  show i ∈ ((View.whole main_v0).slice (((Pipeline.pin pcfgs (adm m) 0).win (1 : Fin 2)).rect t)).set ↔ _
  rw [View.set_slice_whole, Rect.mem_set_unit]
  exact Iff.rfl

/-- Every index of the result is in some point's tile: row `r`, column `k` in the tile of point 32·(k / 128) + r / 256. -/
theorem covered (i : S8192x1024.Idx) :
    ∃ t : Fin (Pipeline.pin pcfgs (adm m) 0).N, ((Pipeline.pin pcfgs (adm m) 0).win (1 : Fin 2)).flush t = true
      ∧ i ∈ (((Pipeline.pin pcfgs (adm m) 0).win (1 : Fin 2)).blk t).view.set := by
  have h0 : (i 0).val < 8192 := (i 0).isLt
  have h1 : (i 1).val < 1024 := (i 1).isLt
  have hN : (Pipeline.pin pcfgs (adm m) 0).N = 256 := N_0
  refine ⟨⟨32 * ((i 1).val / 128) + (i 0).val / 256, by rw [hN]; omega⟩, flush1 m _, ?_⟩
  rw [mem_blk1]
  obtain ⟨e0, e1⟩ := index1 m ⟨32 * ((i 1).val / 128) + (i 0).val / 256, by rw [hN]; omega⟩
  intro a
  match a with
  | ⟨0, _⟩ =>
    show ((Pipeline.pin pcfgs (adm m) 0).win (1 : Fin 2)).index _ (0 : Fin 2) * 256 ≤ (i 0).val
      ∧ (i 0).val < ((Pipeline.pin pcfgs (adm m) 0).win (1 : Fin 2)).index _ (0 : Fin 2) * 256 + 256
    rw [e0]
    show (32 * ((i 1).val / 128) + (i 0).val / 256) % 32 * 256 ≤ (i 0).val ∧ (i 0).val < (32 * ((i 1).val / 128) + (i 0).val / 256) % 32 * 256 + 256
    omega
  | ⟨1, _⟩ =>
    show ((Pipeline.pin pcfgs (adm m) 0).win (1 : Fin 2)).index _ (1 : Fin 2) * 128 ≤ (i 1).val
      ∧ (i 1).val < ((Pipeline.pin pcfgs (adm m) 0).win (1 : Fin 2)).index _ (1 : Fin 2) * 128 + 128
    rw [e1]
    show (32 * ((i 1).val / 128) + (i 0).val / 256) / 32 * 128 ≤ (i 1).val ∧ (i 1).val < (32 * ((i 1).val / 128) + (i 0).val / 256) / 32 * 128 + 128
    omega

/-- The result array after the run is the pooled array. -/
theorem final (c : Dev nD) : (dats m hrows 0 c).arrAt (1 : Fin 2) (Pipeline.pin pcfgs (adm m) 0).N = Gbuf m hrows c :=
  (dats m hrows 0 c).arrAt_eq_of_cover (1 : Fin 2) (Gbuf m hrows c) (fun t _ => flushed1_eq m hrows c t) (covered m)

end Cert.Kernel.Hand

end
-- ==== Proof.K.TripValueSpec.lean ====
/-
  What each trip of the kernel's loop is to store, as a statement: trip `k` stores one piece into the 256 × 128 output
  block, the band of rows 8k … 8k + 7 over all 128 columns, holding at row `r`, column `d` the entries at column `d` of
  the 20 table rows that the index block's row `8k + r` names (the feature's offset added), added in slot order.
-/
import proofs.«429106_j80058190397553_1_alg».proof.Proof.K.Kernel
import proofs.«429106_j80058190397553_1_alg».proof.Proof.SpecF

noncomputable section

namespace Cert.Kernel.Hand

open Cert.Kernel Cert.Kernel.Gen
open Idealize.ShloMosaic Idealize.ShloMosaic.TcCoe
open Idealize.SL.Sem

variable {F : FTy → Type} [FloatOps F]

/-- Every word of the index block names, offset added, a row of the table: the hypothesis on every load read at one
    index. -/
theorem rowlt (arg3 : Memref sig .tc .smem S1x256x20 .i32) (v1 : Elt F .i32) (X3 : BufTy.Contents (Elt F) arg3.view.ty)
    (hrows : ∀ (R : LoadRect S1x256x20) (j : R.shape.Idx), (Scalar.addi v1 (View.readAt (Elt F) arg3.view R X3 j)).toNat < 2000000)
    (y : S1x256x20.Idx) : (Scalar.addi v1 (arg3.view.read (Elt F) X3 y)).toNat < 2000000 := by
  have h := hrows ⟨fun a => (y a).val, fun _ => 1, fun _ => 1, fun a => Or.inr (by have := (y a).isLt; omega)⟩ (fun _ => ⟨0, Nat.one_pos⟩)
  rw [View.readAt_apply] at h
  have e : (LoadRect.idx (s := S1x256x20) ⟨fun a => (y a).val, fun _ => 1, fun _ => 1, fun a => Or.inr (by have := (y a).isLt; omega)⟩ (fun _ => ⟨0, Nat.one_pos⟩)) = y :=
    funext fun a => Fin.ext (by simp)
  rwa [e] at h

/-- WHAT EACH TRIP STORES: trip `k`'s pieces are one piece, the band of rows 8k … 8k + 7, and its payload at row `r`,
    column `d` is the 20 fetched rows' entries at `d` added in slot order. -/
def TripValueAt (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000) : Prop :=
  ∀ k : Fin k0_t1_loop.trips, ∃ P : S8x128.Idx → Elt F .f32,
    tripL (F := F) 𝒱 c bd i arg2 harg2 arg3 harg3 arg4 harg4 arg5 harg5 arg6 harg6 arg7 arg8 harg8 v1 X3 X4 hrows k = [⟨Rect.unit (s := S256x128) (k0_off322 k) S8x128.size (k0_off322_inb k), P⟩] ∧
    ∀ (r2 : Fin 8) (d : Fin 128), P (ValueIdx.ix2 r2 d) = Cert.Pooled.accum (F := F) fun l : Fin 20 =>
      arg4.view.read (Elt F) X4 (ValueIdx.ix2 (⟨(Scalar.addi v1 (arg3.view.read (Elt F) X3 (ValueIdx.ix3 (0 : Fin 1) (⟨8 * k.val + r2.val, by have := Nat.lt_of_lt_of_le k.isLt k0_t1_abs.2.1; have := r2.isLt; omega⟩ : Fin 256) l))).toNat,
        rowlt arg3 v1 X3 hrows _⟩ : Fin 2000000) d)

end Cert.Kernel.Hand

end
-- ==== Proof.K.BlockValue.lean ====
/-
  What the output block holds after the 32 trips, element by element.

  Trip `k` stores one piece into the 256 × 128 block: rows 8k … 8k + 7, all 128 columns, holding for row `8k + r` and
  column `d` the 20 fetched table rows' entries at column `d` added in slot order (that is taken here as a hypothesis
  on each trip's piece). The 32 row bands are disjoint and tile the 256 rows, so every piece agrees with one function
  of the block's index, and every index lies in the band of trip `row / 8`: reading the block after all the writes,
  over whatever it held before, gives that function.
-/
import proofs.«429106_j80058190397553_1_alg».proof.Proof.K.TripValueSpec
import Idealize.ShloMosaic.Lib.Pipeline.Value
import Idealize.ShloMosaic.Lib.Pipeline.FrameBody

noncomputable section

namespace Cert.Kernel.Hand

open Cert.Kernel Cert.Kernel.Gen
open Idealize.ShloMosaic Idealize.ShloMosaic.TcCoe
open Idealize.SL.Sem

variable {F : FTy → Type} [FloatOps F]

/-- The loop runs 32 trips. -/
theorem trips_eq : k0_t1_loop.trips = 32 := by decide +kernel

/-- Trip `k`'s band starts at row 8k, column 0. -/
theorem off322_eq (k : Fin k0_t1_loop.trips) : k0_off322 k = ![8 * k.val, 0] := k0_off322_eq k

/-- The block after the trips, as one function of its index: at row `y`, column `d` the 20 rows of the table that the
    index block's row `y` names, offset added, read at column `d` and added in slot order. -/
def blockFn (arg3 : Memref sig .tc .smem S1x256x20 .i32) (arg4 : Memref sig .tc .hbm S2000000x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000) : S256x128.Idx → Elt F .f32 := fun j =>
  Cert.Pooled.accum (F := F) fun l : Fin 20 =>
    arg4.view.read (Elt F) X4 (ValueIdx.ix2 (⟨(Scalar.addi v1 (arg3.view.read (Elt F) X3 (ValueIdx.ix3 (0 : Fin 1) (⟨(j 0).val, (j 0).isLt⟩ : Fin 256) l))).toNat,
      rowlt arg3 v1 X3 hrows _⟩ : Fin 2000000) (⟨(j 1).val, (j 1).isLt⟩ : Fin 128))

/-- That function at an index whose row and column are given. -/
theorem blockFn_eq (arg3 : Memref sig .tc .smem S1x256x20 .i32) (arg4 : Memref sig .tc .hbm S2000000x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (j : S256x128.Idx) (y : Fin 256) (d : Fin 128) (h0 : (j 0).val = y.val) (h1 : (j 1).val = d.val) :
    blockFn arg3 arg4 v1 X3 X4 hrows j = Cert.Pooled.accum (F := F) fun l : Fin 20 =>
      arg4.view.read (Elt F) X4 (ValueIdx.ix2 (⟨(Scalar.addi v1 (arg3.view.read (Elt F) X3 (ValueIdx.ix3 (0 : Fin 1) y l))).toNat,
        rowlt arg3 v1 X3 hrows _⟩ : Fin 2000000) d) := by
  obtain rfl : y = ⟨(j 0).val, (j 0).isLt⟩ := Fin.ext h0.symm
  obtain rfl : d = ⟨(j 1).val, (j 1).isLt⟩ := Fin.ext h1.symm
  rfl

/-- After `n` trips every piece stored so far agrees with the one function, and every index in the first 8n rows lies
    in some piece: each new trip adds the band of rows 8n … 8n + 7. -/
theorem pieces_upto (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (htv : TripValueAt (F := F) 𝒱 c bd i arg2 harg2 arg3 harg3 arg4 harg4 arg5 harg5 arg6 harg6 arg7 arg8 harg8 v1 X3 X4 hrows) :
    ∀ n : ℕ, n ≤ k0_t1_loop.trips →
      (∀ p ∈ pb (F := F) 𝒱 c bd i arg2 harg2 arg3 harg3 arg4 harg4 arg5 harg5 arg6 harg6 arg7 arg8 harg8 v1 X3 X4 hrows n, ∀ x : p.1.shape.Idx, p.2 x = blockFn arg3 arg4 v1 X3 X4 hrows (p.1.emb x))
      ∧ ∀ y : S256x128.Idx, (y 0).val < 8 * n → ∃ p ∈ pb (F := F) 𝒱 c bd i arg2 harg2 arg3 harg3 arg4 harg4 arg5 harg5 arg6 harg6 arg7 arg8 harg8 v1 X3 X4 hrows n, y ∈ p.1.set
  | 0, _ => ⟨fun p hp => absurd hp (by rw [pb]; exact List.not_mem_nil), fun y hy => absurd hy (by omega)⟩
  | n + 1, hn => by
    obtain ⟨ihA, ihC⟩ := pieces_upto 𝒱 c bd i arg2 harg2 arg3 harg3 arg4 harg4 arg5 harg5 arg6 harg6 arg7 arg8 harg8 v1 X3 X4 hrows htv n (Nat.le_of_succ_le hn)
    have hk : n < k0_t1_loop.trips := hn
    obtain ⟨P, hL, hP⟩ := htv ⟨n, hk⟩
    have hsucc := pb_succ (F := F) 𝒱 c bd i arg2 harg2 arg3 harg3 arg4 harg4 arg5 harg5 arg6 harg6 arg7 arg8 harg8 v1 X3 X4 hrows ⟨n, hk⟩
    rw [hL] at hsucc
    have e0 : k0_off322 ⟨n, hk⟩ 0 = 8 * n := congrFun (off322_eq ⟨n, hk⟩) 0
    have e1 : k0_off322 ⟨n, hk⟩ 1 = 0 := congrFun (off322_eq ⟨n, hk⟩) 1
    refine ⟨fun p hp x => ?_, fun y hy => ?_⟩
    · rw [show n + 1 = (⟨n, hk⟩ : Fin k0_t1_loop.trips).val + 1 from rfl, hsucc] at hp
      rcases List.mem_append.mp hp with hp | hp
      · obtain rfl := List.mem_singleton.mp hp
        have hx : x = ValueIdx.ix2 (x 0) (x 1) := ValueIdx.eq_ix2 x
        rw [hx]
        show P (ValueIdx.ix2 (x 0) (x 1)) = _
        rw [hP (x 0) (x 1)]
        refine (blockFn_eq arg3 arg4 v1 X3 X4 hrows _ _ _ ?_ ?_).symm
        · show k0_off322 ⟨n, hk⟩ 0 + 1 * (x 0).val = 8 * n + (x 0).val
          omega
        · show k0_off322 ⟨n, hk⟩ 1 + 1 * (x 1).val = (x 1).val
          omega
      · exact ihA p hp x
    · rw [show n + 1 = (⟨n, hk⟩ : Fin k0_t1_loop.trips).val + 1 from rfl, hsucc]
      by_cases hlt : (y 0).val < 8 * n
      · obtain ⟨p, hp, hy'⟩ := ihC y hlt
        exact ⟨p, List.mem_append.mpr (Or.inr hp), hy'⟩
      · refine ⟨_, List.mem_append.mpr (Or.inl (List.mem_singleton.mpr rfl)), ?_⟩
        show y ∈ (Rect.unit (s := S256x128) (k0_off322 ⟨n, hk⟩) S8x128.size (k0_off322_inb ⟨n, hk⟩)).set
        rw [Rect.mem_set_unit]
        have h1 : (y 1).val < 128 := (y 1).isLt
        intro a
        match a with
        | ⟨0, _⟩ => show k0_off322 ⟨n, hk⟩ 0 ≤ (y 0).val ∧ (y 0).val < k0_off322 ⟨n, hk⟩ 0 + 8; omega
        | ⟨1, _⟩ => show k0_off322 ⟨n, hk⟩ 1 ≤ (y 1).val ∧ (y 1).val < k0_off322 ⟨n, hk⟩ 1 + 128; omega

/-- THE BLOCK AFTER THE LOOP, read at row `y`, column `d`, over whatever it held before: the 20 fetched rows' entries
    at `d` added in slot order. -/
theorem block_value (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (htv : TripValueAt (F := F) 𝒱 c bd i arg2 harg2 arg3 harg3 arg4 harg4 arg5 harg5 arg6 harg6 arg7 arg8 harg8 v1 X3 X4 hrows)
    (G5 : BufTy.Contents (Elt F) arg5.view.ty) (y : Fin 256) (d : Fin 128) :
    arg5.view.read (Elt F) (arg5.view.writes (Elt F) G5 (pb (F := F) 𝒱 c bd i arg2 harg2 arg3 harg3 arg4 harg4 arg5 harg5 arg6 harg6 arg7 arg8 harg8 v1 X3 X4 hrows k0_t1_loop.trips)) (ValueIdx.ix2 y d)
      = Cert.Pooled.accum (F := F) fun l : Fin 20 =>
          arg4.view.read (Elt F) X4 (ValueIdx.ix2 (⟨(Scalar.addi v1 (arg3.view.read (Elt F) X3 (ValueIdx.ix3 (0 : Fin 1) y l))).toNat,
            rowlt arg3 v1 X3 hrows _⟩ : Fin 2000000) d) := by
  obtain ⟨hA, hC⟩ := pieces_upto (F := F) 𝒱 c bd i arg2 harg2 arg3 harg3 arg4 harg4 arg5 harg5 arg6 harg6 arg7 arg8 harg8 v1 X3 X4 hrows htv k0_t1_loop.trips le_rfl
  have hy : ((ValueIdx.ix2 y d : S256x128.Idx) 0).val < 8 * k0_t1_loop.trips := by
    rw [trips_eq]; show y.val < 8 * 32; have := y.isLt; omega
  rw [View.read_writes_apply_of_pieces arg5.view G5 (blockFn arg3 arg4 v1 X3 X4 hrows) _ hA (ValueIdx.ix2 y d) (hC _ hy)]
  exact blockFn_eq arg3 arg4 v1 X3 X4 hrows _ y d rfl rfl

end Cert.Kernel.Hand

end
-- ==== Proof.K.PointFacts.lean ====
/-
  One grid point's staged data tied to the argument arrays.

  At point `t` the kernel reads one word of the prefetched table, the offset of feature `t / 32`; the index block the
  pipeline hands it holds the local row numbers of the 256 samples of batch block `t % 32` of that feature. So every
  word of the block, the offset added, is a fetched row number of the precondition and lies below the table's height;
  and the 20 fetched rows' entries added in slot order, for block row `y` and column `d`, are the pooled array's entry
  that the result's tile holds there.
-/
import proofs.«429106_j80058190397553_1_alg».proof.Proof.K.Dats
import proofs.«429106_j80058190397553_1_alg».proof.Proof.K.TripValueSpec

noncomputable section

namespace Cert.Kernel.Hand

open Cert.Kernel Cert.Kernel.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-- The word the kernel reads from the prefetched table at point `t`, at the table contents the region runs at. -/
abbrev tableWord (t : Fin (Pipeline.pin pcfgs (adm m) 0).N) : Elt F .i32 :=
  word1 (F := F) (grid0.coords t) (Memref.whole main_arg2) ((adm m 0).1 0)

/-- The first grid coordinate of point `t` is `t / 32`, decided over the grid. -/
theorem coord0_eq : ∀ t : Fin grid0.N, (grid0.coords t 0).val = t.val / 32 := by decide +kernel

/-- That word is the offset of feature `t / 32`. -/
theorem tableWord_eq (c : Dev nD) (t : Fin (Pipeline.pin pcfgs (adm m) 0).N) :
    tableWord m t = offA m c (ValueIdx.ix1 (⟨t.val / 32, by have := point_lt m t; omega⟩ : Fin 9)) := by
  have hc : c = 0 := Subsingleton.elim _ _
  subst hc
  have e := congrFun (k0_off1_eq (grid0.coords t)) 0
  have e' := coord0_eq t
  show m (((0 : Dev nD).tc : Thread nD τ).loc main_arg2) _ = m (((0 : Dev nD).tc : Thread nD τ).loc main_arg2) _
  congr 1
  funext a
  apply Fin.ext
  match a with
  | ⟨0, _⟩ =>
    show k0_off1 (grid0.coords t) 0 + 1 * 0 = t.val / 32
    rw [e]
    show (grid0.coords t 0).val + 1 * 0 = t.val / 32
    omega

variable (hrows : ∀ c : Dev nD, Cert.Pooled.RowsOk (idxA m c) (offA m c))

/-- Every word of point `t`'s index block, the table word added, is below the table's height. -/
theorem row_ok_at (c : Dev nD) (t : Fin (Pipeline.pin pcfgs (adm m) 0).N) (y3 : S1x256x20.Idx) :
    (Scalar.addi (tableWord m t) ((dats m hrows 0 c).after (0 : Fin 2) t y3)).toNat < 2000000 := by
  obtain ⟨y, l, rfl⟩ : ∃ (y : Fin 256) (l : Fin 20), y3 = ValueIdx.ix3 (0 : Fin 1) y l :=
    ⟨y3 1, y3 2, by
      have h := ValueIdx.eq_ix3 y3
      rwa [Fin.fin_one_eq_zero (y3 0)] at h⟩
  rw [blk0_apply, tableWord_eq m c t]
  exact hrows c (⟨t.val / 32, by have := point_lt m t; omega⟩ : Fin 8) (⟨256 * (t.val % 32) + y.val, by have := y.isLt; omega⟩ : Fin 8192) l

/-- The same of any memref holding the block: the hypothesis the kernel's run at the point takes. -/
theorem rows_at_point (c : Dev nD) (t : Fin (Pipeline.pin pcfgs (adm m) 0).N) (M3 : Memref sig .tc .smem S1x256x20 .i32)
    (f3 : BufTy.Contents (Elt F) M3.view.ty) (hf3 : M3.view.read (Elt F) f3 = (dats m hrows 0 c).after (0 : Fin 2) t) :
    ∀ (R : LoadRect S1x256x20) (j : R.shape.Idx),
      (Scalar.addi (word1 (F := F) (grid0.coords t) (Memref.whole main_arg2) ((adm m 0).1 0)) (View.readAt (Elt F) M3.view R f3 j)).toNat < 2000000 := by
  intro R j
  rw [View.readAt_apply, congrFun hf3 (R.idx j)]
  exact row_ok_at m hrows c t (R.idx j)

/-- The 20 fetched rows' entries added in slot order, for block row `y` and column `d` of point `t`, are what the result's
    tile holds there. -/
theorem accum_point (c : Dev nD) (t : Fin (Pipeline.pin pcfgs (adm m) 0).N) (M3 : Memref sig .tc .smem S1x256x20 .i32)
    (f3 : BufTy.Contents (Elt F) M3.view.ty) (hf3 : M3.view.read (Elt F) f3 = (dats m hrows 0 c).after (0 : Fin 2) t)
    (hr : ∀ (R : LoadRect S1x256x20) (j : R.shape.Idx),
      (Scalar.addi (word1 (F := F) (grid0.coords t) (Memref.whole main_arg2) ((adm m 0).1 0)) (View.readAt (Elt F) M3.view R f3 j)).toNat < 2000000)
    (y : Fin 256) (d : Fin 128) :
    Cert.Pooled.accum (F := F) (fun l : Fin 20 => (Memref.whole main_arg1).view.read (Elt F) (V m c main_arg1)
        (ValueIdx.ix2 (⟨(Scalar.addi (word1 (F := F) (grid0.coords t) (Memref.whole main_arg2) ((adm m 0).1 0)) (M3.view.read (Elt F) f3 (ValueIdx.ix3 (0 : Fin 1) y l))).toNat,
          rowlt M3 _ f3 hr _⟩ : Fin 2000000) d))
      = (dats m hrows 0 c).after (1 : Fin 2) t (ValueIdx.ix2 y d) := by
  rw [blk1_apply]
  unfold Cert.Pooled.pooledF
  congr 1
  funext l
  show tabA m c (ValueIdx.ix2 _ d) = tabA m c (ValueIdx.ix2 _ d)
  refine congrArg (fun r => tabA m c (ValueIdx.ix2 r d)) (Fin.ext ?_)
  show (Scalar.addi (tableWord m t) (M3.view.read (Elt F) f3 (ValueIdx.ix3 (0 : Fin 1) y l))).toNat = Cert.Pooled.row _ _ _ _ _
  rw [congrFun hf3 _, blk0_apply, tableWord_eq m c t]
  rfl

end Cert.Kernel.Hand

end
-- ==== Proof.K.TripValue.lean ====
/-
  WHAT ONE TRIP OF THE KERNEL'S LOOP STORES, AS VALUES.

  A trip fills the 8 × 128 accumulator with the zero word and then, one row at a time and within a row one slot at a
  time, adds to the accumulator's row a landed row of the table; at the end it stores the accumulator into rows
  8k … 8k + 7 of the output block. The accumulator's stores are a list of pieces, the zero fill oldest, each later
  piece one row holding "that row read back, plus a landed row". Such a list leaves at `(r, d)` the zero word plus, in
  order, the landed rows added to row `r`, at column `d`; a landed row is the row of the table that the 32-bit sum
  of the feature's offset and a word of the index block names; and the 20 steps of row `r` read the words
  `(0, 8k + r, 0 … 19)` in order. So the stored band holds at `(r, d)` the fold, in slot order from the zero word, of
  the 20 fetched rows' entries at `d`.
-/
import proofs.«429106_j80058190397553_1_alg».proof.Proof.K.Trip
import proofs.«429106_j80058190397553_1_alg».proof.Proof.SpecF
import proofs.«429106_j80058190397553_1_alg».proof.Proof.K.TripValueSpec
import Idealize.ShloMosaic.Lib.Tactic
import Idealize.ShloMosaic.Lib.ValueIdx
import Idealize.ShloMosaic.Lib.Pipeline.Value
import Idealize.ShloMosaic.Lib.Pipeline.FrameBody
import Idealize.ShloMosaic.Lib.Pipeline.RowLoads

set_option maxRecDepth 65536

noncomputable section

namespace Cert.Kernel.Hand

open Cert.Kernel Cert.Kernel.Gen
open Idealize.ShloMosaic Idealize.ShloMosaic.TcCoe Idealize.ShloMosaic.Tactic Idealize.ShloMosaic.ValueIdx

variable {F : FTy → Type} [FloatOps F]

/-- The 128 entries of a row, as a one-row array: entry `d` is entry `(0, d)`. -/
theorem reshape_row (h : S128.numel = S1x128.numel) (d : Fin 128) :
    Shape.reshapeEquiv h (ix1 d) = (ix2 (0 : Fin 1) d : S1x128.Idx) :=
  Shape.reshapeEquiv_eq_of_rowMajor h (by
    rw [Shape.rowMajor_val_two, Shape.rowMajor_val_one]
    show 0 * 128 + d.val = d.val
    omega)

/-- A row of the table read through its one-row slice: entry `d` of the row numbered `n`. -/
theorem tab_read (arg4 : Memref sig .tc .hbm S2000000x128 .f32) (X4 : BufTy.Contents (Elt F) arg4.view.ty)
    (off : Fin 2 → ℕ) (inb : ∀ a, off a + S1x128.size a ≤ S2000000x128.size a)
    (hs : ∀ a, (Rect.unit (s := S2000000x128) off S1x128.size inb).stride a = 1)
    (n : ℕ) (hn : n < 2000000) (hoff : off = ![n, 0]) (d : Fin 128) :
    ReadAs.same.apply (View.read (Elt F) ((arg4.slice (Rect.unit (s := S2000000x128) off S1x128.size inb) hs).squeeze S128 squeezes_S1x128_S128).view X4) (ix1 d)
      = arg4.view.read (Elt F) X4 (ix2 (⟨n, hn⟩ : Fin 2000000) d) := by
  subst hoff
  show arg4.view.read (Elt F) X4 ((Rect.unit (s := S2000000x128) ![n, 0] S1x128.size inb).emb
    (Shape.reshapeEquiv squeezes_S1x128_S128.numel_eq (ix1 d))) = _
  rw [reshape_row]
  congr 1
  funext a; apply Fin.ext
  match a with
  | ⟨0, _⟩ => show n + 1 * 0 = n; omega
  | ⟨1, _⟩ => show 0 + 1 * d.val = d.val; omega

/-- The landing buffer's row 0 read after a fetch into it: the fetched row. -/
theorem landed0 (arg6 : Memref sig .tc .vmem S2x128 .f32) (w : S128.Idx → Elt F .f32)
    (L : List (View.Piece (Elt F) S128 .f32)) (d : Fin 128) :
    View.readAt (Elt F) arg6.view (Rect.unit (s := S2x128) ![0, 0] S1x128.size inb_S2x128_S1x128_0_0).toLoadRect
      ((slot0 arg6).view.writes (Elt F) (slot0 arg6).view.junk (⟨Rect.whole S128, w⟩ :: L)) (ix2 (0 : Fin 1) d) = w (ix1 d) := by
  have key := View.read_writes_cons_emb (Val := Elt F) (v := (slot0 arg6).view) (f := (slot0 arg6).view.junk) (Rect.whole S128) w L (ix1 d)
  rw [← key]
  show arg6.view.read (Elt F) _ _ = arg6.view.read (Elt F) _ ((Rect.unit (s := S2x128) ![0, 0] S1x128.size inb_S2x128_S1x128_0_0).emb
    (Shape.reshapeEquiv squeezes_S1x128_S128.numel_eq ((Rect.whole S128).emb (ix1 d))))
  have e : (Rect.whole S128).emb (ix1 d) = ix1 d := by
    funext a; apply Fin.ext
    match a with
    | ⟨0, _⟩ => show 0 + 1 * d.val = d.val; omega
  rw [e, reshape_row]
  rfl

/-- The landing buffer's row 1 read after a fetch into it: the fetched row. -/
theorem landed1 (arg6 : Memref sig .tc .vmem S2x128 .f32) (w : S128.Idx → Elt F .f32)
    (L : List (View.Piece (Elt F) S128 .f32)) (d : Fin 128) :
    View.readAt (Elt F) arg6.view (Rect.unit (s := S2x128) ![1, 0] S1x128.size inb_S2x128_S1x128_1_0).toLoadRect
      ((slot1 arg6).view.writes (Elt F) (slot1 arg6).view.junk (⟨Rect.whole S128, w⟩ :: L)) (ix2 (0 : Fin 1) d) = w (ix1 d) := by
  have key := View.read_writes_cons_emb (Val := Elt F) (v := (slot1 arg6).view) (f := (slot1 arg6).view.junk) (Rect.whole S128) w L (ix1 d)
  rw [← key]
  show arg6.view.read (Elt F) _ _ = arg6.view.read (Elt F) _ ((Rect.unit (s := S2x128) ![1, 0] S1x128.size inb_S2x128_S1x128_1_0).emb
    (Shape.reshapeEquiv squeezes_S1x128_S128.numel_eq ((Rect.whole S128).emb (ix1 d))))
  have e : (Rect.whole S128).emb (ix1 d) = ix1 d := by
    funext a; apply Fin.ext
    match a with
    | ⟨0, _⟩ => show 0 + 1 * d.val = d.val; omega
  rw [e, reshape_row]
  rfl

/-- The zero word. -/
abbrev zeroW : Elt F .f32 := FloatOps.ofBits .f32 0x00000000#32

/-- Under a newest piece stored on row `r`, the accumulator's canonical contents at row `r` are the piece's payload. -/
theorem canon_row_eq (r : ℕ) (inb : ∀ a, (![r, 0] : Fin 2 → ℕ) a + S1x128.size a ≤ S8x128.size a)
    (w : S1x128.Idx → Elt F .f32) (L : List (View.Piece (Elt F) S8x128 .f32)) (r' : Fin 8) (d : Fin 128) (h : r'.val = r) :
    View.canon ((⟨Rect.unit (s := S8x128) ![r, 0] S1x128.size inb, w⟩ : View.Piece (Elt F) S8x128 .f32) :: L) (ix2 r' d)
      = w (ix2 (0 : Fin 1) d) := by
  have e : (Rect.unit (s := S8x128) ![r, 0] S1x128.size inb).emb (ix2 (0 : Fin 1) d) = ix2 r' d := by
    funext a; apply Fin.ext
    match a with
    | ⟨0, _⟩ => show r + 1 * 0 = r'.val; omega
    | ⟨1, _⟩ => show 0 + 1 * d.val = d.val; omega
  rw [← e]
  exact View.canon_cons_emb (Rect.unit (s := S8x128) ![r, 0] S1x128.size inb) w L (ix2 (0 : Fin 1) d)

/-- Off that row they are the older pieces'. -/
theorem canon_row_ne (r : ℕ) (inb : ∀ a, (![r, 0] : Fin 2 → ℕ) a + S1x128.size a ≤ S8x128.size a)
    (w : S1x128.Idx → Elt F .f32) (L : List (View.Piece (Elt F) S8x128 .f32)) (r' : Fin 8) (d : Fin 128) (h : r'.val ≠ r) :
    View.canon ((⟨Rect.unit (s := S8x128) ![r, 0] S1x128.size inb, w⟩ : View.Piece (Elt F) S8x128 .f32) :: L) (ix2 r' d)
      = View.canon L (ix2 r' d) := by
  refine View.canon_cons_of_not_mem _ L ?_
  intro hm
  change ix2 r' d ∈ (Rect.unit (s := S8x128) ![r, 0] S1x128.size inb).set at hm
  have := (Rect.mem_set_unit (s := S8x128) (off := ![r, 0]) (size := S1x128.size) (inb := inb)).mp hm ⟨0, by decide⟩
  have h1 : r ≤ r'.val := this.1
  have h2 : r'.val < r + 1 := this.2
  omega

/-- The accumulator's row `r` read back is its canonical contents on that row. -/
theorem readCov_row (arg8 : Memref sig .tc .vmem S8x128 .f32) (L : List (View.Piece (Elt F) S8x128 .f32))
    (r : ℕ) (inb : ∀ a, (![r, 0] : Fin 2 → ℕ) a + S1x128.size a ≤ S8x128.size a) (r' : Fin 8) (h : r'.val = r) (d : Fin 128) :
    arg8.view.readCov L (Rect.unit (s := S8x128) ![r, 0] S1x128.size inb).toLoadRect (ix2 (0 : Fin 1) d)
      = View.canon L (ix2 r' d) := by
  rw [View.readCov_eq_canon']
  show View.canon L _ = _
  congr 1
  funext a; apply Fin.ext
  match a with
  | ⟨0, _⟩ => show r + 1 * 0 = r'.val; omega
  | ⟨1, _⟩ => show 0 + 1 * d.val = d.val; omega

/-- The pieces a trip stores into the accumulator: the zero fill, then one row at a time the row read back plus a
    landed row; `A` lists, newest first, the row each step added to and the landed row it added. -/
inductive RowAcc (arg8 : Memref sig .tc .vmem S8x128 .f32) :
    List (View.Piece (Elt F) S8x128 .f32) → List (ℕ × (S1x128.Idx → Elt F .f32)) → Prop
  | zero : RowAcc arg8 [⟨Rect.unit (s := S8x128) ![0, 0] S8x128.size inb_S8x128_S8x128_0_0, k0_pay3⟩] []
  | push (L : List (View.Piece (Elt F) S8x128 .f32)) (A : List (ℕ × (S1x128.Idx → Elt F .f32))) (r : ℕ)
      (inb : ∀ a, (![r, 0] : Fin 2 → ℕ) a + S1x128.size a ≤ S8x128.size a) (y : S1x128.Idx → Elt F .f32) :
      RowAcc arg8 L A →
      RowAcc arg8 (⟨Rect.unit (s := S8x128) ![r, 0] S1x128.size inb,
          shapeCast S1x128 (addf (arg8.view.readCov L (Rect.unit (s := S8x128) ![r, 0] S1x128.size inb).toLoadRect) y) shapeCasts_S1x128_S1x128⟩ :: L)
        ((r, y) :: A)

/-- The value such a list leaves at `(r', d)`: zero, plus in order the landed rows added to row `r'`. -/
def rowVal (A : List (ℕ × (S1x128.Idx → Elt F .f32))) (r' : ℕ) (d : Fin 128) : Elt F .f32 :=
  A.foldr (fun p acc => if p.1 = r' then FloatOps.addf acc (p.2 (ix2 (0 : Fin 1) d)) else acc) zeroW

theorem RowAcc.canon_eq {arg8 : Memref sig .tc .vmem S8x128 .f32} {L : List (View.Piece (Elt F) S8x128 .f32)}
    {A : List (ℕ × (S1x128.Idx → Elt F .f32))} (h : RowAcc arg8 L A) (r' : Fin 8) (d : Fin 128) :
    View.canon L (ix2 r' d) = rowVal A r'.val d := by
  induction h with
  | zero =>
    rw [View.canon_unit_zero (by funext a; match a with | ⟨0, _⟩ => rfl | ⟨1, _⟩ => rfl)]
    rfl
  | push L A r inb y _ ih =>
    unfold rowVal
    rw [List.foldr_cons]
    by_cases hr : r = r'.val
    · rw [if_pos hr, canon_row_eq r inb _ L r' d hr.symm]
      refine (congrFun (shapeCast_self _ _) _).trans ?_
      show FloatOps.addf _ _ = _
      rw [readCov_row arg8 L r inb r' hr.symm d, ih]
      rfl
    · rw [if_neg hr, canon_row_ne r inb _ L r' d (fun h => hr h.symm), ih]
      rfl

/-- A word of the index block read through a one-element rectangle at offsets `(0, b, l)`. -/
theorem word_read (arg3 : Memref sig .tc .smem S1x256x20 .i32) (X3 : BufTy.Contents (Elt F) arg3.view.ty)
    (off3 : Fin 3 → ℕ) (inb3 : ∀ a, off3 a + S1x1x1.size a ≤ S1x256x20.size a)
    (h0 : 0 < (Rect.unit (s := S1x256x20) off3 S1x1x1.size inb3).toLoadRect.shape.numel)
    (b : Fin 256) (l : Fin 20) (hoff : off3 = ![0, b.val, l.val]) :
    View.readAt (Elt F) arg3.view (Rect.unit (s := S1x256x20) off3 S1x1x1.size inb3).toLoadRect X3 (Shape.Idx.first h0)
      = arg3.view.read (Elt F) X3 (ix3 (0 : Fin 1) b l) := by
  subst hoff
  rw [View.readAt_apply]
  congr 1
  funext a; apply Fin.ext
  match a with
  | ⟨0, _⟩ => show 0 + 1 * 0 = 0; rfl
  | ⟨1, _⟩ => show b.val + 1 * 0 = b.val; omega
  | ⟨2, _⟩ => show l.val + 1 * 0 = l.val; omega

/-- Landing row 0 read after a fetch into it of the table row the index block's word `(0, b, l)` names: the
    table's entry at that row, column `d`. -/
theorem landed_tab0 {arg3 : Memref sig .tc .smem S1x256x20 .i32} {arg4 : Memref sig .tc .hbm S2000000x128 .f32}
    {arg6 : Memref sig .tc .vmem S2x128 .f32} {v1 : Elt F .i32}
    {X3 : BufTy.Contents (Elt F) arg3.view.ty} {X4 : BufTy.Contents (Elt F) arg4.view.ty}
    {off3 : Fin 3 → ℕ} {inb3 : ∀ a, off3 a + S1x1x1.size a ≤ S1x256x20.size a}
    {h0 : 0 < (Rect.unit (s := S1x256x20) off3 S1x1x1.size inb3).toLoadRect.shape.numel}
    {inbA : ∀ a, (![(Scalar.addi v1 (View.readAt (Elt F) arg3.view (Rect.unit (s := S1x256x20) off3 S1x1x1.size inb3).toLoadRect X3 (Shape.Idx.first h0))).toNat, 0] : Fin 2 → ℕ) a
      + S1x128.size a ≤ S2000000x128.size a}
    {hsA : ∀ a, (Rect.unit (s := S2000000x128) ![(Scalar.addi v1 (View.readAt (Elt F) arg3.view (Rect.unit (s := S1x256x20) off3 S1x1x1.size inb3).toLoadRect X3 (Shape.Idx.first h0))).toNat, 0] S1x128.size inbA).stride a = 1}
    {Lt : List (View.Piece (Elt F) S128 .f32)} [co : ClosedOff off3] {b : Fin 256} {l : Fin 20} {d : Fin 128}
    {hlt : (Scalar.addi v1 (arg3.view.read (Elt F) X3 (ix3 (0 : Fin 1) b l))).toNat < 2000000}
    (hform : co.form = ![0, b.val, l.val]) :
    View.readAt (Elt F) arg6.view (Rect.unit (s := S2x128) ![0, 0] S1x128.size inb_S2x128_S1x128_0_0).toLoadRect
      ((slot0 arg6).view.writes (Elt F) (slot0 arg6).view.junk
        (⟨Rect.whole S128, ReadAs.same.apply (View.read (Elt F)
          ((arg4.slice (Rect.unit (s := S2000000x128)
              ![(Scalar.addi v1 (View.readAt (Elt F) arg3.view (Rect.unit (s := S1x256x20) off3 S1x1x1.size inb3).toLoadRect X3 (Shape.Idx.first h0))).toNat, 0]
              S1x128.size inbA) hsA).squeeze S128 squeezes_S1x128_S128).view X4)⟩ :: Lt))
      (ix2 (0 : Fin 1) d)
    = arg4.view.read (Elt F) X4 (ix2 (⟨(Scalar.addi v1 (arg3.view.read (Elt F) X3 (ix3 (0 : Fin 1) b l))).toNat, hlt⟩ : Fin 2000000) d) := by
  have hw := word_read arg3 X3 off3 inb3 h0 b l (co.eq.trans hform)
  have hn : (Scalar.addi v1 (View.readAt (Elt F) arg3.view (Rect.unit (s := S1x256x20) off3 S1x1x1.size inb3).toLoadRect X3 (Shape.Idx.first h0))).toNat < 2000000 := by
    have := inbA ⟨0, by decide⟩
    have h1 : (Scalar.addi v1 (View.readAt (Elt F) arg3.view (Rect.unit (s := S1x256x20) off3 S1x1x1.size inb3).toLoadRect X3 (Shape.Idx.first h0))).toNat + 1 ≤ 2000000 := this
    omega
  rw [landed0]
  exact (tab_read arg4 X4 _ inbA hsA _ hn rfl d).trans
    (congrArg (fun n : Fin 2000000 => arg4.view.read (Elt F) X4 (ix2 n d)) (Fin.ext (congrArg (fun w => (Scalar.addi v1 w).toNat) hw)))

/-- Landing row 1 read after a fetch into it of the table row the index block's word `(0, b, l)` names: the
    table's entry at that row, column `d`. -/
theorem landed_tab1 {arg3 : Memref sig .tc .smem S1x256x20 .i32} {arg4 : Memref sig .tc .hbm S2000000x128 .f32}
    {arg6 : Memref sig .tc .vmem S2x128 .f32} {v1 : Elt F .i32}
    {X3 : BufTy.Contents (Elt F) arg3.view.ty} {X4 : BufTy.Contents (Elt F) arg4.view.ty}
    {off3 : Fin 3 → ℕ} {inb3 : ∀ a, off3 a + S1x1x1.size a ≤ S1x256x20.size a}
    {h0 : 0 < (Rect.unit (s := S1x256x20) off3 S1x1x1.size inb3).toLoadRect.shape.numel}
    {inbA : ∀ a, (![(Scalar.addi v1 (View.readAt (Elt F) arg3.view (Rect.unit (s := S1x256x20) off3 S1x1x1.size inb3).toLoadRect X3 (Shape.Idx.first h0))).toNat, 0] : Fin 2 → ℕ) a
      + S1x128.size a ≤ S2000000x128.size a}
    {hsA : ∀ a, (Rect.unit (s := S2000000x128) ![(Scalar.addi v1 (View.readAt (Elt F) arg3.view (Rect.unit (s := S1x256x20) off3 S1x1x1.size inb3).toLoadRect X3 (Shape.Idx.first h0))).toNat, 0] S1x128.size inbA).stride a = 1}
    {Lt : List (View.Piece (Elt F) S128 .f32)} [co : ClosedOff off3] {b : Fin 256} {l : Fin 20} {d : Fin 128}
    {hlt : (Scalar.addi v1 (arg3.view.read (Elt F) X3 (ix3 (0 : Fin 1) b l))).toNat < 2000000}
    (hform : co.form = ![0, b.val, l.val]) :
    View.readAt (Elt F) arg6.view (Rect.unit (s := S2x128) ![1, 0] S1x128.size inb_S2x128_S1x128_1_0).toLoadRect
      ((slot1 arg6).view.writes (Elt F) (slot1 arg6).view.junk
        (⟨Rect.whole S128, ReadAs.same.apply (View.read (Elt F)
          ((arg4.slice (Rect.unit (s := S2000000x128)
              ![(Scalar.addi v1 (View.readAt (Elt F) arg3.view (Rect.unit (s := S1x256x20) off3 S1x1x1.size inb3).toLoadRect X3 (Shape.Idx.first h0))).toNat, 0]
              S1x128.size inbA) hsA).squeeze S128 squeezes_S1x128_S128).view X4)⟩ :: Lt))
      (ix2 (0 : Fin 1) d)
    = arg4.view.read (Elt F) X4 (ix2 (⟨(Scalar.addi v1 (arg3.view.read (Elt F) X3 (ix3 (0 : Fin 1) b l))).toNat, hlt⟩ : Fin 2000000) d) := by
  have hw := word_read arg3 X3 off3 inb3 h0 b l (co.eq.trans hform)
  have hn : (Scalar.addi v1 (View.readAt (Elt F) arg3.view (Rect.unit (s := S1x256x20) off3 S1x1x1.size inb3).toLoadRect X3 (Shape.Idx.first h0))).toNat < 2000000 := by
    have := inbA ⟨0, by decide⟩
    have h1 : (Scalar.addi v1 (View.readAt (Elt F) arg3.view (Rect.unit (s := S1x256x20) off3 S1x1x1.size inb3).toLoadRect X3 (Shape.Idx.first h0))).toNat + 1 ≤ 2000000 := this
    omega
  rw [landed1]
  exact (tab_read arg4 X4 _ inbA hsA _ hn rfl d).trans
    (congrArg (fun n : Fin 2000000 => arg4.view.read (Elt F) X4 (ix2 n d)) (Fin.ext (congrArg (fun w => (Scalar.addi v1 w).toNat) hw)))

/-- The accumulator read back whole after such a list of stores. -/
theorem readCov_whole_eq (arg8 : Memref sig .tc .vmem S8x128 .f32) (L : List (View.Piece (Elt F) S8x128 .f32))
    (A : List (ℕ × (S1x128.Idx → Elt F .f32))) (hA : RowAcc arg8 L A) (r2 : Fin 8) (d : Fin 128) :
    arg8.view.readCov L (Rect.unit (s := S8x128) ![0, 0] S8x128.size inb_S8x128_S8x128_0_0).toLoadRect (ix2 r2 d)
      = rowVal A r2.val d := by
  rw [View.readCov_eq_canon']
  show View.canon L _ = _
  rw [← hA.canon_eq r2 d]
  congr 1
  funext a; apply Fin.ext
  match a with
  | ⟨0, _⟩ => show 0 + 1 * r2.val = r2.val; omega
  | ⟨1, _⟩ => show 0 + 1 * d.val = d.val; omega

theorem addf_congr {a a' b b' : Elt F .f32} (h1 : a = a') (h2 : b = b') :
    FloatOps.addf (F := F) a b = FloatOps.addf a' b' := by rw [h1, h2]

theorem finRange20 : List.finRange 20 = [0, 1, 2, 3, 4, 5, 6, 7, 8, 9, 10, 11, 12, 13, 14, 15, 16, 17, 18, 19] := by decide

/-- The partial sums of the fold in slot order: the zero word, then one slot's term added at a time. -/
def pre (g : Fin 20 → Elt F .f32) : ℕ → Elt F .f32
  | 0 => zeroW
  | n + 1 => FloatOps.addf (pre g n) (if h : n < 20 then g ⟨n, h⟩ else zeroW)

theorem accum_eq_pre (g : Fin 20 → Elt F .f32) : Cert.Pooled.accum (F := F) g = pre g 20 := by
  unfold Cert.Pooled.accum
  rw [finRange20]
  simp only [List.foldl_cons, List.foldl_nil, pre]
  rfl

/-- `RowIs r' d g A n`: the steps of `A` (newest first) that add to row `r'` are `n` in number and add, oldest
    first, `g 0, …, g (n - 1)` at column `d`. -/
inductive RowIs (r' : ℕ) (d : Fin 128) (g : Fin 20 → Elt F .f32) : List (ℕ × (S1x128.Idx → Elt F .f32)) → ℕ → Prop
  | nil : RowIs r' d g [] 0
  | skip (r : ℕ) (y : S1x128.Idx → Elt F .f32) (A : List (ℕ × (S1x128.Idx → Elt F .f32))) (n : ℕ) :
      r ≠ r' → RowIs r' d g A n → RowIs r' d g ((r, y) :: A) n
  | take (y : S1x128.Idx → Elt F .f32) (A : List (ℕ × (S1x128.Idx → Elt F .f32))) (n : ℕ) (hn : n < 20) :
      y (ix2 (0 : Fin 1) d) = g ⟨n, hn⟩ → RowIs r' d g A n → RowIs r' d g ((r', y) :: A) (n + 1)

theorem RowIs.rowVal_eq {r' : ℕ} {d : Fin 128} {g : Fin 20 → Elt F .f32} {A : List (ℕ × (S1x128.Idx → Elt F .f32))} {n : ℕ}
    (h : RowIs r' d g A n) : rowVal A r' d = pre g n := by
  induction h with
  | nil => rfl
  | skip r y A n hne _ ih =>
    unfold rowVal; rw [List.foldr_cons, if_neg hne]; exact ih
  | take y A n hn hy _ ih =>
    unfold rowVal; rw [List.foldr_cons, if_pos rfl]
    show FloatOps.addf (rowVal A r' d) (y (ix2 (0 : Fin 1) d)) = FloatOps.addf (pre g n) _
    rw [ih, hy, dif_pos hn]

set_option maxHeartbeats 0 in
/-- The steps a trip makes, found from its piece list: newest first, the row added to and the landed row added. -/
def accList (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) :
    { A // RowAcc arg8 (trip.sl.HD8_161 (F := F) arg3 arg4 arg6 arg8 v1 X3 X4 hrows k) A } := by
  refine ⟨?_, ?_⟩
  rotate_left
  repeat (first | exact RowAcc.zero (F := F) | (refine RowAcc.push (F := F) _ ?_ _ _ _ ?_; rotate_left))

/-- One landed row identified: through landing row 0 or landing row 1. -/
macro "landed_row" : tactic => `(tactic| first
  | (refine landed_tab0 ?_; rfl)
  | (refine landed_tab1 ?_; rfl))

/-- One step of the list read for a row: the end, a step on another row, or a step on this row. -/
macro "rowis_step" : tactic => `(tactic| first
  | exact RowIs.nil
  | refine RowIs.skip _ _ _ _ (by decide) ?_
  | refine RowIs.take _ _ _ (by decide) (by landed_row) ?_)

set_option maxHeartbeats 0 in
/-- Row 0 of the accumulator: its 20 steps add, in slot order, the table rows the index block's row `8k + 0` names. -/
theorem rowIs_0 (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) (d : Fin 128) (hk : k.val < 32) :
    RowIs 0 d (fun l : Fin 20 => arg4.view.read (Elt F) X4 (ix2 (⟨(Scalar.addi v1 (arg3.view.read (Elt F) X3
        (ix3 (0 : Fin 1) (⟨8 * k.val + 0, by omega⟩ : Fin 256) l))).toNat, rowlt arg3 v1 X3 hrows _⟩ : Fin 2000000) d))
      (accList (F := F) arg3 arg4 arg6 arg8 v1 X3 X4 hrows k).1 20 := by
  repeat rowis_step

set_option maxHeartbeats 0 in
/-- Row 1 of the accumulator: its 20 steps add, in slot order, the table rows the index block's row `8k + 1` names. -/
theorem rowIs_1 (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) (d : Fin 128) (hk : k.val < 32) :
    RowIs 1 d (fun l : Fin 20 => arg4.view.read (Elt F) X4 (ix2 (⟨(Scalar.addi v1 (arg3.view.read (Elt F) X3
        (ix3 (0 : Fin 1) (⟨8 * k.val + 1, by omega⟩ : Fin 256) l))).toNat, rowlt arg3 v1 X3 hrows _⟩ : Fin 2000000) d))
      (accList (F := F) arg3 arg4 arg6 arg8 v1 X3 X4 hrows k).1 20 := by
  repeat rowis_step

set_option maxHeartbeats 0 in
/-- Row 2 of the accumulator: its 20 steps add, in slot order, the table rows the index block's row `8k + 2` names. -/
theorem rowIs_2 (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) (d : Fin 128) (hk : k.val < 32) :
    RowIs 2 d (fun l : Fin 20 => arg4.view.read (Elt F) X4 (ix2 (⟨(Scalar.addi v1 (arg3.view.read (Elt F) X3
        (ix3 (0 : Fin 1) (⟨8 * k.val + 2, by omega⟩ : Fin 256) l))).toNat, rowlt arg3 v1 X3 hrows _⟩ : Fin 2000000) d))
      (accList (F := F) arg3 arg4 arg6 arg8 v1 X3 X4 hrows k).1 20 := by
  repeat rowis_step

set_option maxHeartbeats 0 in
/-- Row 3 of the accumulator: its 20 steps add, in slot order, the table rows the index block's row `8k + 3` names. -/
theorem rowIs_3 (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) (d : Fin 128) (hk : k.val < 32) :
    RowIs 3 d (fun l : Fin 20 => arg4.view.read (Elt F) X4 (ix2 (⟨(Scalar.addi v1 (arg3.view.read (Elt F) X3
        (ix3 (0 : Fin 1) (⟨8 * k.val + 3, by omega⟩ : Fin 256) l))).toNat, rowlt arg3 v1 X3 hrows _⟩ : Fin 2000000) d))
      (accList (F := F) arg3 arg4 arg6 arg8 v1 X3 X4 hrows k).1 20 := by
  repeat rowis_step

set_option maxHeartbeats 0 in
/-- Row 4 of the accumulator: its 20 steps add, in slot order, the table rows the index block's row `8k + 4` names. -/
theorem rowIs_4 (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) (d : Fin 128) (hk : k.val < 32) :
    RowIs 4 d (fun l : Fin 20 => arg4.view.read (Elt F) X4 (ix2 (⟨(Scalar.addi v1 (arg3.view.read (Elt F) X3
        (ix3 (0 : Fin 1) (⟨8 * k.val + 4, by omega⟩ : Fin 256) l))).toNat, rowlt arg3 v1 X3 hrows _⟩ : Fin 2000000) d))
      (accList (F := F) arg3 arg4 arg6 arg8 v1 X3 X4 hrows k).1 20 := by
  repeat rowis_step

set_option maxHeartbeats 0 in
/-- Row 5 of the accumulator: its 20 steps add, in slot order, the table rows the index block's row `8k + 5` names. -/
theorem rowIs_5 (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) (d : Fin 128) (hk : k.val < 32) :
    RowIs 5 d (fun l : Fin 20 => arg4.view.read (Elt F) X4 (ix2 (⟨(Scalar.addi v1 (arg3.view.read (Elt F) X3
        (ix3 (0 : Fin 1) (⟨8 * k.val + 5, by omega⟩ : Fin 256) l))).toNat, rowlt arg3 v1 X3 hrows _⟩ : Fin 2000000) d))
      (accList (F := F) arg3 arg4 arg6 arg8 v1 X3 X4 hrows k).1 20 := by
  repeat rowis_step

set_option maxHeartbeats 0 in
/-- Row 6 of the accumulator: its 20 steps add, in slot order, the table rows the index block's row `8k + 6` names. -/
theorem rowIs_6 (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) (d : Fin 128) (hk : k.val < 32) :
    RowIs 6 d (fun l : Fin 20 => arg4.view.read (Elt F) X4 (ix2 (⟨(Scalar.addi v1 (arg3.view.read (Elt F) X3
        (ix3 (0 : Fin 1) (⟨8 * k.val + 6, by omega⟩ : Fin 256) l))).toNat, rowlt arg3 v1 X3 hrows _⟩ : Fin 2000000) d))
      (accList (F := F) arg3 arg4 arg6 arg8 v1 X3 X4 hrows k).1 20 := by
  repeat rowis_step

set_option maxHeartbeats 0 in
/-- Row 7 of the accumulator: its 20 steps add, in slot order, the table rows the index block's row `8k + 7` names. -/
theorem rowIs_7 (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) (d : Fin 128) (hk : k.val < 32) :
    RowIs 7 d (fun l : Fin 20 => arg4.view.read (Elt F) X4 (ix2 (⟨(Scalar.addi v1 (arg3.view.read (Elt F) X3
        (ix3 (0 : Fin 1) (⟨8 * k.val + 7, by omega⟩ : Fin 256) l))).toNat, rowlt arg3 v1 X3 hrows _⟩ : Fin 2000000) d))
      (accList (F := F) arg3 arg4 arg6 arg8 v1 X3 X4 hrows k).1 20 := by
  repeat rowis_step

set_option maxHeartbeats 0 in
/-- WHAT EACH TRIP STORES: one piece, the band of rows 8k … 8k + 7, whose payload at row `r`, column `d` is the zero
    word plus, in slot order, the 20 fetched rows' entries at `d`. -/
theorem trip_value (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000) :
    TripValueAt (F := F) 𝒱 c bd i arg2 harg2 arg3 harg3 arg4 harg4 arg5 harg5 arg6 harg6 arg7 arg8 harg8 v1 X3 X4 hrows := by
  intro k
  have hk : k.val < 32 := Nat.lt_of_lt_of_le k.isLt k0_t1_abs.2.1
  refine ⟨trip.sl.v3530 (F := F) arg3 arg4 arg6 arg8 v1 X3 X4 hrows k, rfl, ?_⟩
  intro r2 d
  refine (readCov_whole_eq arg8 _ _ (accList (F := F) arg3 arg4 arg6 arg8 v1 X3 X4 hrows k).2 r2 d).trans ?_
  rw [accum_eq_pre]
  match r2 with
  | ⟨0, _⟩ => exact (rowIs_0 arg3 arg4 arg6 arg8 v1 X3 X4 hrows k d hk).rowVal_eq
  | ⟨1, _⟩ => exact (rowIs_1 arg3 arg4 arg6 arg8 v1 X3 X4 hrows k d hk).rowVal_eq
  | ⟨2, _⟩ => exact (rowIs_2 arg3 arg4 arg6 arg8 v1 X3 X4 hrows k d hk).rowVal_eq
  | ⟨3, _⟩ => exact (rowIs_3 arg3 arg4 arg6 arg8 v1 X3 X4 hrows k d hk).rowVal_eq
  | ⟨4, _⟩ => exact (rowIs_4 arg3 arg4 arg6 arg8 v1 X3 X4 hrows k d hk).rowVal_eq
  | ⟨5, _⟩ => exact (rowIs_5 arg3 arg4 arg6 arg8 v1 X3 X4 hrows k d hk).rowVal_eq
  | ⟨6, _⟩ => exact (rowIs_6 arg3 arg4 arg6 arg8 v1 X3 X4 hrows k d hk).rowVal_eq
  | ⟨7, _⟩ => exact (rowIs_7 arg3 arg4 arg6 arg8 v1 X3 X4 hrows k d hk).rowVal_eq
  | ⟨n + 8, h⟩ => exact absurd h (by omega)

end Cert.Kernel.Hand
end
-- ==== Proof.K.Body.lean ====
/-
  The body obligation of the pipeline: at every grid point the kernel function, handed the invariant (the scratch, its
  two semaphore cells at zero, the table of rows whole, the offsets' table at half share), the staged index block and
  the output block's buffer at anything, returns the same with the output block's buffer holding block `t` of the
  pooled result. The landing buffer is split into its two rows on the way in and put back on the way out.
-/
import proofs.«429106_j80058190397553_1_alg».proof.Proof.K.Kernel
import proofs.«429106_j80058190397553_1_alg».proof.Proof.K.Dats
import proofs.«429106_j80058190397553_1_alg».proof.Proof.K.BlockValue
import proofs.«429106_j80058190397553_1_alg».proof.Proof.K.PointFacts
import proofs.«429106_j80058190397553_1_alg».proof.Proof.K.TripValue

set_option maxRecDepth 65536
set_option maxHeartbeats 0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hrows : ∀ c : Dev nD, Cert.Pooled.RowsOk (idxA m c) (offA m c))

/-- The staging buffers the body is called with at point `t`. -/
abbrev stg0 (t : Fin (Pipeline.pin pcfgs (adm m) 0).N) : Memref sig .tc .smem S1x256x20 .i32 :=
  ((Pipeline.pin pcfgs (adm m) 0).win (0 : Fin 2)).stage ((Pipeline.pin pcfgs (adm m) 0).slots t (0 : Fin 2))
abbrev stg1 (t : Fin (Pipeline.pin pcfgs (adm m) 0).N) : Memref sig .tc .vmem S256x128 .f32 :=
  ((Pipeline.pin pcfgs (adm m) 0).win (1 : Fin 2)).stage ((Pipeline.pin pcfgs (adm m) 0).slots t (1 : Fin 2))

/-- What the body is called with at point `t`, -/
def bodyPre (c : Dev nD) (t : Fin (Pipeline.pin pcfgs (adm m) 0).N) : sProp 𝕄 :=
  iprop((dats m hrows 0 c).Φ t.castSucc ∗ (dats m hrows 0 c).owesAt () t.castSucc
    ∗ (∃ d, owns (c : Thread nD τ) (stg0 m t) fullShare ((dats m hrows 0 c).before (0 : Fin 2) t d))
    ∗ (∃ d, owns (c : Thread nD τ) (stg1 m t) fullShare ((dats m hrows 0 c).before (1 : Fin 2) t d)))

/-- and what it returns. -/
def bodyPost (c : Dev nD) (t : Fin (Pipeline.pin pcfgs (adm m) 0).N) : sProp 𝕄 :=
  iprop((dats m hrows 0 c).Φ t.succ ∗ (dats m hrows 0 c).owesAt () t.succ
    ∗ owns (c : Thread nD τ) (stg0 m t) fullShare ((dats m hrows 0 c).after (0 : Fin 2) t)
    ∗ owns (c : Thread nD τ) (stg1 m t) fullShare ((dats m hrows 0 c).after (1 : Fin 2) t))

/-! ### The landing buffer's two rows -/

theorem mem_row0 (y : S2x128.Idx) : y ∈ (Rect.unit (s := S2x128) ![0, 0] S1x128.size inb_S2x128_S1x128_0_0).set ↔ (y 0).val = 0 := by
  rw [Rect.mem_set_unit]
  have h1 : (y 1).val < 128 := (y 1).isLt
  constructor
  · intro H; have h0 : 0 ≤ (y 0).val ∧ (y 0).val < 0 + 1 := H 0; omega
  · intro H a; fin_cases a
    · show 0 ≤ (y 0).val ∧ (y 0).val < 0 + 1; omega
    · show 0 ≤ (y 1).val ∧ (y 1).val < 0 + 128; omega

theorem mem_row1 (y : S2x128.Idx) : y ∈ (Rect.unit (s := S2x128) ![1, 0] S1x128.size inb_S2x128_S1x128_1_0).set ↔ (y 0).val = 1 := by
  rw [Rect.mem_set_unit]
  have h1 : (y 1).val < 128 := (y 1).isLt
  constructor
  · intro H; have h0 : 1 ≤ (y 0).val ∧ (y 0).val < 1 + 1 := H 0; omega
  · intro H a; fin_cases a
    · show 1 ≤ (y 0).val ∧ (y 0).val < 1 + 1; omega
    · show 0 ≤ (y 1).val ∧ (y 1).val < 0 + 128; omega

theorem slot0_set : (slot0 (Memref.whole cc0_scratch0)).view.set = (Rect.unit (s := S2x128) ![0, 0] S1x128.size inb_S2x128_S1x128_0_0).set := by
  show (((View.whole cc0_scratch0).slice _).reshape S128 _).set = _
  rw [View.set_reshape, View.set_slice_whole]

theorem slot1_set : (slot1 (Memref.whole cc0_scratch0)).view.set = (Rect.unit (s := S2x128) ![1, 0] S1x128.size inb_S2x128_S1x128_1_0).set := by
  show (((View.whole cc0_scratch0).slice _).reshape S128 _).set = _
  rw [View.set_reshape, View.set_slice_whole]

/-- The second row is everything but the first. -/
theorem slot1_compl : (slot1 (Memref.whole cc0_scratch0)).view.set = Finset.univ \ (slot0 (Memref.whole cc0_scratch0)).view.set := by
  ext y
  rw [Finset.mem_sdiff, slot0_set, slot1_set, mem_row0, mem_row1]
  have : (y 0).val < 2 := (y 0).isLt
  simp only [Finset.mem_univ, true_and]
  omega

/-- The landing buffer whole is its two rows, each held by its own elements. -/
theorem slots_split (c : Dev nD) (f : Buf (Elt F) ((c : Thread nD τ).loc cc0_scratch0)) :
    (((c : Thread nD τ).loc cc0_scratch0) ↦{fullShare} f : sProp 𝕄)
      ⊣⊢ iprop(((slot0 (Memref.whole cc0_scratch0)).view.loc (c : Thread nD τ) ↦[(slot0 (Memref.whole cc0_scratch0)).view.set]{fullShare} f)
          ∗ ((slot1 (Memref.whole cc0_scratch0)).view.loc (c : Thread nD τ) ↦[(slot1 (Memref.whole cc0_scratch0)).view.set]{fullShare} f)) := by
  rw [slot1_compl]
  exact pointsTo_split_subset (Finset.subset_univ _)

/-- … and back, whatever each row holds. -/
theorem slots_join (c : Dev nD) (f g : Buf (Elt F) ((c : Thread nD τ).loc cc0_scratch0)) :
    iprop(((slot0 (Memref.whole cc0_scratch0)).view.loc (c : Thread nD τ) ↦[(slot0 (Memref.whole cc0_scratch0)).view.set]{fullShare} f)
          ∗ ((slot1 (Memref.whole cc0_scratch0)).view.loc (c : Thread nD τ) ↦[(slot1 (Memref.whole cc0_scratch0)).view.set]{fullShare} g))
      ⊢ (iprop(∃ h, ((c : Thread nD τ).loc cc0_scratch0) ↦{fullShare} h) : sProp 𝕄) := by
  rw [slot1_compl]
  refine (pointsTo_join Finset.disjoint_sdiff).trans ?_
  rw [Finset.union_sdiff_of_subset (Finset.subset_univ _)]
  iintro H; iexists _; iexact H

/-- The kernel function as the pipeline calls it at point `t`. -/
abbrev bodyAt (t : Fin (Pipeline.pin pcfgs (adm m) 0).N) : Prog (TpuEff nD τ sig (Elt F) Λ₀ .tc) PUnit :=
  cc0__gather_kernel (F := F) (grid0.coords t) (Memref.whole main_arg2) (Memref.isWhole_whole _) (stg0 m t) (stage_whole0 (0 : Fin 2) _)
    (Memref.whole main_arg1) (Memref.isWhole_whole _) (stg1 m t) (stage_whole0 (1 : Fin 2) _)
    (Memref.whole cc0_scratch0) (Memref.isWhole_whole _) cc0_scratch1 (Memref.whole cc0_scratch2) (Memref.isWhole_whole _)

theorem sound_body (c : Dev nD) (t : Fin (Pipeline.pin pcfgs (adm m) 0).N) :
    bodyPre m hrows c t ⊢ wp frame (wpE (defs₀ (F := F)) Variants.none c none) Set.univ (bodyAt m t) (fun _ => bodyPost m hrows c t) := by
  unfold bodyPre bodyPost
  simp only [before0_0]
  rw [Phi_eq, Phi_eq, PhiD0_eq, PhiT0_eq]
  unfold Dat.owesAt Pipeline.owesWithin
  rw [owed_eq, owed_eq]
  iintro ⟨⟨⟨⟨⟨%f6, HS0⟩, ⟨%f8, HS2⟩⟩, Hg, ⟨Hq0, Hq1⟩, Hh1⟩, HT⟩, ⟨%W, -, HW⟩, ⟨%d0, H0⟩, ⟨%d1, H1⟩⟩
  unfold owns
  icases H0 with ⟨%f3, %hf3, H0⟩
  icases H1 with ⟨%f5, %hf5, H1⟩
  ihave HS0' := (slots_split (F := F) c f6).1 $$ HS0
  icases HS0' with ⟨HD60, HD61⟩
  have hr := rows_at_point (F := F) m hrows c t (stg0 m t) f3 hf3
  iapply (wp_wand_r Idealize.ShloMosaic.frame (wpE (defs₀ (F := F)) Variants.none (c : Thread nD τ) none) Set.univ)
  isplitl [HT H0 Hh1 Hq0 Hq1 H1 HD60 HD61 HS2 HW]
  · iapply (kernelRun (F := F) c (grid0.coords t) (Memref.whole main_arg2) (Memref.isWhole_whole _) (stg0 m t) (stage_whole0 (0 : Fin 2) _)
      (Memref.whole main_arg1) (Memref.isWhole_whole _) (stg1 m t) (stage_whole0 (1 : Fin 2) _)
      (Memref.whole cc0_scratch0) (Memref.isWhole_whole _) cc0_scratch1 (Memref.whole cc0_scratch2) (Memref.isWhole_whole _)
      fullShare.right ((adm m 0).1 0) f3 (V m c main_arg1) hr f5)
    isplitl [HT]; · iexact HT
    isplitl [H0 Hh1 Hq0 Hq1]
    · isplitl [H0]; · iexact H0
      isplitl [Hh1]; · iexact Hh1
      isplitl [Hq0]; · iexact Hq0
      iexact Hq1
    isplitl [H1]; · iexact H1
    isplitl [HD60]; · iexists _; iexact HD60
    isplitl [HD61]; · iexists _; iexact HD61
    isplitl [HS2]; · iexists _; iexact HS2
    iexists _; iexact HW
  · iintro %_ ⟨HT, ⟨H0, Hh1, Hq0, Hq1⟩, ⟨%f5', H1, %h5'⟩, ⟨%g60, HD60⟩, ⟨%g61, HD61⟩, ⟨%g8, HS2⟩, ⟨%W', HW⟩⟩
    isplitl [HD60 HD61 HS2 Hg Hq0 Hq1 Hh1 HT]
    · isplitl [HD60 HD61 HS2 Hg Hq0 Hq1 Hh1]
      · isplitl [HD60 HD61 HS2]
        · isplitl [HD60 HD61]
          · iapply (slots_join (F := F) c g60 g61)
            isplitl [HD60]; · iexact HD60
            iexact HD61
          · iexists _; iexact HS2
        isplitl [Hg]; · iexact Hg
        isplitl [Hq0 Hq1]
        · isplitl [Hq0]; · iexact Hq0
          iexact Hq1
        iexact Hh1
      iexact HT
    isplitl [HW]
    · iexists W'; isplitr; · ipureintro; exact fun _ _ => Or.inl trivial
      iexact HW
    isplitl [H0]
    · iexists f3; isplitr; · ipureintro; exact hf3
      iexact H0
    iexists _; isplitr
    swap; · iexact H1
    ipureintro
    rw [h5']
    funext j
    obtain ⟨y, d, rfl⟩ : ∃ (y : Fin 256) (d : Fin 128), j = ValueIdx.ix2 y d := ⟨j 0, j 1, ValueIdx.eq_ix2 j⟩
    rw [block_value (F := F) Variants.none c none (grid0.coords t) (Memref.whole main_arg2) (Memref.isWhole_whole _) (stg0 m t) (stage_whole0 (0 : Fin 2) _)
      (Memref.whole main_arg1) (Memref.isWhole_whole _) (stg1 m t) (stage_whole0 (1 : Fin 2) _)
      (Memref.whole cc0_scratch0) (Memref.isWhole_whole _) cc0_scratch1 (Memref.whole cc0_scratch2) (Memref.isWhole_whole _)
      (word1 (F := F) (grid0.coords t) (Memref.whole main_arg2) ((adm m 0).1 0)) f3 (V m c main_arg1) hr (trip_value (F := F) _ _ _ _ _ _ _ _ _ _ _ _ _ _ _ _ _ _ _ _ _) f5 y d]
    exact accum_point (F := F) m hrows c t (stg0 m t) f3 hf3 hr y d

theorem body_obligation (c : Dev nD) : BodyObligation (dats (F := F) m hrows 0 c) (defs₀ (F := F)) Variants.none () Set.univ := fun t => by
  rw [bigSep_W0, bigSep_W0]
  exact sound_body m hrows c t

end Cert.Kernel.Hand

end
-- ==== Proof.K.Claims.lean ====
/-
  The run of the whole program with its result array named: every weakly fair execution terminates with the result
  holding the pooled sums (the fold in slot order, at any reading of the floats) and the three arguments unchanged —
  from any launch memory whose fetched rows all lie in the table.
-/
import proofs.«429106_j80058190397553_1_alg».proof.Proof.K.Body
import proofs.«429106_j80058190397553_1_alg».proof.Proof.K.Launch

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ) (ρ : Dev nD → PrngReg)
variable (hrows : ∀ c : Dev nD, Cert.Pooled.RowsOk (idxA m c) (offA m c))

/-- The pipeline's run: every array at what the proof data give. -/
theorem run_main : θ_run defs (onTc (τ := τ) (main (F := F))) (s₀ m ρ) (Pipeline.FramePost (Pipeline.pin pcfgs (adm m)) (dats m hrows) 0 (V m)) :=
  run_main_of m ρ (dats m hrows) (A_eq m hrows) (q_eq m hrows) (owed_eq m hrows) (Phi_eq m hrows) (body_obligation m hrows)

/-- The result array ends at the pooled sums, the arguments as they were. -/
theorem run_value : θ_run defs (onTc (τ := τ) (main (F := F))) ⟨m, fun _ => 0, ρ⟩ (fun r => ∀ c : Dev nD,
      r.2.mem ((c.tc : Thread nD τ).loc main_v0) = Gbuf m hrows c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final m hrows c), (h c).2⟩)
    (frame_of m ρ (dats m hrows) (A_eq m hrows) (run_main m ρ hrows))

end Cert.Kernel.Hand

end
-- ==== Proof.KI.Trip.lean ====
/-
  ONE TRIP of the kernel's loop over the 32 chunks of 8 output rows, at a symbolic trip `k`.

  A trip clears the 8×128 accumulator, then for each of its 8 rows and each of the 20 slots fetches one row of the
  table into one of the two rows of a landing buffer (the next fetch started, into the other row, before the landed
  one is added), adds it to the accumulator's row, and at the end stores the accumulator into rows 8k … 8k+7 of the
  output block. The two landing rows are held apart, each by its own elements, so that a row in flight never holds
  the row being read. Every fetched row number is assumed in range by the program; here that is a hypothesis on every
  word read off the index block (`hrows`). What the trip stores into the output block is found by the run.
-/
import proofs.«429106_j80058190397553_1_alg».proof.Proof.Gen.KernelIdeal.Loops
import Idealize.ShloMosaic.Lib.Pipeline.Frame

set_option maxRecDepth 65536
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄D" => MT nD τ sig Unit (Elt F) ℕ (UR sig nD τ × Counters) ℕ

/-- A row number below the table's height gives a one-row rectangle inside the table. -/
theorem chk_row (x : BitVec 32) (h : x.toNat < 2000000) :
    ∀ a : Fin 2, (![x.toNat, 0] : Fin 2 → ℕ) a + S1x128.size a ≤ S2000000x128.size a := by
  intro a
  match a with
  | ⟨0, _⟩ => show x.toNat + 1 ≤ 2000000; omega
  | ⟨1, _⟩ => show 0 + 128 ≤ 128; omega

/-- The landing buffer's two rows, each as the 128-element view the fetches fill. -/
abbrev slot0 (arg6 : Memref sig .tc .vmem S2x128 .f32) : Memref sig .tc .vmem S128 .f32 :=
  (arg6.slice (Rect.unit (s := S2x128) ![0, 0] S1x128.size inb_S2x128_S1x128_0_0) (fun _ => rfl)).squeeze S128 squeezes_S1x128_S128
abbrev slot1 (arg6 : Memref sig .tc .vmem S2x128 .f32) : Memref sig .tc .vmem S128 .f32 :=
  (arg6.slice (Rect.unit (s := S2x128) ![1, 0] S1x128.size inb_S2x128_S1x128_1_0) (fun _ => rfl)).squeeze S128 squeezes_S1x128_S128

/-- The two semaphore cells the fetches fly on. -/
abbrev cell0 (arg7 : DmaSems sig S2) : SemLoc sig := SemLoc.dma ((arg7.slice (Rect.unit (s := S2) ![0] S1.size inb_S2_S1_0)).squeeze S_ squeezes_S1_S_).sem
abbrev cell1 (arg7 : DmaSems sig S2) : SemLoc sig := SemLoc.dma ((arg7.slice (Rect.unit (s := S2) ![1] S1.size inb_S2_S1_1)).squeeze S_ squeezes_S1_S_).sem

/-- What a trip reads and hands back unchanged: the index block, the table whole, the two cells at zero. -/
abbrev TripRes (c : Dev nD) (arg3 : Memref sig .tc .smem S1x256x20 .i32) (arg4 : Memref sig .tc .hbm S2000000x128 .f32) (arg7 : DmaSems sig S2)
    (X3 : BufTy.Contents (Elt F) arg3.view.ty) (X4 : BufTy.Contents (Elt F) arg4.view.ty) : sProp 𝕄D :=
  iprop((arg3.view.loc (c : Thread nD τ) ↦[arg3.view.set]{fullShare} X3) ∗ (arg4.view.loc (c : Thread nD τ) ↦{fullShare} X4)
    ∗ (semVal ((c : Thread nD τ), cell0 arg7) 0) ∗ (semVal ((c : Thread nD τ), cell1 arg7) 0))

/-- What a trip uses as scratch: the landing rows and the accumulator at any contents, the core's recorded waits. -/
abbrev TripScratch (c : Dev nD) (arg6 : Memref sig .tc .vmem S2x128 .f32) (arg8 : Memref sig .tc .vmem S8x128 .f32) : sProp 𝕄D :=
  iprop((∃ f, ((slot0 arg6).view.loc (c : Thread nD τ) ↦[(slot0 arg6).view.set]{fullShare} f))
    ∗ (∃ f, ((slot1 arg6).view.loc (c : Thread nD τ) ↦[(slot1 arg6).view.set]{fullShare} f))
    ∗ (∃ f, (arg8.view.loc (c : Thread nD τ) ↦[arg8.view.set]{fullShare} f)) ∗ (∃ W, owes (c : Thread nD τ) 0 W))

/-- ONE TRIP at a symbolic `k`: the pieces it stores into the output block are the run's own find. -/
def trip (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) :
    { L5 : List (View.Piece (Elt F) S256x128 .f32) // ∀ (f5 : BufTy.Contents (Elt F) arg5.view.ty),
      iprop(TripRes (F := F) c arg3 arg4 arg7 X3 X4 ∗ (arg5.view.loc (c : Thread nD τ) ↦[arg5.view.set]{fullShare} f5)
        ∗ TripScratch (F := F) c arg6 arg8)
      ⊢ wp frame (wpE (defs₀ (F := F)) 𝒱 (c : Thread nD τ) bd) Set.univ (k0_t1_body (F := F) i arg2 harg2 arg3 harg3 arg4 harg4 arg5 harg5 arg6 harg6 arg7 arg8 harg8 v1 k PUnit.unit)
          (fun _ => iprop(TripRes (F := F) c arg3 arg4 arg7 X3 X4 ∗ (arg5.view.loc (c : Thread nD τ) ↦[arg5.view.set]{fullShare} (arg5.view.writes (Elt F) f5 L5))
        ∗ TripScratch (F := F) c arg6 arg8)) } := by
  have hk : k.val < 32 := Nat.lt_of_lt_of_le k.isLt k0_t1_abs.2.1
  refine ⟨?_, fun f5 => ?run⟩
  case run =>
    unfold k0_t1_body
    iintro ⟨⟨HR3, HS4, HC0, HC1⟩, HW5, ⟨%f60, HD60⟩, ⟨%f61, HD61⟩, ⟨%f8, HD8⟩, ⟨%W, HO⟩⟩
    sl_exec_parts! (disch := exact chk_row _ (hrows _ _))
    sl_step
    sl_close

/-- The trip's pieces, a plain projection. -/
abbrev tripL (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000) (k : Fin k0_t1_loop.trips) : List (View.Piece (Elt F) S256x128 .f32) :=
  (trip (F := F) 𝒱 c bd i arg2 harg2 arg3 harg3 arg4 harg4 arg5 harg5 arg6 harg6 arg7 arg8 harg8 v1 X3 X4 hrows k).1

end Cert.KernelIdeal.Hand

end
-- ==== Proof.KI.Kernel.lean ====
/-
  The kernel function at one grid point: it reads its feature's offset from the prefetched table, then runs the 32
  trips of `Trip.lean`, each storing 8 rows of the output block. The trips' pieces, newest first, are `pb`; the
  loop's invariant holds the output block at its entry contents overwritten by the pieces of the trips so far.
-/
import proofs.«429106_j80058190397553_1_alg».proof.Proof.KI.Trip
import Idealize.ShloMosaic.Lib.Tactic

set_option maxRecDepth 65536
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄D" => MT nD τ sig Unit (Elt F) ℕ (UR sig nD τ × Counters) ℕ

/-- The pieces the trips before `k` store into the output block, newest first. -/
def pb (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty) (hrows : ∀ (R : LoadRect S1x256x20) (j : R.shape.Idx), (Scalar.addi v1 (View.readAt (Elt F) arg3.view R X3 j)).toNat < 2000000) :
    ℕ → List (View.Piece (Elt F) S256x128 .f32)
  | 0 => []
  | k + 1 => if h : k < k0_t1_loop.trips then
      tripL (F := F) 𝒱 c bd i arg2 harg2 arg3 harg3 arg4 harg4 arg5 harg5 arg6 harg6 arg7 arg8 harg8 v1 X3 X4 hrows ⟨k, h⟩ ++ pb 𝒱 c bd i arg2 harg2 arg3 harg3 arg4 harg4 arg5 harg5 arg6 harg6 arg7 arg8 harg8 v1 X3 X4 hrows k
    else pb 𝒱 c bd i arg2 harg2 arg3 harg3 arg4 harg4 arg5 harg5 arg6 harg6 arg7 arg8 harg8 v1 X3 X4 hrows k

theorem pb_succ (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty) (hrows : ∀ (R : LoadRect S1x256x20) (j : R.shape.Idx), (Scalar.addi v1 (View.readAt (Elt F) arg3.view R X3 j)).toNat < 2000000) (k : Fin k0_t1_loop.trips) :
    pb (F := F) 𝒱 c bd i arg2 harg2 arg3 harg3 arg4 harg4 arg5 harg5 arg6 harg6 arg7 arg8 harg8 v1 X3 X4 hrows (k.val + 1)
      = tripL (F := F) 𝒱 c bd i arg2 harg2 arg3 harg3 arg4 harg4 arg5 harg5 arg6 harg6 arg7 arg8 harg8 v1 X3 X4 hrows k ++ pb (F := F) 𝒱 c bd i arg2 harg2 arg3 harg3 arg4 harg4 arg5 harg5 arg6 harg6 arg7 arg8 harg8 v1 X3 X4 hrows k.val := by
  rw [pb]; exact dif_pos k.isLt

/-- Before trip `k`: what every trip reads; the output block at its entry contents `G5` overwritten by the pieces of
    the trips before `k`; the scratch. -/
abbrev inv (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty) (hrows : ∀ (R : LoadRect S1x256x20) (j : R.shape.Idx), (Scalar.addi v1 (View.readAt (Elt F) arg3.view R X3 j)).toNat < 2000000)
    (G5 : BufTy.Contents (Elt F) arg5.view.ty) (k : ℕ) (_u : Unit) : sProp 𝕄D :=
  iprop(TripRes (F := F) c arg3 arg4 arg7 X3 X4
    ∗ (∃ f, (arg5.view.loc (c : Thread nD τ) ↦[arg5.view.set]{fullShare} f) ∗ ⌜f = arg5.view.writes (Elt F) G5 (pb (F := F) 𝒱 c bd i arg2 harg2 arg3 harg3 arg4 harg4 arg5 harg5 arg6 harg6 arg7 arg8 harg8 v1 X3 X4 hrows k)⌝)
    ∗ TripScratch (F := F) c arg6 arg8)

/-- The word the kernel reads from the table: its feature's offset. -/
abbrev word1 (i : grid0.Coords) (arg2 : Memref sig .tc .smem S9 .i32) (T2 : BufTy.Contents (Elt F) arg2.view.ty) : Elt F .i32 :=
  View.readAt (Elt F) arg2.view (Rect.unit (s := S9) (k0_off1 i) S1.size (k0_off1_inb i)).toLoadRect T2 (Shape.Idx.first (Nat.one_pos : 0 < (Rect.unit (s := S9) (k0_off1 i) S1.size (k0_off1_inb i)).toLoadRect.shape.numel))

/-- The kernel function at a point, from the table at any share, the index block, the table whole, the cells at zero,
    the output block at any contents `G5` and the scratch: it ends with the output block at `G5` overwritten by the 32
    trips' pieces, everything else as it was. -/
theorem kernelRun (c : Dev nD) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole)
    (q2 : PosShare TreeShare) (T2 : BufTy.Contents (Elt F) arg2.view.ty)
    (X3 : BufTy.Contents (Elt F) arg3.view.ty) (X4 : BufTy.Contents (Elt F) arg4.view.ty)
    (hrows : ∀ (R : LoadRect S1x256x20) (j : R.shape.Idx), (Scalar.addi (word1 (F := F) i arg2 T2) (View.readAt (Elt F) arg3.view R X3 j)).toNat < 2000000)
    (G5 : BufTy.Contents (Elt F) arg5.view.ty) :
    iprop((arg2.view.loc (c : Thread nD τ) ↦{q2} T2) ∗ TripRes (F := F) c arg3 arg4 arg7 X3 X4
        ∗ (arg5.view.loc (c : Thread nD τ) ↦[arg5.view.set]{fullShare} G5) ∗ TripScratch (F := F) c arg6 arg8)
      ⊢ wp frame (wpE (defs₀ (F := F)) Variants.none (c : Thread nD τ) none) Set.univ
          (cc0__gather_kernel (F := F) i arg2 harg2 arg3 harg3 arg4 harg4 arg5 harg5 arg6 harg6 arg7 arg8 harg8)
          (fun _ => iprop((arg2.view.loc (c : Thread nD τ) ↦{q2} T2) ∗ inv (F := F) Variants.none c none i arg2 harg2 arg3 harg3 arg4 harg4 arg5 harg5 arg6 harg6 arg7 arg8 harg8 (word1 (F := F) i arg2 T2) X3 X4 hrows G5 k0_t1_loop.trips ())) := by
  iintro ⟨HT2, HRes, HW5, HSc⟩
  rw [cc0__gather_kernel_eq_skeleton]
  unfold cc0__gather_kernel_skel
  sl_exec
  sl_for (inv (F := F) Variants.none c none i arg2 harg2 arg3 harg3 arg4 harg4 arg5 harg5 arg6 harg6 arg7 arg8 harg8 (word1 (F := F) i arg2 T2) X3 X4 hrows G5) $$ [HRes HW5 HSc]
  case region =>
    intro k acc
    iintro ⟨HRes, ⟨%f5, HW5, %h5⟩, HSc⟩
    iapply (wp_wand_r Idealize.ShloMosaic.frame (wpE (defs₀ (F := F)) Variants.none (c : Thread nD τ) none) Set.univ)
    isplitl [HRes HW5 HSc]
    · iapply ((trip (F := F) Variants.none c none i arg2 harg2 arg3 harg3 arg4 harg4 arg5 harg5 arg6 harg6 arg7 arg8 harg8 (word1 (F := F) i arg2 T2) X3 X4 hrows k).2 f5)
      isplitl [HRes]; · iexact HRes
      isplitl [HW5]; · iexact HW5
      iexact HSc
    · iintro %_ ⟨HRes, HW5, HSc⟩
      isplitl [HRes]; · iexact HRes
      isplitl [HW5]
      · rw [pb_succ]
        iexists _; isplitl [HW5]; · iexact HW5
        ipureintro; rw [h5, ← View.writes_append]
      iexact HSc
  · isplitl [HRes]; · iexact HRes
    isplitl [HW5]
    · iexists _; isplitl [HW5]; · iexact HW5
      ipureintro; rfl
    iexact HSc
  iintro %_ HI
  sl_step
  isplitl [HT2]; · iexact HT2
  iexact HI

end Cert.KernelIdeal.Hand

end
-- ==== Proof.KI.Launch.lean ====
/-
  The launch side of the frame of the printed program: its one kernel region run as a pipeline of two windows (the
  index array fetched block by block into scalar memory, the result written back block by block) over a grid of
  8 × 32 points, with one prefetched table (the offsets) whose contents the launch memory fixes, and with the big
  table left in HBM, which the body copies rows out of by transfers of its own on two semaphores of its own, all
  waited for within each grid point.

  Stated here: the admissible table contents read off the launch memory; the body's own semaphore cells and the
  operand it moves itself; the region invariant conjunct by conjunct; @main as the region alone; the run, for any
  proof data whose arrays are the launch contents, whose invariant is the library's at every point and whose body
  obligation holds; and the frame read off the run's post: the result holds what the proof data compute, the three
  arguments what they held at launch.
-/
import proofs.«429106_j80058190397553_1_alg».proof.Proof.Gen.KernelIdeal.Launch
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c.tc : Thread nD τ).loc b) := m ((c.tc : Thread nD τ).loc b)

/-- The offsets as the launch memory of the one device holds them. -/
def pf0 : pre0.Contents (Elt F) := fun k => m (((0 : Dev nD).tc : Thread nD τ).loc (pre0.ref k))

/-- The table contents the region runs at: the launch memory's. The pipeline's side condition asks nothing of them. -/
def adm : (p : Fin 1) → (pcfgs (F := F) p).Adm :=
  fun _ => ⟨pf0 m, by show ok0 (pf0 m); unfold ok0; trivial⟩

/-- The body's own DMA semaphores, cell by cell: the two cells of its semaphore array. -/
abbrev osem0 : Fin 2 → SemLoc sig := fun j => (![SemLoc.dma 4, SemLoc.dma 5] : Fin 2 → SemLoc sig) j
theorem ownSemFacts0 : Pipeline.OwnSemFacts spec0 osem0 := by decide

/-- The operand left in HBM that the body copies rows of into scratch itself. -/
abbrev H0 : Finset (Ref sig .tc) := {main_arg1}
theorem H0_sub : H0 ⊆ Pipeline.restRefsP sig pre0 spec0 := by decide

/-- The region invariant, conjunct by conjunct: the two scratch buffers at some contents, the generator register at
    some state, the two own cells at zero, the table in HBM whole at its launch contents. -/
theorem PhiD0_eq (c : Dev nD) :
    (Pipeline.ΦD osem0 spec0 H0 (V m) c : sProp 𝕄)
      = iprop(((∃ f, ((c.tc : Thread nD τ).loc cc0_scratch0) ↦{fullShare} f) ∗ (∃ f, ((c.tc : Thread nD τ).loc cc0_scratch2) ↦{fullShare} f))
          ∗ (∃ r, prngReg c r)
          ∗ (semVal ((c.tc : Thread nD τ), osem0 0) 0 ∗ semVal ((c.tc : Thread nD τ), osem0 1) 0)
          ∗ (((c.tc : Thread nD τ).loc main_arg1) ↦{fullShare} V m c main_arg1)) := by
  rw [Pipeline.ΦD_eq, scopedRest0_eq, Pipeline.ownSems0_eq_of_list c osem0 [0, 1] (by decide) (by decide), bigSep_singleton]
  rfl

/-- The prefetched table as the region hands it to the body: the offsets' buffer at the contents the region runs at,
    at half the full share. -/
theorem PhiT0_eq (c : Dev nD) :
    (Pipeline.ΦT (U := Pipeline.UD sig nD τ) pre0 (adm m 0).1 c : sProp 𝕄)
      = iprop(((c.tc : Thread nD τ).loc main_arg2) ↦{fullShare.right} (adm m 0).1 0) := by
  unfold Pipeline.ΦT Pipeline.prefHeld
  rw [show (Finset.univ : Finset (Fin 1)) = {(0 : Fin 1)} from by decide, bigSep_singleton]
  rfl

/-- @main is the region alone. -/
theorem hmain : Pipeline.HMainP (Ix := Unit) (Name := ℕ) (U := Pipeline.UD sig nD τ) (Lvl := ℕ) pcfgs 0 defs₀ Variants.none m (main (F := F)) (V m) :=
  Pipeline.hmainP_region pcfgs 0 defs₀ Variants.none m main fun c => (main_chain c).trans rfl

/-! ## The run and the frame -/

set_option backward.isDefEq.respectTransparency.types false in
/-- The run: for any proof data of the one pipeline, at the table contents of the launch memory, whose arrays are the
    launch contents, which hold every array whole and owe nothing, whose invariant is at every point the library's
    (scratch, register, own cells at zero, the table in HBM) beside the offsets' half, and whose body obligation holds,
    every weakly fair execution of @main from the launch memory with zero counters terminates with every array of the
    pipeline at what the library computes from the proof data and every other unscoped buffer as launched. -/
theorem run_main_of (dats : (p : Fin 1) → (c : Dev nD) → Pipeline.Dat τ (Elt F) Unit ℕ (Pipeline.UD sig nD τ) ℕ (Pipeline.pin pcfgs (adm m) p) c)
    (hA : ∀ c w, (dats 0 c).A w = V m c (Pipeline.arrRef spec0 w)) (hq : ∀ c w, (dats 0 c).q w = fullShare) (howed : ∀ c t, (dats 0 c).owed t = 0)
    (hΦ : ∀ c t, (dats 0 c).Φ t = iprop(Pipeline.ΦD osem0 spec0 H0 (V m) c ∗ Pipeline.ΦT pre0 (adm m 0).1 c))
    (hbody : ∀ c, Pipeline.BodyObligation (dats 0 c) (defs₀ (F := F)) Variants.none () Set.univ) :
    θ_run defs (onTc (τ := τ) (main (F := F))) (s₀ m ρ) (Pipeline.FramePost (Pipeline.pin pcfgs (adm m)) dats 0 (V m)) :=
  Pipeline.θ_run_frameP_dma pcfgs (adm m) dats (0 : Fin 1) launch0 osem0 defs₀ Variants.none ownSemFacts0 H0 H0_sub m ρ main
    (hbody := fun c => (hbody c).loose) (hshare := fun c => (dats 0 c).share_full (hq c))
    (howed := howed) (V := V m) (hmain := hmain m) (hA := hA)
    (hpf := fun c k => by have hc : c = 0 := Subsingleton.elim _ _; subst hc; rfl)
    (hin := fun c => by rw [hΦ])
    (hout := fun c => by rw [hΦ]; iintro ⟨HD, -⟩; iexact HD)

/-- The frame from a run: the result holds what the library computes from the proof data after the last point; the
    index array, a fetched input, is never written back; the table and the offsets bypass the region or pass through it
    unchanged. -/
theorem frame_of (dats : (p : Fin 1) → (c : Dev nD) → Pipeline.Dat τ (Elt F) Unit ℕ (Pipeline.UD sig nD τ) ℕ (Pipeline.pin pcfgs (adm m) p) c)
    (hA : ∀ c w, (dats 0 c).A w = V m c (Pipeline.arrRef spec0 w))
    (h : θ_run defs (onTc (τ := τ) (main (F := F))) (s₀ m ρ) (Pipeline.FramePost (Pipeline.pin pcfgs (adm m)) dats 0 (V m))) :
    θ_run defs (onTc (τ := τ) (main (F := F))) ⟨m, fun _ => 0, ρ⟩ (fun r => ∀ c : Dev nD,
      r.2.mem ((c.tc : Thread nD τ).loc main_v0) = (dats 0 c).arrAt 1 (Pipeline.pin pcfgs (adm m) 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 1,
      ((h c).1 0).trans (((dats 0 c).arrAt_in 0 rfl _).trans (hA c 0)),
      (h c).2 main_arg1 (Pipeline.mem_restRefs_of (win := spec0) main_arg1 (by decide) (by decide)),
      (h c).2 main_arg2 (Pipeline.mem_restRefs_of (win := spec0) main_arg2 (by decide) (by decide))⟩) h

end Cert.KernelIdeal.Hand

end
-- ==== Proof.KI.Dats.lean ====
/-
  The proof data of the kernel's one pipeline, and the step from blocks to the array.

  The grid has 8 × 32 points; point `t` is feature `t / 32` and batch block `t % 32`. The index array's window hands
  the body, at point `t`, the 256 samples of batch block `t % 32` of feature `t / 32`, all 20 slots: block
  (t / 32, t % 32, 0) of blocks of (1, 256, 20). The result's window takes from the body, at point `t`, the 256 × 128
  tile of the result at block (t % 32, t / 32): rows 256·(t % 32) …, columns 128·(t / 32) …. What the body is taken to
  leave there is that tile of the pooled array `GF` (the 20 fetched rows added in slot order); the tiles of the 256
  points cover the array, every point writes its tile back, and so the array ends holding `GF`.
-/
import proofs.«429106_j80058190397553_1_alg».proof.Proof.KI.Launch
import proofs.«429106_j80058190397553_1_alg».proof.Proof.SpecF
import Idealize.ShloMosaic.Lib.Pipeline.Value
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (Pipeline.UD sig nD τ) ℕ

variable (m : (ℓ : Loc nD τ sig) → Buf (Elt F) ℓ)

/-! ## The three arguments and the pooled array -/

/-- The index array, the table and the offsets as the launch memory holds them on core `c`. -/
abbrev idxA (c : Dev nD) : IVec Cert.Pooled.SIdx 32 := m ((c.tc : Thread nD τ).loc main_arg0)
abbrev tabA (c : Dev nD) : FVec F Cert.Pooled.STab .f32 := m ((c.tc : Thread nD τ).loc main_arg1)
abbrev offA (c : Dev nD) : IVec Cert.Pooled.SOff 32 := m ((c.tc : Thread nD τ).loc main_arg2)

variable (hrows : ∀ c : Dev nD, Cert.Pooled.RowsOk (idxA m c) (offA m c))

/-- The pooled array of the launch memory's arguments, as contents of the result's buffer. -/
def Gbuf (c : Dev nD) : Buf (Elt F) ((c.tc : Thread nD τ).loc main_v0) :=
  Cert.Pooled.GF (idxA m c) (tabA m c) (offA m c) (hrows c)

/-- The pooled array at an index given by its sample and by its feature and column. -/
theorem GF_at (idx : IVec Cert.Pooled.SIdx 32) (W : FVec F Cert.Pooled.STab .f32) (hash : IVec Cert.Pooled.SOff 32)
    (h : Cert.Pooled.RowsOk idx hash) (j : Cert.Pooled.SOut.Idx) (b : Fin 8192) (t : Fin 8) (d : Fin 128)
    (h0 : (j 0).val = b.val) (h1 : (j 1).val = 128 * t.val + d.val) :
    Cert.Pooled.GF idx W hash h j = Cert.Pooled.pooledF idx W hash h b t d := by
  unfold Cert.Pooled.GF
  congr 1 <;> apply Fin.ext
  · exact h0
  · show (j 1).val / 128 = t.val; omega
  · show (j 1).val % 128 = d.val; omega

/-! ## The grid's points and the windows' blocks -/

/-- The grid's points number 256. -/
theorem point_lt (t : Fin (Pipeline.pin pcfgs (adm m) 0).N) : t.val < 256 := lt_of_lt_of_eq t.isLt N_0

/-- Where the two windows' blocks sit, point by point, decided over the grid: the index array's at
    (t / 32, t % 32, 0), the result's at (t % 32, t / 32); and the result's block index moves at every step, so that
    every point writes its block back. -/
theorem block_positions : ∀ t : Fin grid0.N,
    cc0_transform_0 (grid0.coords t) 0 = t.val / 32 ∧ cc0_transform_0 (grid0.coords t) 1 = t.val % 32
    ∧ cc0_transform_0 (grid0.coords t) 2 = 0
    ∧ cc0_transform_2 (grid0.coords t) 0 = t.val % 32 ∧ cc0_transform_2 (grid0.coords t) 1 = t.val / 32
    ∧ Pipeline.Window.flushOf grid0 true cc0_transform_2 t = true := by
  decide +kernel

/-- The same of the pipeline's windows at the launch memory's table contents. -/
theorem index0 (t : Fin (Pipeline.pin pcfgs (adm m) 0).N) :
    ((Pipeline.pin pcfgs (adm m) 0).win (0 : Fin 2)).index t (0 : Fin 3) = t.val / 32 ∧ ((Pipeline.pin pcfgs (adm m) 0).win (0 : Fin 2)).index t (1 : Fin 3) = t.val % 32
    ∧ ((Pipeline.pin pcfgs (adm m) 0).win (0 : Fin 2)).index t (2 : Fin 3) = 0 :=
  ⟨(block_positions t).1, (block_positions t).2.1, (block_positions t).2.2.1⟩
theorem index1 (t : Fin (Pipeline.pin pcfgs (adm m) 0).N) :
    ((Pipeline.pin pcfgs (adm m) 0).win (1 : Fin 2)).index t (0 : Fin 2) = t.val % 32 ∧ ((Pipeline.pin pcfgs (adm m) 0).win (1 : Fin 2)).index t (1 : Fin 2) = t.val / 32 :=
  ⟨(block_positions t).2.2.2.1, (block_positions t).2.2.2.2.1⟩
theorem flush1 (t : Fin (Pipeline.pin pcfgs (adm m) 0).N) : ((Pipeline.pin pcfgs (adm m) 0).win (1 : Fin 2)).flush t = true :=
  (block_positions t).2.2.2.2.2

/-! ## The proof data -/

/-- The proof data of the one pipeline on core `c`: the arrays as launched; after the body at point `t` the index
    array's buffer at its block (the body only reads it) and the result's at its tile of the pooled array; the
    library's invariant beside the offsets' half, the same at every point; nothing owed; full shares. -/
def dats (p : Fin 1) (c : Dev nD) : Pipeline.Dat τ (Elt F) Unit ℕ (Pipeline.UD sig nD τ) ℕ (Pipeline.pin pcfgs (adm m) p) c where
  A w := V m c (Pipeline.arrRef spec0 w)
  after w t := match w with
    | ⟨0, _⟩ => (((Pipeline.pin pcfgs (adm m) p).win (0 : Fin 2)).blk t).view.read (Elt F) (V m c main_arg0)
    | ⟨1, _⟩ => (((Pipeline.pin pcfgs (adm m) p).win (1 : Fin 2)).blk t).view.read (Elt F) (Gbuf m hrows c)
  Φ _ := iprop(Pipeline.ΦD osem0 spec0 H0 (V m) c ∗ Pipeline.ΦT pre0 (adm m 0).1 c)
  q _ := fullShare
  owed _ := 0

theorem A_eq (c : Dev nD) (w : Fin (Pipeline.pin pcfgs (adm m) 0).W) : (dats m hrows 0 c).A w = V m c (Pipeline.arrRef spec0 w) := by
  dsimp only [dats]
theorem q_eq (c : Dev nD) (w : Fin (Pipeline.pin pcfgs (adm m) 0).W) : (dats m hrows 0 c).q w = fullShare := by
  dsimp only [dats]
theorem owed_eq (c : Dev nD) (t : Fin ((Pipeline.pin pcfgs (adm m) 0).N + 1)) : (dats m hrows 0 c).owed t = 0 := by
  dsimp only [dats]
theorem Phi_eq (c : Dev nD) (t : Fin ((Pipeline.pin pcfgs (adm m) 0).N + 1)) :
    (dats m hrows 0 c).Φ t = iprop(Pipeline.ΦD osem0 spec0 H0 (V m) c ∗ Pipeline.ΦT pre0 (adm m 0).1 c) := by
  dsimp only [dats]

/-- What the body leaves, window by window. -/
theorem after0_0 (c : Dev nD) (t : Fin (Pipeline.pin pcfgs (adm m) 0).N) :
    (dats m hrows 0 c).after (0 : Fin 2) t = (((Pipeline.pin pcfgs (adm m) 0).win (0 : Fin 2)).blk t).view.read (Elt F) (V m c main_arg0) := by
  dsimp only [dats]
theorem after0_1 (c : Dev nD) (t : Fin (Pipeline.pin pcfgs (adm m) 0).N) :
    (dats m hrows 0 c).after (1 : Fin 2) t = (((Pipeline.pin pcfgs (adm m) 0).win (1 : Fin 2)).blk t).view.read (Elt F) (Gbuf m hrows c) := by
  dsimp only [dats]

/-! ## What the body finds and leaves, element by element -/

/-- The index array's buffer holds its block at every point, fetched there or not: the body leaves the block in place,
    the window is never cut and never idle. -/
theorem before0_0 (c : Dev nD) (t : Fin (Pipeline.pin pcfgs (adm m) 0).N) (d) :
    (dats m hrows 0 c).before (0 : Fin 2) t d = (dats m hrows 0 c).after (0 : Fin 2) t := by
  rw [(dats m hrows 0 c).before_in_eq_fetched (0 : Fin 2) rfl (fun _ => rfl) (fun _ _ _ => rfl)
    (fun t => by rw [after0_0]; unfold Dat.blockOf; rw [A_eq]) t d, after0_0]
  unfold Dat.fetched Dat.blockOf
  rw [A_eq]
  rfl

/-- The index array's block at point `t`: the 256 samples of batch block `t % 32` of feature `t / 32`. -/
theorem blk0_apply (c : Dev nD) (t : Fin (Pipeline.pin pcfgs (adm m) 0).N) (y : Fin 256) (l : Fin 20) :
    (dats m hrows 0 c).after (0 : Fin 2) t (ValueIdx.ix3 (0 : Fin 1) y l)
      = idxA m c (ValueIdx.ix3 (⟨t.val / 32, by have := point_lt m t; omega⟩ : Fin 8)
          (⟨256 * (t.val % 32) + y.val, by have := y.isLt; omega⟩ : Fin 8192) l) := by
  obtain ⟨e0, e1, e2⟩ := index0 m t
  rw [after0_0, View.read_apply]
  show V m c main_arg0 _ = m ((c.tc : Thread nD τ).loc main_arg0) _
  congr 1
  funext a
  apply Fin.ext
  match a with
  | ⟨0, _⟩ =>
    show ((Pipeline.pin pcfgs (adm m) 0).win (0 : Fin 2)).index t (0 : Fin 3) * 1 + 1 * 0 = t.val / 32
    omega
  | ⟨1, _⟩ =>
    show ((Pipeline.pin pcfgs (adm m) 0).win (0 : Fin 2)).index t (1 : Fin 3) * 256 + 1 * y.val = 256 * (t.val % 32) + y.val
    omega
  | ⟨2, _⟩ =>
    show ((Pipeline.pin pcfgs (adm m) 0).win (0 : Fin 2)).index t (2 : Fin 3) * 20 + 1 * l.val = l.val
    omega

/-- The result's tile at point `t`: the pooled values of the 256 samples of batch block `t % 32`, feature `t / 32`. -/
theorem blk1_apply (c : Dev nD) (t : Fin (Pipeline.pin pcfgs (adm m) 0).N) (y : Fin 256) (d : Fin 128) :
    (dats m hrows 0 c).after (1 : Fin 2) t (ValueIdx.ix2 y d)
      = Cert.Pooled.pooledF (idxA m c) (tabA m c) (offA m c) (hrows c)
          (⟨256 * (t.val % 32) + y.val, by have := y.isLt; omega⟩ : Fin 8192)
          (⟨t.val / 32, by have := point_lt m t; omega⟩ : Fin 8) d := by
  obtain ⟨e0, e1⟩ := index1 m t
  rw [after0_1, View.read_apply]
  show Cert.Pooled.GF (idxA m c) (tabA m c) (offA m c) (hrows c) _ = _
  refine GF_at _ _ _ _ _ _ _ _ ?_ ?_
  · show ((Pipeline.pin pcfgs (adm m) 0).win (1 : Fin 2)).index t (0 : Fin 2) * 256 + 1 * y.val = 256 * (t.val % 32) + y.val
    omega
  · show ((Pipeline.pin pcfgs (adm m) 0).win (1 : Fin 2)).index t (1 : Fin 2) * 128 + 1 * d.val = 128 * (t.val / 32) + d.val
    omega

/-! ## From the tiles to the array -/

/-- What point `t` writes back is tile `t` of the pooled array. -/
theorem flushed1_eq (c : Dev nD) (t : Fin (Pipeline.pin pcfgs (adm m) 0).N) :
    (dats m hrows 0 c).flushed (1 : Fin 2) t = (((Pipeline.pin pcfgs (adm m) 0).win (1 : Fin 2)).blk t).view.read (Elt F) (Gbuf m hrows c) := by
  show ((Pipeline.pin pcfgs (adm m) 0).win (1 : Fin 2)).cut ((Pipeline.pin pcfgs (adm m) 0).grid.coords t) ((dats m hrows 0 c).after (1 : Fin 2) t) = _
  rw [after0_1]

/-- An index of the result is in point `t`'s tile iff each coordinate is in the tile's range on its axis. -/
theorem mem_blk1 (t : Fin (Pipeline.pin pcfgs (adm m) 0).N) (i : S8192x1024.Idx) :
    i ∈ (((Pipeline.pin pcfgs (adm m) 0).win (1 : Fin 2)).blk t).view.set
      ↔ ∀ a : Fin 2, ((Pipeline.pin pcfgs (adm m) 0).win (1 : Fin 2)).index t a * S256x128.size a ≤ (i a).val
          ∧ (i a).val < ((Pipeline.pin pcfgs (adm m) 0).win (1 : Fin 2)).index t a * S256x128.size a + S256x128.size a := by
  show i ∈ ((View.whole main_v0).slice (((Pipeline.pin pcfgs (adm m) 0).win (1 : Fin 2)).rect t)).set ↔ _
  rw [View.set_slice_whole, Rect.mem_set_unit]
  exact Iff.rfl

/-- Every index of the result is in some point's tile: row `r`, column `k` in the tile of point 32·(k / 128) + r / 256. -/
theorem covered (i : S8192x1024.Idx) :
    ∃ t : Fin (Pipeline.pin pcfgs (adm m) 0).N, ((Pipeline.pin pcfgs (adm m) 0).win (1 : Fin 2)).flush t = true
      ∧ i ∈ (((Pipeline.pin pcfgs (adm m) 0).win (1 : Fin 2)).blk t).view.set := by
  have h0 : (i 0).val < 8192 := (i 0).isLt
  have h1 : (i 1).val < 1024 := (i 1).isLt
  have hN : (Pipeline.pin pcfgs (adm m) 0).N = 256 := N_0
  refine ⟨⟨32 * ((i 1).val / 128) + (i 0).val / 256, by rw [hN]; omega⟩, flush1 m _, ?_⟩
  rw [mem_blk1]
  obtain ⟨e0, e1⟩ := index1 m ⟨32 * ((i 1).val / 128) + (i 0).val / 256, by rw [hN]; omega⟩
  intro a
  match a with
  | ⟨0, _⟩ =>
    show ((Pipeline.pin pcfgs (adm m) 0).win (1 : Fin 2)).index _ (0 : Fin 2) * 256 ≤ (i 0).val
      ∧ (i 0).val < ((Pipeline.pin pcfgs (adm m) 0).win (1 : Fin 2)).index _ (0 : Fin 2) * 256 + 256
    rw [e0]
    show (32 * ((i 1).val / 128) + (i 0).val / 256) % 32 * 256 ≤ (i 0).val ∧ (i 0).val < (32 * ((i 1).val / 128) + (i 0).val / 256) % 32 * 256 + 256
    omega
  | ⟨1, _⟩ =>
    show ((Pipeline.pin pcfgs (adm m) 0).win (1 : Fin 2)).index _ (1 : Fin 2) * 128 ≤ (i 1).val
      ∧ (i 1).val < ((Pipeline.pin pcfgs (adm m) 0).win (1 : Fin 2)).index _ (1 : Fin 2) * 128 + 128
    rw [e1]
    show (32 * ((i 1).val / 128) + (i 0).val / 256) / 32 * 128 ≤ (i 1).val ∧ (i 1).val < (32 * ((i 1).val / 128) + (i 0).val / 256) / 32 * 128 + 128
    omega

/-- The result array after the run is the pooled array. -/
theorem final (c : Dev nD) : (dats m hrows 0 c).arrAt (1 : Fin 2) (Pipeline.pin pcfgs (adm m) 0).N = Gbuf m hrows c :=
  (dats m hrows 0 c).arrAt_eq_of_cover (1 : Fin 2) (Gbuf m hrows c) (fun t _ => flushed1_eq m hrows c t) (covered m)

end Cert.KernelIdeal.Hand

end
-- ==== Proof.KI.TripValueSpec.lean ====
/-
  What each trip of the kernel's loop is to store, as a statement: trip `k` stores one piece into the 256 × 128 output
  block, the band of rows 8k … 8k + 7 over all 128 columns, holding at row `r`, column `d` the entries at column `d` of
  the 20 table rows that the index block's row `8k + r` names (the feature's offset added), added in slot order.
-/
import proofs.«429106_j80058190397553_1_alg».proof.Proof.KI.Kernel
import proofs.«429106_j80058190397553_1_alg».proof.Proof.SpecF

noncomputable section

namespace Cert.KernelIdeal.Hand

open Cert.KernelIdeal Cert.KernelIdeal.Gen
open Idealize.ShloMosaic Idealize.ShloMosaic.TcCoe
open Idealize.SL.Sem

variable {F : FTy → Type} [FloatOps F]

/-- Every word of the index block names, offset added, a row of the table: the hypothesis on every load read at one
    index. -/
theorem rowlt (arg3 : Memref sig .tc .smem S1x256x20 .i32) (v1 : Elt F .i32) (X3 : BufTy.Contents (Elt F) arg3.view.ty)
    (hrows : ∀ (R : LoadRect S1x256x20) (j : R.shape.Idx), (Scalar.addi v1 (View.readAt (Elt F) arg3.view R X3 j)).toNat < 2000000)
    (y : S1x256x20.Idx) : (Scalar.addi v1 (arg3.view.read (Elt F) X3 y)).toNat < 2000000 := by
  have h := hrows ⟨fun a => (y a).val, fun _ => 1, fun _ => 1, fun a => Or.inr (by have := (y a).isLt; omega)⟩ (fun _ => ⟨0, Nat.one_pos⟩)
  rw [View.readAt_apply] at h
  have e : (LoadRect.idx (s := S1x256x20) ⟨fun a => (y a).val, fun _ => 1, fun _ => 1, fun a => Or.inr (by have := (y a).isLt; omega)⟩ (fun _ => ⟨0, Nat.one_pos⟩)) = y :=
    funext fun a => Fin.ext (by simp)
  rwa [e] at h

/-- WHAT EACH TRIP STORES: trip `k`'s pieces are one piece, the band of rows 8k … 8k + 7, and its payload at row `r`,
    column `d` is the 20 fetched rows' entries at `d` added in slot order. -/
def TripValueAt (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000) : Prop :=
  ∀ k : Fin k0_t1_loop.trips, ∃ P : S8x128.Idx → Elt F .f32,
    tripL (F := F) 𝒱 c bd i arg2 harg2 arg3 harg3 arg4 harg4 arg5 harg5 arg6 harg6 arg7 arg8 harg8 v1 X3 X4 hrows k = [⟨Rect.unit (s := S256x128) (k0_off322 k) S8x128.size (k0_off322_inb k), P⟩] ∧
    ∀ (r2 : Fin 8) (d : Fin 128), P (ValueIdx.ix2 r2 d) = Cert.Pooled.accum (F := F) fun l : Fin 20 =>
      arg4.view.read (Elt F) X4 (ValueIdx.ix2 (⟨(Scalar.addi v1 (arg3.view.read (Elt F) X3 (ValueIdx.ix3 (0 : Fin 1) (⟨8 * k.val + r2.val, by have := Nat.lt_of_lt_of_le k.isLt k0_t1_abs.2.1; have := r2.isLt; omega⟩ : Fin 256) l))).toNat,
        rowlt arg3 v1 X3 hrows _⟩ : Fin 2000000) d)

end Cert.KernelIdeal.Hand

end
-- ==== Proof.KI.BlockValue.lean ====
/-
  What the output block holds after the 32 trips, element by element.

  Trip `k` stores one piece into the 256 × 128 block: rows 8k … 8k + 7, all 128 columns, holding for row `8k + r` and
  column `d` the 20 fetched table rows' entries at column `d` added in slot order (that is taken here as a hypothesis
  on each trip's piece). The 32 row bands are disjoint and tile the 256 rows, so every piece agrees with one function
  of the block's index, and every index lies in the band of trip `row / 8`: reading the block after all the writes,
  over whatever it held before, gives that function.
-/
import proofs.«429106_j80058190397553_1_alg».proof.Proof.KI.TripValueSpec
import Idealize.ShloMosaic.Lib.Pipeline.Value
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL.Sem

variable {F : FTy → Type} [FloatOps F]

/-- The loop runs 32 trips. -/
theorem trips_eq : k0_t1_loop.trips = 32 := by decide +kernel

/-- Trip `k`'s band starts at row 8k, column 0. -/
theorem off322_eq (k : Fin k0_t1_loop.trips) : k0_off322 k = ![8 * k.val, 0] := k0_off322_eq k

/-- The block after the trips, as one function of its index: at row `y`, column `d` the 20 rows of the table that the
    index block's row `y` names, offset added, read at column `d` and added in slot order. -/
def blockFn (arg3 : Memref sig .tc .smem S1x256x20 .i32) (arg4 : Memref sig .tc .hbm S2000000x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000) : S256x128.Idx → Elt F .f32 := fun j =>
  Cert.Pooled.accum (F := F) fun l : Fin 20 =>
    arg4.view.read (Elt F) X4 (ValueIdx.ix2 (⟨(Scalar.addi v1 (arg3.view.read (Elt F) X3 (ValueIdx.ix3 (0 : Fin 1) (⟨(j 0).val, (j 0).isLt⟩ : Fin 256) l))).toNat,
      rowlt arg3 v1 X3 hrows _⟩ : Fin 2000000) (⟨(j 1).val, (j 1).isLt⟩ : Fin 128))

/-- That function at an index whose row and column are given. -/
theorem blockFn_eq (arg3 : Memref sig .tc .smem S1x256x20 .i32) (arg4 : Memref sig .tc .hbm S2000000x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (j : S256x128.Idx) (y : Fin 256) (d : Fin 128) (h0 : (j 0).val = y.val) (h1 : (j 1).val = d.val) :
    blockFn arg3 arg4 v1 X3 X4 hrows j = Cert.Pooled.accum (F := F) fun l : Fin 20 =>
      arg4.view.read (Elt F) X4 (ValueIdx.ix2 (⟨(Scalar.addi v1 (arg3.view.read (Elt F) X3 (ValueIdx.ix3 (0 : Fin 1) y l))).toNat,
        rowlt arg3 v1 X3 hrows _⟩ : Fin 2000000) d) := by
  obtain rfl : y = ⟨(j 0).val, (j 0).isLt⟩ := Fin.ext h0.symm
  obtain rfl : d = ⟨(j 1).val, (j 1).isLt⟩ := Fin.ext h1.symm
  rfl

/-- After `n` trips every piece stored so far agrees with the one function, and every index in the first 8n rows lies
    in some piece: each new trip adds the band of rows 8n … 8n + 7. -/
theorem pieces_upto (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (htv : TripValueAt (F := F) 𝒱 c bd i arg2 harg2 arg3 harg3 arg4 harg4 arg5 harg5 arg6 harg6 arg7 arg8 harg8 v1 X3 X4 hrows) :
    ∀ n : ℕ, n ≤ k0_t1_loop.trips →
      (∀ p ∈ pb (F := F) 𝒱 c bd i arg2 harg2 arg3 harg3 arg4 harg4 arg5 harg5 arg6 harg6 arg7 arg8 harg8 v1 X3 X4 hrows n, ∀ x : p.1.shape.Idx, p.2 x = blockFn arg3 arg4 v1 X3 X4 hrows (p.1.emb x))
      ∧ ∀ y : S256x128.Idx, (y 0).val < 8 * n → ∃ p ∈ pb (F := F) 𝒱 c bd i arg2 harg2 arg3 harg3 arg4 harg4 arg5 harg5 arg6 harg6 arg7 arg8 harg8 v1 X3 X4 hrows n, y ∈ p.1.set
  | 0, _ => ⟨fun p hp => absurd hp (by rw [pb]; exact List.not_mem_nil), fun y hy => absurd hy (by omega)⟩
  | n + 1, hn => by
    obtain ⟨ihA, ihC⟩ := pieces_upto 𝒱 c bd i arg2 harg2 arg3 harg3 arg4 harg4 arg5 harg5 arg6 harg6 arg7 arg8 harg8 v1 X3 X4 hrows htv n (Nat.le_of_succ_le hn)
    have hk : n < k0_t1_loop.trips := hn
    obtain ⟨P, hL, hP⟩ := htv ⟨n, hk⟩
    have hsucc := pb_succ (F := F) 𝒱 c bd i arg2 harg2 arg3 harg3 arg4 harg4 arg5 harg5 arg6 harg6 arg7 arg8 harg8 v1 X3 X4 hrows ⟨n, hk⟩
    rw [hL] at hsucc
    have e0 : k0_off322 ⟨n, hk⟩ 0 = 8 * n := congrFun (off322_eq ⟨n, hk⟩) 0
    have e1 : k0_off322 ⟨n, hk⟩ 1 = 0 := congrFun (off322_eq ⟨n, hk⟩) 1
    refine ⟨fun p hp x => ?_, fun y hy => ?_⟩
    · rw [show n + 1 = (⟨n, hk⟩ : Fin k0_t1_loop.trips).val + 1 from rfl, hsucc] at hp
      rcases List.mem_append.mp hp with hp | hp
      · obtain rfl := List.mem_singleton.mp hp
        have hx : x = ValueIdx.ix2 (x 0) (x 1) := ValueIdx.eq_ix2 x
        rw [hx]
        show P (ValueIdx.ix2 (x 0) (x 1)) = _
        rw [hP (x 0) (x 1)]
        refine (blockFn_eq arg3 arg4 v1 X3 X4 hrows _ _ _ ?_ ?_).symm
        · show k0_off322 ⟨n, hk⟩ 0 + 1 * (x 0).val = 8 * n + (x 0).val
          omega
        · show k0_off322 ⟨n, hk⟩ 1 + 1 * (x 1).val = (x 1).val
          omega
      · exact ihA p hp x
    · rw [show n + 1 = (⟨n, hk⟩ : Fin k0_t1_loop.trips).val + 1 from rfl, hsucc]
      by_cases hlt : (y 0).val < 8 * n
      · obtain ⟨p, hp, hy'⟩ := ihC y hlt
        exact ⟨p, List.mem_append.mpr (Or.inr hp), hy'⟩
      · refine ⟨_, List.mem_append.mpr (Or.inl (List.mem_singleton.mpr rfl)), ?_⟩
        show y ∈ (Rect.unit (s := S256x128) (k0_off322 ⟨n, hk⟩) S8x128.size (k0_off322_inb ⟨n, hk⟩)).set
        rw [Rect.mem_set_unit]
        have h1 : (y 1).val < 128 := (y 1).isLt
        intro a
        match a with
        | ⟨0, _⟩ => show k0_off322 ⟨n, hk⟩ 0 ≤ (y 0).val ∧ (y 0).val < k0_off322 ⟨n, hk⟩ 0 + 8; omega
        | ⟨1, _⟩ => show k0_off322 ⟨n, hk⟩ 1 ≤ (y 1).val ∧ (y 1).val < k0_off322 ⟨n, hk⟩ 1 + 128; omega

/-- THE BLOCK AFTER THE LOOP, read at row `y`, column `d`, over whatever it held before: the 20 fetched rows' entries
    at `d` added in slot order. -/
theorem block_value (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (htv : TripValueAt (F := F) 𝒱 c bd i arg2 harg2 arg3 harg3 arg4 harg4 arg5 harg5 arg6 harg6 arg7 arg8 harg8 v1 X3 X4 hrows)
    (G5 : BufTy.Contents (Elt F) arg5.view.ty) (y : Fin 256) (d : Fin 128) :
    arg5.view.read (Elt F) (arg5.view.writes (Elt F) G5 (pb (F := F) 𝒱 c bd i arg2 harg2 arg3 harg3 arg4 harg4 arg5 harg5 arg6 harg6 arg7 arg8 harg8 v1 X3 X4 hrows k0_t1_loop.trips)) (ValueIdx.ix2 y d)
      = Cert.Pooled.accum (F := F) fun l : Fin 20 =>
          arg4.view.read (Elt F) X4 (ValueIdx.ix2 (⟨(Scalar.addi v1 (arg3.view.read (Elt F) X3 (ValueIdx.ix3 (0 : Fin 1) y l))).toNat,
            rowlt arg3 v1 X3 hrows _⟩ : Fin 2000000) d) := by
  obtain ⟨hA, hC⟩ := pieces_upto (F := F) 𝒱 c bd i arg2 harg2 arg3 harg3 arg4 harg4 arg5 harg5 arg6 harg6 arg7 arg8 harg8 v1 X3 X4 hrows htv k0_t1_loop.trips le_rfl
  have hy : ((ValueIdx.ix2 y d : S256x128.Idx) 0).val < 8 * k0_t1_loop.trips := by
    rw [trips_eq]; show y.val < 8 * 32; have := y.isLt; omega
  rw [View.read_writes_apply_of_pieces arg5.view G5 (blockFn arg3 arg4 v1 X3 X4 hrows) _ hA (ValueIdx.ix2 y d) (hC _ hy)]
  exact blockFn_eq arg3 arg4 v1 X3 X4 hrows _ y d rfl rfl

end Cert.KernelIdeal.Hand

end
-- ==== Proof.KI.PointFacts.lean ====
/-
  One grid point's staged data tied to the argument arrays.

  At point `t` the kernel reads one word of the prefetched table, the offset of feature `t / 32`; the index block the
  pipeline hands it holds the local row numbers of the 256 samples of batch block `t % 32` of that feature. So every
  word of the block, the offset added, is a fetched row number of the precondition and lies below the table's height;
  and the 20 fetched rows' entries added in slot order, for block row `y` and column `d`, are the pooled array's entry
  that the result's tile holds there.
-/
import proofs.«429106_j80058190397553_1_alg».proof.Proof.KI.Dats
import proofs.«429106_j80058190397553_1_alg».proof.Proof.KI.TripValueSpec

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-- The word the kernel reads from the prefetched table at point `t`, at the table contents the region runs at. -/
abbrev tableWord (t : Fin (Pipeline.pin pcfgs (adm m) 0).N) : Elt F .i32 :=
  word1 (F := F) (grid0.coords t) (Memref.whole main_arg2) ((adm m 0).1 0)

/-- The first grid coordinate of point `t` is `t / 32`, decided over the grid. -/
theorem coord0_eq : ∀ t : Fin grid0.N, (grid0.coords t 0).val = t.val / 32 := by decide +kernel

/-- That word is the offset of feature `t / 32`. -/
theorem tableWord_eq (c : Dev nD) (t : Fin (Pipeline.pin pcfgs (adm m) 0).N) :
    tableWord m t = offA m c (ValueIdx.ix1 (⟨t.val / 32, by have := point_lt m t; omega⟩ : Fin 9)) := by
  have hc : c = 0 := Subsingleton.elim _ _
  subst hc
  have e := congrFun (k0_off1_eq (grid0.coords t)) 0
  have e' := coord0_eq t
  show m (((0 : Dev nD).tc : Thread nD τ).loc main_arg2) _ = m (((0 : Dev nD).tc : Thread nD τ).loc main_arg2) _
  congr 1
  funext a
  apply Fin.ext
  match a with
  | ⟨0, _⟩ =>
    show k0_off1 (grid0.coords t) 0 + 1 * 0 = t.val / 32
    rw [e]
    show (grid0.coords t 0).val + 1 * 0 = t.val / 32
    omega

variable (hrows : ∀ c : Dev nD, Cert.Pooled.RowsOk (idxA m c) (offA m c))

/-- Every word of point `t`'s index block, the table word added, is below the table's height. -/
theorem row_ok_at (c : Dev nD) (t : Fin (Pipeline.pin pcfgs (adm m) 0).N) (y3 : S1x256x20.Idx) :
    (Scalar.addi (tableWord m t) ((dats m hrows 0 c).after (0 : Fin 2) t y3)).toNat < 2000000 := by
  obtain ⟨y, l, rfl⟩ : ∃ (y : Fin 256) (l : Fin 20), y3 = ValueIdx.ix3 (0 : Fin 1) y l :=
    ⟨y3 1, y3 2, by
      have h := ValueIdx.eq_ix3 y3
      rwa [Fin.fin_one_eq_zero (y3 0)] at h⟩
  rw [blk0_apply, tableWord_eq m c t]
  exact hrows c (⟨t.val / 32, by have := point_lt m t; omega⟩ : Fin 8) (⟨256 * (t.val % 32) + y.val, by have := y.isLt; omega⟩ : Fin 8192) l

/-- The same of any memref holding the block: the hypothesis the kernel's run at the point takes. -/
theorem rows_at_point (c : Dev nD) (t : Fin (Pipeline.pin pcfgs (adm m) 0).N) (M3 : Memref sig .tc .smem S1x256x20 .i32)
    (f3 : BufTy.Contents (Elt F) M3.view.ty) (hf3 : M3.view.read (Elt F) f3 = (dats m hrows 0 c).after (0 : Fin 2) t) :
    ∀ (R : LoadRect S1x256x20) (j : R.shape.Idx),
      (Scalar.addi (word1 (F := F) (grid0.coords t) (Memref.whole main_arg2) ((adm m 0).1 0)) (View.readAt (Elt F) M3.view R f3 j)).toNat < 2000000 := by
  intro R j
  rw [View.readAt_apply, congrFun hf3 (R.idx j)]
  exact row_ok_at m hrows c t (R.idx j)

/-- The 20 fetched rows' entries added in slot order, for block row `y` and column `d` of point `t`, are what the result's
    tile holds there. -/
theorem accum_point (c : Dev nD) (t : Fin (Pipeline.pin pcfgs (adm m) 0).N) (M3 : Memref sig .tc .smem S1x256x20 .i32)
    (f3 : BufTy.Contents (Elt F) M3.view.ty) (hf3 : M3.view.read (Elt F) f3 = (dats m hrows 0 c).after (0 : Fin 2) t)
    (hr : ∀ (R : LoadRect S1x256x20) (j : R.shape.Idx),
      (Scalar.addi (word1 (F := F) (grid0.coords t) (Memref.whole main_arg2) ((adm m 0).1 0)) (View.readAt (Elt F) M3.view R f3 j)).toNat < 2000000)
    (y : Fin 256) (d : Fin 128) :
    Cert.Pooled.accum (F := F) (fun l : Fin 20 => (Memref.whole main_arg1).view.read (Elt F) (V m c main_arg1)
        (ValueIdx.ix2 (⟨(Scalar.addi (word1 (F := F) (grid0.coords t) (Memref.whole main_arg2) ((adm m 0).1 0)) (M3.view.read (Elt F) f3 (ValueIdx.ix3 (0 : Fin 1) y l))).toNat,
          rowlt M3 _ f3 hr _⟩ : Fin 2000000) d))
      = (dats m hrows 0 c).after (1 : Fin 2) t (ValueIdx.ix2 y d) := by
  rw [blk1_apply]
  unfold Cert.Pooled.pooledF
  congr 1
  funext l
  show tabA m c (ValueIdx.ix2 _ d) = tabA m c (ValueIdx.ix2 _ d)
  refine congrArg (fun r => tabA m c (ValueIdx.ix2 r d)) (Fin.ext ?_)
  show (Scalar.addi (tableWord m t) (M3.view.read (Elt F) f3 (ValueIdx.ix3 (0 : Fin 1) y l))).toNat = Cert.Pooled.row _ _ _ _ _
  rw [congrFun hf3 _, blk0_apply, tableWord_eq m c t]
  rfl

end Cert.KernelIdeal.Hand

end
-- ==== Proof.KI.TripValue.lean ====
/-
  WHAT ONE TRIP OF THE KERNEL'S LOOP STORES, AS VALUES.

  A trip fills the 8 × 128 accumulator with the zero word and then, one row at a time and within a row one slot at a
  time, adds to the accumulator's row a landed row of the table; at the end it stores the accumulator into rows
  8k … 8k + 7 of the output block. The accumulator's stores are a list of pieces, the zero fill oldest, each later
  piece one row holding "that row read back, plus a landed row". Such a list leaves at `(r, d)` the zero word plus, in
  order, the landed rows added to row `r`, at column `d`; a landed row is the row of the table that the 32-bit sum
  of the feature's offset and a word of the index block names; and the 20 steps of row `r` read the words
  `(0, 8k + r, 0 … 19)` in order. So the stored band holds at `(r, d)` the fold, in slot order from the zero word, of
  the 20 fetched rows' entries at `d`.
-/
import proofs.«429106_j80058190397553_1_alg».proof.Proof.KI.Trip
import proofs.«429106_j80058190397553_1_alg».proof.Proof.SpecF
import proofs.«429106_j80058190397553_1_alg».proof.Proof.KI.TripValueSpec
import Idealize.ShloMosaic.Lib.Tactic
import Idealize.ShloMosaic.Lib.ValueIdx
import Idealize.ShloMosaic.Lib.Pipeline.Value
import Idealize.ShloMosaic.Lib.Pipeline.FrameBody
import Idealize.ShloMosaic.Lib.Pipeline.RowLoads

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

/-- The 128 entries of a row, as a one-row array: entry `d` is entry `(0, d)`. -/
theorem reshape_row (h : S128.numel = S1x128.numel) (d : Fin 128) :
    Shape.reshapeEquiv h (ix1 d) = (ix2 (0 : Fin 1) d : S1x128.Idx) :=
  Shape.reshapeEquiv_eq_of_rowMajor h (by
    rw [Shape.rowMajor_val_two, Shape.rowMajor_val_one]
    show 0 * 128 + d.val = d.val
    omega)

/-- A row of the table read through its one-row slice: entry `d` of the row numbered `n`. -/
theorem tab_read (arg4 : Memref sig .tc .hbm S2000000x128 .f32) (X4 : BufTy.Contents (Elt F) arg4.view.ty)
    (off : Fin 2 → ℕ) (inb : ∀ a, off a + S1x128.size a ≤ S2000000x128.size a)
    (hs : ∀ a, (Rect.unit (s := S2000000x128) off S1x128.size inb).stride a = 1)
    (n : ℕ) (hn : n < 2000000) (hoff : off = ![n, 0]) (d : Fin 128) :
    ReadAs.same.apply (View.read (Elt F) ((arg4.slice (Rect.unit (s := S2000000x128) off S1x128.size inb) hs).squeeze S128 squeezes_S1x128_S128).view X4) (ix1 d)
      = arg4.view.read (Elt F) X4 (ix2 (⟨n, hn⟩ : Fin 2000000) d) := by
  subst hoff
  show arg4.view.read (Elt F) X4 ((Rect.unit (s := S2000000x128) ![n, 0] S1x128.size inb).emb
    (Shape.reshapeEquiv squeezes_S1x128_S128.numel_eq (ix1 d))) = _
  rw [reshape_row]
  congr 1
  funext a; apply Fin.ext
  match a with
  | ⟨0, _⟩ => show n + 1 * 0 = n; omega
  | ⟨1, _⟩ => show 0 + 1 * d.val = d.val; omega

/-- The landing buffer's row 0 read after a fetch into it: the fetched row. -/
theorem landed0 (arg6 : Memref sig .tc .vmem S2x128 .f32) (w : S128.Idx → Elt F .f32)
    (L : List (View.Piece (Elt F) S128 .f32)) (d : Fin 128) :
    View.readAt (Elt F) arg6.view (Rect.unit (s := S2x128) ![0, 0] S1x128.size inb_S2x128_S1x128_0_0).toLoadRect
      ((slot0 arg6).view.writes (Elt F) (slot0 arg6).view.junk (⟨Rect.whole S128, w⟩ :: L)) (ix2 (0 : Fin 1) d) = w (ix1 d) := by
  have key := View.read_writes_cons_emb (Val := Elt F) (v := (slot0 arg6).view) (f := (slot0 arg6).view.junk) (Rect.whole S128) w L (ix1 d)
  rw [← key]
  show arg6.view.read (Elt F) _ _ = arg6.view.read (Elt F) _ ((Rect.unit (s := S2x128) ![0, 0] S1x128.size inb_S2x128_S1x128_0_0).emb
    (Shape.reshapeEquiv squeezes_S1x128_S128.numel_eq ((Rect.whole S128).emb (ix1 d))))
  have e : (Rect.whole S128).emb (ix1 d) = ix1 d := by
    funext a; apply Fin.ext
    match a with
    | ⟨0, _⟩ => show 0 + 1 * d.val = d.val; omega
  rw [e, reshape_row]
  rfl

/-- The landing buffer's row 1 read after a fetch into it: the fetched row. -/
theorem landed1 (arg6 : Memref sig .tc .vmem S2x128 .f32) (w : S128.Idx → Elt F .f32)
    (L : List (View.Piece (Elt F) S128 .f32)) (d : Fin 128) :
    View.readAt (Elt F) arg6.view (Rect.unit (s := S2x128) ![1, 0] S1x128.size inb_S2x128_S1x128_1_0).toLoadRect
      ((slot1 arg6).view.writes (Elt F) (slot1 arg6).view.junk (⟨Rect.whole S128, w⟩ :: L)) (ix2 (0 : Fin 1) d) = w (ix1 d) := by
  have key := View.read_writes_cons_emb (Val := Elt F) (v := (slot1 arg6).view) (f := (slot1 arg6).view.junk) (Rect.whole S128) w L (ix1 d)
  rw [← key]
  show arg6.view.read (Elt F) _ _ = arg6.view.read (Elt F) _ ((Rect.unit (s := S2x128) ![1, 0] S1x128.size inb_S2x128_S1x128_1_0).emb
    (Shape.reshapeEquiv squeezes_S1x128_S128.numel_eq ((Rect.whole S128).emb (ix1 d))))
  have e : (Rect.whole S128).emb (ix1 d) = ix1 d := by
    funext a; apply Fin.ext
    match a with
    | ⟨0, _⟩ => show 0 + 1 * d.val = d.val; omega
  rw [e, reshape_row]
  rfl

/-- The zero word. -/
abbrev zeroW : Elt F .f32 := FloatOps.ofBits .f32 0x00000000#32

/-- Under a newest piece stored on row `r`, the accumulator's canonical contents at row `r` are the piece's payload. -/
theorem canon_row_eq (r : ℕ) (inb : ∀ a, (![r, 0] : Fin 2 → ℕ) a + S1x128.size a ≤ S8x128.size a)
    (w : S1x128.Idx → Elt F .f32) (L : List (View.Piece (Elt F) S8x128 .f32)) (r' : Fin 8) (d : Fin 128) (h : r'.val = r) :
    View.canon ((⟨Rect.unit (s := S8x128) ![r, 0] S1x128.size inb, w⟩ : View.Piece (Elt F) S8x128 .f32) :: L) (ix2 r' d)
      = w (ix2 (0 : Fin 1) d) := by
  have e : (Rect.unit (s := S8x128) ![r, 0] S1x128.size inb).emb (ix2 (0 : Fin 1) d) = ix2 r' d := by
    funext a; apply Fin.ext
    match a with
    | ⟨0, _⟩ => show r + 1 * 0 = r'.val; omega
    | ⟨1, _⟩ => show 0 + 1 * d.val = d.val; omega
  rw [← e]
  exact View.canon_cons_emb (Rect.unit (s := S8x128) ![r, 0] S1x128.size inb) w L (ix2 (0 : Fin 1) d)

/-- Off that row they are the older pieces'. -/
theorem canon_row_ne (r : ℕ) (inb : ∀ a, (![r, 0] : Fin 2 → ℕ) a + S1x128.size a ≤ S8x128.size a)
    (w : S1x128.Idx → Elt F .f32) (L : List (View.Piece (Elt F) S8x128 .f32)) (r' : Fin 8) (d : Fin 128) (h : r'.val ≠ r) :
    View.canon ((⟨Rect.unit (s := S8x128) ![r, 0] S1x128.size inb, w⟩ : View.Piece (Elt F) S8x128 .f32) :: L) (ix2 r' d)
      = View.canon L (ix2 r' d) := by
  refine View.canon_cons_of_not_mem _ L ?_
  intro hm
  change ix2 r' d ∈ (Rect.unit (s := S8x128) ![r, 0] S1x128.size inb).set at hm
  have := (Rect.mem_set_unit (s := S8x128) (off := ![r, 0]) (size := S1x128.size) (inb := inb)).mp hm ⟨0, by decide⟩
  have h1 : r ≤ r'.val := this.1
  have h2 : r'.val < r + 1 := this.2
  omega

/-- The accumulator's row `r` read back is its canonical contents on that row. -/
theorem readCov_row (arg8 : Memref sig .tc .vmem S8x128 .f32) (L : List (View.Piece (Elt F) S8x128 .f32))
    (r : ℕ) (inb : ∀ a, (![r, 0] : Fin 2 → ℕ) a + S1x128.size a ≤ S8x128.size a) (r' : Fin 8) (h : r'.val = r) (d : Fin 128) :
    arg8.view.readCov L (Rect.unit (s := S8x128) ![r, 0] S1x128.size inb).toLoadRect (ix2 (0 : Fin 1) d)
      = View.canon L (ix2 r' d) := by
  rw [View.readCov_eq_canon']
  show View.canon L _ = _
  congr 1
  funext a; apply Fin.ext
  match a with
  | ⟨0, _⟩ => show r + 1 * 0 = r'.val; omega
  | ⟨1, _⟩ => show 0 + 1 * d.val = d.val; omega

/-- The pieces a trip stores into the accumulator: the zero fill, then one row at a time the row read back plus a
    landed row; `A` lists, newest first, the row each step added to and the landed row it added. -/
inductive RowAcc (arg8 : Memref sig .tc .vmem S8x128 .f32) :
    List (View.Piece (Elt F) S8x128 .f32) → List (ℕ × (S1x128.Idx → Elt F .f32)) → Prop
  | zero : RowAcc arg8 [⟨Rect.unit (s := S8x128) ![0, 0] S8x128.size inb_S8x128_S8x128_0_0, k0_pay3⟩] []
  | push (L : List (View.Piece (Elt F) S8x128 .f32)) (A : List (ℕ × (S1x128.Idx → Elt F .f32))) (r : ℕ)
      (inb : ∀ a, (![r, 0] : Fin 2 → ℕ) a + S1x128.size a ≤ S8x128.size a) (y : S1x128.Idx → Elt F .f32) :
      RowAcc arg8 L A →
      RowAcc arg8 (⟨Rect.unit (s := S8x128) ![r, 0] S1x128.size inb,
          shapeCast S1x128 (addf (arg8.view.readCov L (Rect.unit (s := S8x128) ![r, 0] S1x128.size inb).toLoadRect) y) shapeCasts_S1x128_S1x128⟩ :: L)
        ((r, y) :: A)

/-- The value such a list leaves at `(r', d)`: zero, plus in order the landed rows added to row `r'`. -/
def rowVal (A : List (ℕ × (S1x128.Idx → Elt F .f32))) (r' : ℕ) (d : Fin 128) : Elt F .f32 :=
  A.foldr (fun p acc => if p.1 = r' then FloatOps.addf acc (p.2 (ix2 (0 : Fin 1) d)) else acc) zeroW

theorem RowAcc.canon_eq {arg8 : Memref sig .tc .vmem S8x128 .f32} {L : List (View.Piece (Elt F) S8x128 .f32)}
    {A : List (ℕ × (S1x128.Idx → Elt F .f32))} (h : RowAcc arg8 L A) (r' : Fin 8) (d : Fin 128) :
    View.canon L (ix2 r' d) = rowVal A r'.val d := by
  induction h with
  | zero =>
    rw [View.canon_unit_zero (by funext a; match a with | ⟨0, _⟩ => rfl | ⟨1, _⟩ => rfl)]
    rfl
  | push L A r inb y _ ih =>
    unfold rowVal
    rw [List.foldr_cons]
    by_cases hr : r = r'.val
    · rw [if_pos hr, canon_row_eq r inb _ L r' d hr.symm]
      refine (congrFun (shapeCast_self _ _) _).trans ?_
      show FloatOps.addf _ _ = _
      rw [readCov_row arg8 L r inb r' hr.symm d, ih]
      rfl
    · rw [if_neg hr, canon_row_ne r inb _ L r' d (fun h => hr h.symm), ih]
      rfl

/-- A word of the index block read through a one-element rectangle at offsets `(0, b, l)`. -/
theorem word_read (arg3 : Memref sig .tc .smem S1x256x20 .i32) (X3 : BufTy.Contents (Elt F) arg3.view.ty)
    (off3 : Fin 3 → ℕ) (inb3 : ∀ a, off3 a + S1x1x1.size a ≤ S1x256x20.size a)
    (h0 : 0 < (Rect.unit (s := S1x256x20) off3 S1x1x1.size inb3).toLoadRect.shape.numel)
    (b : Fin 256) (l : Fin 20) (hoff : off3 = ![0, b.val, l.val]) :
    View.readAt (Elt F) arg3.view (Rect.unit (s := S1x256x20) off3 S1x1x1.size inb3).toLoadRect X3 (Shape.Idx.first h0)
      = arg3.view.read (Elt F) X3 (ix3 (0 : Fin 1) b l) := by
  subst hoff
  rw [View.readAt_apply]
  congr 1
  funext a; apply Fin.ext
  match a with
  | ⟨0, _⟩ => show 0 + 1 * 0 = 0; rfl
  | ⟨1, _⟩ => show b.val + 1 * 0 = b.val; omega
  | ⟨2, _⟩ => show l.val + 1 * 0 = l.val; omega

/-- Landing row 0 read after a fetch into it of the table row the index block's word `(0, b, l)` names: the
    table's entry at that row, column `d`. -/
theorem landed_tab0 {arg3 : Memref sig .tc .smem S1x256x20 .i32} {arg4 : Memref sig .tc .hbm S2000000x128 .f32}
    {arg6 : Memref sig .tc .vmem S2x128 .f32} {v1 : Elt F .i32}
    {X3 : BufTy.Contents (Elt F) arg3.view.ty} {X4 : BufTy.Contents (Elt F) arg4.view.ty}
    {off3 : Fin 3 → ℕ} {inb3 : ∀ a, off3 a + S1x1x1.size a ≤ S1x256x20.size a}
    {h0 : 0 < (Rect.unit (s := S1x256x20) off3 S1x1x1.size inb3).toLoadRect.shape.numel}
    {inbA : ∀ a, (![(Scalar.addi v1 (View.readAt (Elt F) arg3.view (Rect.unit (s := S1x256x20) off3 S1x1x1.size inb3).toLoadRect X3 (Shape.Idx.first h0))).toNat, 0] : Fin 2 → ℕ) a
      + S1x128.size a ≤ S2000000x128.size a}
    {hsA : ∀ a, (Rect.unit (s := S2000000x128) ![(Scalar.addi v1 (View.readAt (Elt F) arg3.view (Rect.unit (s := S1x256x20) off3 S1x1x1.size inb3).toLoadRect X3 (Shape.Idx.first h0))).toNat, 0] S1x128.size inbA).stride a = 1}
    {Lt : List (View.Piece (Elt F) S128 .f32)} [co : ClosedOff off3] {b : Fin 256} {l : Fin 20} {d : Fin 128}
    {hlt : (Scalar.addi v1 (arg3.view.read (Elt F) X3 (ix3 (0 : Fin 1) b l))).toNat < 2000000}
    (hform : co.form = ![0, b.val, l.val]) :
    View.readAt (Elt F) arg6.view (Rect.unit (s := S2x128) ![0, 0] S1x128.size inb_S2x128_S1x128_0_0).toLoadRect
      ((slot0 arg6).view.writes (Elt F) (slot0 arg6).view.junk
        (⟨Rect.whole S128, ReadAs.same.apply (View.read (Elt F)
          ((arg4.slice (Rect.unit (s := S2000000x128)
              ![(Scalar.addi v1 (View.readAt (Elt F) arg3.view (Rect.unit (s := S1x256x20) off3 S1x1x1.size inb3).toLoadRect X3 (Shape.Idx.first h0))).toNat, 0]
              S1x128.size inbA) hsA).squeeze S128 squeezes_S1x128_S128).view X4)⟩ :: Lt))
      (ix2 (0 : Fin 1) d)
    = arg4.view.read (Elt F) X4 (ix2 (⟨(Scalar.addi v1 (arg3.view.read (Elt F) X3 (ix3 (0 : Fin 1) b l))).toNat, hlt⟩ : Fin 2000000) d) := by
  have hw := word_read arg3 X3 off3 inb3 h0 b l (co.eq.trans hform)
  have hn : (Scalar.addi v1 (View.readAt (Elt F) arg3.view (Rect.unit (s := S1x256x20) off3 S1x1x1.size inb3).toLoadRect X3 (Shape.Idx.first h0))).toNat < 2000000 := by
    have := inbA ⟨0, by decide⟩
    have h1 : (Scalar.addi v1 (View.readAt (Elt F) arg3.view (Rect.unit (s := S1x256x20) off3 S1x1x1.size inb3).toLoadRect X3 (Shape.Idx.first h0))).toNat + 1 ≤ 2000000 := this
    omega
  rw [landed0]
  exact (tab_read arg4 X4 _ inbA hsA _ hn rfl d).trans
    (congrArg (fun n : Fin 2000000 => arg4.view.read (Elt F) X4 (ix2 n d)) (Fin.ext (congrArg (fun w => (Scalar.addi v1 w).toNat) hw)))

/-- Landing row 1 read after a fetch into it of the table row the index block's word `(0, b, l)` names: the
    table's entry at that row, column `d`. -/
theorem landed_tab1 {arg3 : Memref sig .tc .smem S1x256x20 .i32} {arg4 : Memref sig .tc .hbm S2000000x128 .f32}
    {arg6 : Memref sig .tc .vmem S2x128 .f32} {v1 : Elt F .i32}
    {X3 : BufTy.Contents (Elt F) arg3.view.ty} {X4 : BufTy.Contents (Elt F) arg4.view.ty}
    {off3 : Fin 3 → ℕ} {inb3 : ∀ a, off3 a + S1x1x1.size a ≤ S1x256x20.size a}
    {h0 : 0 < (Rect.unit (s := S1x256x20) off3 S1x1x1.size inb3).toLoadRect.shape.numel}
    {inbA : ∀ a, (![(Scalar.addi v1 (View.readAt (Elt F) arg3.view (Rect.unit (s := S1x256x20) off3 S1x1x1.size inb3).toLoadRect X3 (Shape.Idx.first h0))).toNat, 0] : Fin 2 → ℕ) a
      + S1x128.size a ≤ S2000000x128.size a}
    {hsA : ∀ a, (Rect.unit (s := S2000000x128) ![(Scalar.addi v1 (View.readAt (Elt F) arg3.view (Rect.unit (s := S1x256x20) off3 S1x1x1.size inb3).toLoadRect X3 (Shape.Idx.first h0))).toNat, 0] S1x128.size inbA).stride a = 1}
    {Lt : List (View.Piece (Elt F) S128 .f32)} [co : ClosedOff off3] {b : Fin 256} {l : Fin 20} {d : Fin 128}
    {hlt : (Scalar.addi v1 (arg3.view.read (Elt F) X3 (ix3 (0 : Fin 1) b l))).toNat < 2000000}
    (hform : co.form = ![0, b.val, l.val]) :
    View.readAt (Elt F) arg6.view (Rect.unit (s := S2x128) ![1, 0] S1x128.size inb_S2x128_S1x128_1_0).toLoadRect
      ((slot1 arg6).view.writes (Elt F) (slot1 arg6).view.junk
        (⟨Rect.whole S128, ReadAs.same.apply (View.read (Elt F)
          ((arg4.slice (Rect.unit (s := S2000000x128)
              ![(Scalar.addi v1 (View.readAt (Elt F) arg3.view (Rect.unit (s := S1x256x20) off3 S1x1x1.size inb3).toLoadRect X3 (Shape.Idx.first h0))).toNat, 0]
              S1x128.size inbA) hsA).squeeze S128 squeezes_S1x128_S128).view X4)⟩ :: Lt))
      (ix2 (0 : Fin 1) d)
    = arg4.view.read (Elt F) X4 (ix2 (⟨(Scalar.addi v1 (arg3.view.read (Elt F) X3 (ix3 (0 : Fin 1) b l))).toNat, hlt⟩ : Fin 2000000) d) := by
  have hw := word_read arg3 X3 off3 inb3 h0 b l (co.eq.trans hform)
  have hn : (Scalar.addi v1 (View.readAt (Elt F) arg3.view (Rect.unit (s := S1x256x20) off3 S1x1x1.size inb3).toLoadRect X3 (Shape.Idx.first h0))).toNat < 2000000 := by
    have := inbA ⟨0, by decide⟩
    have h1 : (Scalar.addi v1 (View.readAt (Elt F) arg3.view (Rect.unit (s := S1x256x20) off3 S1x1x1.size inb3).toLoadRect X3 (Shape.Idx.first h0))).toNat + 1 ≤ 2000000 := this
    omega
  rw [landed1]
  exact (tab_read arg4 X4 _ inbA hsA _ hn rfl d).trans
    (congrArg (fun n : Fin 2000000 => arg4.view.read (Elt F) X4 (ix2 n d)) (Fin.ext (congrArg (fun w => (Scalar.addi v1 w).toNat) hw)))

/-- The accumulator read back whole after such a list of stores. -/
theorem readCov_whole_eq (arg8 : Memref sig .tc .vmem S8x128 .f32) (L : List (View.Piece (Elt F) S8x128 .f32))
    (A : List (ℕ × (S1x128.Idx → Elt F .f32))) (hA : RowAcc arg8 L A) (r2 : Fin 8) (d : Fin 128) :
    arg8.view.readCov L (Rect.unit (s := S8x128) ![0, 0] S8x128.size inb_S8x128_S8x128_0_0).toLoadRect (ix2 r2 d)
      = rowVal A r2.val d := by
  rw [View.readCov_eq_canon']
  show View.canon L _ = _
  rw [← hA.canon_eq r2 d]
  congr 1
  funext a; apply Fin.ext
  match a with
  | ⟨0, _⟩ => show 0 + 1 * r2.val = r2.val; omega
  | ⟨1, _⟩ => show 0 + 1 * d.val = d.val; omega

theorem addf_congr {a a' b b' : Elt F .f32} (h1 : a = a') (h2 : b = b') :
    FloatOps.addf (F := F) a b = FloatOps.addf a' b' := by rw [h1, h2]

theorem finRange20 : List.finRange 20 = [0, 1, 2, 3, 4, 5, 6, 7, 8, 9, 10, 11, 12, 13, 14, 15, 16, 17, 18, 19] := by decide

/-- The partial sums of the fold in slot order: the zero word, then one slot's term added at a time. -/
def pre (g : Fin 20 → Elt F .f32) : ℕ → Elt F .f32
  | 0 => zeroW
  | n + 1 => FloatOps.addf (pre g n) (if h : n < 20 then g ⟨n, h⟩ else zeroW)

theorem accum_eq_pre (g : Fin 20 → Elt F .f32) : Cert.Pooled.accum (F := F) g = pre g 20 := by
  unfold Cert.Pooled.accum
  rw [finRange20]
  simp only [List.foldl_cons, List.foldl_nil, pre]
  rfl

/-- `RowIs r' d g A n`: the steps of `A` (newest first) that add to row `r'` are `n` in number and add, oldest
    first, `g 0, …, g (n - 1)` at column `d`. -/
inductive RowIs (r' : ℕ) (d : Fin 128) (g : Fin 20 → Elt F .f32) : List (ℕ × (S1x128.Idx → Elt F .f32)) → ℕ → Prop
  | nil : RowIs r' d g [] 0
  | skip (r : ℕ) (y : S1x128.Idx → Elt F .f32) (A : List (ℕ × (S1x128.Idx → Elt F .f32))) (n : ℕ) :
      r ≠ r' → RowIs r' d g A n → RowIs r' d g ((r, y) :: A) n
  | take (y : S1x128.Idx → Elt F .f32) (A : List (ℕ × (S1x128.Idx → Elt F .f32))) (n : ℕ) (hn : n < 20) :
      y (ix2 (0 : Fin 1) d) = g ⟨n, hn⟩ → RowIs r' d g A n → RowIs r' d g ((r', y) :: A) (n + 1)

theorem RowIs.rowVal_eq {r' : ℕ} {d : Fin 128} {g : Fin 20 → Elt F .f32} {A : List (ℕ × (S1x128.Idx → Elt F .f32))} {n : ℕ}
    (h : RowIs r' d g A n) : rowVal A r' d = pre g n := by
  induction h with
  | nil => rfl
  | skip r y A n hne _ ih =>
    unfold rowVal; rw [List.foldr_cons, if_neg hne]; exact ih
  | take y A n hn hy _ ih =>
    unfold rowVal; rw [List.foldr_cons, if_pos rfl]
    show FloatOps.addf (rowVal A r' d) (y (ix2 (0 : Fin 1) d)) = FloatOps.addf (pre g n) _
    rw [ih, hy, dif_pos hn]

set_option maxHeartbeats 0 in
/-- The steps a trip makes, found from its piece list: newest first, the row added to and the landed row added. -/
def accList (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) :
    { A // RowAcc arg8 (trip.sl.HD8_161 (F := F) arg3 arg4 arg6 arg8 v1 X3 X4 hrows k) A } := by
  refine ⟨?_, ?_⟩
  rotate_left
  repeat (first | exact RowAcc.zero (F := F) | (refine RowAcc.push (F := F) _ ?_ _ _ _ ?_; rotate_left))

/-- One landed row identified: through landing row 0 or landing row 1. -/
macro "landed_row" : tactic => `(tactic| first
  | (refine landed_tab0 ?_; rfl)
  | (refine landed_tab1 ?_; rfl))

/-- One step of the list read for a row: the end, a step on another row, or a step on this row. -/
macro "rowis_step" : tactic => `(tactic| first
  | exact RowIs.nil
  | refine RowIs.skip _ _ _ _ (by decide) ?_
  | refine RowIs.take _ _ _ (by decide) (by landed_row) ?_)

set_option maxHeartbeats 0 in
/-- Row 0 of the accumulator: its 20 steps add, in slot order, the table rows the index block's row `8k + 0` names. -/
theorem rowIs_0 (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) (d : Fin 128) (hk : k.val < 32) :
    RowIs 0 d (fun l : Fin 20 => arg4.view.read (Elt F) X4 (ix2 (⟨(Scalar.addi v1 (arg3.view.read (Elt F) X3
        (ix3 (0 : Fin 1) (⟨8 * k.val + 0, by omega⟩ : Fin 256) l))).toNat, rowlt arg3 v1 X3 hrows _⟩ : Fin 2000000) d))
      (accList (F := F) arg3 arg4 arg6 arg8 v1 X3 X4 hrows k).1 20 := by
  repeat rowis_step

set_option maxHeartbeats 0 in
/-- Row 1 of the accumulator: its 20 steps add, in slot order, the table rows the index block's row `8k + 1` names. -/
theorem rowIs_1 (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) (d : Fin 128) (hk : k.val < 32) :
    RowIs 1 d (fun l : Fin 20 => arg4.view.read (Elt F) X4 (ix2 (⟨(Scalar.addi v1 (arg3.view.read (Elt F) X3
        (ix3 (0 : Fin 1) (⟨8 * k.val + 1, by omega⟩ : Fin 256) l))).toNat, rowlt arg3 v1 X3 hrows _⟩ : Fin 2000000) d))
      (accList (F := F) arg3 arg4 arg6 arg8 v1 X3 X4 hrows k).1 20 := by
  repeat rowis_step

set_option maxHeartbeats 0 in
/-- Row 2 of the accumulator: its 20 steps add, in slot order, the table rows the index block's row `8k + 2` names. -/
theorem rowIs_2 (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) (d : Fin 128) (hk : k.val < 32) :
    RowIs 2 d (fun l : Fin 20 => arg4.view.read (Elt F) X4 (ix2 (⟨(Scalar.addi v1 (arg3.view.read (Elt F) X3
        (ix3 (0 : Fin 1) (⟨8 * k.val + 2, by omega⟩ : Fin 256) l))).toNat, rowlt arg3 v1 X3 hrows _⟩ : Fin 2000000) d))
      (accList (F := F) arg3 arg4 arg6 arg8 v1 X3 X4 hrows k).1 20 := by
  repeat rowis_step

set_option maxHeartbeats 0 in
/-- Row 3 of the accumulator: its 20 steps add, in slot order, the table rows the index block's row `8k + 3` names. -/
theorem rowIs_3 (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) (d : Fin 128) (hk : k.val < 32) :
    RowIs 3 d (fun l : Fin 20 => arg4.view.read (Elt F) X4 (ix2 (⟨(Scalar.addi v1 (arg3.view.read (Elt F) X3
        (ix3 (0 : Fin 1) (⟨8 * k.val + 3, by omega⟩ : Fin 256) l))).toNat, rowlt arg3 v1 X3 hrows _⟩ : Fin 2000000) d))
      (accList (F := F) arg3 arg4 arg6 arg8 v1 X3 X4 hrows k).1 20 := by
  repeat rowis_step

set_option maxHeartbeats 0 in
/-- Row 4 of the accumulator: its 20 steps add, in slot order, the table rows the index block's row `8k + 4` names. -/
theorem rowIs_4 (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) (d : Fin 128) (hk : k.val < 32) :
    RowIs 4 d (fun l : Fin 20 => arg4.view.read (Elt F) X4 (ix2 (⟨(Scalar.addi v1 (arg3.view.read (Elt F) X3
        (ix3 (0 : Fin 1) (⟨8 * k.val + 4, by omega⟩ : Fin 256) l))).toNat, rowlt arg3 v1 X3 hrows _⟩ : Fin 2000000) d))
      (accList (F := F) arg3 arg4 arg6 arg8 v1 X3 X4 hrows k).1 20 := by
  repeat rowis_step

set_option maxHeartbeats 0 in
/-- Row 5 of the accumulator: its 20 steps add, in slot order, the table rows the index block's row `8k + 5` names. -/
theorem rowIs_5 (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) (d : Fin 128) (hk : k.val < 32) :
    RowIs 5 d (fun l : Fin 20 => arg4.view.read (Elt F) X4 (ix2 (⟨(Scalar.addi v1 (arg3.view.read (Elt F) X3
        (ix3 (0 : Fin 1) (⟨8 * k.val + 5, by omega⟩ : Fin 256) l))).toNat, rowlt arg3 v1 X3 hrows _⟩ : Fin 2000000) d))
      (accList (F := F) arg3 arg4 arg6 arg8 v1 X3 X4 hrows k).1 20 := by
  repeat rowis_step

set_option maxHeartbeats 0 in
/-- Row 6 of the accumulator: its 20 steps add, in slot order, the table rows the index block's row `8k + 6` names. -/
theorem rowIs_6 (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) (d : Fin 128) (hk : k.val < 32) :
    RowIs 6 d (fun l : Fin 20 => arg4.view.read (Elt F) X4 (ix2 (⟨(Scalar.addi v1 (arg3.view.read (Elt F) X3
        (ix3 (0 : Fin 1) (⟨8 * k.val + 6, by omega⟩ : Fin 256) l))).toNat, rowlt arg3 v1 X3 hrows _⟩ : Fin 2000000) d))
      (accList (F := F) arg3 arg4 arg6 arg8 v1 X3 X4 hrows k).1 20 := by
  repeat rowis_step

set_option maxHeartbeats 0 in
/-- Row 7 of the accumulator: its 20 steps add, in slot order, the table rows the index block's row `8k + 7` names. -/
theorem rowIs_7 (arg3 : Memref sig .tc .smem S1x256x20 .i32) (arg4 : Memref sig .tc .hbm S2000000x128 .f32)
    (arg6 : Memref sig .tc .vmem S2x128 .f32) (arg8 : Memref sig .tc .vmem S8x128 .f32) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000)
    (k : Fin k0_t1_loop.trips) (d : Fin 128) (hk : k.val < 32) :
    RowIs 7 d (fun l : Fin 20 => arg4.view.read (Elt F) X4 (ix2 (⟨(Scalar.addi v1 (arg3.view.read (Elt F) X3
        (ix3 (0 : Fin 1) (⟨8 * k.val + 7, by omega⟩ : Fin 256) l))).toNat, rowlt arg3 v1 X3 hrows _⟩ : Fin 2000000) d))
      (accList (F := F) arg3 arg4 arg6 arg8 v1 X3 X4 hrows k).1 20 := by
  repeat rowis_step

set_option maxHeartbeats 0 in
/-- WHAT EACH TRIP STORES: one piece, the band of rows 8k … 8k + 7, whose payload at row `r`, column `d` is the zero
    word plus, in slot order, the 20 fetched rows' entries at `d`. -/
theorem trip_value (𝒱 : Variants) (c : Dev nD) (bd : Option 𝒱.V) (i : grid0.Coords) (arg2 : Memref sig .tc .smem S9 .i32) (harg2 : arg2.IsWhole) (arg3 : Memref sig .tc .smem S1x256x20 .i32) (harg3 : arg3.IsWhole) (arg4 : Memref sig .tc .hbm S2000000x128 .f32) (harg4 : arg4.IsWhole) (arg5 : Memref sig .tc .vmem S256x128 .f32) (harg5 : arg5.IsWhole) (arg6 : Memref sig .tc .vmem S2x128 .f32) (harg6 : arg6.IsWhole) (arg7 : DmaSems sig S2) (arg8 : Memref sig .tc .vmem S8x128 .f32) (harg8 : arg8.IsWhole) (v1 : Elt F .i32)
    (X3 : BufTy.Contents (Elt F) arg3.view.ty) (X4 : BufTy.Contents (Elt F) arg4.view.ty)
    (hrows : ∀ (R : LoadRect S1x256x20) (j : R.shape.Idx), (Scalar.addi v1 (View.readAt (Elt F) arg3.view R X3 j)).toNat < 2000000) :
    TripValueAt (F := F) 𝒱 c bd i arg2 harg2 arg3 harg3 arg4 harg4 arg5 harg5 arg6 harg6 arg7 arg8 harg8 v1 X3 X4 hrows := by
  intro k
  have hk : k.val < 32 := Nat.lt_of_lt_of_le k.isLt k0_t1_abs.2.1
  refine ⟨trip.sl.v3530 (F := F) arg3 arg4 arg6 arg8 v1 X3 X4 hrows k, rfl, ?_⟩
  intro r2 d
  refine (readCov_whole_eq arg8 _ _ (accList (F := F) arg3 arg4 arg6 arg8 v1 X3 X4 hrows k).2 r2 d).trans ?_
  rw [accum_eq_pre]
  match r2 with
  | ⟨0, _⟩ => exact (rowIs_0 arg3 arg4 arg6 arg8 v1 X3 X4 hrows k d hk).rowVal_eq
  | ⟨1, _⟩ => exact (rowIs_1 arg3 arg4 arg6 arg8 v1 X3 X4 hrows k d hk).rowVal_eq
  | ⟨2, _⟩ => exact (rowIs_2 arg3 arg4 arg6 arg8 v1 X3 X4 hrows k d hk).rowVal_eq
  | ⟨3, _⟩ => exact (rowIs_3 arg3 arg4 arg6 arg8 v1 X3 X4 hrows k d hk).rowVal_eq
  | ⟨4, _⟩ => exact (rowIs_4 arg3 arg4 arg6 arg8 v1 X3 X4 hrows k d hk).rowVal_eq
  | ⟨5, _⟩ => exact (rowIs_5 arg3 arg4 arg6 arg8 v1 X3 X4 hrows k d hk).rowVal_eq
  | ⟨6, _⟩ => exact (rowIs_6 arg3 arg4 arg6 arg8 v1 X3 X4 hrows k d hk).rowVal_eq
  | ⟨7, _⟩ => exact (rowIs_7 arg3 arg4 arg6 arg8 v1 X3 X4 hrows k d hk).rowVal_eq
  | ⟨n + 8, h⟩ => exact absurd h (by omega)

end Cert.KernelIdeal.Hand
end
-- ==== Proof.KI.Body.lean ====
/-
  The body obligation of the pipeline: at every grid point the kernel function, handed the invariant (the scratch, its
  two semaphore cells at zero, the table of rows whole, the offsets' table at half share), the staged index block and
  the output block's buffer at anything, returns the same with the output block's buffer holding block `t` of the
  pooled result. The landing buffer is split into its two rows on the way in and put back on the way out.
-/
import proofs.«429106_j80058190397553_1_alg».proof.Proof.KI.Kernel
import proofs.«429106_j80058190397553_1_alg».proof.Proof.KI.Dats
import proofs.«429106_j80058190397553_1_alg».proof.Proof.KI.BlockValue
import proofs.«429106_j80058190397553_1_alg».proof.Proof.KI.PointFacts
import proofs.«429106_j80058190397553_1_alg».proof.Proof.KI.TripValue

set_option maxRecDepth 65536
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hrows : ∀ c : Dev nD, Cert.Pooled.RowsOk (idxA m c) (offA m c))

/-- The staging buffers the body is called with at point `t`. -/
abbrev stg0 (t : Fin (Pipeline.pin pcfgs (adm m) 0).N) : Memref sig .tc .smem S1x256x20 .i32 :=
  ((Pipeline.pin pcfgs (adm m) 0).win (0 : Fin 2)).stage ((Pipeline.pin pcfgs (adm m) 0).slots t (0 : Fin 2))
abbrev stg1 (t : Fin (Pipeline.pin pcfgs (adm m) 0).N) : Memref sig .tc .vmem S256x128 .f32 :=
  ((Pipeline.pin pcfgs (adm m) 0).win (1 : Fin 2)).stage ((Pipeline.pin pcfgs (adm m) 0).slots t (1 : Fin 2))

/-- What the body is called with at point `t`, -/
def bodyPre (c : Dev nD) (t : Fin (Pipeline.pin pcfgs (adm m) 0).N) : sProp 𝕄 :=
  iprop((dats m hrows 0 c).Φ t.castSucc ∗ (dats m hrows 0 c).owesAt () t.castSucc
    ∗ (∃ d, owns (c : Thread nD τ) (stg0 m t) fullShare ((dats m hrows 0 c).before (0 : Fin 2) t d))
    ∗ (∃ d, owns (c : Thread nD τ) (stg1 m t) fullShare ((dats m hrows 0 c).before (1 : Fin 2) t d)))

/-- and what it returns. -/
def bodyPost (c : Dev nD) (t : Fin (Pipeline.pin pcfgs (adm m) 0).N) : sProp 𝕄 :=
  iprop((dats m hrows 0 c).Φ t.succ ∗ (dats m hrows 0 c).owesAt () t.succ
    ∗ owns (c : Thread nD τ) (stg0 m t) fullShare ((dats m hrows 0 c).after (0 : Fin 2) t)
    ∗ owns (c : Thread nD τ) (stg1 m t) fullShare ((dats m hrows 0 c).after (1 : Fin 2) t))

/-! ### The landing buffer's two rows -/

theorem mem_row0 (y : S2x128.Idx) : y ∈ (Rect.unit (s := S2x128) ![0, 0] S1x128.size inb_S2x128_S1x128_0_0).set ↔ (y 0).val = 0 := by
  rw [Rect.mem_set_unit]
  have h1 : (y 1).val < 128 := (y 1).isLt
  constructor
  · intro H; have h0 : 0 ≤ (y 0).val ∧ (y 0).val < 0 + 1 := H 0; omega
  · intro H a; fin_cases a
    · show 0 ≤ (y 0).val ∧ (y 0).val < 0 + 1; omega
    · show 0 ≤ (y 1).val ∧ (y 1).val < 0 + 128; omega

theorem mem_row1 (y : S2x128.Idx) : y ∈ (Rect.unit (s := S2x128) ![1, 0] S1x128.size inb_S2x128_S1x128_1_0).set ↔ (y 0).val = 1 := by
  rw [Rect.mem_set_unit]
  have h1 : (y 1).val < 128 := (y 1).isLt
  constructor
  · intro H; have h0 : 1 ≤ (y 0).val ∧ (y 0).val < 1 + 1 := H 0; omega
  · intro H a; fin_cases a
    · show 1 ≤ (y 0).val ∧ (y 0).val < 1 + 1; omega
    · show 0 ≤ (y 1).val ∧ (y 1).val < 0 + 128; omega

theorem slot0_set : (slot0 (Memref.whole cc0_scratch0)).view.set = (Rect.unit (s := S2x128) ![0, 0] S1x128.size inb_S2x128_S1x128_0_0).set := by
  show (((View.whole cc0_scratch0).slice _).reshape S128 _).set = _
  rw [View.set_reshape, View.set_slice_whole]

theorem slot1_set : (slot1 (Memref.whole cc0_scratch0)).view.set = (Rect.unit (s := S2x128) ![1, 0] S1x128.size inb_S2x128_S1x128_1_0).set := by
  show (((View.whole cc0_scratch0).slice _).reshape S128 _).set = _
  rw [View.set_reshape, View.set_slice_whole]

/-- The second row is everything but the first. -/
theorem slot1_compl : (slot1 (Memref.whole cc0_scratch0)).view.set = Finset.univ \ (slot0 (Memref.whole cc0_scratch0)).view.set := by
  ext y
  rw [Finset.mem_sdiff, slot0_set, slot1_set, mem_row0, mem_row1]
  have : (y 0).val < 2 := (y 0).isLt
  simp only [Finset.mem_univ, true_and]
  omega

/-- The landing buffer whole is its two rows, each held by its own elements. -/
theorem slots_split (c : Dev nD) (f : Buf (Elt F) ((c : Thread nD τ).loc cc0_scratch0)) :
    (((c : Thread nD τ).loc cc0_scratch0) ↦{fullShare} f : sProp 𝕄)
      ⊣⊢ iprop(((slot0 (Memref.whole cc0_scratch0)).view.loc (c : Thread nD τ) ↦[(slot0 (Memref.whole cc0_scratch0)).view.set]{fullShare} f)
          ∗ ((slot1 (Memref.whole cc0_scratch0)).view.loc (c : Thread nD τ) ↦[(slot1 (Memref.whole cc0_scratch0)).view.set]{fullShare} f)) := by
  rw [slot1_compl]
  exact pointsTo_split_subset (Finset.subset_univ _)

/-- … and back, whatever each row holds. -/
theorem slots_join (c : Dev nD) (f g : Buf (Elt F) ((c : Thread nD τ).loc cc0_scratch0)) :
    iprop(((slot0 (Memref.whole cc0_scratch0)).view.loc (c : Thread nD τ) ↦[(slot0 (Memref.whole cc0_scratch0)).view.set]{fullShare} f)
          ∗ ((slot1 (Memref.whole cc0_scratch0)).view.loc (c : Thread nD τ) ↦[(slot1 (Memref.whole cc0_scratch0)).view.set]{fullShare} g))
      ⊢ (iprop(∃ h, ((c : Thread nD τ).loc cc0_scratch0) ↦{fullShare} h) : sProp 𝕄) := by
  rw [slot1_compl]
  refine (pointsTo_join Finset.disjoint_sdiff).trans ?_
  rw [Finset.union_sdiff_of_subset (Finset.subset_univ _)]
  iintro H; iexists _; iexact H

/-- The kernel function as the pipeline calls it at point `t`. -/
abbrev bodyAt (t : Fin (Pipeline.pin pcfgs (adm m) 0).N) : Prog (TpuEff nD τ sig (Elt F) Λ₀ .tc) PUnit :=
  cc0__gather_kernel (F := F) (grid0.coords t) (Memref.whole main_arg2) (Memref.isWhole_whole _) (stg0 m t) (stage_whole0 (0 : Fin 2) _)
    (Memref.whole main_arg1) (Memref.isWhole_whole _) (stg1 m t) (stage_whole0 (1 : Fin 2) _)
    (Memref.whole cc0_scratch0) (Memref.isWhole_whole _) cc0_scratch1 (Memref.whole cc0_scratch2) (Memref.isWhole_whole _)

theorem sound_body (c : Dev nD) (t : Fin (Pipeline.pin pcfgs (adm m) 0).N) :
    bodyPre m hrows c t ⊢ wp frame (wpE (defs₀ (F := F)) Variants.none c none) Set.univ (bodyAt m t) (fun _ => bodyPost m hrows c t) := by
  unfold bodyPre bodyPost
  simp only [before0_0]
  rw [Phi_eq, Phi_eq, PhiD0_eq, PhiT0_eq]
  unfold Dat.owesAt Pipeline.owesWithin
  rw [owed_eq, owed_eq]
  iintro ⟨⟨⟨⟨⟨%f6, HS0⟩, ⟨%f8, HS2⟩⟩, Hg, ⟨Hq0, Hq1⟩, Hh1⟩, HT⟩, ⟨%W, -, HW⟩, ⟨%d0, H0⟩, ⟨%d1, H1⟩⟩
  unfold owns
  icases H0 with ⟨%f3, %hf3, H0⟩
  icases H1 with ⟨%f5, %hf5, H1⟩
  ihave HS0' := (slots_split (F := F) c f6).1 $$ HS0
  icases HS0' with ⟨HD60, HD61⟩
  have hr := rows_at_point (F := F) m hrows c t (stg0 m t) f3 hf3
  iapply (wp_wand_r Idealize.ShloMosaic.frame (wpE (defs₀ (F := F)) Variants.none (c : Thread nD τ) none) Set.univ)
  isplitl [HT H0 Hh1 Hq0 Hq1 H1 HD60 HD61 HS2 HW]
  · iapply (kernelRun (F := F) c (grid0.coords t) (Memref.whole main_arg2) (Memref.isWhole_whole _) (stg0 m t) (stage_whole0 (0 : Fin 2) _)
      (Memref.whole main_arg1) (Memref.isWhole_whole _) (stg1 m t) (stage_whole0 (1 : Fin 2) _)
      (Memref.whole cc0_scratch0) (Memref.isWhole_whole _) cc0_scratch1 (Memref.whole cc0_scratch2) (Memref.isWhole_whole _)
      fullShare.right ((adm m 0).1 0) f3 (V m c main_arg1) hr f5)
    isplitl [HT]; · iexact HT
    isplitl [H0 Hh1 Hq0 Hq1]
    · isplitl [H0]; · iexact H0
      isplitl [Hh1]; · iexact Hh1
      isplitl [Hq0]; · iexact Hq0
      iexact Hq1
    isplitl [H1]; · iexact H1
    isplitl [HD60]; · iexists _; iexact HD60
    isplitl [HD61]; · iexists _; iexact HD61
    isplitl [HS2]; · iexists _; iexact HS2
    iexists _; iexact HW
  · iintro %_ ⟨HT, ⟨H0, Hh1, Hq0, Hq1⟩, ⟨%f5', H1, %h5'⟩, ⟨%g60, HD60⟩, ⟨%g61, HD61⟩, ⟨%g8, HS2⟩, ⟨%W', HW⟩⟩
    isplitl [HD60 HD61 HS2 Hg Hq0 Hq1 Hh1 HT]
    · isplitl [HD60 HD61 HS2 Hg Hq0 Hq1 Hh1]
      · isplitl [HD60 HD61 HS2]
        · isplitl [HD60 HD61]
          · iapply (slots_join (F := F) c g60 g61)
            isplitl [HD60]; · iexact HD60
            iexact HD61
          · iexists _; iexact HS2
        isplitl [Hg]; · iexact Hg
        isplitl [Hq0 Hq1]
        · isplitl [Hq0]; · iexact Hq0
          iexact Hq1
        iexact Hh1
      iexact HT
    isplitl [HW]
    · iexists W'; isplitr; · ipureintro; exact fun _ _ => Or.inl trivial
      iexact HW
    isplitl [H0]
    · iexists f3; isplitr; · ipureintro; exact hf3
      iexact H0
    iexists _; isplitr
    swap; · iexact H1
    ipureintro
    rw [h5']
    funext j
    obtain ⟨y, d, rfl⟩ : ∃ (y : Fin 256) (d : Fin 128), j = ValueIdx.ix2 y d := ⟨j 0, j 1, ValueIdx.eq_ix2 j⟩
    rw [block_value (F := F) Variants.none c none (grid0.coords t) (Memref.whole main_arg2) (Memref.isWhole_whole _) (stg0 m t) (stage_whole0 (0 : Fin 2) _)
      (Memref.whole main_arg1) (Memref.isWhole_whole _) (stg1 m t) (stage_whole0 (1 : Fin 2) _)
      (Memref.whole cc0_scratch0) (Memref.isWhole_whole _) cc0_scratch1 (Memref.whole cc0_scratch2) (Memref.isWhole_whole _)
      (word1 (F := F) (grid0.coords t) (Memref.whole main_arg2) ((adm m 0).1 0)) f3 (V m c main_arg1) hr (trip_value (F := F) _ _ _ _ _ _ _ _ _ _ _ _ _ _ _ _ _ _ _ _ _) f5 y d]
    exact accum_point (F := F) m hrows c t (stg0 m t) f3 hf3 hr y d

theorem body_obligation (c : Dev nD) : BodyObligation (dats (F := F) m hrows 0 c) (defs₀ (F := F)) Variants.none () Set.univ := fun t => by
  rw [bigSep_W0, bigSep_W0]
  exact sound_body m hrows c t

end Cert.KernelIdeal.Hand

end
-- ==== Proof.KI.Claims.lean ====
/-
  The run of the whole program with its result array named: every weakly fair execution terminates with the result
  holding the pooled sums (the fold in slot order, at any reading of the floats) and the three arguments unchanged —
  from any launch memory whose fetched rows all lie in the table.
-/
import proofs.«429106_j80058190397553_1_alg».proof.Proof.KI.Body
import proofs.«429106_j80058190397553_1_alg».proof.Proof.KI.Launch

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ) (ρ : Dev nD → PrngReg)
variable (hrows : ∀ c : Dev nD, Cert.Pooled.RowsOk (idxA m c) (offA m c))

/-- The pipeline's run: every array at what the proof data give. -/
theorem run_main : θ_run defs (onTc (τ := τ) (main (F := F))) (s₀ m ρ) (Pipeline.FramePost (Pipeline.pin pcfgs (adm m)) (dats m hrows) 0 (V m)) :=
  run_main_of m ρ (dats m hrows) (A_eq m hrows) (q_eq m hrows) (owed_eq m hrows) (Phi_eq m hrows) (body_obligation m hrows)

/-- The result array ends at the pooled sums, the arguments as they were. -/
theorem run_value : θ_run defs (onTc (τ := τ) (main (F := F))) ⟨m, fun _ => 0, ρ⟩ (fun r => ∀ c : Dev nD,
      r.2.mem ((c.tc : Thread nD τ).loc main_v0) = Gbuf m hrows c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final m hrows c), (h c).2⟩)
    (frame_of m ρ (dats m hrows) (A_eq m hrows) (run_main m ρ hrows))

end Cert.KernelIdeal.Hand

end
-- ==== Proof.lean ====
/-
  The certificate of a pooled embedding lookup: for each of 8 features and 8192 samples, the 20 rows of a
  2 000 000 × 128 table chosen by an index array (each local row number shifted by its feature's offset) are summed,
  and the sums are laid out sample-major with the features side by side.

  The kernel walks a grid of 8 features × 32 blocks of 256 samples; at each point it reads the feature's offset from a
  prefetched table, and in 32 trips of 8 samples fetches the 160 rows of a trip one by one from the table left in HBM
  into a two-row landing buffer (the next fetch in flight while the landed row is added), accumulating each sample's
  20 rows in slot order. The reference gathers all rows at once and sums them.

  Under the precondition — every float finite, and every fetched row number, the 32-bit sum of offset and local row
  read as a signed word, inside the table — both programs run to the end without a fault, leave their arguments
  unchanged, and at the extended reals give the same result: the kernel's fold in slot order is the reference's sum,
  addition there being associative and commutative. The idealization rewrote nothing, so `preserves` is trivial.

  `Spec.lean` / `SpecF.lean` state the result; `PreRows.lean` reads the row range off the precondition;
  `RefValue.lean` reads the reference's result; the modules under `KI` (and their word-level copies under `K`)
  run the kernel: one trip, the loop, the body at a grid point, the launch, and the blocks put together.
-/
import proofs.«429106_j80058190397553_1_alg».proof.Defs
import proofs.«429106_j80058190397553_1_alg».proof.Proof.Gen.Kernel
import proofs.«429106_j80058190397553_1_alg».proof.Proof.Gen.KernelIdeal
import proofs.«429106_j80058190397553_1_alg».proof.Proof.Gen.ReferenceIdeal
import proofs.«429106_j80058190397553_1_alg».proof.Proof.Gen.Pre_finite_inputs
import proofs.«429106_j80058190397553_1_alg».proof.Proof.Gen.ReferenceIdeal.Run
import proofs.«429106_j80058190397553_1_alg».proof.Proof.Gen.ReferenceIdeal.Read
import proofs.«429106_j80058190397553_1_alg».proof.Proof.PreRows
import proofs.«429106_j80058190397553_1_alg».proof.Proof.RefValue
import proofs.«429106_j80058190397553_1_alg».proof.Proof.SpecF
import proofs.«429106_j80058190397553_1_alg».proof.Proof.K.Claims
import proofs.«429106_j80058190397553_1_alg».proof.Proof.KI.Claims

noncomputable section

namespace Cert.Proof

open Idealize.ShloMosaic Idealize.ShloMosaic.TcCoe Idealize.SL.Sem

/-- Under the precondition every row the word-level program fetches lies in the table, -/
theorem rows_k (m : (ℓ : Loc Cert.Kernel.nD Cert.Kernel.τ Cert.Kernel.sig) → Buf (Elt Bits) ℓ) (h : Cert.Pre_Kernel m) :
    ∀ c : Dev Cert.Kernel.nD, Cert.Pooled.RowsOk (Cert.Kernel.Hand.idxA m c) (Cert.Kernel.Hand.offA m c) :=
  fun c => Cert.Pooled.rowsOk_of_pre (F := Bits) _ _ _ (h c)

/-- and every row the idealized program fetches. -/
theorem rows_ki (m : (ℓ : Loc Cert.KernelIdeal.nD Cert.KernelIdeal.τ Cert.KernelIdeal.sig) → Buf (Elt Ideal) ℓ) (h : Cert.Pre_KernelIdeal m) :
    ∀ c : Dev Cert.KernelIdeal.nD, Cert.Pooled.RowsOk (Cert.KernelIdeal.Hand.idxA m c) (Cert.KernelIdeal.Hand.offA m c) :=
  fun c => Cert.Pooled.rowsOk_of_pre (F := Ideal) _ _ _ (h c)

theorem frame_k : Cert.frame_Kernel := fun m ρ h =>
  (θ_run (Cert.Kernel.defs (F := Bits)) _ _).mono (fun _ hr c => (hr c).2) (Cert.Kernel.Hand.run_value m ρ (rows_k m h))

theorem frame_ki : Cert.frame_KernelIdeal := fun m ρ h =>
  (θ_run (Cert.KernelIdeal.defs (F := Ideal)) _ _).mono (fun _ hr c => (hr c).2) (Cert.KernelIdeal.Hand.run_value m ρ (rows_ki m h))

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel's result is the fold in slot order of the fetched rows, the reference's their sum:
    the same array. -/
theorem algebraic : Cert.algebraic_KernelIdeal_ReferenceIdeal := by
  intro m ρ m' ρ' hpre hagree
  have hr := rows_ki m hpre
  refine ⟨fun c => Cert.KernelIdeal.Hand.Gbuf m hr c, Cert.KernelIdeal.Hand.run_value m ρ hr, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v13 (F := Ideal) _ _ _ = _
  rw [(hagree c).1, (hagree c).2.1, (hagree c).2.2]
  unfold Cert.KernelIdeal.Hand.Gbuf
  exact (Cert.ReferenceIdeal.RefValue.ref_eq_G _ _ _ (hr c)).trans (Cert.Pooled.GF_ideal _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
